-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v235) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S2x200000 : Shape := ⟨2, ![2, 200000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part6 {F : FTy → Type} [FloatOps F] (main_v98 : IVec S_ 1) (main_v101 : IVec S384 1) (main_c_39 : IVec S_ 1) : IVec S_ 1 :=
  let main_v102 : IVec S_ 1 := (fun x v => Host.reduce IntOp.andi x v reducesTo_S384_S_d0 h_S_) main_v101 main_c_39
  let main_v103 : IVec S_ 1 := andi main_v98 main_v102
  main_v103

def fn_part5 {F : FTy → Type} [FloatOps F] (main_arg20 : FVec F S384x128 .f32) (main_arg21 : FVec F S384 .f32) (main_arg22 : FVec F S384 .f32) (main_v83 : IVec S_ 1) (main_v84 : FVec F S384x128 .f32) (main_cst_32 : FVec F S_ .f32) : IVec S_ 1 :=
  let main_v85 : FVec F S384x128 .f32 := broadcastInDim S384x128 ![] bcast_S_S384x128 main_cst_32
  let main_v86 : IVec S384x128 1 := cmpf .olt main_v84 main_v85
  let main_c_33 : IVec S_ 1 := constantI S_ 1 1#1
  let main_v87 : IVec S_ 1 := (fun x v => Host.reduce IntOp.andi x v reducesTo_S384x128_S_d0_1 h_S_) main_v86 main_c_33
  let main_v88 : IVec S_ 1 := andi main_v83 main_v87
  let main_v89 : FVec F S384x128 .f32 := Host.absf main_arg20
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S384 .f32 := Host.absf main_arg21
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S384 .f32 := Host.absf main_arg22
  let main_cst_38 : FVec F S_ .f32 := constant S_ .f32 0x7F800000#32
  let main_v100 : FVec F S384 .f32 := broadcastInDim S384 ![] bcast_S_S384 main_cst_38
  let main_v101 : IVec S384 1 := cmpf .olt main_v99 main_v100
  let main_c_39 : IVec S_ 1 := constantI S_ 1 1#1
  fn_part6 (F := F) main_v98 main_v101 main_c_39

def fn_part4 {F : FTy → Type} [FloatOps F] (main_arg16 : FVec F S384x128 .f32) (main_arg17 : FVec F S384 .f32) (main_arg18 : FVec F S384 .f32) (main_arg19 : FVec F S384x128 .f32) (main_arg20 : FVec F S384x128 .f32) (main_arg21 : FVec F S384 .f32) (main_arg22 : FVec F S384 .f32) (main_v63 : IVec S_ 1) (main_v67 : IVec S_ 1) : IVec S_ 1 :=
  let main_v68 : IVec S_ 1 := andi main_v63 main_v67
  let main_v69 : FVec F S384x128 .f32 := Host.absf main_arg16
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S384 .f32 := Host.absf main_arg17
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S384 .f32 := Host.absf main_arg18
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  let main_v84 : FVec F S384x128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S2x128 .f32) (main_arg14 : FVec F S2 .f32) (main_arg15 : FVec F S384x128 .f32) (main_arg16 : FVec F S384x128 .f32) (main_arg17 : FVec F S384 .f32) (main_arg18 : FVec F S384 .f32) (main_arg19 : FVec F S384x128 .f32) (main_arg20 : FVec F S384x128 .f32) (main_arg21 : FVec F S384 .f32) (main_arg22 : FVec F S384 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S384x128 .f32 := Host.absf main_arg15
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S2x128 .f32) (main_arg14 : FVec F S2 .f32) (main_arg15 : FVec F S384x128 .f32) (main_arg16 : FVec F S384x128 .f32) (main_arg17 : FVec F S384 .f32) (main_arg18 : FVec F S384 .f32) (main_arg19 : FVec F S384x128 .f32) (main_arg20 : FVec F S384x128 .f32) (main_arg21 : FVec F S384 .f32) (main_arg22 : FVec F S384 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S2x128 .f32) (main_arg14 : FVec F S2 .f32) (main_arg15 : FVec F S384x128 .f32) (main_arg16 : FVec F S384x128 .f32) (main_arg17 : FVec F S384 .f32) (main_arg18 : FVec F S384 .f32) (main_arg19 : FVec F S384x128 .f32) (main_arg20 : FVec F S384x128 .f32) (main_arg21 : FVec F S384 .f32) (main_arg22 : FVec F S384 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x600000 32) (main_arg2 : IVec S2x200000 32) (main_arg3 : FVec F S100000x128 .f32) (main_arg4 : FVec F S100000x128 .f32) (main_arg5 : FVec F S256x128 .f32) (main_arg6 : FVec F S256 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S2x128 .f32) (main_arg14 : FVec F S2 .f32) (main_arg15 : FVec F S384x128 .f32) (main_arg16 : FVec F S384x128 .f32) (main_arg17 : FVec F S384 .f32) (main_arg18 : FVec F S384 .f32) (main_arg19 : FVec F S384x128 .f32) (main_arg20 : FVec F S384x128 .f32) (main_arg21 : FVec F S384 .f32) (main_arg22 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x600000 : Shape := ⟨2, ![2, 600000]⟩
abbrev S2x200000 : Shape := ⟨2, ![2, 200000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S128x384 : Shape := ⟨2, ![128, 384]⟩
abbrev S1x1 : Shape := ⟨2, ![1, 1]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩
abbrev S2000x384 : Shape := ⟨2, ![2000, 384]⟩
abbrev S1x384 : Shape := ⟨2, ![1, 384]⟩
abbrev S700000x128 : Shape := ⟨2, ![700000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S2000x1 : Shape := ⟨2, ![2000, 1]⟩
abbrev S2000 : Shape := ⟨1, ![2000]⟩

abbrev nBuf : Space → Nat
  | .hbm => 137
  | .vmem => 54
  | .smem => 0
  | _ => 0

abbrev hbmTy0_0 (i : Nat) : BufTy := match i % 128 with
  | 0 => ⟨S100000x128, .f32⟩
  | 1 => ⟨S2x600000, .i32⟩
  | 2 => ⟨S2x200000, .i32⟩
  | 3 => ⟨S100000x128, .f32⟩
  | 4 => ⟨S100000x128, .f32⟩
  | 5 => ⟨S256x128, .f32⟩
  | 6 => ⟨S256, .f32⟩
  | 7 => ⟨S128x256, .f32⟩
  | 8 => ⟨S128, .f32⟩
  | 9 => ⟨S128x128, .f32⟩
  | 10 => ⟨S128, .f32⟩
  | 11 => ⟨S128x128, .f32⟩
  | 12 => ⟨S128, .f32⟩
  | 13 => ⟨S2x128, .f32⟩
  | 14 => ⟨S2, .f32⟩
  | 15 => ⟨S384x128, .f32⟩
  | 16 => ⟨S384x128, .f32⟩
  | 17 => ⟨S384, .f32⟩
  | 18 => ⟨S384, .f32⟩
  | 19 => ⟨S384x128, .f32⟩
  | 20 => ⟨S384x128, .f32⟩
  | 21 => ⟨S384, .f32⟩
  | 22 => ⟨S384, .f32⟩
  | 23 => ⟨S1x600000, .i32⟩
  | 24 => ⟨S600000, .i32⟩
  | 25 => ⟨S1x600000, .i32⟩
  | 26 => ⟨S600000, .i32⟩
  | 27 => ⟨S100000, .i32⟩
  | 28 => ⟨S700000, .i32⟩
  | 29 => ⟨S700000, .i32⟩
  | 30 => ⟨S_, .f32⟩
  | 31 => ⟨S700000, .f32⟩
  | 32 => ⟨S_, .f32⟩
  | 33 => ⟨S100000, .f32⟩
  | 34 => ⟨S700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S_, .i32⟩
  | 54 => ⟨S700000, .i32⟩
  | 55 => ⟨S700000, .i1⟩
  | 56 => ⟨S_, .i32⟩
  | 57 => ⟨S700000, .i32⟩
  | 58 => ⟨S700000, .i32⟩
  | 59 => ⟨S700000, .i32⟩
  | 60 => ⟨S700000x1, .i32⟩
  | 61 => ⟨S700000, .f32⟩
  | 62 => ⟨S700000, .f32⟩
  | 63 => ⟨S128x256, .f32⟩
  | 64 => ⟨S256x128, .f32⟩
  | 65 => ⟨S128x384, .f32⟩
  | 66 => ⟨S128x384, .f32⟩
  | 67 => ⟨S128x384, .f32⟩
  | 68 => ⟨S128x384, .f32⟩
  | 69 => ⟨S128x128, .f32⟩
  | 70 => ⟨S128x128, .f32⟩
  | 71 => ⟨S_, .f32⟩
  | 72 => ⟨S128, .f32⟩
  | 73 => ⟨S_, .f32⟩
  | 74 => ⟨S_, .f32⟩
  | 75 => ⟨S1x1, .f32⟩
  | 76 => ⟨S100000x128, .f32⟩
  | 77 => ⟨S100000x128, .f32⟩
  | 78 => ⟨S_, .i32⟩
  | 79 => ⟨S700000, .i32⟩
  | 80 => ⟨S700000, .i1⟩
  | 81 => ⟨S_, .i32⟩
  | 82 => ⟨S700000, .i32⟩
  | 83 => ⟨S700000, .i32⟩
  | 84 => ⟨S700000, .i32⟩
  | 85 => ⟨S700000x1, .i32⟩
  | 86 => ⟨S700000x128, .f32⟩
  | 87 => ⟨S700000x1, .f32⟩
  | 88 => ⟨S700000x128, .f32⟩
  | 89 => ⟨S700000x128, .f32⟩
  | 90 => ⟨S_, .f32⟩
  | 91 => ⟨S100000x128, .f32⟩
  | 92 => ⟨S700000x1, .i32⟩
  | 93 => ⟨S100000x128, .f32⟩
  | 94 => ⟨S100000x128, .f32⟩
  | 95 => ⟨S100000x128, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000x128, .f32⟩
  | 105 => ⟨S700000x1, .f32⟩
  | 106 => ⟨S700000x128, .f32⟩
  | 107 => ⟨S700000x128, .f32⟩
  | 108 => ⟨S_, .f32⟩
  | 109 => ⟨S100000x128, .f32⟩
  | 110 => ⟨S700000x1, .i32⟩
  | 111 => ⟨S100000x128, .f32⟩
  | 112 => ⟨S100000x128, .f32⟩
  | 113 => ⟨S1x200000, .i32⟩
  | 114 => ⟨S200000, .i32⟩
  | 115 => ⟨S1x200000, .i32⟩
  | 116 => ⟨S200000, .i32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x128, .f32⟩
  | 126 => ⟨S_, .i32⟩
  | 127 => ⟨S200000, .i32⟩
  | _ => ⟨S100000x128, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000x128, .f32⟩
  | 7 => ⟨S200000x1, .f32⟩
  | 8 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x384, .f32⟩
  | .local _ .vmem, ⟨9, _⟩ => ⟨S128x384, .f32⟩
  | .local _ .vmem, ⟨10, _⟩ => ⟨S384, .f32⟩
  | .local _ .vmem, ⟨11, _⟩ => ⟨S384, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S128x384, .f32⟩
  | .local _ .vmem, ⟨25, _⟩ => ⟨S128x384, .f32⟩
  | .local _ .vmem, ⟨26, _⟩ => ⟨S384, .f32⟩
  | .local _ .vmem, ⟨27, _⟩ => ⟨S384, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S128x384, .f32⟩
  | .local _ .vmem, ⟨41, _⟩ => ⟨S128x384, .f32⟩
  | .local _ .vmem, ⟨42, _⟩ => ⟨S384, .f32⟩
  | .local _ .vmem, ⟨43, _⟩ => ⟨S384, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128, .f32⟩
  | .local _ .vmem, ⟨51, _⟩ => ⟨S1x1, .f32⟩
  | .local _ .vmem, ⟨52, _⟩ => ⟨S2000x1, .f32⟩
  | .local _ .vmem, ⟨53, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_c : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_8 : Ref sig .tc := ⟨.hbm, 78, rfl⟩
abbrev main_v43 : Ref sig .tc := ⟨.hbm, 79, rfl⟩
abbrev main_v44 : Ref sig .tc := ⟨.hbm, 80, rfl⟩
abbrev main_c_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_10 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_11 : Ref sig .tc := ⟨.hbm, 96, rfl⟩
abbrev main_v58 : Ref sig .tc := ⟨.hbm, 97, rfl⟩
abbrev main_v59 : Ref sig .tc := ⟨.hbm, 98, rfl⟩
abbrev main_c_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_14 : Ref sig .tc := ⟨.hbm, 117, rfl⟩
abbrev main_v76 : Ref sig .tc := ⟨.hbm, 118, rfl⟩
abbrev main_v77 : Ref sig .tc := ⟨.hbm, 119, rfl⟩
abbrev main_c_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_16 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S384 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  transposes_S256x128_S128x256_1_0 : S256x128.Transposes [1, 0] S128x256
  transposes_S128x256_S256x128_1_0 : S128x256.Transposes [1, 0] S256x128
  transposes_S384x128_S128x384_1_0 : S384x128.Transposes [1, 0] S128x384
  transposes_S128x128_S128x128_1_0 : S128x128.Transposes [1, 0] S128x128
  reducesTo_S2x128_S128_d0 : S2x128.ReducesTo [0] S128
  h_S_ : 0 < S_.numel
  reducesTo_S2_S_d0 : S2.ReducesTo [0] S_
  shapeCasts_S_S1x1 : S_.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  shapeCasts_S128_S128 : S128.ShapeCasts S128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x384_S2000x384_1_0_0_1_n_n_wf : DotDims.WF S2000x128 S128x384 S2000x384 [1] [0] [0] [1] [] []
  dot_S2000x128_S128x128_S2000x128_1_0_0_1_n_n_wf : DotDims.WF S2000x128 S128x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384.size a ≤ S384.size a
  hwx2_5 : ∀ i : grid2.Coords, EltTy.bits .f32 = 32 ∨ (Rect.block (s := S384) S384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384.size a ≤ S384.size a
  hwx2_6 : ∀ i : grid2.Coords, EltTy.bits .f32 = 32 ∨ (Rect.block (s := S384) S384.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x384.size a ≤ S128x384.size a
  hwx4_4 : ∀ i : grid4.Coords, EltTy.bits .f32 = 32 ∨ (Rect.block (s := S128x384) S128x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S384.size a ≤ S384.size a
  hwx4_5 : ∀ i : grid4.Coords, EltTy.bits .f32 = 32 ∨ (Rect.block (s := S384) S384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S384.size a ≤ S384.size a
  hwx4_6 : ∀ i : grid4.Coords, EltTy.bits .f32 = 32 ∨ (Rect.block (s := S384) S384.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S100000x128.size a
  hwx4_7 : ∀ i : grid4.Coords, EltTy.bits .f32 = 32 ∨ (Rect.block (s := S100000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S200000x128.size a
  hwx5_0 : ∀ i : grid5.Coords, EltTy.bits .f32 = 32 ∨ (Rect.block (s := S200000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S200000x128.size a
  hwx5_1 : ∀ i : grid5.Coords, EltTy.bits .f32 = 32 ∨ (Rect.block (s := S200000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S200000x1.size a
  hwx5_4 : ∀ i : grid5.Coords, EltTy.bits .f32 = 32 ∨ (Rect.block (s := S200000x1) S2000x1.size (cc5_transform_4 i) (hinb5_4 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg18) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S128x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg21) S384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg22) S384.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v71) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v82) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v40) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S2000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S2x200000 : Shape := ⟨2, ![2, 200000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S100000x256 : Shape := ⟨2, ![100000, 256]⟩
abbrev S1x256 : Shape := ⟨2, ![1, 256]⟩
abbrev S_ : Shape := ⟨0, ![]⟩
abbrev S1x128 : Shape := ⟨2, ![1, 128]⟩
abbrev S128x384 : Shape := ⟨2, ![128, 384]⟩
abbrev S100000x384 : Shape := ⟨2, ![100000, 384]⟩
abbrev S1x384 : Shape := ⟨2, ![1, 384]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x2 : Shape := ⟨2, ![128, 2]⟩
abbrev S200000x2 : Shape := ⟨2, ![200000, 2]⟩
abbrev S1x2 : Shape := ⟨2, ![1, 2]⟩

abbrev nBuf : Space → Nat
  | .hbm => 338
  | .vmem => 0
  | .smem => 0
  | _ => 0

abbrev hbmTy0_0 (i : Nat) : BufTy := match i % 128 with
  | 0 => ⟨S100000x128, .f32⟩
  | 1 => ⟨S2x600000, .i32⟩
  | 2 => ⟨S2x200000, .i32⟩
  | 3 => ⟨S100000x128, .f32⟩
  | 4 => ⟨S100000x128, .f32⟩
  | 5 => ⟨S256x128, .f32⟩
  | 6 => ⟨S256, .f32⟩
  | 7 => ⟨S128x256, .f32⟩
  | 8 => ⟨S128, .f32⟩
  | 9 => ⟨S128x128, .f32⟩
  | 10 => ⟨S128, .f32⟩
  | 11 => ⟨S128x128, .f32⟩
  | 12 => ⟨S128, .f32⟩
  | 13 => ⟨S2x128, .f32⟩
  | 14 => ⟨S2, .f32⟩
  | 15 => ⟨S384x128, .f32⟩
  | 16 => ⟨S384x128, .f32⟩
  | 17 => ⟨S384, .f32⟩
  | 18 => ⟨S384, .f32⟩
  | 19 => ⟨S384x128, .f32⟩
  | 20 => ⟨S384x128, .f32⟩
  | 21 => ⟨S384, .f32⟩
  | 22 => ⟨S384, .f32⟩
  | 23 => ⟨S1x600000, .i32⟩
  | 24 => ⟨S600000, .i32⟩
  | 25 => ⟨S1x600000, .i32⟩
  | 26 => ⟨S600000, .i32⟩
  | 27 => ⟨S128x256, .f32⟩
  | 28 => ⟨S100000x256, .f32⟩
  | 29 => ⟨S1x256, .f32⟩
  | 30 => ⟨S100000x256, .f32⟩
  | 31 => ⟨S100000x256, .f32⟩
  | 32 => ⟨S_, .f32⟩
  | 33 => ⟨S100000x256, .f32⟩
  | 34 => ⟨S100000x256, .i1⟩
  | 35 => ⟨S_, .f32⟩
  | 36 => ⟨S100000x256, .f32⟩
  | 37 => ⟨S100000x256, .f32⟩
  | 38 => ⟨S100000x256, .f32⟩
  | 39 => ⟨S256x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .i1⟩
  | 47 => ⟨S_, .f32⟩
  | 48 => ⟨S100000x128, .f32⟩
  | 49 => ⟨S100000x128, .f32⟩
  | 50 => ⟨S100000x128, .f32⟩
  | 51 => ⟨S128x384, .f32⟩
  | 52 => ⟨S100000x384, .f32⟩
  | 53 => ⟨S1x384, .f32⟩
  | 54 => ⟨S100000x384, .f32⟩
  | 55 => ⟨S100000x384, .f32⟩
  | 56 => ⟨S128x384, .f32⟩
  | 57 => ⟨S100000x384, .f32⟩
  | 58 => ⟨S1x384, .f32⟩
  | 59 => ⟨S100000x384, .f32⟩
  | 60 => ⟨S100000x384, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S128x128, .f32⟩
  | 95 => ⟨S100000x128, .f32⟩
  | 96 => ⟨S100000, .i32⟩
  | 97 => ⟨S700000, .i32⟩
  | 98 => ⟨S700000, .i32⟩
  | 99 => ⟨S_, .f32⟩
  | 100 => ⟨S700000, .f32⟩
  | 101 => ⟨S_, .f32⟩
  | 102 => ⟨S100000, .f32⟩
  | 103 => ⟨S700000x1, .i32⟩
  | 104 => ⟨S100000, .f32⟩
  | 105 => ⟨S_, .f32⟩
  | 106 => ⟨S100000, .f32⟩
  | 107 => ⟨S100000, .i1⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S700000, .i32⟩
  | 115 => ⟨S700000, .i1⟩
  | 116 => ⟨S_, .i32⟩
  | 117 => ⟨S700000, .i32⟩
  | 118 => ⟨S700000, .i32⟩
  | 119 => ⟨S700000, .i32⟩
  | 120 => ⟨S700000x1, .i32⟩
  | 121 => ⟨S700000, .f32⟩
  | 122 => ⟨S_, .i32⟩
  | 123 => ⟨S700000, .i32⟩
  | 124 => ⟨S700000, .i1⟩
  | 125 => ⟨S_, .i32⟩
  | 126 => ⟨S700000, .i32⟩
  | 127 => ⟨S700000, .i32⟩
  | _ => ⟨S100000x128, .f32⟩

abbrev hbmTy0_1 (i : Nat) : BufTy := match i % 128 with
  | 0 => ⟨S700000, .i32⟩
  | 1 => ⟨S700000x1, .i32⟩
  | 2 => ⟨S700000, .f32⟩
  | 3 => ⟨S700000, .f32⟩
  | 4 => ⟨S_, .i32⟩
  | 5 => ⟨S700000, .i32⟩
  | 6 => ⟨S700000, .i1⟩
  | 7 => ⟨S_, .i32⟩
  | 8 => ⟨S700000, .i32⟩
  | 9 => ⟨S700000, .i32⟩
  | 10 => ⟨S700000, .i32⟩
  | 11 => ⟨S700000x1, .i32⟩
  | 12 => ⟨S700000x128, .f32⟩
  | 13 => ⟨S700000x1, .f32⟩
  | 14 => ⟨S700000x128, .f32⟩
  | 15 => ⟨S700000x128, .f32⟩
  | 16 => ⟨S_, .f32⟩
  | 17 => ⟨S100000x128, .f32⟩
  | 18 => ⟨S700000x1, .i32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .i1⟩
  | 26 => ⟨S_, .f32⟩
  | 27 => ⟨S100000x128, .f32⟩
  | 28 => ⟨S100000x128, .f32⟩
  | 29 => ⟨S100000x128, .f32⟩
  | 30 => ⟨S128x384, .f32⟩
  | 31 => ⟨S100000x384, .f32⟩
  | 32 => ⟨S1x384, .f32⟩
  | 33 => ⟨S100000x384, .f32⟩
  | 34 => ⟨S100000x384, .f32⟩
  | 35 => ⟨S128x384, .f32⟩
  | 36 => ⟨S100000x384, .f32⟩
  | 37 => ⟨S1x384, .f32⟩
  | 38 => ⟨S100000x384, .f32⟩
  | 39 => ⟨S100000x384, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000x128, .f32⟩
  | 72 => ⟨S100000x128, .f32⟩
  | 73 => ⟨S128x128, .f32⟩
  | 74 => ⟨S100000x128, .f32⟩
  | 75 => ⟨S100000, .i32⟩
  | 76 => ⟨S700000, .i32⟩
  | 77 => ⟨S700000, .i32⟩
  | 78 => ⟨S_, .f32⟩
  | 79 => ⟨S700000, .f32⟩
  | 80 => ⟨S_, .f32⟩
  | 81 => ⟨S100000, .f32⟩
  | 82 => ⟨S700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S700000, .i32⟩
  | 94 => ⟨S700000, .i1⟩
  | 95 => ⟨S_, .i32⟩
  | 96 => ⟨S700000, .i32⟩
  | 97 => ⟨S700000, .i32⟩
  | 98 => ⟨S700000, .i32⟩
  | 99 => ⟨S700000x1, .i32⟩
  | 100 => ⟨S700000, .f32⟩
  | 101 => ⟨S_, .i32⟩
  | 102 => ⟨S700000, .i32⟩
  | 103 => ⟨S700000, .i1⟩
  | 104 => ⟨S_, .i32⟩
  | 105 => ⟨S700000, .i32⟩
  | 106 => ⟨S700000, .i32⟩
  | 107 => ⟨S700000, .i32⟩
  | 108 => ⟨S700000x1, .i32⟩
  | 109 => ⟨S700000, .f32⟩
  | 110 => ⟨S700000, .f32⟩
  | 111 => ⟨S_, .i32⟩
  | 112 => ⟨S700000, .i32⟩
  | 113 => ⟨S700000, .i1⟩
  | 114 => ⟨S_, .i32⟩
  | 115 => ⟨S700000, .i32⟩
  | 116 => ⟨S700000, .i32⟩
  | 117 => ⟨S700000, .i32⟩
  | 118 => ⟨S700000x1, .i32⟩
  | 119 => ⟨S700000x128, .f32⟩
  | 120 => ⟨S700000x1, .f32⟩
  | 121 => ⟨S700000x128, .f32⟩
  | 122 => ⟨S700000x128, .f32⟩
  | 123 => ⟨S_, .f32⟩
  | 124 => ⟨S100000x128, .f32⟩
  | 125 => ⟨S700000x1, .i32⟩
  | 126 => ⟨S100000x128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .i1⟩
  | 5 => ⟨S_, .f32⟩
  | 6 => ⟨S100000x128, .f32⟩
  | 7 => ⟨S100000x128, .f32⟩
  | 8 => ⟨S100000x128, .f32⟩
  | 9 => ⟨S128x384, .f32⟩
  | 10 => ⟨S100000x384, .f32⟩
  | 11 => ⟨S1x384, .f32⟩
  | 12 => ⟨S100000x384, .f32⟩
  | 13 => ⟨S100000x384, .f32⟩
  | 14 => ⟨S128x384, .f32⟩
  | 15 => ⟨S100000x384, .f32⟩
  | 16 => ⟨S1x384, .f32⟩
  | 17 => ⟨S100000x384, .f32⟩
  | 18 => ⟨S100000x384, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S1x200000, .i32⟩
  | 53 => ⟨S200000, .i32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x128, .f32⟩
  | 63 => ⟨S1x200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x128, .f32⟩
  | 74 => ⟨S200000x128, .f32⟩
  | 75 => ⟨S128x2, .f32⟩
  | 76 => ⟨S200000x2, .f32⟩
  | 77 => ⟨S1x2, .f32⟩
  | 78 => ⟨S200000x2, .f32⟩
  | 79 => ⟨S200000x2, .f32⟩
  | 80 => ⟨S_, .f32⟩
  | 81 => ⟨S200000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_call2_v0 : Ref sig .tc := ⟨.hbm, 110, rfl⟩
abbrev main_call2_v1 : Ref sig .tc := ⟨.hbm, 111, rfl⟩
abbrev main_v74 : Ref sig .tc := ⟨.hbm, 112, rfl⟩
abbrev main_c : Ref sig .tc := ⟨.hbm, 113, rfl⟩
abbrev main_v75 : Ref sig .tc := ⟨.hbm, 114, rfl⟩
abbrev main_v76 : Ref sig .tc := ⟨.hbm, 115, rfl⟩
abbrev main_c_12 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_13 : Ref sig .tc := ⟨.hbm, 122, rfl⟩
abbrev main_v82 : Ref sig .tc := ⟨.hbm, 123, rfl⟩
abbrev main_v83 : Ref sig .tc := ⟨.hbm, 124, rfl⟩
abbrev main_c_14 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_15 : Ref sig .tc := ⟨.hbm, 132, rfl⟩
abbrev main_v90 : Ref sig .tc := ⟨.hbm, 133, rfl⟩
abbrev main_v91 : Ref sig .tc := ⟨.hbm, 134, rfl⟩
abbrev main_c_16 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_18 : Ref sig .tc := ⟨.hbm, 151, rfl⟩
abbrev main_v106 : Ref sig .tc := ⟨.hbm, 152, rfl⟩
abbrev main_v107 : Ref sig .tc := ⟨.hbm, 153, rfl⟩
abbrev main_cst_19 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_20 : Ref sig .tc := ⟨.hbm, 177, rfl⟩
abbrev main_v130 : Ref sig .tc := ⟨.hbm, 178, rfl⟩
abbrev main_v131 : Ref sig .tc := ⟨.hbm, 179, rfl⟩
abbrev main_cst_21 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_22 : Ref sig .tc := ⟨.hbm, 186, rfl⟩
abbrev main_v137 : Ref sig .tc := ⟨.hbm, 187, rfl⟩
abbrev main_v138 : Ref sig .tc := ⟨.hbm, 188, rfl⟩
abbrev main_cst_23 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_24 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_25 : Ref sig .tc := ⟨.hbm, 206, rfl⟩
abbrev main_v154 : Ref sig .tc := ⟨.hbm, 207, rfl⟩
abbrev main_cst_26 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_27 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_28 : Ref sig .tc := ⟨.hbm, 216, rfl⟩
abbrev main_call4_v0 : Ref sig .tc := ⟨.hbm, 217, rfl⟩
abbrev main_call4_v1 : Ref sig .tc := ⟨.hbm, 218, rfl⟩
abbrev main_v161 : Ref sig .tc := ⟨.hbm, 219, rfl⟩
abbrev main_c_29 : Ref sig .tc := ⟨.hbm, 220, rfl⟩
abbrev main_v162 : Ref sig .tc := ⟨.hbm, 221, rfl⟩
abbrev main_v163 : Ref sig .tc := ⟨.hbm, 222, rfl⟩
abbrev main_c_30 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_c_31 : Ref sig .tc := ⟨.hbm, 229, rfl⟩
abbrev main_v169 : Ref sig .tc := ⟨.hbm, 230, rfl⟩
abbrev main_v170 : Ref sig .tc := ⟨.hbm, 231, rfl⟩
abbrev main_c_32 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_c_33 : Ref sig .tc := ⟨.hbm, 239, rfl⟩
abbrev main_v177 : Ref sig .tc := ⟨.hbm, 240, rfl⟩
abbrev main_v178 : Ref sig .tc := ⟨.hbm, 241, rfl⟩
abbrev main_c_34 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_35 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_36 : Ref sig .tc := ⟨.hbm, 258, rfl⟩
abbrev main_v193 : Ref sig .tc := ⟨.hbm, 259, rfl⟩
abbrev main_v194 : Ref sig .tc := ⟨.hbm, 260, rfl⟩
abbrev main_cst_37 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_38 : Ref sig .tc := ⟨.hbm, 284, rfl⟩
abbrev main_v217 : Ref sig .tc := ⟨.hbm, 285, rfl⟩
abbrev main_v218 : Ref sig .tc := ⟨.hbm, 286, rfl⟩
abbrev main_cst_39 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_cst_40 : Ref sig .tc := ⟨.hbm, 293, rfl⟩
abbrev main_v224 : Ref sig .tc := ⟨.hbm, 294, rfl⟩
abbrev main_v225 : Ref sig .tc := ⟨.hbm, 295, rfl⟩
abbrev main_cst_41 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_42 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_c_43 : Ref sig .tc := ⟨.hbm, 310, rfl⟩
abbrev main_v238 : Ref sig .tc := ⟨.hbm, 311, rfl⟩
abbrev main_v239 : Ref sig .tc := ⟨.hbm, 312, rfl⟩
abbrev main_c_44 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_c_45 : Ref sig .tc := ⟨.hbm, 321, rfl⟩
abbrev main_v247 : Ref sig .tc := ⟨.hbm, 322, rfl⟩
abbrev main_v248 : Ref sig .tc := ⟨.hbm, 323, rfl⟩
abbrev main_c_46 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_cst_47 : Ref sig .tc := ⟨.hbm, 336, rfl⟩
abbrev main_v260 : Ref sig .tc := ⟨.hbm, 337, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  transposes_S128x128_S128x128_1_0 : S128x128.Transposes [1, 0] S128x128
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  transposes_S2x128_S128x2_1_0 : S2x128.Transposes [1, 0] S128x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x384_S100000x384_1_0_0_1_n_n_wf : DotDims.WF S100000x128 S128x384 S100000x384 [1] [0] [0] [1] [] []
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S200000x1_S200000x128_1_0_n_n_0_1_1128_wf : GatherDims.WF S100000x128 S200000x1 S200000x128 [1] [0] [] [0] [] 1 ![1, 128]
  dot_S200000x128_S128x2_S200000x2_1_0_0_1_n_n_wf : DotDims.WF S200000x128 S128x2 S200000x2 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf

class Facts : Prop extends Facts₀ where

variable [Facts]
-- ==== Proof.KKeep.lean ====
/-
  What each segment of the kernel's @main leaves alone: a host stretch changes only the buffers its operations write,
  and a pallas_call changes only its output array (its input windows' arrays are staged and never written back).
-/
import proofs.«118245_j7395933684286_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg) (c : Dev nD)

/-! ## What each segment of @main leaves alone -/

/-- The buffers the host stretch between the second and third pallas_call writes. -/
abbrev wr2 : List (Ref sig .tc) := [main_c_8, main_v43, main_v44, main_c_9, main_v45, main_v46, main_v47, main_v48, main_v49, main_v50, main_v51, main_v52, main_cst_10, main_v53, main_v54, main_v55]
/-- The buffers the host stretch between the fourth and fifth pallas_call writes. -/
abbrev wr4 : List (Ref sig .tc) := [main_c_11, main_v58, main_v59, main_c_12, main_v60, main_v61, main_v62, main_v63, main_v64, main_v65, main_v66, main_v67, main_cst_13, main_v68, main_v69, main_v70]
/-- The buffers the host stretch before the last pallas_call writes. -/
abbrev wr5 : List (Ref sig .tc) := [main_v72, main_v73, main_v74, main_v75, main_c_14, main_v76, main_v77, main_c_15, main_v78, main_v79, main_v80, main_v81, main_v82, main_c_16, main_v83, main_v84, main_c_17, main_v85, main_v86, main_v87, main_v88, main_v89]

/-- A buffer the stretch does not write keeps its contents across it. -/
theorem keep_h2 (b : Ref sig .tc) (hb : b ∉ wr2) : W6 m ρ c (Proc.devRef .tc b) = W5 m ρ c (Proc.devRef .tc b) := by
  show StableHlo.after hostOps2 (W5 m ρ c) (Proc.devRef .tc b) = _
  exact StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (fun e => by subst e; revert hb; decide)))

/-- A buffer the stretch does not write keeps its contents across it. -/
theorem keep_h4 (b : Ref sig .tc) (hb : b ∉ wr4) : W9 m ρ c (Proc.devRef .tc b) = W8 m ρ c (Proc.devRef .tc b) := by
  show StableHlo.after hostOps4 (W8 m ρ c) (Proc.devRef .tc b) = _
  exact StableHlo.after_of_forall_not_mem _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (fun e => by subst e; revert hb; decide)))

/-- A buffer the stretch does not write keeps its contents across it. -/
theorem keep_h5 (b : Ref sig .tc) (hb : b ∉ wr5) : W11 m ρ c (Proc.devRef .tc b) = W10 m ρ c (Proc.devRef .tc b) := by
  show StableHlo.after hostOps5 (W10 m ρ c) (Proc.devRef .tc b) = _
  exact StableHlo.after_of_forall_not_mem _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (fun e => by subst e; revert hb; decide)))

/-- The closing reshape writes only the logits. -/
theorem keep_h6 (b : Ref sig .tc) (hb : b ∉ [main_v91]) : W13 m ρ c (Proc.devRef .tc b) = W12 m ρ c (Proc.devRef .tc b) := by
  show StableHlo.after hostOps6 (W12 m ρ c) (Proc.devRef .tc b) = _
  exact StableHlo.after_of_forall_not_mem _ _ (List.forall_iff_forall_mem.mp (by
    simp only [hostOps6, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (fun e => by subst e; revert hb; decide)))

/-- The first pallas_call leaves every buffer but its output array as it found it: an input window's array is staged and never written back, any other buffer is not touched. -/
theorem keep_r0 (b : Ref sig .tc) (hb : b ≠ main_v41) : W4 m ρ c (Proc.devRef .tc b) = W3 m ρ c (Proc.devRef .tc b) := by
  by_cases h : ∃ w : Fin cfg0.W, Pipeline.arrRef spec0 w = b
  · obtain ⟨w, rfl⟩ := h
    have hw : w ≠ 10 := fun e => hb (by subst e; rfl)
    refine (W4_arr m ρ c w).trans (((dat0 (V3 m ρ) c).arrAt_in w ?_ _).trans (A_eq0 (V3 m ρ) c w))
    revert hw; revert w; decide
  · exact W4_of_ne m ρ c b (fun w e => h ⟨w, e⟩)

/-- The second pallas_call leaves every buffer but its output array as it found it. -/
theorem keep_r1 (b : Ref sig .tc) (hb : b ≠ main_v42) : W5 m ρ c (Proc.devRef .tc b) = W4 m ρ c (Proc.devRef .tc b) := by
  by_cases h : ∃ w : Fin cfg1.W, Pipeline.arrRef spec1 w = b
  · obtain ⟨w, rfl⟩ := h
    have hw : w ≠ 2 := fun e => hb (by subst e; rfl)
    refine (W5_arr m ρ c w).trans (((dat1 (V4 m ρ) c).arrAt_in w ?_ _).trans (A_eq1 (V4 m ρ) c w))
    revert hw; revert w; decide
  · exact W5_of_ne m ρ c b (fun w e => h ⟨w, e⟩)

/-- The third pallas_call leaves every buffer but its output array as it found it. -/
theorem keep_r2 (b : Ref sig .tc) (hb : b ≠ main_v56) : W7 m ρ c (Proc.devRef .tc b) = W6 m ρ c (Proc.devRef .tc b) := by
  by_cases h : ∃ w : Fin cfg2.W, Pipeline.arrRef spec2 w = b
  · obtain ⟨w, rfl⟩ := h
    have hw : w ≠ 7 := fun e => hb (by subst e; rfl)
    refine (W7_arr m ρ c w).trans (((dat2 (V6 m ρ) c).arrAt_in w ?_ _).trans (A_eq2 (V6 m ρ) c w))
    revert hw; revert w; decide
  · exact W7_of_ne m ρ c b (fun w e => h ⟨w, e⟩)

/-- The fourth pallas_call leaves every buffer but its output array as it found it. -/
theorem keep_r3 (b : Ref sig .tc) (hb : b ≠ main_v57) : W8 m ρ c (Proc.devRef .tc b) = W7 m ρ c (Proc.devRef .tc b) := by
  by_cases h : ∃ w : Fin cfg3.W, Pipeline.arrRef spec3 w = b
  · obtain ⟨w, rfl⟩ := h
    have hw : w ≠ 2 := fun e => hb (by subst e; rfl)
    refine (W8_arr m ρ c w).trans (((dat3 (V7 m ρ) c).arrAt_in w ?_ _).trans (A_eq3 (V7 m ρ) c w))
    revert hw; revert w; decide
  · exact W8_of_ne m ρ c b (fun w e => h ⟨w, e⟩)

/-- The fifth pallas_call leaves every buffer but its output array as it found it. -/
theorem keep_r4 (b : Ref sig .tc) (hb : b ≠ main_v71) : W10 m ρ c (Proc.devRef .tc b) = W9 m ρ c (Proc.devRef .tc b) := by
  by_cases h : ∃ w : Fin cfg4.W, Pipeline.arrRef spec4 w = b
  · obtain ⟨w, rfl⟩ := h
    have hw : w ≠ 7 := fun e => hb (by subst e; rfl)
    refine (W10_arr m ρ c w).trans (((dat4 (V9 m ρ) c).arrAt_in w ?_ _).trans (A_eq4 (V9 m ρ) c w))
    revert hw; revert w; decide
  · exact W10_of_ne m ρ c b (fun w e => h ⟨w, e⟩)

/-- The sixth pallas_call leaves every buffer but its output array as it found it. -/
theorem keep_r5 (b : Ref sig .tc) (hb : b ≠ main_v90) : W12 m ρ c (Proc.devRef .tc b) = W11 m ρ c (Proc.devRef .tc b) := by
  by_cases h : ∃ w : Fin cfg5.W, Pipeline.arrRef spec5 w = b
  · obtain ⟨w, rfl⟩ := h
    have hw : w ≠ 4 := fun e => hb (by subst e; rfl)
    refine (W12_arr m ρ c w).trans (((dat5 (V11 m ρ) c).arrAt_in w ?_ _).trans (A_eq5 (V11 m ρ) c w))
    revert hw; revert w; decide
  · exact W12_of_ne m ρ c b (fun w e => h ⟨w, e⟩)

end Cert.KernelIdeal.Chain

end
-- ==== Proof.Spec.lean ====
/-
  The mathematics both programs compute, written once on the extended reals.

  A node's row goes through two affine layers with a leaky rectifier, then a gated recurrent cell against the
  node's previous embedding; a graph convolution is an affine map of each row, a neighbourhood sum that both
  programs spell with the same gather and scatter-add, a bias, the leaky rectifier and the recurrent cell again; a
  link's logit is the sum over the two output classes of a bilinear form of the two end nodes' rows.
  Everything here is a function of ROWS (`Fin k → EReal`), so that a block of rows and the whole array are read with
  the same text; the array forms at the end read a row out of an array of literal extents.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- The leaky rectifier as both programs spell it: `v` where `v ≥ 0`, else the f32 nearest `0.01` times `v`. -/
def leaky (v : EReal) : EReal :=
  Scalar.select (Ideal.cmp .oge v (Ideal.ofBits .f32 0x00000000#32)) v (Ideal.ofBits .f32 0x3C23D70A#32 * v)

/-- A row through an affine map: `(x · w) j + bias j`. -/
def affRow {a b : Nat} (x : Fin a → EReal) (w : Fin a → Fin b → EReal) (bias : Fin b → EReal) : Fin b → EReal :=
  fun j => (∑ k : Fin a, x k * w k j) + bias j

/-- A row through a linear map. -/
def linRow {a b : Nat} (x : Fin a → EReal) (w : Fin a → Fin b → EReal) : Fin b → EReal :=
  fun j => ∑ k : Fin a, x k * w k j

/-- The gated recurrent cell at one feature: reset and update gates by the logistic function, the candidate by the
    hyperbolic tangent, the result the update gate's mix of candidate and previous value. -/
def gruCell (ir iz inn hr hz hn prev : EReal) : EReal :=
  (Ideal.ofBits .f32 0x3F800000#32 - Ideal.logistic (iz + hz)) * Ideal.tanh (inn + Ideal.logistic (ir + hr) * hn)
    + Ideal.logistic (iz + hz) * prev

/-- The recurrent cell on a row of 128 features: the input row and the previous row each through an affine map to
    3·128 gate pre-activations, stacked reset / update / candidate. -/
def gruRow (h prev : Fin 128 → EReal) (wih whh : Fin 128 → Fin 384 → EReal) (bih bhh : Fin 384 → EReal) :
    Fin 128 → EReal :=
  fun j =>
    gruCell (affRow h wih bih ⟨j.val, by omega⟩) (affRow h wih bih ⟨128 + j.val, by omega⟩) (affRow h wih bih ⟨256 + j.val, by omega⟩)
      (affRow prev whh bhh ⟨j.val, by omega⟩) (affRow prev whh bhh ⟨128 + j.val, by omega⟩) (affRow prev whh bhh ⟨256 + j.val, by omega⟩)
      (prev j)

/-- The two preprocessing layers of a row. -/
def preRow (x : Fin 128 → EReal) (w1 : Fin 128 → Fin 256 → EReal) (b1 : Fin 256 → EReal)
    (w2 : Fin 256 → Fin 128 → EReal) (b2 : Fin 128 → EReal) : Fin 128 → EReal :=
  fun j => leaky (affRow (fun a => leaky (affRow x w1 b1 a)) w2 b2 j)

/-- A convolution's aggregated row after its bias and the rectifier. -/
def biasLeakyRow (agg bias : Fin 128 → EReal) : Fin 128 → EReal := fun j => leaky (agg j + bias j)

/-- A link's logit as the kernel takes it: the end rows' product against the class-summed weight row, plus the
    class-summed bias. -/
def lpK (hs hd wv : Fin 128 → EReal) (bsum : EReal) : EReal := (∑ k : Fin 128, hs k * hd k * wv k) + bsum

/-- A link's logit as the reference takes it: both class logits, then their sum from zero. -/
def lpR (hs hd : Fin 128 → EReal) (w : Fin 128 → Fin 2 → EReal) (b : Fin 2 → EReal) : EReal :=
  Ideal.ofBits .f32 0x00000000#32 + ∑ o : Fin 2, ((∑ k : Fin 128, hs k * hd k * w k o) + b o)

/-! ## Arrays of literal extents, read by rows -/

abbrev Nodes : Shape := ⟨2, ![100000, 128]⟩
abbrev Links : Shape := ⟨2, ![200000, 128]⟩

/-- Row `i 0` of a two-axis array. -/
abbrev rowOf {n a : Nat} (X : (⟨2, ![n, a]⟩ : Shape).Idx → EReal) (r : Fin n) : Fin a → EReal := fun k => X (ix2 r k)
/-- A matrix as a curried function. -/
abbrev mat {a b : Nat} (W : (⟨2, ![a, b]⟩ : Shape).Idx → EReal) : Fin a → Fin b → EReal := fun k j => W (ix2 k j)
/-- A vector as a function of its coordinate. -/
abbrev vec {a : Nat} (v : (⟨1, ![a]⟩ : Shape).Idx → EReal) : Fin a → EReal := fun k => v (ix1 k)

/-- A matrix transposed. -/
def tr {a b : Nat} (W : (⟨2, ![a, b]⟩ : Shape).Idx → EReal) : (⟨2, ![b, a]⟩ : Shape).Idx → EReal :=
  fun i => W (ix2 ⟨(i 1).val, idx2_lt1 i⟩ ⟨(i 0).val, idx2_lt0 i⟩)

/-- Preprocessing and the first recurrent cell, every node row (the 0-hop embedding). -/
def embed0 {n : Nat} (x prev : (⟨2, ![n, 128]⟩ : Shape).Idx → EReal)
    (w1 : (⟨2, ![128, 256]⟩ : Shape).Idx → EReal) (b1 : (⟨1, ![256]⟩ : Shape).Idx → EReal)
    (w2 : (⟨2, ![256, 128]⟩ : Shape).Idx → EReal) (b2 : (⟨1, ![128]⟩ : Shape).Idx → EReal)
    (wih whh : (⟨2, ![128, 384]⟩ : Shape).Idx → EReal) (bih bhh : (⟨1, ![384]⟩ : Shape).Idx → EReal) :
    (⟨2, ![n, 128]⟩ : Shape).Idx → EReal :=
  fun i => gruRow (preRow (rowOf x ⟨(i 0).val, idx2_lt0 i⟩) (mat w1) (vec b1) (mat w2) (vec b2)) (rowOf prev ⟨(i 0).val, idx2_lt0 i⟩)
    (mat wih) (mat whh) (vec bih) (vec bhh) ⟨(i 1).val, idx2_lt1 i⟩

/-- A convolution's linear map, every node row. -/
def linear {n : Nat} (h : (⟨2, ![n, 128]⟩ : Shape).Idx → EReal) (w : (⟨2, ![128, 128]⟩ : Shape).Idx → EReal) :
    (⟨2, ![n, 128]⟩ : Shape).Idx → EReal :=
  fun i => linRow (rowOf h ⟨(i 0).val, idx2_lt0 i⟩) (mat w) ⟨(i 1).val, idx2_lt1 i⟩

/-- Bias, rectifier and recurrent cell after a convolution's aggregation, every node row. -/
def fuse {n : Nat} (agg : (⟨2, ![n, 128]⟩ : Shape).Idx → EReal) (bias : (⟨1, ![128]⟩ : Shape).Idx → EReal)
    (prev : (⟨2, ![n, 128]⟩ : Shape).Idx → EReal)
    (wih whh : (⟨2, ![128, 384]⟩ : Shape).Idx → EReal) (bih bhh : (⟨1, ![384]⟩ : Shape).Idx → EReal) :
    (⟨2, ![n, 128]⟩ : Shape).Idx → EReal :=
  fun i => gruRow (biasLeakyRow (rowOf agg ⟨(i 0).val, idx2_lt0 i⟩) (vec bias)) (rowOf prev ⟨(i 0).val, idx2_lt0 i⟩)
    (mat wih) (mat whh) (vec bih) (vec bhh) ⟨(i 1).val, idx2_lt1 i⟩

/-- The kernel's link head, every link (a column). -/
def linkK {n : Nat} (hs hd : (⟨2, ![n, 128]⟩ : Shape).Idx → EReal) (wv : (⟨1, ![128]⟩ : Shape).Idx → EReal)
    (bsum : (⟨2, ![1, 1]⟩ : Shape).Idx → EReal) : (⟨2, ![n, 1]⟩ : Shape).Idx → EReal :=
  fun i => lpK (rowOf hs ⟨(i 0).val, idx2_lt0 i⟩) (rowOf hd ⟨(i 0).val, idx2_lt0 i⟩) (vec wv) (bsum (ix2 0 0))

end Cert.Gnn

end
-- ==== Proof.RefFns.lean ====
/-
  The reference's @main, cut into the stages its mathematics has, each stage the composition of its stretch of host
  operations as a function of the values the stretch reads. The recurrent cell, the rectified affine layers, the
  convolution's linear map and its neighbourhood sum each appear once here and several times in @main.
-/
import proofs.«118245_j7395933684286_1_alg».proof.Proof.Gen.ReferenceIdeal

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- Zero, one and the rectifier's slope as rank-zero tensors. -/
abbrev c0 : FVec F S_ .f32 := constant S_ .f32 0x00000000#32
abbrev c1 : FVec F S_ .f32 := constant S_ .f32 0x3F800000#32
abbrev cslope : FVec F S_ .f32 := constant S_ .f32 0x3C23D70A#32

/-- The leaky rectifier on a [100000, 256] tensor: where v ≥ 0 then v else slope · v. -/
def leaky256 (v : FVec F S100000x256 .f32) : FVec F S100000x256 .f32 :=
  select (cmpf .oge v (broadcastInDim S100000x256 ![] bcast_S_S100000x256 c0)) v
    (mulf (broadcastInDim S100000x256 ![] bcast_S_S100000x256 cslope) v)

/-- The leaky rectifier on a [100000, 128] tensor. -/
def leaky128 (v : FVec F S100000x128 .f32) : FVec F S100000x128 .f32 :=
  select (cmpf .oge v (broadcastInDim S100000x128 ![] bcast_S_S100000x128 c0)) v
    (mulf (broadcastInDim S100000x128 ![] bcast_S_S100000x128 cslope) v)

/-- The two preprocessing layers: x · w1ᵀ + b1, rectified, · w2ᵀ + b2, rectified. -/
def pre (x : FVec F S100000x128 .f32) (w1 : FVec F S256x128 .f32) (b1 : FVec F S256 .f32)
    (w2 : FVec F S128x256 .f32) (b2 : FVec F S128 .f32) : FVec F S100000x128 .f32 :=
  leaky128 (addf
    (Host.dotGeneral dot_S100000x256_S256x128_S100000x128_1_0_0_1_n_n none
      (leaky256 (addf
        (Host.dotGeneral dot_S100000x128_S128x256_S100000x256_1_0_0_1_n_n none x
          (transpose S128x256 [1, 0] w1 transposes_S256x128_S128x256_1_0))
        (broadcastInDim S100000x256 ![0, 1] bcast_S1x256_S100000x256_0_1 (broadcastInDim S1x256 ![1] bcast_S256_S1x256_1 b1))))
      (transpose S256x128 [1, 0] w2 transposes_S128x256_S256x128_1_0))
    (broadcastInDim S100000x128 ![0, 1] bcast_S1x128_S100000x128_0_1 (broadcastInDim S1x128 ![1] bcast_S128_S1x128_1 b2)))

/-- The 3·128 gate pre-activations of every row: h · wᵀ + b. -/
def gates (h : FVec F S100000x128 .f32) (w : FVec F S384x128 .f32) (b : FVec F S384 .f32) : FVec F S100000x384 .f32 :=
  addf (Host.dotGeneral dot_S100000x128_S128x384_S100000x384_1_0_0_1_n_n none h
      (transpose S128x384 [1, 0] w transposes_S384x128_S128x384_1_0))
    (broadcastInDim S100000x384 ![0, 1] bcast_S1x384_S100000x384_0_1 (broadcastInDim S1x384 ![1] bcast_S384_S1x384_1 b))

/-- The logistic function as jax spells it on the host: 1 / (1 + exp (−v)). -/
def sigm (v : FVec F S100000x128 .f32) : FVec F S100000x128 .f32 :=
  Host.divf (broadcastInDim S100000x128 ![] bcast_S_S100000x128 c1)
    (addf (broadcastInDim S100000x128 ![] bcast_S_S100000x128 c1) (Host.exp (Host.negf v)))

/-- The reset, update and candidate thirds of the gate pre-activations. -/
abbrev third0 (g : FVec F S100000x384 .f32) : FVec F S100000x128 .f32 :=
  extractStridedSlice S100000x128 ![0, 0] g slices_S100000x384_S100000x128_0_0
abbrev third1 (g : FVec F S100000x384 .f32) : FVec F S100000x128 .f32 :=
  extractStridedSlice S100000x128 ![0, 128] g slices_S100000x384_S100000x128_0_128
abbrev third2 (g : FVec F S100000x384 .f32) : FVec F S100000x128 .f32 :=
  extractStridedSlice S100000x128 ![0, 256] g slices_S100000x384_S100000x128_0_256

/-- The recurrent cell from the two gate tensors and the previous rows. -/
def cell (gi gh : FVec F S100000x384 .f32) (prev : FVec F S100000x128 .f32) : FVec F S100000x128 .f32 :=
  addf
    (mulf (subf (broadcastInDim S100000x128 ![] bcast_S_S100000x128 c1) (sigm (addf (third1 gi) (third1 gh))))
      (Host.tanh (addf (third2 gi) (mulf (sigm (addf (third0 gi) (third0 gh))) (third2 gh)))))
    (mulf (sigm (addf (third1 gi) (third1 gh))) prev)

/-- The recurrent cell on every row. -/
def gru (h prev : FVec F S100000x128 .f32) (wih whh : FVec F S384x128 .f32) (bih bhh : FVec F S384 .f32) :
    FVec F S100000x128 .f32 :=
  cell (gates h wih bih) (gates prev whh bhh) prev

/-- A convolution's linear map: h · wᵀ. -/
def lin (h : FVec F S100000x128 .f32) (w : FVec F S128x128 .f32) : FVec F S100000x128 .f32 :=
  Host.dotGeneral dot_S100000x128_S128x128_S100000x128_1_0_0_1_n_n none h
    (transpose S128x128 [1, 0] w transposes_S128x128_S128x128_1_0)

/-- An edge list's row with the self-loops appended: the sources (row 0) or the targets (row 1). -/
def ends0 (e : IVec S2x600000 32) : IVec S700000 32 :=
  concatenate S700000 0 [⟨S600000, shapeCast S600000 (extractStridedSlice S1x600000 ![0, 0] e slices_S2x600000_S1x600000_0_0) shapeCasts_S1x600000_S600000⟩,
    ⟨S100000, iotaInDim S100000 32 0⟩] concatenates_S600000_S100000_S700000_d0
def ends1 (e : IVec S2x600000 32) : IVec S700000 32 :=
  concatenate S700000 0 [⟨S600000, shapeCast S600000 (extractStridedSlice S1x600000 ![1, 0] e slices_S2x600000_S1x600000_1_0) shapeCasts_S1x600000_S600000⟩,
    ⟨S100000, iotaInDim S100000 32 0⟩] concatenates_S600000_S100000_S700000_d0

/-- jnp's index wrap on 700000 node indices: a negative index counts from the end. -/
def wrap7 (i : IVec S700000 32) : IVec S700000x1 32 :=
  broadcastInDim S700000x1 ![0] bcast_S700000_S700000x1_0
    (select (cmpi .slt i (broadcastInDim S700000 ![] bcast_S_S700000 (constantI S_ 32 0#32)))
      (addi i (broadcastInDim S700000 ![] bcast_S_S700000 (constantI S_ 32 100000#32))) i)

/-- The symmetric normalisation of every edge: the in-degrees by a scatter-add of ones, their inverse square roots
    (zero where the degree is not positive), gathered at both ends and multiplied. -/
def norm (s d : IVec S700000 32) : FVec F S700000 .f32 :=
  let deg : FVec F S100000 .f32 := Host.scatterAdd scatter_S100000_S700000x1_S700000_n_0_0_1
    (broadcastInDim S100000 ![] bcast_S_S100000 c0) (broadcastInDim S700000x1 ![0] bcast_S700000_S700000x1_0 d)
    (broadcastInDim S700000 ![] bcast_S_S700000 c1)
  let dinv : FVec F S100000 .f32 := select (cmpf .ogt deg (broadcastInDim S100000 ![] bcast_S_S100000 c0)) (Host.rsqrt deg)
    (broadcastInDim S100000 ![] bcast_S_S100000 (id c0))
  mulf (Host.gather gather_S100000_S700000x1_S700000_n_0_n_n_0_1_1 dinv (wrap7 s))
    (Host.gather gather_S100000_S700000x1_S700000_n_0_n_n_0_1_1 dinv (wrap7 d))

/-- The neighbourhood sum: every edge's source row scaled by the edge's normalisation, added into its target's row. -/
def agg (xw : FVec F S100000x128 .f32) (e : IVec S2x600000 32) : FVec F S100000x128 .f32 :=
  Host.scatterAdd scatter_S100000x128_S700000x1_S700000x128_1_0_0_1
    (broadcastInDim S100000x128 ![] bcast_S_S100000x128 c0)
    (broadcastInDim S700000x1 ![0] bcast_S700000_S700000x1_0 (ends1 e))
    (mulf (Host.gather gather_S100000x128_S700000x1_S700000x128_1_0_n_n_0_1_1128 xw (wrap7 (ends0 e)))
      (broadcastInDim S700000x128 ![0, 1] bcast_S700000x1_S700000x128_0_1
        (broadcastInDim S700000x1 ![0] bcast_S700000_S700000x1_0 (norm (F := F) (ends0 e) (ends1 e)))))

/-- A convolution after its aggregation: plus the bias, rectified. -/
def biasLeaky (a : FVec F S100000x128 .f32) (b : FVec F S128 .f32) : FVec F S100000x128 .f32 :=
  leaky128 (addf a (broadcastInDim S100000x128 ![0, 1] bcast_S1x128_S100000x128_0_1 (broadcastInDim S1x128 ![1] bcast_S128_S1x128_1 b)))

/-- A whole convolution layer with its recurrent cell. -/
def conv (h prev : FVec F S100000x128 .f32) (e : IVec S2x600000 32) (w : FVec F S128x128 .f32) (b : FVec F S128 .f32)
    (wih whh : FVec F S384x128 .f32) (bih bhh : FVec F S384 .f32) : FVec F S100000x128 .f32 :=
  gru (biasLeaky (agg (lin h w) e) b) prev wih whh bih bhh

/-- jnp's index wrap on 200000 link ends. -/
def wrap2 (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 100000#32))) i)

/-- The rows of the link ends: row 0 or row 1 of the link list, wrapped, gathered. -/
def endRows0 (h : FVec F S100000x128 .f32) (el : IVec S2x200000 32) : FVec F S200000x128 .f32 :=
  Host.gather gather_S100000x128_S200000x1_S200000x128_1_0_n_n_0_1_1128 h
    (wrap2 (shapeCast S200000 (extractStridedSlice S1x200000 ![0, 0] el slices_S2x200000_S1x200000_0_0) shapeCasts_S1x200000_S200000))
def endRows1 (h : FVec F S100000x128 .f32) (el : IVec S2x200000 32) : FVec F S200000x128 .f32 :=
  Host.gather gather_S100000x128_S200000x1_S200000x128_1_0_n_n_0_1_1128 h
    (wrap2 (shapeCast S200000 (extractStridedSlice S1x200000 ![1, 0] el slices_S2x200000_S1x200000_1_0) shapeCasts_S1x200000_S200000))

/-- The link head from the two ends' rows: their product through the two-class affine map, the classes summed. -/
def head (hs hd : FVec F S200000x128 .f32) (w : FVec F S2x128 .f32) (b : FVec F S2 .f32) : FVec F S200000 .f32 :=
  Host.reduceAdd (addf
      (Host.dotGeneral dot_S200000x128_S128x2_S200000x2_1_0_0_1_n_n none (mulf hs hd)
        (transpose S128x2 [1, 0] w transposes_S2x128_S128x2_1_0))
      (broadcastInDim S200000x2 ![0, 1] bcast_S1x2_S200000x2_0_1 (broadcastInDim S1x2 ![1] bcast_S2_S1x2_1 b)))
    c0 reducesTo_S200000x2_S200000_d1 h_S_

/-! ## @main's four results as stages of the launch memory -/

variable (m : (ℓ : Loc nD τ sig) → Buf (Elt F) ℓ) (c : Dev nD)

/-- The 0-hop embedding. -/
def emb0 : FVec F S100000x128 .f32 :=
  gru (pre (m ((c.tc : Thread nD τ).loc main_arg0)) (m ((c.tc : Thread nD τ).loc main_arg5)) (m ((c.tc : Thread nD τ).loc main_arg6))
      (m ((c.tc : Thread nD τ).loc main_arg7)) (m ((c.tc : Thread nD τ).loc main_arg8)))
    (m ((c.tc : Thread nD τ).loc main_arg3)) (m ((c.tc : Thread nD τ).loc main_arg15)) (m ((c.tc : Thread nD τ).loc main_arg16))
    (m ((c.tc : Thread nD τ).loc main_arg17)) (m ((c.tc : Thread nD τ).loc main_arg18))

/-- The embedding after the first convolution. -/
def emb1 : FVec F S100000x128 .f32 :=
  conv (emb0 m c) (m ((c.tc : Thread nD τ).loc main_arg3)) (m ((c.tc : Thread nD τ).loc main_arg1))
    (m ((c.tc : Thread nD τ).loc main_arg9)) (m ((c.tc : Thread nD τ).loc main_arg10))
    (m ((c.tc : Thread nD τ).loc main_arg15)) (m ((c.tc : Thread nD τ).loc main_arg16))
    (m ((c.tc : Thread nD τ).loc main_arg17)) (m ((c.tc : Thread nD τ).loc main_arg18))

/-- The embedding after the second convolution. -/
def emb2 : FVec F S100000x128 .f32 :=
  conv (emb1 m c) (m ((c.tc : Thread nD τ).loc main_arg4)) (m ((c.tc : Thread nD τ).loc main_arg1))
    (m ((c.tc : Thread nD τ).loc main_arg11)) (m ((c.tc : Thread nD τ).loc main_arg12))
    (m ((c.tc : Thread nD τ).loc main_arg19)) (m ((c.tc : Thread nD τ).loc main_arg20))
    (m ((c.tc : Thread nD τ).loc main_arg21)) (m ((c.tc : Thread nD τ).loc main_arg22))

/-- The link logits. -/
def logits : FVec F S200000 .f32 :=
  head (endRows0 (emb2 m c) (m ((c.tc : Thread nD τ).loc main_arg2))) (endRows1 (emb2 m c) (m ((c.tc : Thread nD τ).loc main_arg2)))
    (m ((c.tc : Thread nD τ).loc main_arg13)) (m ((c.tc : Thread nD τ).loc main_arg14))

end Cert.ReferenceIdeal.Stage

end
-- ==== Proof.KChainA.lean ====
/-
  The kernel's four results as functions of the launch memory, first part. Read through @main's segments: the host stretch before
  the first pallas_call transposes the weights, builds the two ends of every edge (with the self-loops) and the edges'
  normalisation, and sums the link head's weight and bias over the two classes; each pallas_call's output array is its
  region's row-wise function of its input arrays; the host stretches between them take the neighbourhood sums and gather
  the link ends' rows; the closing reshape flattens the logits' column. A buffer is followed back from the end of @main to
  the segment that wrote it through the segments that leave it alone.
-/
import proofs.«118245_j7395933684286_1_alg».proof.Proof.KKeep
import proofs.«118245_j7395933684286_1_alg».proof.Proof.Spec
import proofs.«118245_j7395933684286_1_alg».proof.Proof.RefFns

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Cert.Gnn Idealize.ShloMosaic.StableHlo
open Idealize.ShloMosaic.Pipeline (Dat)

variable (m : (ℓ : Loc nD τ sig) → Buf (Elt Ideal) ℓ) (ρ : Dev nD → PrngReg) (c : Dev nD)

/-! ## The host stretch before the first pallas_call -/

theorem V3_arg0 : V3 m ρ c main_arg0 = (m ((c : Thread nD τ).loc main_arg0)) := by
  show StableHlo.after hostOps0_2 (W2 m ρ c) (Proc.devRef .tc main_arg0) = _
  after_results
theorem V3_arg1 : V3 m ρ c main_arg1 = (m ((c : Thread nD τ).loc main_arg1)) := by
  show StableHlo.after hostOps0_2 (W2 m ρ c) (Proc.devRef .tc main_arg1) = _
  after_results
theorem V3_arg2 : V3 m ρ c main_arg2 = (m ((c : Thread nD τ).loc main_arg2)) := by
  show StableHlo.after hostOps0_2 (W2 m ρ c) (Proc.devRef .tc main_arg2) = _
  after_results
theorem V3_arg3 : V3 m ρ c main_arg3 = (m ((c : Thread nD τ).loc main_arg3)) := by
  show StableHlo.after hostOps0_2 (W2 m ρ c) (Proc.devRef .tc main_arg3) = _
  after_results
theorem V3_arg4 : V3 m ρ c main_arg4 = (m ((c : Thread nD τ).loc main_arg4)) := by
  show StableHlo.after hostOps0_2 (W2 m ρ c) (Proc.devRef .tc main_arg4) = _
  after_results
theorem V3_arg6 : V3 m ρ c main_arg6 = (m ((c : Thread nD τ).loc main_arg6)) := by
  show StableHlo.after hostOps0_2 (W2 m ρ c) (Proc.devRef .tc main_arg6) = _
  after_results
theorem V3_arg8 : V3 m ρ c main_arg8 = (m ((c : Thread nD τ).loc main_arg8)) := by
  show StableHlo.after hostOps0_2 (W2 m ρ c) (Proc.devRef .tc main_arg8) = _
  after_results
theorem V3_arg10 : V3 m ρ c main_arg10 = (m ((c : Thread nD τ).loc main_arg10)) := by
  show StableHlo.after hostOps0_2 (W2 m ρ c) (Proc.devRef .tc main_arg10) = _
  after_results
theorem V3_arg12 : V3 m ρ c main_arg12 = (m ((c : Thread nD τ).loc main_arg12)) := by
  show StableHlo.after hostOps0_2 (W2 m ρ c) (Proc.devRef .tc main_arg12) = _
  after_results
theorem V3_arg17 : V3 m ρ c main_arg17 = (m ((c : Thread nD τ).loc main_arg17)) := by
  show StableHlo.after hostOps0_2 (W2 m ρ c) (Proc.devRef .tc main_arg17) = _
  after_results
theorem V3_arg18 : V3 m ρ c main_arg18 = (m ((c : Thread nD τ).loc main_arg18)) := by
  show StableHlo.after hostOps0_2 (W2 m ρ c) (Proc.devRef .tc main_arg18) = _
  after_results
theorem V3_arg21 : V3 m ρ c main_arg21 = (m ((c : Thread nD τ).loc main_arg21)) := by
  show StableHlo.after hostOps0_2 (W2 m ρ c) (Proc.devRef .tc main_arg21) = _
  after_results
theorem V3_arg22 : V3 m ρ c main_arg22 = (m ((c : Thread nD τ).loc main_arg22)) := by
  show StableHlo.after hostOps0_2 (W2 m ρ c) (Proc.devRef .tc main_arg22) = _
  after_results

theorem V3_v30 : V3 m ρ c main_v30 = transpose S128x256 [1, 0] (m ((c : Thread nD τ).loc main_arg5)) transposes_S256x128_S128x256_1_0 := by
  show StableHlo.after hostOps0_2 (W2 m ρ c) (Proc.devRef .tc main_v30) = _
  after_results
theorem V3_v31 : V3 m ρ c main_v31 = transpose S256x128 [1, 0] (m ((c : Thread nD τ).loc main_arg7)) transposes_S128x256_S256x128_1_0 := by
  show StableHlo.after hostOps0_2 (W2 m ρ c) (Proc.devRef .tc main_v31) = _
  after_results
theorem V3_v32 : V3 m ρ c main_v32 = transpose S128x384 [1, 0] (m ((c : Thread nD τ).loc main_arg15)) transposes_S384x128_S128x384_1_0 := by
  show StableHlo.after hostOps0_2 (W2 m ρ c) (Proc.devRef .tc main_v32) = _
  after_results
theorem V3_v33 : V3 m ρ c main_v33 = transpose S128x384 [1, 0] (m ((c : Thread nD τ).loc main_arg16)) transposes_S384x128_S128x384_1_0 := by
  show StableHlo.after hostOps0_2 (W2 m ρ c) (Proc.devRef .tc main_v33) = _
  after_results
theorem V3_v34 : V3 m ρ c main_v34 = transpose S128x384 [1, 0] (m ((c : Thread nD τ).loc main_arg19)) transposes_S384x128_S128x384_1_0 := by
  show StableHlo.after hostOps0_2 (W2 m ρ c) (Proc.devRef .tc main_v34) = _
  after_results
theorem V3_v35 : V3 m ρ c main_v35 = transpose S128x384 [1, 0] (m ((c : Thread nD τ).loc main_arg20)) transposes_S384x128_S128x384_1_0 := by
  show StableHlo.after hostOps0_2 (W2 m ρ c) (Proc.devRef .tc main_v35) = _
  after_results
theorem V3_v36 : V3 m ρ c main_v36 = transpose S128x128 [1, 0] (m ((c : Thread nD τ).loc main_arg9)) transposes_S128x128_S128x128_1_0 := by
  show StableHlo.after hostOps0_2 (W2 m ρ c) (Proc.devRef .tc main_v36) = _
  after_results
theorem V3_v37 : V3 m ρ c main_v37 = transpose S128x128 [1, 0] (m ((c : Thread nD τ).loc main_arg11)) transposes_S128x128_S128x128_1_0 := by
  show StableHlo.after hostOps0_2 (W2 m ρ c) (Proc.devRef .tc main_v37) = _
  after_results

/-- The link head's weight summed over the two classes, from zero. -/
abbrev wsum : FVec Ideal S128 .f32 := Host.reduceAdd (m ((c : Thread nD τ).loc main_arg13)) (constant S_ .f32 0x00000000#32) reducesTo_S2x128_S128_d0 h_S_
/-- The link head's bias summed over the two classes, from zero, as a [1, 1] tensor. -/
abbrev bsum : FVec Ideal S1x1 .f32 :=
  shapeCast S1x1 (Host.reduceAdd (m ((c : Thread nD τ).loc main_arg14)) (constant S_ .f32 0x00000000#32) reducesTo_S2_S_d0 h_S_) shapeCasts_S_S1x1

theorem V3_v38 : V3 m ρ c main_v38 = wsum m c := by
  show StableHlo.after hostOps0_2 (W2 m ρ c) (Proc.devRef .tc main_v38) = _
  after_results
theorem V3_v40 : V3 m ρ c main_v40 = bsum m c := by
  show StableHlo.after hostOps0_2 (W2 m ρ c) (Proc.devRef .tc main_v40) = _
  after_results
  rfl

/-! ### The ends of every edge, the degrees' inverse square roots and the edges' normalisation, layer by layer -/

theorem rec_scatter1 : Cert.ReferenceIdeal.scatter_S100000_S700000x1_S700000_n_0_0_1 = scatter_S100000_S700000x1_S700000_n_0_0_1 := rfl
theorem rec_gather1 : Cert.ReferenceIdeal.gather_S100000_S700000x1_S700000_n_0_n_n_0_1_1 = gather_S100000_S700000x1_S700000_n_0_n_n_0_1_1 := rfl
theorem rec_scatter2 : Cert.ReferenceIdeal.scatter_S100000x128_S700000x1_S700000x128_1_0_0_1 = scatter_S100000x128_S700000x1_S700000x128_1_0_0_1 := rfl
theorem rec_gather2 : Cert.ReferenceIdeal.gather_S100000x128_S700000x1_S700000x128_1_0_n_n_0_1_1128 = gather_S100000x128_S700000x1_S700000x128_1_0_n_n_0_1_1128 := rfl
theorem rec_gather3 : Cert.ReferenceIdeal.gather_S100000x128_S200000x1_S200000x128_1_0_n_n_0_1_1128 = gather_S100000x128_S200000x1_S200000x128_1_0_n_n_0_1_1128 := rfl

theorem W1_v5 : W1 m ρ c (Proc.devRef .tc main_v5) = Cert.ReferenceIdeal.Stage.ends0 (m ((c : Thread nD τ).loc main_arg1)) := by
  show StableHlo.after hostOps0 (W0 m ρ c) (Proc.devRef .tc main_v5) = _
  after_results
  rfl
theorem W1_v6 : W1 m ρ c (Proc.devRef .tc main_v6) = Cert.ReferenceIdeal.Stage.ends1 (m ((c : Thread nD τ).loc main_arg1)) := by
  show StableHlo.after hostOps0 (W0 m ρ c) (Proc.devRef .tc main_v6) = _
  after_results
  rfl

/-- The in-degrees: ones scatter-added at every edge's target. -/
abbrev deg : FVec Ideal S100000 .f32 :=
  Host.scatterAdd scatter_S100000_S700000x1_S700000_n_0_0_1 (broadcastInDim S100000 ![] bcast_S_S100000 (constant S_ .f32 0x00000000#32))
    (broadcastInDim S700000x1 ![0] bcast_S700000_S700000x1_0 (Cert.ReferenceIdeal.Stage.ends1 (m ((c : Thread nD τ).loc main_arg1)))) (broadcastInDim S700000 ![] bcast_S_S700000 (constant S_ .f32 0x3F800000#32))

theorem W1_v10 : W1 m ρ c (Proc.devRef .tc main_v10) = deg m c := by
  show StableHlo.after hostOps0 (W0 m ρ c) (Proc.devRef .tc main_v10) = _
  after_results
  rfl
theorem W1_v12 : W1 m ρ c (Proc.devRef .tc main_v12) = cmpf .ogt (deg m c) (broadcastInDim S100000 ![] bcast_S_S100000 (constant S_ .f32 0x00000000#32)) := by
  show StableHlo.after hostOps0 (W0 m ρ c) (Proc.devRef .tc main_v12) = _
  after_results
  rfl
theorem W1_v13 : W1 m ρ c (Proc.devRef .tc main_v13) = Host.rsqrt (deg m c) := by
  show StableHlo.after hostOps0 (W0 m ρ c) (Proc.devRef .tc main_v13) = _
  after_results
  rfl
theorem W1_cst_2 : W1 m ρ c (Proc.devRef .tc main_cst_2) = constant (F := Ideal) S_ .f32 0x00000000#32 := by
  show StableHlo.after hostOps0 (W0 m ρ c) (Proc.devRef .tc main_cst_2) = _
  after_results

/-- The degrees' inverse square roots, zero where the degree is not positive. -/
abbrev dinv : FVec Ideal S100000 .f32 :=
  select (cmpf .ogt (deg m c) (broadcastInDim S100000 ![] bcast_S_S100000 (constant S_ .f32 0x00000000#32))) (Host.rsqrt (deg m c))
    (broadcastInDim S100000 ![] bcast_S_S100000 (id (constant S_ .f32 0x00000000#32)))

theorem W2_v14 : W2 m ρ c (Proc.devRef .tc main_v14) = dinv m c := by
  show StableHlo.after hostOps0_1 (W1 m ρ c) (Proc.devRef .tc main_v14) = _
  have h12 := W1_v12 m ρ c
  have h13 := W1_v13 m ρ c
  have hc := W1_cst_2 m ρ c
  generalize W1 m ρ c = W at h12 h13 hc ⊢
  after_results
  show select (W (Proc.devRef .tc main_v12)) (W (Proc.devRef .tc main_v13))
      (broadcastInDim S100000 ![] bcast_S_S100000 (id (W (Proc.devRef .tc main_cst_2)))) = _
  rw [h12, h13, hc]

theorem W2_v5 : W2 m ρ c (Proc.devRef .tc main_v5) = Cert.ReferenceIdeal.Stage.ends0 (m ((c : Thread nD τ).loc main_arg1)) := by
  show StableHlo.after hostOps0_1 (W1 m ρ c) (Proc.devRef .tc main_v5) = _
  have h := W1_v5 m ρ c
  generalize W1 m ρ c = W at h ⊢
  after_results
  exact h
theorem W2_v6 : W2 m ρ c (Proc.devRef .tc main_v6) = Cert.ReferenceIdeal.Stage.ends1 (m ((c : Thread nD τ).loc main_arg1)) := by
  show StableHlo.after hostOps0_1 (W1 m ρ c) (Proc.devRef .tc main_v6) = _
  have h := W1_v6 m ρ c
  generalize W1 m ρ c = W at h ⊢
  after_results
  exact h

theorem V3_v5 : V3 m ρ c main_v5 = Cert.ReferenceIdeal.Stage.ends0 (m ((c : Thread nD τ).loc main_arg1)) := by
  show StableHlo.after hostOps0_2 (W2 m ρ c) (Proc.devRef .tc main_v5) = _
  have h := W2_v5 m ρ c
  generalize W2 m ρ c = W at h ⊢
  after_results
  exact h
theorem V3_v6 : V3 m ρ c main_v6 = Cert.ReferenceIdeal.Stage.ends1 (m ((c : Thread nD τ).loc main_arg1)) := by
  show StableHlo.after hostOps0_2 (W2 m ρ c) (Proc.devRef .tc main_v6) = _
  have h := W2_v6 m ρ c
  generalize W2 m ρ c = W at h ⊢
  after_results
  exact h

set_option maxHeartbeats 1000000 in
theorem V3_v29 : V3 m ρ c main_v29 = Cert.ReferenceIdeal.Stage.norm (F := Ideal) (Cert.ReferenceIdeal.Stage.ends0 (m ((c : Thread nD τ).loc main_arg1))) (Cert.ReferenceIdeal.Stage.ends1 (m ((c : Thread nD τ).loc main_arg1))) := by
  show StableHlo.after hostOps0_2 (W2 m ρ c) (Proc.devRef .tc main_v29) = _
  have h5 := W2_v5 m ρ c
  have h6 := W2_v6 m ρ c
  have h14 := W2_v14 m ρ c
  generalize W2 m ρ c = W at h5 h6 h14 ⊢
  after_results
  rw [h5, h6, h14]
  unfold Cert.ReferenceIdeal.Stage.norm Cert.ReferenceIdeal.Stage.wrap7
  rw [rec_scatter1, rec_gather1]

end Cert.KernelIdeal.Chain

end
-- ==== Proof.KChain.lean ====
/-
  The kernel's four results as functions of the launch memory, second part: the six regions and the host stretches
  between them, followed from the end of @main back to the segment that wrote each buffer.
-/
import proofs.«118245_j7395933684286_1_alg».proof.Proof.KChainA

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Cert.Gnn Idealize.ShloMosaic.StableHlo
open Idealize.ShloMosaic.Pipeline (Dat)

variable (m : (ℓ : Loc nD τ sig) → Buf (Elt Ideal) ℓ) (ρ : Dev nD → PrngReg) (c : Dev nD)

/-! ## The regions and the stretches between them

The six regions' row-wise functions are taken as hypotheses here (each is proved in its own module). -/

/-- The 0-hop embedding as the kernel computes it. -/
abbrev kEmb0 : FVec Ideal S100000x128 .f32 :=
  embed0 (n := 100000) (m ((c : Thread nD τ).loc main_arg0)) (m ((c : Thread nD τ).loc main_arg3)) (transpose S128x256 [1, 0] (m ((c : Thread nD τ).loc main_arg5)) transposes_S256x128_S128x256_1_0) (m ((c : Thread nD τ).loc main_arg6)) (transpose S256x128 [1, 0] (m ((c : Thread nD τ).loc main_arg7)) transposes_S128x256_S256x128_1_0) (m ((c : Thread nD τ).loc main_arg8)) (transpose S128x384 [1, 0] (m ((c : Thread nD τ).loc main_arg15)) transposes_S384x128_S128x384_1_0) (transpose S128x384 [1, 0] (m ((c : Thread nD τ).loc main_arg16)) transposes_S384x128_S128x384_1_0) (m ((c : Thread nD τ).loc main_arg17)) (m ((c : Thread nD τ).loc main_arg18))
/-- The neighbourhood sum of the first convolution's linear map. -/
abbrev kAgg1 : FVec Ideal S100000x128 .f32 := Cert.ReferenceIdeal.Stage.agg (F := Ideal) (linear (n := 100000) (kEmb0 m c) (transpose S128x128 [1, 0] (m ((c : Thread nD τ).loc main_arg9)) transposes_S128x128_S128x128_1_0)) (m ((c : Thread nD τ).loc main_arg1))
/-- The embedding after the first convolution. -/
abbrev kEmb1 : FVec Ideal S100000x128 .f32 :=
  fuse (n := 100000) (kAgg1 m c) (m ((c : Thread nD τ).loc main_arg10)) (m ((c : Thread nD τ).loc main_arg3)) (transpose S128x384 [1, 0] (m ((c : Thread nD τ).loc main_arg15)) transposes_S384x128_S128x384_1_0) (transpose S128x384 [1, 0] (m ((c : Thread nD τ).loc main_arg16)) transposes_S384x128_S128x384_1_0) (m ((c : Thread nD τ).loc main_arg17)) (m ((c : Thread nD τ).loc main_arg18))
/-- The neighbourhood sum of the second convolution's linear map. -/
abbrev kAgg2 : FVec Ideal S100000x128 .f32 := Cert.ReferenceIdeal.Stage.agg (F := Ideal) (linear (n := 100000) (kEmb1 m c) (transpose S128x128 [1, 0] (m ((c : Thread nD τ).loc main_arg11)) transposes_S128x128_S128x128_1_0)) (m ((c : Thread nD τ).loc main_arg1))
/-- The embedding after the second convolution. -/
abbrev kEmb2 : FVec Ideal S100000x128 .f32 :=
  fuse (n := 100000) (kAgg2 m c) (m ((c : Thread nD τ).loc main_arg12)) (m ((c : Thread nD τ).loc main_arg4)) (transpose S128x384 [1, 0] (m ((c : Thread nD τ).loc main_arg19)) transposes_S384x128_S128x384_1_0) (transpose S128x384 [1, 0] (m ((c : Thread nD τ).loc main_arg20)) transposes_S384x128_S128x384_1_0) (m ((c : Thread nD τ).loc main_arg21)) (m ((c : Thread nD τ).loc main_arg22))
/-- The link logits. -/
abbrev kLogits : FVec Ideal S200000 .f32 :=
  shapeCast S200000 (linkK (n := 200000) (Cert.ReferenceIdeal.Stage.endRows0 (F := Ideal) (kEmb2 m c) (m ((c : Thread nD τ).loc main_arg2))) (Cert.ReferenceIdeal.Stage.endRows1 (F := Ideal) (kEmb2 m c) (m ((c : Thread nD τ).loc main_arg2))) (wsum m c) (bsum m c))
    shapeCasts_S200000x1_S200000

section
variable
  (F0 : ∀ (V : (c : Dev nD) → (b : Ref sig .tc) → Buf (Elt Ideal) ((c : Thread nD τ).loc b)) (c : Dev nD), (dat0 V c).arrAt 10 cfg0.N
    = embed0 (V c main_arg0) (V c main_arg3) (V c main_v30) (V c main_arg6) (V c main_v31) (V c main_arg8) (V c main_v32) (V c main_v33) (V c main_arg17) (V c main_arg18))
  (F1 : ∀ (V : (c : Dev nD) → (b : Ref sig .tc) → Buf (Elt Ideal) ((c : Thread nD τ).loc b)) (c : Dev nD), (dat1 V c).arrAt 2 cfg1.N = linear (V c main_v41) (V c main_v36))
  (F2 : ∀ (V : (c : Dev nD) → (b : Ref sig .tc) → Buf (Elt Ideal) ((c : Thread nD τ).loc b)) (c : Dev nD), (dat2 V c).arrAt 7 cfg2.N
    = fuse (V c main_v55) (V c main_arg10) (V c main_arg3) (V c main_v32) (V c main_v33) (V c main_arg17) (V c main_arg18))
  (F3 : ∀ (V : (c : Dev nD) → (b : Ref sig .tc) → Buf (Elt Ideal) ((c : Thread nD τ).loc b)) (c : Dev nD), (dat3 V c).arrAt 2 cfg3.N = linear (V c main_v56) (V c main_v37))
  (F4 : ∀ (V : (c : Dev nD) → (b : Ref sig .tc) → Buf (Elt Ideal) ((c : Thread nD τ).loc b)) (c : Dev nD), (dat4 V c).arrAt 7 cfg4.N
    = fuse (V c main_v70) (V c main_arg12) (V c main_arg4) (V c main_v34) (V c main_v35) (V c main_arg21) (V c main_arg22))
  (F5 : ∀ (V : (c : Dev nD) → (b : Ref sig .tc) → Buf (Elt Ideal) ((c : Thread nD τ).loc b)) (c : Dev nD), (dat5 V c).arrAt 4 cfg5.N = linkK (V c main_v82) (V c main_v89) (V c main_v38) (V c main_v40))

include F0 in
theorem V4_v41 : V4 m ρ c main_v41 = kEmb0 m c :=
  (W4_arr m ρ c 10).trans ((F0 (V3 m ρ) c).trans (by
    rw [V3_arg0, V3_arg3, V3_v30, V3_arg6, V3_v31, V3_arg8, V3_v32, V3_v33, V3_arg17, V3_arg18]))
theorem V4_v36 : V4 m ρ c main_v36 = (transpose S128x128 [1, 0] (m ((c : Thread nD τ).loc main_arg9)) transposes_S128x128_S128x128_1_0) := (keep_r0 m ρ c main_v36 (by decide)).trans (V3_v36 m ρ c)

include F0 F1 in
theorem V5_v42 : V5 m ρ c main_v42 = linear (n := 100000) (kEmb0 m c) (transpose S128x128 [1, 0] (m ((c : Thread nD τ).loc main_arg9)) transposes_S128x128_S128x128_1_0) :=
  (W5_arr m ρ c 2).trans ((F1 (V4 m ρ) c).trans (by rw [V4_v41 m ρ c F0, V4_v36]))

theorem V5_v5 : V5 m ρ c main_v5 = Cert.ReferenceIdeal.Stage.ends0 (m ((c : Thread nD τ).loc main_arg1)) :=
  (keep_r1 m ρ c main_v5 (by decide)).trans ((keep_r0 m ρ c main_v5 (by decide)).trans (V3_v5 m ρ c))
theorem V5_v6 : V5 m ρ c main_v6 = Cert.ReferenceIdeal.Stage.ends1 (m ((c : Thread nD τ).loc main_arg1)) :=
  (keep_r1 m ρ c main_v6 (by decide)).trans ((keep_r0 m ρ c main_v6 (by decide)).trans (V3_v6 m ρ c))
theorem V5_v29 : V5 m ρ c main_v29 = Cert.ReferenceIdeal.Stage.norm (F := Ideal) (Cert.ReferenceIdeal.Stage.ends0 (m ((c : Thread nD τ).loc main_arg1))) (Cert.ReferenceIdeal.Stage.ends1 (m ((c : Thread nD τ).loc main_arg1))) :=
  (keep_r1 m ρ c main_v29 (by decide)).trans ((keep_r0 m ρ c main_v29 (by decide)).trans (V3_v29 m ρ c))

set_option maxHeartbeats 1000000 in
include F0 F1 F2 F3 F4 F5 in
theorem V6_v55 : V6 m ρ c main_v55 = kAgg1 m c := by
  show StableHlo.after hostOps2 (W5 m ρ c) (Proc.devRef .tc main_v55) = _
  have hx : W5 m ρ c (Proc.devRef .tc main_v42) = _ := V5_v42 m ρ c F0 F1
  have h5 : W5 m ρ c (Proc.devRef .tc main_v5) = _ := V5_v5 m ρ c
  have h6 : W5 m ρ c (Proc.devRef .tc main_v6) = _ := V5_v6 m ρ c
  have h29 : W5 m ρ c (Proc.devRef .tc main_v29) = _ := V5_v29 m ρ c
  generalize W5 m ρ c = W at hx h5 h6 h29 ⊢
  after_results
  rw [hx, h5, h6, h29]
  unfold kAgg1 Cert.ReferenceIdeal.Stage.agg Cert.ReferenceIdeal.Stage.wrap7
  rw [rec_scatter2, rec_gather2]

theorem V6_arg10 : V6 m ρ c main_arg10 = (m ((c : Thread nD τ).loc main_arg10)) := ((keep_h2 m ρ c main_arg10 (by decide)).trans ((keep_r1 m ρ c main_arg10 (by decide)).trans (keep_r0 m ρ c main_arg10 (by decide)))).trans (V3_arg10 m ρ c)
theorem V6_arg3 : V6 m ρ c main_arg3 = (m ((c : Thread nD τ).loc main_arg3)) := ((keep_h2 m ρ c main_arg3 (by decide)).trans ((keep_r1 m ρ c main_arg3 (by decide)).trans (keep_r0 m ρ c main_arg3 (by decide)))).trans (V3_arg3 m ρ c)
theorem V6_v32 : V6 m ρ c main_v32 = (transpose S128x384 [1, 0] (m ((c : Thread nD τ).loc main_arg15)) transposes_S384x128_S128x384_1_0) := ((keep_h2 m ρ c main_v32 (by decide)).trans ((keep_r1 m ρ c main_v32 (by decide)).trans (keep_r0 m ρ c main_v32 (by decide)))).trans (V3_v32 m ρ c)
theorem V6_v33 : V6 m ρ c main_v33 = (transpose S128x384 [1, 0] (m ((c : Thread nD τ).loc main_arg16)) transposes_S384x128_S128x384_1_0) := ((keep_h2 m ρ c main_v33 (by decide)).trans ((keep_r1 m ρ c main_v33 (by decide)).trans (keep_r0 m ρ c main_v33 (by decide)))).trans (V3_v33 m ρ c)
theorem V6_arg17 : V6 m ρ c main_arg17 = (m ((c : Thread nD τ).loc main_arg17)) := ((keep_h2 m ρ c main_arg17 (by decide)).trans ((keep_r1 m ρ c main_arg17 (by decide)).trans (keep_r0 m ρ c main_arg17 (by decide)))).trans (V3_arg17 m ρ c)
theorem V6_arg18 : V6 m ρ c main_arg18 = (m ((c : Thread nD τ).loc main_arg18)) := ((keep_h2 m ρ c main_arg18 (by decide)).trans ((keep_r1 m ρ c main_arg18 (by decide)).trans (keep_r0 m ρ c main_arg18 (by decide)))).trans (V3_arg18 m ρ c)

include F0 F1 F2 F3 F4 F5 in
theorem V7_v56 : V7 m ρ c main_v56 = kEmb1 m c :=
  (W7_arr m ρ c 7).trans ((F2 (V6 m ρ) c).trans (by
    rw [V6_v55 m ρ c F0 F1 F2 F3 F4 F5, V6_arg10, V6_arg3, V6_v32, V6_v33, V6_arg17, V6_arg18]))
theorem V7_v37 : V7 m ρ c main_v37 = (transpose S128x128 [1, 0] (m ((c : Thread nD τ).loc main_arg11)) transposes_S128x128_S128x128_1_0) :=
  (keep_r2 m ρ c main_v37 (by decide)).trans (((keep_h2 m ρ c main_v37 (by decide)).trans ((keep_r1 m ρ c main_v37 (by decide)).trans (keep_r0 m ρ c main_v37 (by decide)))).trans (V3_v37 m ρ c))

include F0 F1 F2 F3 F4 F5 in
theorem V8_v57 : V8 m ρ c main_v57 = linear (n := 100000) (kEmb1 m c) (transpose S128x128 [1, 0] (m ((c : Thread nD τ).loc main_arg11)) transposes_S128x128_S128x128_1_0) :=
  (W8_arr m ρ c 2).trans ((F3 (V7 m ρ) c).trans (by rw [V7_v56 m ρ c F0 F1 F2 F3 F4 F5, V7_v37]))
theorem V8_v5 : V8 m ρ c main_v5 = Cert.ReferenceIdeal.Stage.ends0 (m ((c : Thread nD τ).loc main_arg1)) :=
  (keep_r3 m ρ c main_v5 (by decide)).trans ((keep_r2 m ρ c main_v5 (by decide)).trans (((keep_h2 m ρ c main_v5 (by decide)).trans ((keep_r1 m ρ c main_v5 (by decide)).trans (keep_r0 m ρ c main_v5 (by decide)))).trans (V3_v5 m ρ c)))
theorem V8_v6 : V8 m ρ c main_v6 = Cert.ReferenceIdeal.Stage.ends1 (m ((c : Thread nD τ).loc main_arg1)) :=
  (keep_r3 m ρ c main_v6 (by decide)).trans ((keep_r2 m ρ c main_v6 (by decide)).trans (((keep_h2 m ρ c main_v6 (by decide)).trans ((keep_r1 m ρ c main_v6 (by decide)).trans (keep_r0 m ρ c main_v6 (by decide)))).trans (V3_v6 m ρ c)))
theorem V8_v29 : V8 m ρ c main_v29 = Cert.ReferenceIdeal.Stage.norm (F := Ideal) (Cert.ReferenceIdeal.Stage.ends0 (m ((c : Thread nD τ).loc main_arg1))) (Cert.ReferenceIdeal.Stage.ends1 (m ((c : Thread nD τ).loc main_arg1))) :=
  (keep_r3 m ρ c main_v29 (by decide)).trans ((keep_r2 m ρ c main_v29 (by decide)).trans (((keep_h2 m ρ c main_v29 (by decide)).trans ((keep_r1 m ρ c main_v29 (by decide)).trans (keep_r0 m ρ c main_v29 (by decide)))).trans (V3_v29 m ρ c)))

set_option maxHeartbeats 1000000 in
include F0 F1 F2 F3 F4 F5 in
theorem V9_v70 : V9 m ρ c main_v70 = kAgg2 m c := by
  show StableHlo.after hostOps4 (W8 m ρ c) (Proc.devRef .tc main_v70) = _
  have hx : W8 m ρ c (Proc.devRef .tc main_v57) = _ := V8_v57 m ρ c F0 F1 F2 F3 F4 F5
  have h5 : W8 m ρ c (Proc.devRef .tc main_v5) = _ := V8_v5 m ρ c
  have h6 : W8 m ρ c (Proc.devRef .tc main_v6) = _ := V8_v6 m ρ c
  have h29 : W8 m ρ c (Proc.devRef .tc main_v29) = _ := V8_v29 m ρ c
  generalize W8 m ρ c = W at hx h5 h6 h29 ⊢
  after_results
  rw [hx, h5, h6, h29]
  unfold kAgg2 Cert.ReferenceIdeal.Stage.agg Cert.ReferenceIdeal.Stage.wrap7
  rw [rec_scatter2, rec_gather2]

theorem V9_arg12 : V9 m ρ c main_arg12 = (m ((c : Thread nD τ).loc main_arg12)) := ((keep_h4 m ρ c main_arg12 (by decide)).trans ((keep_r3 m ρ c main_arg12 (by decide)).trans ((keep_r2 m ρ c main_arg12 (by decide)).trans ((keep_h2 m ρ c main_arg12 (by decide)).trans ((keep_r1 m ρ c main_arg12 (by decide)).trans (keep_r0 m ρ c main_arg12 (by decide))))))).trans (V3_arg12 m ρ c)
theorem V9_arg4 : V9 m ρ c main_arg4 = (m ((c : Thread nD τ).loc main_arg4)) := ((keep_h4 m ρ c main_arg4 (by decide)).trans ((keep_r3 m ρ c main_arg4 (by decide)).trans ((keep_r2 m ρ c main_arg4 (by decide)).trans ((keep_h2 m ρ c main_arg4 (by decide)).trans ((keep_r1 m ρ c main_arg4 (by decide)).trans (keep_r0 m ρ c main_arg4 (by decide))))))).trans (V3_arg4 m ρ c)
theorem V9_v34 : V9 m ρ c main_v34 = (transpose S128x384 [1, 0] (m ((c : Thread nD τ).loc main_arg19)) transposes_S384x128_S128x384_1_0) := ((keep_h4 m ρ c main_v34 (by decide)).trans ((keep_r3 m ρ c main_v34 (by decide)).trans ((keep_r2 m ρ c main_v34 (by decide)).trans ((keep_h2 m ρ c main_v34 (by decide)).trans ((keep_r1 m ρ c main_v34 (by decide)).trans (keep_r0 m ρ c main_v34 (by decide))))))).trans (V3_v34 m ρ c)
theorem V9_v35 : V9 m ρ c main_v35 = (transpose S128x384 [1, 0] (m ((c : Thread nD τ).loc main_arg20)) transposes_S384x128_S128x384_1_0) := ((keep_h4 m ρ c main_v35 (by decide)).trans ((keep_r3 m ρ c main_v35 (by decide)).trans ((keep_r2 m ρ c main_v35 (by decide)).trans ((keep_h2 m ρ c main_v35 (by decide)).trans ((keep_r1 m ρ c main_v35 (by decide)).trans (keep_r0 m ρ c main_v35 (by decide))))))).trans (V3_v35 m ρ c)
theorem V9_arg21 : V9 m ρ c main_arg21 = (m ((c : Thread nD τ).loc main_arg21)) := ((keep_h4 m ρ c main_arg21 (by decide)).trans ((keep_r3 m ρ c main_arg21 (by decide)).trans ((keep_r2 m ρ c main_arg21 (by decide)).trans ((keep_h2 m ρ c main_arg21 (by decide)).trans ((keep_r1 m ρ c main_arg21 (by decide)).trans (keep_r0 m ρ c main_arg21 (by decide))))))).trans (V3_arg21 m ρ c)
theorem V9_arg22 : V9 m ρ c main_arg22 = (m ((c : Thread nD τ).loc main_arg22)) := ((keep_h4 m ρ c main_arg22 (by decide)).trans ((keep_r3 m ρ c main_arg22 (by decide)).trans ((keep_r2 m ρ c main_arg22 (by decide)).trans ((keep_h2 m ρ c main_arg22 (by decide)).trans ((keep_r1 m ρ c main_arg22 (by decide)).trans (keep_r0 m ρ c main_arg22 (by decide))))))).trans (V3_arg22 m ρ c)

include F0 F1 F2 F3 F4 F5 in
theorem V10_v71 : V10 m ρ c main_v71 = kEmb2 m c :=
  (W10_arr m ρ c 7).trans ((F4 (V9 m ρ) c).trans (by
    rw [V9_v70 m ρ c F0 F1 F2 F3 F4 F5, V9_arg12, V9_arg4, V9_v34, V9_v35, V9_arg21, V9_arg22]))
theorem V10_arg2 : V10 m ρ c main_arg2 = (m ((c : Thread nD τ).loc main_arg2)) :=
  (keep_r4 m ρ c main_arg2 (by decide)).trans (((keep_h4 m ρ c main_arg2 (by decide)).trans ((keep_r3 m ρ c main_arg2 (by decide)).trans ((keep_r2 m ρ c main_arg2 (by decide)).trans ((keep_h2 m ρ c main_arg2 (by decide)).trans ((keep_r1 m ρ c main_arg2 (by decide)).trans (keep_r0 m ρ c main_arg2 (by decide))))))).trans (V3_arg2 m ρ c))

set_option maxHeartbeats 1000000 in
include F0 F1 F2 F3 F4 F5 in
theorem V11_v82 : V11 m ρ c main_v82 = Cert.ReferenceIdeal.Stage.endRows0 (F := Ideal) (kEmb2 m c) (m ((c : Thread nD τ).loc main_arg2)) := by
  show StableHlo.after hostOps5 (W10 m ρ c) (Proc.devRef .tc main_v82) = _
  have h71 : W10 m ρ c (Proc.devRef .tc main_v71) = _ := V10_v71 m ρ c F0 F1 F2 F3 F4 F5
  have h2 : W10 m ρ c (Proc.devRef .tc main_arg2) = _ := V10_arg2 m ρ c
  generalize W10 m ρ c = W at h71 h2 ⊢
  after_results
  rw [h71, h2]
  unfold Cert.ReferenceIdeal.Stage.endRows0 Cert.ReferenceIdeal.Stage.wrap2
  rw [rec_gather3]
  rfl
set_option maxHeartbeats 1000000 in
include F0 F1 F2 F3 F4 F5 in
theorem V11_v89 : V11 m ρ c main_v89 = Cert.ReferenceIdeal.Stage.endRows1 (F := Ideal) (kEmb2 m c) (m ((c : Thread nD τ).loc main_arg2)) := by
  show StableHlo.after hostOps5 (W10 m ρ c) (Proc.devRef .tc main_v89) = _
  have h71 : W10 m ρ c (Proc.devRef .tc main_v71) = _ := V10_v71 m ρ c F0 F1 F2 F3 F4 F5
  have h2 : W10 m ρ c (Proc.devRef .tc main_arg2) = _ := V10_arg2 m ρ c
  generalize W10 m ρ c = W at h71 h2 ⊢
  after_results
  rw [h71, h2]
  unfold Cert.ReferenceIdeal.Stage.endRows1 Cert.ReferenceIdeal.Stage.wrap2
  rw [rec_gather3]
  rfl
theorem V11_v38 : V11 m ρ c main_v38 = wsum m c := ((keep_h5 m ρ c main_v38 (by decide)).trans ((keep_r4 m ρ c main_v38 (by decide)).trans ((keep_h4 m ρ c main_v38 (by decide)).trans ((keep_r3 m ρ c main_v38 (by decide)).trans ((keep_r2 m ρ c main_v38 (by decide)).trans ((keep_h2 m ρ c main_v38 (by decide)).trans ((keep_r1 m ρ c main_v38 (by decide)).trans (keep_r0 m ρ c main_v38 (by decide))))))))).trans (V3_v38 m ρ c)
theorem V11_v40 : V11 m ρ c main_v40 = bsum m c := ((keep_h5 m ρ c main_v40 (by decide)).trans ((keep_r4 m ρ c main_v40 (by decide)).trans ((keep_h4 m ρ c main_v40 (by decide)).trans ((keep_r3 m ρ c main_v40 (by decide)).trans ((keep_r2 m ρ c main_v40 (by decide)).trans ((keep_h2 m ρ c main_v40 (by decide)).trans ((keep_r1 m ρ c main_v40 (by decide)).trans (keep_r0 m ρ c main_v40 (by decide))))))))).trans (V3_v40 m ρ c)

include F0 F1 F2 F3 F4 F5 in
theorem V12_v90 : V12 m ρ c main_v90
    = linkK (n := 200000) (Cert.ReferenceIdeal.Stage.endRows0 (F := Ideal) (kEmb2 m c) (m ((c : Thread nD τ).loc main_arg2))) (Cert.ReferenceIdeal.Stage.endRows1 (F := Ideal) (kEmb2 m c) (m ((c : Thread nD τ).loc main_arg2))) (wsum m c) (bsum m c) :=
  (W12_arr m ρ c 4).trans ((F5 (V11 m ρ) c).trans (by
    rw [V11_v82 m ρ c F0 F1 F2 F3 F4 F5, V11_v89 m ρ c F0 F1 F2 F3 F4 F5, V11_v38, V11_v40]))

/-! ## The four results at the end of @main -/

include F0 F1 F2 F3 F4 F5 in
theorem res_logits : W13 m ρ c (Proc.devRef .tc main_v91) = kLogits m c := by
  show StableHlo.after hostOps6 (W12 m ρ c) (Proc.devRef .tc main_v91) = _
  have h : W12 m ρ c (Proc.devRef .tc main_v90) = _ := V12_v90 m ρ c F0 F1 F2 F3 F4 F5
  generalize W12 m ρ c = W at h ⊢
  after_results
  rw [h]
  rfl

include F0 F1 F2 F3 F4 F5 in
theorem res_emb0 : W13 m ρ c (Proc.devRef .tc main_v41) = kEmb0 m c :=
  (keep_h6 m ρ c main_v41 (by decide)).trans ((keep_r5 m ρ c main_v41 (by decide)).trans ((keep_h5 m ρ c main_v41 (by decide)).trans
    ((keep_r4 m ρ c main_v41 (by decide)).trans ((keep_h4 m ρ c main_v41 (by decide)).trans ((keep_r3 m ρ c main_v41 (by decide)).trans
      ((keep_r2 m ρ c main_v41 (by decide)).trans ((keep_h2 m ρ c main_v41 (by decide)).trans ((keep_r1 m ρ c main_v41 (by decide)).trans
        (V4_v41 m ρ c F0)))))))))

include F0 F1 F2 F3 F4 F5 in
theorem res_emb1 : W13 m ρ c (Proc.devRef .tc main_v56) = kEmb1 m c :=
  (keep_h6 m ρ c main_v56 (by decide)).trans ((keep_r5 m ρ c main_v56 (by decide)).trans ((keep_h5 m ρ c main_v56 (by decide)).trans
    ((keep_r4 m ρ c main_v56 (by decide)).trans ((keep_h4 m ρ c main_v56 (by decide)).trans ((keep_r3 m ρ c main_v56 (by decide)).trans
      (V7_v56 m ρ c F0 F1 F2 F3 F4 F5))))))

include F0 F1 F2 F3 F4 F5 in
theorem res_emb2 : W13 m ρ c (Proc.devRef .tc main_v71) = kEmb2 m c :=
  (keep_h6 m ρ c main_v71 (by decide)).trans ((keep_r5 m ρ c main_v71 (by decide)).trans ((keep_h5 m ρ c main_v71 (by decide)).trans
    (V10_v71 m ρ c F0 F1 F2 F3 F4 F5)))

end

end Cert.KernelIdeal.Chain

end
-- ==== Proof.KEmb0.lean ====
/-
  Preprocessing and the first recurrent cell (the first pallas_call): each grid point takes its block of 2000 node rows
  of the features and of the previous embedding and the whole weights; row r of the result depends on row r of the two
  row inputs only, and the 50 blocks tile the 100000 rows.
-/
import proofs.«118245_j7395933684286_1_alg».proof.Proof.Gen.KernelIdeal.Frame
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Emb0

open Cert.KernelIdeal Cert.KernelIdeal.Gen Idealize.ShloMosaic Idealize.ShloMosaic.TcCoe Idealize.SL.Sem
open Idealize.ShloMosaic.ValueIdx Cert.Gnn
open Idealize.ShloMosaic.Pipeline (Dat)

variable (V : (c : Dev nD) → (b : Ref sig .tc) → Buf (Elt Ideal) ((c : Thread nD τ).loc b))

/-! ## The three matrix products at an index

Each product contracts the left operand's column axis against the right operand's row axis: at result index (p, q) and
contraction position k its operand indices are (p, k) and (k, q). -/

abbrev DA := dot_S2000x128_S128x256_S2000x256_1_0_0_1_n_n

theorem DA_lhs_0 (i : S2000x256.Idx) (q : DA.contr.Idx) : (DA.lhsIdx i q 0).val = (i 0).val := by
  unfold DotDims.lhsIdx
  rw [dif_neg (show ¬(0 : Fin S2000x128.rank) ∈ DA.lhsBatch by decide), dif_pos (show (0 : Fin S2000x128.rank) ∈ DA.lhsNonContracting by decide)]
  rfl
theorem DA_lhs_1 (i : S2000x256.Idx) (q : DA.contr.Idx) : (DA.lhsIdx i q 1).val = (q ⟨0, by decide⟩).val :=
  DA.lhsIdx_val_of_single rfl i q
theorem DA_rhs_0 (i : S2000x256.Idx) (q : DA.contr.Idx) : (DA.rhsIdx i q 0).val = (q ⟨0, by decide⟩).val :=
  DA.rhsIdx_val_of_single rfl i q
theorem DA_rhs_1 (i : S2000x256.Idx) (q : DA.contr.Idx) : (DA.rhsIdx i q 1).val = (i 1).val := by
  unfold DotDims.rhsIdx
  rw [dif_neg (show ¬(1 : Fin S128x256.rank) ∈ DA.rhsBatch by decide), dif_pos (show (1 : Fin S128x256.rank) ∈ DA.rhsNonContracting by decide)]
  rfl

/-- The product into the zero accumulator at row p and column q: the sum over k of row p of the left operand against
    column q of the right operand. -/
theorem DA_apply {φ₁ φ₂ : FTy} (l : FVec Ideal S2000x128 φ₁) (r : FVec Ideal S128x256 φ₂) (p : Fin 2000) (q : Fin 256) :
    matmul DA none l r (constant S2000x256 .f32 0x00000000#32) (ix2 p q) = ∑ k : Fin 128, l (ix2 p k) * r (ix2 k q) := by
  simp only [matmul]
  rw [Ideal.matmul_constant_zero_apply, ← Equiv.sum_comp (contrEquiv1 DA 128 rfl rfl).symm]
  refine Finset.sum_congr rfl fun k _ => ?_
  have hk := contrEquiv1_symm_val DA 128 rfl rfl k
  have el : DA.lhsIdx (ix2 p q) ((contrEquiv1 DA 128 rfl rfl).symm k) = ix2 p k := funext fun a => Fin.ext (by
    match a with
    | ⟨0, _⟩ => exact DA_lhs_0 _ _
    | ⟨1, _⟩ => exact (DA_lhs_1 _ _).trans hk)
  have er : DA.rhsIdx (ix2 p q) ((contrEquiv1 DA 128 rfl rfl).symm k) = ix2 k q := funext fun a => Fin.ext (by
    match a with
    | ⟨0, _⟩ => exact (DA_rhs_0 _ _).trans hk
    | ⟨1, _⟩ => exact DA_rhs_1 _ _)
  rw [el, er]

abbrev DB := dot_S2000x256_S256x128_S2000x128_1_0_0_1_n_n

theorem DB_lhs_0 (i : S2000x128.Idx) (q : DB.contr.Idx) : (DB.lhsIdx i q 0).val = (i 0).val := by
  unfold DotDims.lhsIdx
  rw [dif_neg (show ¬(0 : Fin S2000x256.rank) ∈ DB.lhsBatch by decide), dif_pos (show (0 : Fin S2000x256.rank) ∈ DB.lhsNonContracting by decide)]
  rfl
theorem DB_lhs_1 (i : S2000x128.Idx) (q : DB.contr.Idx) : (DB.lhsIdx i q 1).val = (q ⟨0, by decide⟩).val :=
  DB.lhsIdx_val_of_single rfl i q
theorem DB_rhs_0 (i : S2000x128.Idx) (q : DB.contr.Idx) : (DB.rhsIdx i q 0).val = (q ⟨0, by decide⟩).val :=
  DB.rhsIdx_val_of_single rfl i q
theorem DB_rhs_1 (i : S2000x128.Idx) (q : DB.contr.Idx) : (DB.rhsIdx i q 1).val = (i 1).val := by
  unfold DotDims.rhsIdx
  rw [dif_neg (show ¬(1 : Fin S256x128.rank) ∈ DB.rhsBatch by decide), dif_pos (show (1 : Fin S256x128.rank) ∈ DB.rhsNonContracting by decide)]
  rfl

/-- The product into the zero accumulator at row p and column q: the sum over k of row p of the left operand against
    column q of the right operand. -/
theorem DB_apply {φ₁ φ₂ : FTy} (l : FVec Ideal S2000x256 φ₁) (r : FVec Ideal S256x128 φ₂) (p : Fin 2000) (q : Fin 128) :
    matmul DB none l r (constant S2000x128 .f32 0x00000000#32) (ix2 p q) = ∑ k : Fin 256, l (ix2 p k) * r (ix2 k q) := by
  simp only [matmul]
  rw [Ideal.matmul_constant_zero_apply, ← Equiv.sum_comp (contrEquiv1 DB 256 rfl rfl).symm]
  refine Finset.sum_congr rfl fun k _ => ?_
  have hk := contrEquiv1_symm_val DB 256 rfl rfl k
  have el : DB.lhsIdx (ix2 p q) ((contrEquiv1 DB 256 rfl rfl).symm k) = ix2 p k := funext fun a => Fin.ext (by
    match a with
    | ⟨0, _⟩ => exact DB_lhs_0 _ _
    | ⟨1, _⟩ => exact (DB_lhs_1 _ _).trans hk)
  have er : DB.rhsIdx (ix2 p q) ((contrEquiv1 DB 256 rfl rfl).symm k) = ix2 k q := funext fun a => Fin.ext (by
    match a with
    | ⟨0, _⟩ => exact (DB_rhs_0 _ _).trans hk
    | ⟨1, _⟩ => exact DB_rhs_1 _ _)
  rw [el, er]

abbrev DC := dot_S2000x128_S128x384_S2000x384_1_0_0_1_n_n

theorem DC_lhs_0 (i : S2000x384.Idx) (q : DC.contr.Idx) : (DC.lhsIdx i q 0).val = (i 0).val := by
  unfold DotDims.lhsIdx
  rw [dif_neg (show ¬(0 : Fin S2000x128.rank) ∈ DC.lhsBatch by decide), dif_pos (show (0 : Fin S2000x128.rank) ∈ DC.lhsNonContracting by decide)]
  rfl
theorem DC_lhs_1 (i : S2000x384.Idx) (q : DC.contr.Idx) : (DC.lhsIdx i q 1).val = (q ⟨0, by decide⟩).val :=
  DC.lhsIdx_val_of_single rfl i q
theorem DC_rhs_0 (i : S2000x384.Idx) (q : DC.contr.Idx) : (DC.rhsIdx i q 0).val = (q ⟨0, by decide⟩).val :=
  DC.rhsIdx_val_of_single rfl i q
theorem DC_rhs_1 (i : S2000x384.Idx) (q : DC.contr.Idx) : (DC.rhsIdx i q 1).val = (i 1).val := by
  unfold DotDims.rhsIdx
  rw [dif_neg (show ¬(1 : Fin S128x384.rank) ∈ DC.rhsBatch by decide), dif_pos (show (1 : Fin S128x384.rank) ∈ DC.rhsNonContracting by decide)]
  rfl

/-- The product into the zero accumulator at row p and column q: the sum over k of row p of the left operand against
    column q of the right operand. -/
theorem DC_apply {φ₁ φ₂ : FTy} (l : FVec Ideal S2000x128 φ₁) (r : FVec Ideal S128x384 φ₂) (p : Fin 2000) (q : Fin 384) :
    matmul DC none l r (constant S2000x384 .f32 0x00000000#32) (ix2 p q) = ∑ k : Fin 128, l (ix2 p k) * r (ix2 k q) := by
  simp only [matmul]
  rw [Ideal.matmul_constant_zero_apply, ← Equiv.sum_comp (contrEquiv1 DC 128 rfl rfl).symm]
  refine Finset.sum_congr rfl fun k _ => ?_
  have hk := contrEquiv1_symm_val DC 128 rfl rfl k
  have el : DC.lhsIdx (ix2 p q) ((contrEquiv1 DC 128 rfl rfl).symm k) = ix2 p k := funext fun a => Fin.ext (by
    match a with
    | ⟨0, _⟩ => exact DC_lhs_0 _ _
    | ⟨1, _⟩ => exact (DC_lhs_1 _ _).trans hk)
  have er : DC.rhsIdx (ix2 p q) ((contrEquiv1 DC 128 rfl rfl).symm k) = ix2 k q := funext fun a => Fin.ext (by
    match a with
    | ⟨0, _⟩ => exact (DC_rhs_0 _ _).trans hk
    | ⟨1, _⟩ => exact DC_rhs_1 _ _)
  rw [el, er]

/-! ## The body's stages as functions of whole blocks -/

/-- The leaky rectifier on a whole block, as the body spells it. -/
def lk {s : Shape} (v : FVec Ideal s .f32) : FVec Ideal s .f32 :=
  select (cmpf .oge v (broadcast s (Scalar.ofBits .f32 0x00000000#32))) v (mulf (broadcast s (Scalar.ofBits .f32 0x3C23D70A#32)) v)

theorem lk_apply {s : Shape} (v : FVec Ideal s .f32) (i : s.Idx) : lk v i = leaky (v i) := rfl

/-- First affine layer of a block: 128 features to 256. -/
def affA (l : FVec Ideal S2000x128 .f32) (r : Vec Ideal S128x256 .f32) (b : Vec Ideal S256 .f32) : FVec Ideal S2000x256 .f32 :=
  addf (matmul DA none (truncf .bf16 l bitsLt_bf16_f32) (truncf .bf16 (shapeCast S128x256 r shapeCasts_S128x256_S128x256) bitsLt_bf16_f32) (constant S2000x256 .f32 0x00000000#32))
    (broadcastTo S2000x256 (shapeCast S1x256 b shapeCasts_S256_S1x256) broadcasts_S1x256_S2000x256)

/-- Second affine layer of a block: 256 features to 128. -/
def affB (l : FVec Ideal S2000x256 .f32) (r : Vec Ideal S256x128 .f32) (b : Vec Ideal S128 .f32) : FVec Ideal S2000x128 .f32 :=
  addf (matmul DB none (truncf .bf16 l bitsLt_bf16_f32) (truncf .bf16 (shapeCast S256x128 r shapeCasts_S256x128_S256x128) bitsLt_bf16_f32) (constant S2000x128 .f32 0x00000000#32))
    (broadcastTo S2000x128 (shapeCast S1x128 b shapeCasts_S128_S1x128) broadcasts_S1x128_S2000x128)

/-- A gate layer of a block: 128 features to the 384 stacked gate pre-activations. -/
def affC (l : FVec Ideal S2000x128 .f32) (r : Vec Ideal S128x384 .f32) (b : Vec Ideal S384 .f32) : FVec Ideal S2000x384 .f32 :=
  addf (matmul DC none (truncf .bf16 l bitsLt_bf16_f32) (truncf .bf16 (shapeCast S128x384 r shapeCasts_S128x384_S128x384) bitsLt_bf16_f32) (constant S2000x384 .f32 0x00000000#32))
    (broadcastTo S2000x384 (shapeCast S1x384 b shapeCasts_S384_S1x384) broadcasts_S1x384_S2000x384)

/-- The input-side gate pre-activations are the three stages composed. -/
theorem pay2_eq (x0 : Vec Ideal S2000x128 .f32) (x2 : Vec Ideal S128x256 .f32) (x3 : Vec Ideal S256 .f32)
    (x4 : Vec Ideal S256x128 .f32) (x5 : Vec Ideal S128 .f32) (x6 : Vec Ideal S128x384 .f32) (x8 : Vec Ideal S384 .f32) :
    k0_pay2 x0 x2 x3 x4 x5 x6 x8 = affC (lk (affB (lk (affA x0 x2 x3)) x4 x5)) x6 x8 := rfl

/-! ## The stages read at an index -/

/-- A bias row broadcast down the rows reads, at row p and column q, the bias at q. -/
theorem bias_apply {m n : Nat} (b : (⟨1, ![n]⟩ : Shape).Idx → EReal) (h1 : (⟨1, ![n]⟩ : Shape).ShapeCasts ⟨2, ![1, n]⟩)
    (h2 : (⟨2, ![1, n]⟩ : Shape).Broadcasts ⟨2, ![m, n]⟩) (p : Fin m) (q : Fin n) :
    broadcastTo ⟨2, ![m, n]⟩ (shapeCast ⟨2, ![1, n]⟩ b h1) h2 (ix2 p q) = b (ix1 q) :=
  (broadcastTo_1b_ab_apply _ h2 p q).trans (shapeCast_a_1a_apply b h1 0 q)

theorem affA_apply (l : FVec Ideal S2000x128 .f32) (r : Vec Ideal S128x256 .f32) (b : Vec Ideal S256 .f32) (p : Fin 2000) (q : Fin 256) :
    affA l r b (ix2 p q) = affRow (rowOf l p) (mat r) (vec b) q := by
  unfold affA
  rw [addf_apply, DA_apply, bias_apply, shapeCast_self]
  rfl

theorem affB_apply (l : FVec Ideal S2000x256 .f32) (r : Vec Ideal S256x128 .f32) (b : Vec Ideal S128 .f32) (p : Fin 2000) (q : Fin 128) :
    affB l r b (ix2 p q) = affRow (rowOf l p) (mat r) (vec b) q := by
  unfold affB
  rw [addf_apply, DB_apply, bias_apply, shapeCast_self]
  rfl

theorem affC_apply (l : FVec Ideal S2000x128 .f32) (r : Vec Ideal S128x384 .f32) (b : Vec Ideal S384 .f32) (p : Fin 2000) (q : Fin 384) :
    affC l r b (ix2 p q) = affRow (rowOf l p) (mat r) (vec b) q := by
  unfold affC
  rw [addf_apply, DC_apply, bias_apply, shapeCast_self]
  rfl

/-- Row p of the preprocessed block is the two preprocessing layers of row p of the features' block. -/
theorem pre_row (x0 : Vec Ideal S2000x128 .f32) (x2 : Vec Ideal S128x256 .f32) (x3 : Vec Ideal S256 .f32)
    (x4 : Vec Ideal S256x128 .f32) (x5 : Vec Ideal S128 .f32) (p : Fin 2000) :
    rowOf (lk (affB (lk (affA x0 x2 x3)) x4 x5)) p = preRow (rowOf x0 p) (mat x2) (vec x3) (mat x4) (vec x5) := by
  funext j
  show leaky (affB (lk (affA x0 x2 x3)) x4 x5 (ix2 p j)) = _
  rw [affB_apply]
  have h : rowOf (lk (affA x0 x2 x3)) p = fun a => leaky (affRow (rowOf x0 p) (mat x2) (vec x3) a) := by
    funext a
    show leaky (affA x0 x2 x3 (ix2 p a)) = _
    rw [affA_apply]
  rw [h]
  rfl

/-! ## The recurrent cell on a block -/

/-- The recurrent cell of a block from the previous embedding's block and the two 384-wide gate blocks. -/
def gru (prev : Vec Ideal S2000x128 .f32) (gi gh : FVec Ideal S2000x384 .f32) : FVec Ideal S2000x128 .f32 :=
  addf
    (mulf (subf (broadcast S2000x128 (Scalar.ofBits .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf (logistic (addf (extractStridedSlice S2000x128 ![0, 128] gi slices_S2000x384_o0_128_S2000x128)
        (extractStridedSlice S2000x128 ![0, 128] gh slices_S2000x384_o0_128_S2000x128))) prev)

/-- The body's store is the recurrent cell of the previous block, the given input-side gates and the hidden-side
    gate layer of the previous block. -/
theorem pay1_eq (x1 : Vec Ideal S2000x128 .f32) (gi : FVec Ideal S2000x384 .f32) (x7 : Vec Ideal S128x384 .f32) (x9 : Vec Ideal S384 .f32) :
    k0_pay1 x1 gi x7 x9 = gru x1 gi (affC x1 x7 x9) := rfl

/-- The three 128-wide column thirds of a 384-wide block at row p and column q. -/
theorem sl0 (x : FVec Ideal S2000x384 .f32) (p : Fin 2000) (q : Fin 128) :
    extractStridedSlice S2000x128 ![0, 0] x slices_S2000x384_o0_0_S2000x128 (ix2 p q) = x (ix2 p ⟨q.val, by omega⟩) :=
  extractStridedSlice_apply _ x _ (ix2 p q) (ix2 p ⟨q.val, by omega⟩) (fun a => by
    match a with
    | ⟨0, _⟩ => show p.val = 0 + p.val; omega
    | ⟨1, _⟩ => show q.val = 0 + q.val; omega)
theorem sl128 (x : FVec Ideal S2000x384 .f32) (p : Fin 2000) (q : Fin 128) :
    extractStridedSlice S2000x128 ![0, 128] x slices_S2000x384_o0_128_S2000x128 (ix2 p q) = x (ix2 p ⟨128 + q.val, by omega⟩) :=
  extractStridedSlice_apply _ x _ (ix2 p q) (ix2 p ⟨128 + q.val, by omega⟩) (fun a => by
    match a with
    | ⟨0, _⟩ => show p.val = 0 + p.val; omega
    | ⟨1, _⟩ => show 128 + q.val = 128 + q.val; rfl)
theorem sl256 (x : FVec Ideal S2000x384 .f32) (p : Fin 2000) (q : Fin 128) :
    extractStridedSlice S2000x128 ![0, 256] x slices_S2000x384_o0_256_S2000x128 (ix2 p q) = x (ix2 p ⟨256 + q.val, by omega⟩) :=
  extractStridedSlice_apply _ x _ (ix2 p q) (ix2 p ⟨256 + q.val, by omega⟩) (fun a => by
    match a with
    | ⟨0, _⟩ => show p.val = 0 + p.val; omega
    | ⟨1, _⟩ => show 256 + q.val = 256 + q.val; rfl)

/-- The block cell at row p and feature q is the scalar cell of the gates' columns q, 128 + q and 256 + q. -/
theorem gru_apply (prev : Vec Ideal S2000x128 .f32) (gi gh : FVec Ideal S2000x384 .f32) (p : Fin 2000) (q : Fin 128) :
    gru prev gi gh (ix2 p q)
      = gruCell (gi (ix2 p ⟨q.val, by omega⟩)) (gi (ix2 p ⟨128 + q.val, by omega⟩)) (gi (ix2 p ⟨256 + q.val, by omega⟩))
          (gh (ix2 p ⟨q.val, by omega⟩)) (gh (ix2 p ⟨128 + q.val, by omega⟩)) (gh (ix2 p ⟨256 + q.val, by omega⟩)) (prev (ix2 p q)) := by
  rw [← sl0 gi p q, ← sl128 gi p q, ← sl256 gi p q, ← sl0 gh p q, ← sl128 gh p q, ← sl256 gh p q]
  rfl

/-- The body's one store holds, at row p and feature q, the preprocessing and recurrent cell of row p of the
    features' block against row p of the previous embedding's block. -/
theorem pay_apply (x0 x1 : Vec Ideal S2000x128 .f32) (x2 : Vec Ideal S128x256 .f32) (x3 : Vec Ideal S256 .f32)
    (x4 : Vec Ideal S256x128 .f32) (x5 : Vec Ideal S128 .f32) (x6 x7 : Vec Ideal S128x384 .f32) (x8 x9 : Vec Ideal S384 .f32)
    (p : Fin 2000) (q : Fin 128) :
    k0_pay1 x1 (k0_pay2 x0 x2 x3 x4 x5 x6 x8) x7 x9 (ix2 p q)
      = gruRow (preRow (rowOf x0 p) (mat x2) (vec x3) (mat x4) (vec x5)) (rowOf x1 p) (mat x6) (mat x7) (vec x8) (vec x9) q := by
  rw [pay2_eq, pay1_eq, gru_apply]
  simp only [affC_apply]
  rw [pre_row]
  rfl

/-! ## The blocks of the region's windows -/

theorem hz : (![0, 0] : Fin 2 → Nat) = fun _ => 0 := funext fun a => by fin_cases a <;> rfl
theorem hz1 : (![0] : Fin 1 → Nat) = fun _ => 0 := funext fun a => by fin_cases a; rfl

/-- The decided index maps of the three row-blocked windows over the 50 grid points: the features, the previous
    embedding and the output all sit at block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The decided index maps of the eight weight and bias windows over the 50 grid points: each block is the whole array. -/
theorem idx_whole : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 1) = 0 :=
  (by decide +kernel : ∀ t : Fin grid0.N, _)

theorem t_lt (t : Fin cfg0.N) : t.val < 50 := by have h := t.isLt; have e : cfg0.N = 50 := N_0; omega

/-- Row p of the features' block at point t is row 2000·t + p of the array. -/
theorem emb_x (t : Fin cfg0.N) (p : Fin 2000) (k : Fin 128) :
    ((cfg0.win 0).blk t).view.emb (ix2 p k)
      = (ix2 (⟨t.val * 2000 + p.val, by have := t_lt t; have := p.isLt; omega⟩ : Fin 100000) k : S100000x128.Idx) := by
  obtain ⟨e00, e01, e10, e11, eo0, eo1⟩ := idx_rows t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row p of the previous embedding's block at point t is row 2000·t + p of the array. -/
theorem emb_prev (t : Fin cfg0.N) (p : Fin 2000) (k : Fin 128) :
    ((cfg0.win 1).blk t).view.emb (ix2 p k)
      = (ix2 (⟨t.val * 2000 + p.val, by have := t_lt t; have := p.isLt; omega⟩ : Fin 100000) k : S100000x128.Idx) := by
  obtain ⟨e00, e01, e10, e11, eo0, eo1⟩ := idx_rows t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

/-- Row p of the output's block at point t is row 2000·t + p of the array. -/
theorem emb_out (t : Fin cfg0.N) (p : Fin 2000) (k : Fin 128) :
    ((cfg0.win 10).blk t).view.emb (ix2 p k)
      = (ix2 (⟨t.val * 2000 + p.val, by have := t_lt t; have := p.isLt; omega⟩ : Fin 100000) k : S100000x128.Idx) := by
  obtain ⟨e00, e01, e10, e11, eo0, eo1⟩ := idx_rows t
  funext a; apply Fin.ext
  match a with
  | ⟨0, _⟩ => show win0_10.index t (0 : Fin 2) * 2000 + 1 * p.val = t.val * 2000 + p.val; omega
  | ⟨1, _⟩ => show win0_10.index t (1 : Fin 2) * 128 + 1 * k.val = k.val; omega

/-- The first layer's weight block is the whole matrix at every point. -/
theorem emb_w1 (t : Fin cfg0.N) (k : Fin 128) (j : Fin 256) :
    ((cfg0.win 2).blk t).view.emb (ix2 k j) = (ix2 k j : S128x256.Idx) := by
  obtain ⟨e20, e21, e3, e40, e41, e5, e60, e61, e70, e71, e8, e9⟩ := idx_whole t
  funext a; apply Fin.ext
  match a with
  | ⟨0, _⟩ => show win0_2.index t (0 : Fin 2) * 128 + 1 * k.val = k.val; omega
  | ⟨1, _⟩ => show win0_2.index t (1 : Fin 2) * 256 + 1 * j.val = j.val; omega

/-- The first layer's bias block is the whole vector at every point. -/
theorem emb_b1 (t : Fin cfg0.N) (k : Fin 256) :
    ((cfg0.win 3).blk t).view.emb (ix1 k) = (ix1 k : S256.Idx) := by
  obtain ⟨e20, e21, e3, e40, e41, e5, e60, e61, e70, e71, e8, e9⟩ := idx_whole t
  funext a; apply Fin.ext
  match a with
  | ⟨0, _⟩ => show win0_3.index t (0 : Fin 1) * 256 + 1 * k.val = k.val; omega

/-- The second layer's weight block is the whole matrix at every point. -/
theorem emb_w2 (t : Fin cfg0.N) (k : Fin 256) (j : Fin 128) :
    ((cfg0.win 4).blk t).view.emb (ix2 k j) = (ix2 k j : S256x128.Idx) := by
  obtain ⟨e20, e21, e3, e40, e41, e5, e60, e61, e70, e71, e8, e9⟩ := idx_whole t
  funext a; apply Fin.ext
  match a with
  | ⟨0, _⟩ => show win0_4.index t (0 : Fin 2) * 256 + 1 * k.val = k.val; omega
  | ⟨1, _⟩ => show win0_4.index t (1 : Fin 2) * 128 + 1 * j.val = j.val; omega

/-- The second layer's bias block is the whole vector at every point. -/
theorem emb_b2 (t : Fin cfg0.N) (k : Fin 128) :
    ((cfg0.win 5).blk t).view.emb (ix1 k) = (ix1 k : S128.Idx) := by
  obtain ⟨e20, e21, e3, e40, e41, e5, e60, e61, e70, e71, e8, e9⟩ := idx_whole t
  funext a; apply Fin.ext
  match a with
  | ⟨0, _⟩ => show win0_5.index t (0 : Fin 1) * 128 + 1 * k.val = k.val; omega

/-- The input-side gate weight block is the whole matrix at every point. -/
theorem emb_wih (t : Fin cfg0.N) (k : Fin 128) (j : Fin 384) :
    ((cfg0.win 6).blk t).view.emb (ix2 k j) = (ix2 k j : S128x384.Idx) := by
  obtain ⟨e20, e21, e3, e40, e41, e5, e60, e61, e70, e71, e8, e9⟩ := idx_whole t
  funext a; apply Fin.ext
  match a with
  | ⟨0, _⟩ => show win0_6.index t (0 : Fin 2) * 128 + 1 * k.val = k.val; omega
  | ⟨1, _⟩ => show win0_6.index t (1 : Fin 2) * 384 + 1 * j.val = j.val; omega

/-- The hidden-side gate weight block is the whole matrix at every point. -/
theorem emb_whh (t : Fin cfg0.N) (k : Fin 128) (j : Fin 384) :
    ((cfg0.win 7).blk t).view.emb (ix2 k j) = (ix2 k j : S128x384.Idx) := by
  obtain ⟨e20, e21, e3, e40, e41, e5, e60, e61, e70, e71, e8, e9⟩ := idx_whole t
  funext a; apply Fin.ext
  match a with
  | ⟨0, _⟩ => show win0_7.index t (0 : Fin 2) * 128 + 1 * k.val = k.val; omega
  | ⟨1, _⟩ => show win0_7.index t (1 : Fin 2) * 384 + 1 * j.val = j.val; omega

/-- The input-side gate bias block is the whole vector at every point. -/
theorem emb_bih (t : Fin cfg0.N) (k : Fin 384) :
    ((cfg0.win 8).blk t).view.emb (ix1 k) = (ix1 k : S384.Idx) := by
  obtain ⟨e20, e21, e3, e40, e41, e5, e60, e61, e70, e71, e8, e9⟩ := idx_whole t
  funext a; apply Fin.ext
  match a with
  | ⟨0, _⟩ => show win0_8.index t (0 : Fin 1) * 384 + 1 * k.val = k.val; omega

/-- The hidden-side gate bias block is the whole vector at every point. -/
theorem emb_bhh (t : Fin cfg0.N) (k : Fin 384) :
    ((cfg0.win 9).blk t).view.emb (ix1 k) = (ix1 k : S384.Idx) := by
  obtain ⟨e20, e21, e3, e40, e41, e5, e60, e61, e70, e71, e8, e9⟩ := idx_whole t
  funext a; apply Fin.ext
  match a with
  | ⟨0, _⟩ => show win0_9.index t (0 : Fin 1) * 384 + 1 * k.val = k.val; omega

/-- What point t writes back is block t of the row-wise preprocessing and recurrent cell of the arrays as the region
    finds them. -/
theorem flushed_eq (c : Dev nD) (t : Fin cfg0.N) :
    (dat0 V c).flushed 10 t = ((cfg0.win 10).blk t).view.read (Elt Ideal)
      (embed0 (V c main_arg0) (V c main_arg3) (V c main_v30) (V c main_arg6) (V c main_v31) (V c main_arg8)
        (V c main_v32) (V c main_v33) (V c main_arg17) (V c main_arg18)) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x256) hz, View.ld_unit_zero (S := S256x128) hz,
    View.ld_unit_zero (S := S128x384) hz, View.ld_unit_zero (S := S256) hz1, View.ld_unit_zero (S := S128) hz1,
    View.ld_unit_zero (S := S384) hz1]
  funext j
  obtain ⟨p, q, rfl⟩ : ∃ (p : Fin 2000) (q : Fin 128), j = ix2 p q := ⟨j 0, j 1, eq_ix2 j⟩
  show k0_pay1 (iblk0 V c 1 t) (k0_pay2 (iblk0 V c 0 t) (iblk0 V c 2 t) (iblk0 V c 3 t) (iblk0 V c 4 t) (iblk0 V c 5 t)
      (iblk0 V c 6 t) (iblk0 V c 8 t)) (iblk0 V c 7 t) (iblk0 V c 9 t) (ix2 p q) = _
  refine (pay_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q).trans ?_
  show gruRow (preRow (fun k => V c main_arg0 (((cfg0.win 0).blk t).view.emb (ix2 p k)))
        (fun k j => V c main_v30 (((cfg0.win 2).blk t).view.emb (ix2 k j)))
        (fun k => V c main_arg6 (((cfg0.win 3).blk t).view.emb (ix1 k)))
        (fun k j => V c main_v31 (((cfg0.win 4).blk t).view.emb (ix2 k j)))
        (fun k => V c main_arg8 (((cfg0.win 5).blk t).view.emb (ix1 k))))
      (fun k => V c main_arg3 (((cfg0.win 1).blk t).view.emb (ix2 p k)))
      (fun k j => V c main_v32 (((cfg0.win 6).blk t).view.emb (ix2 k j)))
      (fun k j => V c main_v33 (((cfg0.win 7).blk t).view.emb (ix2 k j)))
      (fun k => V c main_arg17 (((cfg0.win 8).blk t).view.emb (ix1 k)))
      (fun k => V c main_arg18 (((cfg0.win 9).blk t).view.emb (ix1 k))) q
    = (embed0 (V c main_arg0) (V c main_arg3) (V c main_v30) (V c main_arg6) (V c main_v31) (V c main_arg8)
        (V c main_v32) (V c main_v33) (V c main_arg17) (V c main_arg18)) (((cfg0.win 10).blk t).view.emb (ix2 p q))
  rw [emb_out t p q]
  have h0 : (fun k => V c main_arg0 (((cfg0.win 0).blk t).view.emb (ix2 p k)))
      = rowOf (V c main_arg0) ⟨t.val * 2000 + p.val, by have := t_lt t; have := p.isLt; omega⟩ :=
    funext fun k => congrArg (V c main_arg0) (emb_x t p k)
  have h1 : (fun k => V c main_arg3 (((cfg0.win 1).blk t).view.emb (ix2 p k)))
      = rowOf (V c main_arg3) ⟨t.val * 2000 + p.val, by have := t_lt t; have := p.isLt; omega⟩ :=
    funext fun k => congrArg (V c main_arg3) (emb_prev t p k)
  have h2 : (fun k j => V c main_v30 (((cfg0.win 2).blk t).view.emb (ix2 k j))) = mat (V c main_v30) :=
    funext fun k => funext fun j => congrArg (V c main_v30) (emb_w1 t k j)
  have h3 : (fun k => V c main_arg6 (((cfg0.win 3).blk t).view.emb (ix1 k))) = vec (V c main_arg6) :=
    funext fun k => congrArg (V c main_arg6) (emb_b1 t k)
  have h4 : (fun k j => V c main_v31 (((cfg0.win 4).blk t).view.emb (ix2 k j))) = mat (V c main_v31) :=
    funext fun k => funext fun j => congrArg (V c main_v31) (emb_w2 t k j)
  have h5 : (fun k => V c main_arg8 (((cfg0.win 5).blk t).view.emb (ix1 k))) = vec (V c main_arg8) :=
    funext fun k => congrArg (V c main_arg8) (emb_b2 t k)
  have h6 : (fun k j => V c main_v32 (((cfg0.win 6).blk t).view.emb (ix2 k j))) = mat (V c main_v32) :=
    funext fun k => funext fun j => congrArg (V c main_v32) (emb_wih t k j)
  have h7 : (fun k j => V c main_v33 (((cfg0.win 7).blk t).view.emb (ix2 k j))) = mat (V c main_v33) :=
    funext fun k => funext fun j => congrArg (V c main_v33) (emb_whh t k j)
  have h8 : (fun k => V c main_arg17 (((cfg0.win 8).blk t).view.emb (ix1 k))) = vec (V c main_arg17) :=
    funext fun k => congrArg (V c main_arg17) (emb_bih t k)
  have h9 : (fun k => V c main_arg18 (((cfg0.win 9).blk t).view.emb (ix1 k))) = vec (V c main_arg18) :=
    funext fun k => congrArg (V c main_arg18) (emb_bhh t k)
  rw [h0, h1, h2, h3, h4, h5, h6, h7, h8, h9]
  rfl

/-- An index of the array is in point t's block iff each coordinate is in the block's range on its axis. -/
theorem mem_blk (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v41).slice (win0_10.rect t)).set ↔ _
  rw [View.set_slice_whole, Rect.mem_set_unit]
  exact Iff.rfl

/-- Row r of the array is in the block of point r / 2000. -/
theorem cover (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  let t : Fin cfg0.N := ⟨(i 0).val / 2000, by rw [show cfg0.N = 50 from N_0]; omega⟩
  obtain ⟨e00, e01, e10, e11, eo0, eo1⟩ := idx_rows t
  have eo0' : win0_10.index t (0 : Fin 2) = (i 0).val / 2000 := eo0
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- After the region its output array is the row-wise preprocessing and recurrent cell of its input arrays, all as
    the region found them. -/
theorem final (c : Dev nD) : (dat0 V c).arrAt 10 cfg0.N
    = embed0 (V c main_arg0) (V c main_arg3) (V c main_v30) (V c main_arg6) (V c main_v31) (V c main_arg8)
        (V c main_v32) (V c main_v33) (V c main_arg17) (V c main_arg18) :=
  (dat0 V c).arrAt_eq_of_cover 10 (embed0 (V c main_arg0) (V c main_arg3) (V c main_v30) (V c main_arg6) (V c main_v31) (V c main_arg8)
        (V c main_v32) (V c main_v33) (V c main_arg17) (V c main_arg18)) (fun t _ => flushed_eq V c t) cover

end Cert.KernelIdeal.Emb0

end
-- ==== Proof.KLin1.lean ====
/-
  The first convolution's linear map (the second pallas_call): each grid point multiplies its block of 2000 node
  rows by the whole 128×128 weight, so row r of the result depends on row r of the input only, and the 50 blocks
  tile the 100000 rows. Hence the result array is the row-wise linear map of the input array.
-/
import proofs.«118245_j7395933684286_1_alg».proof.Proof.Gen.KernelIdeal.Frame
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lin1

open Cert.KernelIdeal Cert.KernelIdeal.Gen Idealize.ShloMosaic Idealize.ShloMosaic.TcCoe Idealize.SL.Sem
open Idealize.ShloMosaic.ValueIdx Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

abbrev D := dot_S2000x128_S128x128_S2000x128_1_0_0_1_n_n

theorem lhs_0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_1 (i : S2000x128.Idx) (q : D.contr.Idx) : (D.lhsIdx i q 1).val = (q ⟨0, by decide⟩).val :=
  D.lhsIdx_val_of_single rfl i q
theorem rhs_0 (i : S2000x128.Idx) (q : D.contr.Idx) : (D.rhsIdx i q 0).val = (q ⟨0, by decide⟩).val :=
  D.rhsIdx_val_of_single rfl i q
theorem rhs_1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The body's one store holds, at row p and column q, the product of row p of the block with column q of the weight. -/
theorem pay_apply (x0 : Vec Ideal S2000x128 .f32) (x1 : Vec Ideal S128x128 .f32) (p : Fin 2000) (q : Fin 128) :
    k1_pay1 x0 x1 (ix2 p q) = linRow (rowOf x0 p) (mat x1) q := by
  unfold k1_pay1
  rw [shapeCast_self, shapeCast_self]
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- The decided relations between the printed index maps over the 50 grid points: the input block and the output
    block sit at the same block row; the weight's block is the whole matrix. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

theorem t_lt (t : Fin cfg1.N) : t.val < 50 := by have h := t.isLt; have e : cfg1.N = 50 := N_1; omega

/-- Row p of the input's block at point t is row 2000·t + p of the array. -/
theorem emb_in (t : Fin cfg1.N) (p : Fin 2000) (k : Fin 128) :
    ((cfg1.win 0).blk t).view.emb (ix2 p k)
      = (ix2 (⟨t.val * 2000 + p.val, by have := t_lt t; have := p.isLt; omega⟩ : Fin 100000) k : S100000x128.Idx) := by
  obtain ⟨e0, e1, e2, e3, e4, e5⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- The weight's block is the whole matrix at every point. -/
theorem emb_w (t : Fin cfg1.N) (k : Fin 128) (j : Fin 128) :
    ((cfg1.win 1).blk t).view.emb (ix2 k j) = (ix2 k j : S128x128.Idx) := by
  obtain ⟨e0, e1, e2, e3, e4, e5⟩ := idx_facts t
  funext a; apply Fin.ext
  match a with
  | ⟨0, _⟩ => show win1_1.index t (0 : Fin 2) * 128 + 1 * k.val = k.val; omega
  | ⟨1, _⟩ => show win1_1.index t (1 : Fin 2) * 128 + 1 * j.val = j.val; omega

/-- Row p of the output's block at point t is row 2000·t + p of the array. -/
theorem emb_out (t : Fin cfg1.N) (p : Fin 2000) (q : Fin 128) :
    ((cfg1.win 2).blk t).view.emb (ix2 p q)
      = (ix2 (⟨t.val * 2000 + p.val, by have := t_lt t; have := p.isLt; omega⟩ : Fin 100000) q : S100000x128.Idx) := by
  obtain ⟨e0, e1, e2, e3, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 128 + 1 * q.val = q.val; omega

/-- What point t writes back is block t of the row-wise linear map of the arrays as the region finds them. -/
theorem flushed_eq (c : Dev nD) (t : Fin cfg1.N) :
    (dat1 V c).flushed 2 t = ((cfg1.win 2).blk t).view.read (Elt Ideal) (linear (V c main_v41) (V c main_v36)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q) = _
  refine (pay_apply (iblk1 V c 0 t) (iblk1 V c 1 t) p q).trans ?_
  show linRow (fun k => V c main_v41 (((cfg1.win 0).blk t).view.emb (ix2 p k)))
      (fun k j => V c main_v36 (((cfg1.win 1).blk t).view.emb (ix2 k j))) q
    = linear (V c main_v41) (V c main_v36) (((cfg1.win 2).blk t).view.emb (ix2 p q))
  rw [emb_out t p q]
  have h0 : (fun k => V c main_v41 (((cfg1.win 0).blk t).view.emb (ix2 p k)))
      = rowOf (V c main_v41) ⟨t.val * 2000 + p.val, by have := t_lt t; have := p.isLt; omega⟩ :=
    funext fun k => congrArg (V c main_v41) (emb_in t p k)
  have h1 : (fun k j => V c main_v36 (((cfg1.win 1).blk t).view.emb (ix2 k j))) = mat (V c main_v36) :=
    funext fun k => funext fun j => congrArg (V c main_v36) (emb_w t k j)
  rw [h0, h1]
  rfl

/-- An index of the array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v42).slice (win1_2.rect t)).set ↔ _
  rw [View.set_slice_whole, Rect.mem_set_unit]
  exact Iff.rfl

/-- Row r of the array is in the block of point r / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 2000, by rw [show cfg1.N = 50 from N_1]; omega⟩
  obtain ⟨e0, e1, e2, e3, e4, e5⟩ := idx_facts t
  have e5' : win1_2.index t (0 : Fin 2) = (i 0).val / 2000 := e5
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region its output array is the row-wise linear map of its input array by the weight, both as the
    region found them. -/
theorem final (c : Dev nD) : (dat1 V c).arrAt 2 cfg1.N = linear (V c main_v41) (V c main_v36) :=
  (dat1 V c).arrAt_eq_of_cover 2 (linear (V c main_v41) (V c main_v36)) (fun t _ => flushed_eq V c t) cover

end Cert.KernelIdeal.Lin1

end
-- ==== Proof.KFuse2.lean ====
/-
  Bias, rectifier and recurrent cell after the first convolution's aggregation (the third pallas_call): each grid point
  takes its block of 2000 rows of the aggregate and of the previous embedding, the bias and the whole weights; row r of
  the result depends on row r of the two row inputs only, and the 50 blocks tile the 100000 rows.
-/
import proofs.«118245_j7395933684286_1_alg».proof.Proof.Gen.KernelIdeal.Frame
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse2

open Cert.KernelIdeal Cert.KernelIdeal.Gen Idealize.ShloMosaic Idealize.ShloMosaic.TcCoe Idealize.SL.Sem
open Idealize.ShloMosaic.ValueIdx Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

abbrev D := dot_S2000x128_S128x384_S2000x384_1_0_0_1_n_n

theorem lhs_0 (i : S2000x384.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_1 (i : S2000x384.Idx) (q : D.contr.Idx) : (D.lhsIdx i q 1).val = (q ⟨0, by decide⟩).val :=
  D.lhsIdx_val_of_single rfl i q
theorem rhs_0 (i : S2000x384.Idx) (q : D.contr.Idx) : (D.rhsIdx i q 0).val = (q ⟨0, by decide⟩).val :=
  D.rhsIdx_val_of_single rfl i q
theorem rhs_1 (i : S2000x384.Idx) (q : D.contr.Idx) : (D.rhsIdx i q 1).val = (i 1).val := by
  unfold DotDims.rhsIdx
  rw [dif_neg (show ¬(1 : Fin S128x384.rank) ∈ D.rhsBatch by decide), dif_pos (show (1 : Fin S128x384.rank) ∈ D.rhsNonContracting by decide)]
  rfl

/-- A block of 2000 rows times a 128×384 matrix, accumulated from zero: at row p and column j, the sum over the 128
    shared coordinates of the products. -/
theorem mm_apply (a : FVec Ideal S2000x128 .bf16) (b : FVec Ideal S128x384 .bf16) (p : Fin 2000) (j : Fin 384) :
    matmul D none a b (constant S2000x384 .f32 0x00000000#32) (ix2 p j) = ∑ k : Fin 128, a (ix2 p k) * b (ix2 k j) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p j) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p j) ((contrEquiv1 D 128 rfl rfl).symm k) = ix2 k j := funext fun a => Fin.ext (by
    match a with
    | ⟨0, _⟩ => exact (rhs_0 _ _).trans hk
    | ⟨1, _⟩ => exact rhs_1 _ _)
  rw [el, er]

/-- A vector of 128 entries laid as one row and repeated over 2000 rows reads, at any row, the vector's entry. -/
theorem bias128_apply (x : Vec Ideal S128 .f32) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The same for a vector of 384 entries. -/
theorem bias384_apply (x : Vec Ideal S384 .f32) (p : Fin 2000) (j : Fin 384) :
    broadcastTo S2000x384 (shapeCast S1x384 x shapeCasts_S384_S1x384) broadcasts_S1x384_S2000x384 (ix2 p j) = x (ix1 j) :=
  (broadcastTo_1b_ab_apply _ _ p j).trans (shapeCast_a_1a_apply x _ 0 j)

/-- The input side's 384 gate pre-activations at row p: the affine map of the row after bias and rectifier. -/
theorem pay2_apply (x0 : Vec Ideal S2000x128 .f32) (x1 : Vec Ideal S128 .f32) (x3 : Vec Ideal S128x384 .f32) (x5 : Vec Ideal S384 .f32)
    (p : Fin 2000) (j : Fin 384) :
    k2_pay2 x0 x1 x3 x5 (ix2 p j) = affRow (biasLeakyRow (rowOf x0 p) (vec x1)) (mat x3) (vec x5) j := by
  unfold k2_pay2
  rw [shapeCast_self, shapeCast_self, addf_apply, mm_apply, bias384_apply]
  refine congrArg (· + x5 (ix1 j)) (Finset.sum_congr rfl fun k _ => ?_)
  rw [truncf_apply, truncf_apply, select_apply, cmpf_apply, mulf_apply, addf_apply, broadcast_apply, broadcast_apply,
    bias128_apply]
  rfl

/-- The recurrent side's 384 gate pre-activations at row p: the affine map of the previous embedding's row. -/
theorem pay3_apply (x2 : Vec Ideal S2000x128 .f32) (x4 : Vec Ideal S128x384 .f32) (x6 : Vec Ideal S384 .f32)
    (p : Fin 2000) (j : Fin 384) :
    k2_pay3 x2 x4 x6 (ix2 p j) = affRow (rowOf x2 p) (mat x4) (vec x6) j := by
  unfold k2_pay3
  rw [shapeCast_self, addf_apply, mm_apply, bias384_apply]
  refine congrArg (· + x6 (ix1 j)) (Finset.sum_congr rfl fun k _ => ?_)
  rw [truncf_apply, truncf_apply]

/-- The three thirds of a row of 384 pre-activations: columns q, 128 + q and 256 + q. -/
theorem third0 (X : FVec Ideal S2000x384 .f32) (p : Fin 2000) (q : Fin 128) :
    extractStridedSlice S2000x128 ![0, 0] X slices_S2000x384_o0_0_S2000x128 (ix2 p q) = X (ix2 p ⟨q.val, by omega⟩) :=
  slice2_axis1_apply 0 X _ p q _ (Nat.zero_add _).symm
theorem third1 (X : FVec Ideal S2000x384 .f32) (p : Fin 2000) (q : Fin 128) :
    extractStridedSlice S2000x128 ![0, 128] X slices_S2000x384_o0_128_S2000x128 (ix2 p q) = X (ix2 p ⟨128 + q.val, by omega⟩) :=
  slice2_axis1_apply 128 X _ p q _ rfl
theorem third2 (X : FVec Ideal S2000x384 .f32) (p : Fin 2000) (q : Fin 128) :
    extractStridedSlice S2000x128 ![0, 256] X slices_S2000x384_o0_256_S2000x128 (ix2 p q) = X (ix2 p ⟨256 + q.val, by omega⟩) :=
  slice2_axis1_apply 256 X _ p q _ rfl

/-- The logistic function and the hyperbolic tangent act entry by entry. -/
theorem logistic_apply (a : FVec Ideal S2000x128 .f32) (i : S2000x128.Idx) : logistic a i = Ideal.logistic (a i) := rfl
theorem tanh_apply (a : FVec Ideal S2000x128 .f32) (i : S2000x128.Idx) : tanh a i = Ideal.tanh (a i) := rfl

/-- The update gate at row p, feature q. -/
theorem pay4_apply (x0 : Vec Ideal S2000x128 .f32) (x1 : Vec Ideal S128 .f32) (x2 : Vec Ideal S2000x128 .f32)
    (x3 : Vec Ideal S128x384 .f32) (x5 : Vec Ideal S384 .f32) (x4 : Vec Ideal S128x384 .f32) (x6 : Vec Ideal S384 .f32)
    (p : Fin 2000) (q : Fin 128) :
    k2_pay4 x0 x1 x2 x3 x5 x4 x6 (ix2 p q)
      = Ideal.logistic (k2_pay2 x0 x1 x3 x5 (ix2 p ⟨128 + q.val, by omega⟩) + k2_pay3 x2 x4 x6 (ix2 p ⟨128 + q.val, by omega⟩)) := by
  unfold k2_pay4
  rw [logistic_apply, addf_apply, third1, third1]

/-- The candidate at row p, feature q. -/
theorem pay5_apply (x0 : Vec Ideal S2000x128 .f32) (x1 : Vec Ideal S128 .f32) (x2 : Vec Ideal S2000x128 .f32)
    (x3 : Vec Ideal S128x384 .f32) (x5 : Vec Ideal S384 .f32) (x4 : Vec Ideal S128x384 .f32) (x6 : Vec Ideal S384 .f32)
    (p : Fin 2000) (q : Fin 128) :
    k2_pay5 x0 x1 x2 x3 x5 x4 x6 (ix2 p q)
      = Ideal.tanh (k2_pay2 x0 x1 x3 x5 (ix2 p ⟨256 + q.val, by omega⟩)
          + Ideal.logistic (k2_pay2 x0 x1 x3 x5 (ix2 p ⟨q.val, by omega⟩) + k2_pay3 x2 x4 x6 (ix2 p ⟨q.val, by omega⟩))
            * k2_pay3 x2 x4 x6 (ix2 p ⟨256 + q.val, by omega⟩)) := by
  unfold k2_pay5
  rw [tanh_apply, addf_apply, mulf_apply, logistic_apply, addf_apply, third0, third0, third2, third2]

/-- The body's one store holds, at row p and feature q, the recurrent cell of row p of the aggregate after bias and
    rectifier against row p of the previous embedding. -/
theorem pay_apply (x0 : Vec Ideal S2000x128 .f32) (x1 : Vec Ideal S128 .f32) (x2 : Vec Ideal S2000x128 .f32)
    (x3 : Vec Ideal S128x384 .f32) (x4 : Vec Ideal S128x384 .f32) (x5 : Vec Ideal S384 .f32) (x6 : Vec Ideal S384 .f32)
    (p : Fin 2000) (q : Fin 128) :
    k2_pay1 x2 (k2_pay4 x0 x1 x2 x3 x5 x4 x6) (k2_pay5 x0 x1 x2 x3 x5 x4 x6) (Scalar.ofBits .f32 0x3F800000#32) (ix2 p q)
      = gruRow (biasLeakyRow (rowOf x0 p) (vec x1)) (rowOf x2 p) (mat x3) (mat x4) (vec x5) (vec x6) q := by
  unfold k2_pay1
  rw [addf_apply, mulf_apply, mulf_apply, subf_apply, broadcast_apply, pay4_apply, pay5_apply]
  simp only [pay2_apply, pay3_apply]
  rfl

/-- The decided relations between the printed index maps over the 50 grid points: the aggregate's, the previous
    embedding's and the output's blocks sit at block row t; every other window's block is its whole array. -/
theorem idx_facts : ∀ t : Fin cfg2.N,
    win2_0.index t (0 : Fin 2) = t.val ∧ win2_0.index t (1 : Fin 2) = 0
    ∧ win2_2.index t (0 : Fin 2) = t.val ∧ win2_2.index t (1 : Fin 2) = 0
    ∧ win2_7.index t (0 : Fin 2) = t.val ∧ win2_7.index t (1 : Fin 2) = 0
    ∧ win2_1.index t (0 : Fin 1) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0 ∧ win2_6.index t (0 : Fin 1) = 0 :=
  (by decide +kernel : ∀ t : Fin grid2.N, _)

theorem t_lt (t : Fin cfg2.N) : t.val < 50 := by have h := t.isLt; have e : cfg2.N = 50 := N_2; omega

/-- Row p of the aggregate's block at point t is row 2000·t + p of the array. -/
theorem emb_agg (t : Fin cfg2.N) (p : Fin 2000) (k : Fin 128) :
    ((cfg2.win 0).blk t).view.emb (ix2 p k)
      = (ix2 (⟨t.val * 2000 + p.val, by have := t_lt t; have := p.isLt; omega⟩ : Fin 100000) k : S100000x128.Idx) := by
  obtain ⟨e00, e01, e20, e21, e70, e71, e1, e30, e31, e40, e41, e5, e6⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- Row p of the previous embedding's block at point t is row 2000·t + p of the array. -/
theorem emb_prev (t : Fin cfg2.N) (p : Fin 2000) (k : Fin 128) :
    ((cfg2.win 2).blk t).view.emb (ix2 p k)
      = (ix2 (⟨t.val * 2000 + p.val, by have := t_lt t; have := p.isLt; omega⟩ : Fin 100000) k : S100000x128.Idx) := by
  obtain ⟨e00, e01, e20, e21, e70, e71, e1, e30, e31, e40, e41, e5, e6⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 128 + 1 * k.val = k.val; omega

/-- Row p of the output's block at point t is row 2000·t + p of the array. -/
theorem emb_out (t : Fin cfg2.N) (p : Fin 2000) (q : Fin 128) :
    ((cfg2.win 7).blk t).view.emb (ix2 p q)
      = (ix2 (⟨t.val * 2000 + p.val, by have := t_lt t; have := p.isLt; omega⟩ : Fin 100000) q : S100000x128.Idx) := by
  obtain ⟨e00, e01, e20, e21, e70, e71, e1, e30, e31, e40, e41, e5, e6⟩ := idx_facts t
  funext a; apply Fin.ext
  match a with
  | ⟨0, _⟩ => show win2_7.index t (0 : Fin 2) * 2000 + 1 * p.val = t.val * 2000 + p.val; omega
  | ⟨1, _⟩ => show win2_7.index t (1 : Fin 2) * 128 + 1 * q.val = q.val; omega

/-- The bias's block is the whole vector at every point. -/
theorem emb_bias (t : Fin cfg2.N) (k : Fin 128) : ((cfg2.win 1).blk t).view.emb (ix1 k) = (ix1 k : S128.Idx) := by
  obtain ⟨e00, e01, e20, e21, e70, e71, e1, e30, e31, e40, e41, e5, e6⟩ := idx_facts t
  funext a; apply Fin.ext
  match a with
  | ⟨0, _⟩ => show win2_1.index t (0 : Fin 1) * 128 + 1 * k.val = k.val; omega

/-- The input-side weight's block is the whole matrix at every point. -/
theorem emb_wih (t : Fin cfg2.N) (k : Fin 128) (j : Fin 384) :
    ((cfg2.win 3).blk t).view.emb (ix2 k j) = (ix2 k j : S128x384.Idx) := by
  obtain ⟨e00, e01, e20, e21, e70, e71, e1, e30, e31, e40, e41, e5, e6⟩ := idx_facts t
  funext a; apply Fin.ext
  match a with
  | ⟨0, _⟩ => show win2_3.index t (0 : Fin 2) * 128 + 1 * k.val = k.val; omega
  | ⟨1, _⟩ => show win2_3.index t (1 : Fin 2) * 384 + 1 * j.val = j.val; omega

/-- The recurrent-side weight's block is the whole matrix at every point. -/
theorem emb_whh (t : Fin cfg2.N) (k : Fin 128) (j : Fin 384) :
    ((cfg2.win 4).blk t).view.emb (ix2 k j) = (ix2 k j : S128x384.Idx) := by
  obtain ⟨e00, e01, e20, e21, e70, e71, e1, e30, e31, e40, e41, e5, e6⟩ := idx_facts t
  funext a; apply Fin.ext
  match a with
  | ⟨0, _⟩ => show win2_4.index t (0 : Fin 2) * 128 + 1 * k.val = k.val; omega
  | ⟨1, _⟩ => show win2_4.index t (1 : Fin 2) * 384 + 1 * j.val = j.val; omega

/-- The two gate biases' blocks are the whole vectors at every point. -/
theorem emb_bih (t : Fin cfg2.N) (j : Fin 384) : ((cfg2.win 5).blk t).view.emb (ix1 j) = (ix1 j : S384.Idx) := by
  obtain ⟨e00, e01, e20, e21, e70, e71, e1, e30, e31, e40, e41, e5, e6⟩ := idx_facts t
  funext a; apply Fin.ext
  match a with
  | ⟨0, _⟩ => show win2_5.index t (0 : Fin 1) * 384 + 1 * j.val = j.val; omega
theorem emb_bhh (t : Fin cfg2.N) (j : Fin 384) : ((cfg2.win 6).blk t).view.emb (ix1 j) = (ix1 j : S384.Idx) := by
  obtain ⟨e00, e01, e20, e21, e70, e71, e1, e30, e31, e40, e41, e5, e6⟩ := idx_facts t
  funext a; apply Fin.ext
  match a with
  | ⟨0, _⟩ => show win2_6.index t (0 : Fin 1) * 384 + 1 * j.val = j.val; omega

/-- What point t writes back is block t of the row-wise bias, rectifier and recurrent cell of the arrays as the region
    finds them. -/
theorem flushed_eq (c : Dev nD) (t : Fin cfg2.N) :
    (dat2 V c).flushed 7 t = ((cfg2.win 7).blk t).view.read (Elt Ideal)
      (fuse (V c main_v55) (V c main_arg10) (V c main_arg3) (V c main_v32) (V c main_v33) (V c main_arg17) (V c main_arg18)) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x384) hz,
    View.ld_unit_zero (S := S128) hz1, View.ld_unit_zero (S := S384) hz1]
  funext j
  obtain ⟨p, q, rfl⟩ : ∃ (p : Fin 2000) (q : Fin 128), j = ix2 p q := ⟨j 0, j 1, eq_ix2 j⟩
  show k2_pay1 (iblk2 V c 2 t)
      (k2_pay4 (iblk2 V c 0 t) (iblk2 V c 1 t) (iblk2 V c 2 t) (iblk2 V c 3 t) (iblk2 V c 5 t) (iblk2 V c 4 t) (iblk2 V c 6 t))
      (k2_pay5 (iblk2 V c 0 t) (iblk2 V c 1 t) (iblk2 V c 2 t) (iblk2 V c 3 t) (iblk2 V c 5 t) (iblk2 V c 4 t) (iblk2 V c 6 t))
      (Scalar.ofBits .f32 0x3F800000#32) (ix2 p q) = _
  refine (pay_apply (iblk2 V c 0 t) (iblk2 V c 1 t) (iblk2 V c 2 t) (iblk2 V c 3 t) (iblk2 V c 4 t) (iblk2 V c 5 t)
    (iblk2 V c 6 t) p q).trans ?_
  show gruRow
      (biasLeakyRow (fun k => V c main_v55 (((cfg2.win 0).blk t).view.emb (ix2 p k)))
        (fun k => V c main_arg10 (((cfg2.win 1).blk t).view.emb (ix1 k))))
      (fun k => V c main_arg3 (((cfg2.win 2).blk t).view.emb (ix2 p k)))
      (fun k j => V c main_v32 (((cfg2.win 3).blk t).view.emb (ix2 k j)))
      (fun k j => V c main_v33 (((cfg2.win 4).blk t).view.emb (ix2 k j)))
      (fun j => V c main_arg17 (((cfg2.win 5).blk t).view.emb (ix1 j)))
      (fun j => V c main_arg18 (((cfg2.win 6).blk t).view.emb (ix1 j))) q
    = fuse (V c main_v55) (V c main_arg10) (V c main_arg3) (V c main_v32) (V c main_v33) (V c main_arg17) (V c main_arg18)
        (((cfg2.win 7).blk t).view.emb (ix2 p q))
  rw [emb_out t p q]
  have h0 : (fun k => V c main_v55 (((cfg2.win 0).blk t).view.emb (ix2 p k)))
      = rowOf (V c main_v55) ⟨t.val * 2000 + p.val, by have := t_lt t; have := p.isLt; omega⟩ :=
    funext fun k => congrArg (V c main_v55) (emb_agg t p k)
  have h1 : (fun k => V c main_arg10 (((cfg2.win 1).blk t).view.emb (ix1 k))) = vec (V c main_arg10) :=
    funext fun k => congrArg (V c main_arg10) (emb_bias t k)
  have h2 : (fun k => V c main_arg3 (((cfg2.win 2).blk t).view.emb (ix2 p k)))
      = rowOf (V c main_arg3) ⟨t.val * 2000 + p.val, by have := t_lt t; have := p.isLt; omega⟩ :=
    funext fun k => congrArg (V c main_arg3) (emb_prev t p k)
  have h3 : (fun k j => V c main_v32 (((cfg2.win 3).blk t).view.emb (ix2 k j))) = mat (V c main_v32) :=
    funext fun k => funext fun j => congrArg (V c main_v32) (emb_wih t k j)
  have h4 : (fun k j => V c main_v33 (((cfg2.win 4).blk t).view.emb (ix2 k j))) = mat (V c main_v33) :=
    funext fun k => funext fun j => congrArg (V c main_v33) (emb_whh t k j)
  have h5 : (fun j => V c main_arg17 (((cfg2.win 5).blk t).view.emb (ix1 j))) = vec (V c main_arg17) :=
    funext fun j => congrArg (V c main_arg17) (emb_bih t j)
  have h6 : (fun j => V c main_arg18 (((cfg2.win 6).blk t).view.emb (ix1 j))) = vec (V c main_arg18) :=
    funext fun j => congrArg (V c main_arg18) (emb_bhh t j)
  rw [h0, h1, h2, h3, h4, h5, h6]
  rfl

/-- An index of the array is in point t's block iff each coordinate is in the block's range on its axis. -/
theorem mem_blk (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v56).slice (win2_7.rect t)).set ↔ _
  rw [View.set_slice_whole, Rect.mem_set_unit]
  exact Iff.rfl

/-- Row r of the array is in the block of point r / 2000. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  let t : Fin cfg2.N := ⟨(i 0).val / 2000, by rw [show cfg2.N = 50 from N_2]; omega⟩
  obtain ⟨e00, e01, e20, e21, e70, e71, e1, e30, e31, e40, e41, e5, e6⟩ := idx_facts t
  have e70' : win2_7.index t (0 : Fin 2) = (i 0).val / 2000 := e70
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- After the region its output array is the row-wise bias, rectifier and recurrent cell of its input arrays, all as
    the region found them. -/
theorem final (c : Dev nD) : (dat2 V c).arrAt 7 cfg2.N
    = fuse (V c main_v55) (V c main_arg10) (V c main_arg3) (V c main_v32) (V c main_v33) (V c main_arg17) (V c main_arg18) :=
  (dat2 V c).arrAt_eq_of_cover 7
    (fuse (V c main_v55) (V c main_arg10) (V c main_arg3) (V c main_v32) (V c main_v33) (V c main_arg17) (V c main_arg18))
    (fun t _ => flushed_eq V c t) cover

end Cert.KernelIdeal.Fuse2

end
-- ==== Proof.KFuse4.lean ====
/-
  Bias, rectifier and recurrent cell after the second convolution's aggregation (the fifth pallas_call): each grid point
  takes its block of 2000 rows of the aggregate and of the previous embedding, the bias and the whole weights; row r of
  the result depends on row r of the two row inputs only, and the 50 blocks tile the 100000 rows.
-/
import proofs.«118245_j7395933684286_1_alg».proof.Proof.Gen.KernelIdeal.Frame
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse4

open Cert.KernelIdeal Cert.KernelIdeal.Gen Idealize.ShloMosaic Idealize.ShloMosaic.TcCoe Idealize.SL.Sem
open Idealize.ShloMosaic.ValueIdx Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

abbrev D := dot_S2000x128_S128x384_S2000x384_1_0_0_1_n_n

theorem lhs_0 (i : S2000x384.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_1 (i : S2000x384.Idx) (q : D.contr.Idx) : (D.lhsIdx i q 1).val = (q ⟨0, by decide⟩).val :=
  D.lhsIdx_val_of_single rfl i q
theorem rhs_0 (i : S2000x384.Idx) (q : D.contr.Idx) : (D.rhsIdx i q 0).val = (q ⟨0, by decide⟩).val :=
  D.rhsIdx_val_of_single rfl i q
theorem rhs_1 (i : S2000x384.Idx) (q : D.contr.Idx) : (D.rhsIdx i q 1).val = (i 1).val := by
  unfold DotDims.rhsIdx
  rw [dif_neg (show ¬(1 : Fin S128x384.rank) ∈ D.rhsBatch by decide), dif_pos (show (1 : Fin S128x384.rank) ∈ D.rhsNonContracting by decide)]
  rfl

/-- A block of 2000 rows times a 128×384 matrix, accumulated from zero: at row p and column j, the sum over the 128
    shared coordinates of the products. -/
theorem mm_apply (a : FVec Ideal S2000x128 .bf16) (b : FVec Ideal S128x384 .bf16) (p : Fin 2000) (j : Fin 384) :
    matmul D none a b (constant S2000x384 .f32 0x00000000#32) (ix2 p j) = ∑ k : Fin 128, a (ix2 p k) * b (ix2 k j) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p j) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p j) ((contrEquiv1 D 128 rfl rfl).symm k) = ix2 k j := funext fun a => Fin.ext (by
    match a with
    | ⟨0, _⟩ => exact (rhs_0 _ _).trans hk
    | ⟨1, _⟩ => exact rhs_1 _ _)
  rw [el, er]

/-- A vector of 128 entries laid as one row and repeated over 2000 rows reads, at any row, the vector's entry. -/
theorem bias128_apply (x : Vec Ideal S128 .f32) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The same for a vector of 384 entries. -/
theorem bias384_apply (x : Vec Ideal S384 .f32) (p : Fin 2000) (j : Fin 384) :
    broadcastTo S2000x384 (shapeCast S1x384 x shapeCasts_S384_S1x384) broadcasts_S1x384_S2000x384 (ix2 p j) = x (ix1 j) :=
  (broadcastTo_1b_ab_apply _ _ p j).trans (shapeCast_a_1a_apply x _ 0 j)

/-- The input side's 384 gate pre-activations at row p: the affine map of the row after bias and rectifier. -/
theorem pay2_apply (x0 : Vec Ideal S2000x128 .f32) (x1 : Vec Ideal S128 .f32) (x3 : Vec Ideal S128x384 .f32) (x5 : Vec Ideal S384 .f32)
    (p : Fin 2000) (j : Fin 384) :
    k4_pay2 x0 x1 x3 x5 (ix2 p j) = affRow (biasLeakyRow (rowOf x0 p) (vec x1)) (mat x3) (vec x5) j := by
  unfold k4_pay2
  rw [shapeCast_self, shapeCast_self, addf_apply, mm_apply, bias384_apply]
  refine congrArg (· + x5 (ix1 j)) (Finset.sum_congr rfl fun k _ => ?_)
  rw [truncf_apply, truncf_apply, select_apply, cmpf_apply, mulf_apply, addf_apply, broadcast_apply, broadcast_apply,
    bias128_apply]
  rfl

/-- The recurrent side's 384 gate pre-activations at row p: the affine map of the previous embedding's row. -/
theorem pay3_apply (x2 : Vec Ideal S2000x128 .f32) (x4 : Vec Ideal S128x384 .f32) (x6 : Vec Ideal S384 .f32)
    (p : Fin 2000) (j : Fin 384) :
    k4_pay3 x2 x4 x6 (ix2 p j) = affRow (rowOf x2 p) (mat x4) (vec x6) j := by
  unfold k4_pay3
  rw [shapeCast_self, addf_apply, mm_apply, bias384_apply]
  refine congrArg (· + x6 (ix1 j)) (Finset.sum_congr rfl fun k _ => ?_)
  rw [truncf_apply, truncf_apply]

/-- The three thirds of a row of 384 pre-activations: columns q, 128 + q and 256 + q. -/
theorem third0 (X : FVec Ideal S2000x384 .f32) (p : Fin 2000) (q : Fin 128) :
    extractStridedSlice S2000x128 ![0, 0] X slices_S2000x384_o0_0_S2000x128 (ix2 p q) = X (ix2 p ⟨q.val, by omega⟩) :=
  slice2_axis1_apply 0 X _ p q _ (Nat.zero_add _).symm
theorem third1 (X : FVec Ideal S2000x384 .f32) (p : Fin 2000) (q : Fin 128) :
    extractStridedSlice S2000x128 ![0, 128] X slices_S2000x384_o0_128_S2000x128 (ix2 p q) = X (ix2 p ⟨128 + q.val, by omega⟩) :=
  slice2_axis1_apply 128 X _ p q _ rfl
theorem third2 (X : FVec Ideal S2000x384 .f32) (p : Fin 2000) (q : Fin 128) :
    extractStridedSlice S2000x128 ![0, 256] X slices_S2000x384_o0_256_S2000x128 (ix2 p q) = X (ix2 p ⟨256 + q.val, by omega⟩) :=
  slice2_axis1_apply 256 X _ p q _ rfl

/-- The logistic function and the hyperbolic tangent act entry by entry. -/
theorem logistic_apply (a : FVec Ideal S2000x128 .f32) (i : S2000x128.Idx) : logistic a i = Ideal.logistic (a i) := rfl
theorem tanh_apply (a : FVec Ideal S2000x128 .f32) (i : S2000x128.Idx) : tanh a i = Ideal.tanh (a i) := rfl

/-- The update gate at row p, feature q. -/
theorem pay4_apply (x0 : Vec Ideal S2000x128 .f32) (x1 : Vec Ideal S128 .f32) (x2 : Vec Ideal S2000x128 .f32)
    (x3 : Vec Ideal S128x384 .f32) (x5 : Vec Ideal S384 .f32) (x4 : Vec Ideal S128x384 .f32) (x6 : Vec Ideal S384 .f32)
    (p : Fin 2000) (q : Fin 128) :
    k4_pay4 x0 x1 x2 x3 x5 x4 x6 (ix2 p q)
      = Ideal.logistic (k4_pay2 x0 x1 x3 x5 (ix2 p ⟨128 + q.val, by omega⟩) + k4_pay3 x2 x4 x6 (ix2 p ⟨128 + q.val, by omega⟩)) := by
  unfold k4_pay4
  rw [logistic_apply, addf_apply, third1, third1]

/-- The candidate at row p, feature q. -/
theorem pay5_apply (x0 : Vec Ideal S2000x128 .f32) (x1 : Vec Ideal S128 .f32) (x2 : Vec Ideal S2000x128 .f32)
    (x3 : Vec Ideal S128x384 .f32) (x5 : Vec Ideal S384 .f32) (x4 : Vec Ideal S128x384 .f32) (x6 : Vec Ideal S384 .f32)
    (p : Fin 2000) (q : Fin 128) :
    k4_pay5 x0 x1 x2 x3 x5 x4 x6 (ix2 p q)
      = Ideal.tanh (k4_pay2 x0 x1 x3 x5 (ix2 p ⟨256 + q.val, by omega⟩)
          + Ideal.logistic (k4_pay2 x0 x1 x3 x5 (ix2 p ⟨q.val, by omega⟩) + k4_pay3 x2 x4 x6 (ix2 p ⟨q.val, by omega⟩))
            * k4_pay3 x2 x4 x6 (ix2 p ⟨256 + q.val, by omega⟩)) := by
  unfold k4_pay5
  rw [tanh_apply, addf_apply, mulf_apply, logistic_apply, addf_apply, third0, third0, third2, third2]

/-- The body's one store holds, at row p and feature q, the recurrent cell of row p of the aggregate after bias and
    rectifier against row p of the previous embedding. -/
theorem pay_apply (x0 : Vec Ideal S2000x128 .f32) (x1 : Vec Ideal S128 .f32) (x2 : Vec Ideal S2000x128 .f32)
    (x3 : Vec Ideal S128x384 .f32) (x4 : Vec Ideal S128x384 .f32) (x5 : Vec Ideal S384 .f32) (x6 : Vec Ideal S384 .f32)
    (p : Fin 2000) (q : Fin 128) :
    k4_pay1 x2 (k4_pay4 x0 x1 x2 x3 x5 x4 x6) (k4_pay5 x0 x1 x2 x3 x5 x4 x6) (Scalar.ofBits .f32 0x3F800000#32) (ix2 p q)
      = gruRow (biasLeakyRow (rowOf x0 p) (vec x1)) (rowOf x2 p) (mat x3) (mat x4) (vec x5) (vec x6) q := by
  unfold k4_pay1
  rw [addf_apply, mulf_apply, mulf_apply, subf_apply, broadcast_apply, pay4_apply, pay5_apply]
  simp only [pay2_apply, pay3_apply]
  rfl

/-- The decided relations between the printed index maps over the 50 grid points: the aggregate's, the previous
    embedding's and the output's blocks sit at block row t; every other window's block is its whole array. -/
theorem idx_facts : ∀ t : Fin cfg4.N,
    win4_0.index t (0 : Fin 2) = t.val ∧ win4_0.index t (1 : Fin 2) = 0
    ∧ win4_2.index t (0 : Fin 2) = t.val ∧ win4_2.index t (1 : Fin 2) = 0
    ∧ win4_7.index t (0 : Fin 2) = t.val ∧ win4_7.index t (1 : Fin 2) = 0
    ∧ win4_1.index t (0 : Fin 1) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0 ∧ win4_6.index t (0 : Fin 1) = 0 :=
  (by decide +kernel : ∀ t : Fin grid4.N, _)

theorem t_lt (t : Fin cfg4.N) : t.val < 50 := by have h := t.isLt; have e : cfg4.N = 50 := N_4; omega

/-- Row p of the aggregate's block at point t is row 2000·t + p of the array. -/
theorem emb_agg (t : Fin cfg4.N) (p : Fin 2000) (k : Fin 128) :
    ((cfg4.win 0).blk t).view.emb (ix2 p k)
      = (ix2 (⟨t.val * 2000 + p.val, by have := t_lt t; have := p.isLt; omega⟩ : Fin 100000) k : S100000x128.Idx) := by
  obtain ⟨e00, e01, e20, e21, e70, e71, e1, e30, e31, e40, e41, e5, e6⟩ := idx_facts t
  funext a; apply Fin.ext
  match a with
  | ⟨0, _⟩ => show win4_0.index t (0 : Fin 2) * 2000 + 1 * p.val = t.val * 2000 + p.val; omega
  | ⟨1, _⟩ => show win4_0.index t (1 : Fin 2) * 128 + 1 * k.val = k.val; omega

/-- Row p of the previous embedding's block at point t is row 2000·t + p of the array. -/
theorem emb_prev (t : Fin cfg4.N) (p : Fin 2000) (k : Fin 128) :
    ((cfg4.win 2).blk t).view.emb (ix2 p k)
      = (ix2 (⟨t.val * 2000 + p.val, by have := t_lt t; have := p.isLt; omega⟩ : Fin 100000) k : S100000x128.Idx) := by
  obtain ⟨e00, e01, e20, e21, e70, e71, e1, e30, e31, e40, e41, e5, e6⟩ := idx_facts t
  funext a; apply Fin.ext
  match a with
  | ⟨0, _⟩ => show win4_2.index t (0 : Fin 2) * 2000 + 1 * p.val = t.val * 2000 + p.val; omega
  | ⟨1, _⟩ => show win4_2.index t (1 : Fin 2) * 128 + 1 * k.val = k.val; omega

/-- Row p of the output's block at point t is row 2000·t + p of the array. -/
theorem emb_out (t : Fin cfg4.N) (p : Fin 2000) (q : Fin 128) :
    ((cfg4.win 7).blk t).view.emb (ix2 p q)
      = (ix2 (⟨t.val * 2000 + p.val, by have := t_lt t; have := p.isLt; omega⟩ : Fin 100000) q : S100000x128.Idx) := by
  obtain ⟨e00, e01, e20, e21, e70, e71, e1, e30, e31, e40, e41, e5, e6⟩ := idx_facts t
  funext a; apply Fin.ext
  match a with
  | ⟨0, _⟩ => show win4_7.index t (0 : Fin 2) * 2000 + 1 * p.val = t.val * 2000 + p.val; omega
  | ⟨1, _⟩ => show win4_7.index t (1 : Fin 2) * 128 + 1 * q.val = q.val; omega

/-- The bias's block is the whole vector at every point. -/
theorem emb_bias (t : Fin cfg4.N) (k : Fin 128) : ((cfg4.win 1).blk t).view.emb (ix1 k) = (ix1 k : S128.Idx) := by
  obtain ⟨e00, e01, e20, e21, e70, e71, e1, e30, e31, e40, e41, e5, e6⟩ := idx_facts t
  funext a; apply Fin.ext
  match a with
  | ⟨0, _⟩ => show win4_1.index t (0 : Fin 1) * 128 + 1 * k.val = k.val; omega

/-- The input-side weight's block is the whole matrix at every point. -/
theorem emb_wih (t : Fin cfg4.N) (k : Fin 128) (j : Fin 384) :
    ((cfg4.win 3).blk t).view.emb (ix2 k j) = (ix2 k j : S128x384.Idx) := by
  obtain ⟨e00, e01, e20, e21, e70, e71, e1, e30, e31, e40, e41, e5, e6⟩ := idx_facts t
  funext a; apply Fin.ext
  match a with
  | ⟨0, _⟩ => show win4_3.index t (0 : Fin 2) * 128 + 1 * k.val = k.val; omega
  | ⟨1, _⟩ => show win4_3.index t (1 : Fin 2) * 384 + 1 * j.val = j.val; omega

/-- The recurrent-side weight's block is the whole matrix at every point. -/
theorem emb_whh (t : Fin cfg4.N) (k : Fin 128) (j : Fin 384) :
    ((cfg4.win 4).blk t).view.emb (ix2 k j) = (ix2 k j : S128x384.Idx) := by
  obtain ⟨e00, e01, e20, e21, e70, e71, e1, e30, e31, e40, e41, e5, e6⟩ := idx_facts t
  funext a; apply Fin.ext
  match a with
  | ⟨0, _⟩ => show win4_4.index t (0 : Fin 2) * 128 + 1 * k.val = k.val; omega
  | ⟨1, _⟩ => show win4_4.index t (1 : Fin 2) * 384 + 1 * j.val = j.val; omega

/-- The two gate biases' blocks are the whole vectors at every point. -/
theorem emb_bih (t : Fin cfg4.N) (j : Fin 384) : ((cfg4.win 5).blk t).view.emb (ix1 j) = (ix1 j : S384.Idx) := by
  obtain ⟨e00, e01, e20, e21, e70, e71, e1, e30, e31, e40, e41, e5, e6⟩ := idx_facts t
  funext a; apply Fin.ext
  match a with
  | ⟨0, _⟩ => show win4_5.index t (0 : Fin 1) * 384 + 1 * j.val = j.val; omega
theorem emb_bhh (t : Fin cfg4.N) (j : Fin 384) : ((cfg4.win 6).blk t).view.emb (ix1 j) = (ix1 j : S384.Idx) := by
  obtain ⟨e00, e01, e20, e21, e70, e71, e1, e30, e31, e40, e41, e5, e6⟩ := idx_facts t
  funext a; apply Fin.ext
  match a with
  | ⟨0, _⟩ => show win4_6.index t (0 : Fin 1) * 384 + 1 * j.val = j.val; omega

/-- What point t writes back is block t of the row-wise bias, rectifier and recurrent cell of the arrays as the region
    finds them. -/
theorem flushed_eq (c : Dev nD) (t : Fin cfg4.N) :
    (dat4 V c).flushed 7 t = ((cfg4.win 7).blk t).view.read (Elt Ideal)
      (fuse (V c main_v70) (V c main_arg12) (V c main_arg4) (V c main_v34) (V c main_v35) (V c main_arg21) (V c main_arg22)) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x384) hz,
    View.ld_unit_zero (S := S128) hz1, View.ld_unit_zero (S := S384) hz1]
  funext j
  obtain ⟨p, q, rfl⟩ : ∃ (p : Fin 2000) (q : Fin 128), j = ix2 p q := ⟨j 0, j 1, eq_ix2 j⟩
  show k4_pay1 (iblk4 V c 2 t)
      (k4_pay4 (iblk4 V c 0 t) (iblk4 V c 1 t) (iblk4 V c 2 t) (iblk4 V c 3 t) (iblk4 V c 5 t) (iblk4 V c 4 t) (iblk4 V c 6 t))
      (k4_pay5 (iblk4 V c 0 t) (iblk4 V c 1 t) (iblk4 V c 2 t) (iblk4 V c 3 t) (iblk4 V c 5 t) (iblk4 V c 4 t) (iblk4 V c 6 t))
      (Scalar.ofBits .f32 0x3F800000#32) (ix2 p q) = _
  refine (pay_apply (iblk4 V c 0 t) (iblk4 V c 1 t) (iblk4 V c 2 t) (iblk4 V c 3 t) (iblk4 V c 4 t) (iblk4 V c 5 t)
    (iblk4 V c 6 t) p q).trans ?_
  show gruRow
      (biasLeakyRow (fun k => V c main_v70 (((cfg4.win 0).blk t).view.emb (ix2 p k)))
        (fun k => V c main_arg12 (((cfg4.win 1).blk t).view.emb (ix1 k))))
      (fun k => V c main_arg4 (((cfg4.win 2).blk t).view.emb (ix2 p k)))
      (fun k j => V c main_v34 (((cfg4.win 3).blk t).view.emb (ix2 k j)))
      (fun k j => V c main_v35 (((cfg4.win 4).blk t).view.emb (ix2 k j)))
      (fun j => V c main_arg21 (((cfg4.win 5).blk t).view.emb (ix1 j)))
      (fun j => V c main_arg22 (((cfg4.win 6).blk t).view.emb (ix1 j))) q
    = fuse (V c main_v70) (V c main_arg12) (V c main_arg4) (V c main_v34) (V c main_v35) (V c main_arg21) (V c main_arg22)
        (((cfg4.win 7).blk t).view.emb (ix2 p q))
  rw [emb_out t p q]
  have h0 : (fun k => V c main_v70 (((cfg4.win 0).blk t).view.emb (ix2 p k)))
      = rowOf (V c main_v70) ⟨t.val * 2000 + p.val, by have := t_lt t; have := p.isLt; omega⟩ :=
    funext fun k => congrArg (V c main_v70) (emb_agg t p k)
  have h1 : (fun k => V c main_arg12 (((cfg4.win 1).blk t).view.emb (ix1 k))) = vec (V c main_arg12) :=
    funext fun k => congrArg (V c main_arg12) (emb_bias t k)
  have h2 : (fun k => V c main_arg4 (((cfg4.win 2).blk t).view.emb (ix2 p k)))
      = rowOf (V c main_arg4) ⟨t.val * 2000 + p.val, by have := t_lt t; have := p.isLt; omega⟩ :=
    funext fun k => congrArg (V c main_arg4) (emb_prev t p k)
  have h3 : (fun k j => V c main_v34 (((cfg4.win 3).blk t).view.emb (ix2 k j))) = mat (V c main_v34) :=
    funext fun k => funext fun j => congrArg (V c main_v34) (emb_wih t k j)
  have h4 : (fun k j => V c main_v35 (((cfg4.win 4).blk t).view.emb (ix2 k j))) = mat (V c main_v35) :=
    funext fun k => funext fun j => congrArg (V c main_v35) (emb_whh t k j)
  have h5 : (fun j => V c main_arg21 (((cfg4.win 5).blk t).view.emb (ix1 j))) = vec (V c main_arg21) :=
    funext fun j => congrArg (V c main_arg21) (emb_bih t j)
  have h6 : (fun j => V c main_arg22 (((cfg4.win 6).blk t).view.emb (ix1 j))) = vec (V c main_arg22) :=
    funext fun j => congrArg (V c main_arg22) (emb_bhh t j)
  rw [h0, h1, h2, h3, h4, h5, h6]
  rfl

/-- An index of the array is in point t's block iff each coordinate is in the block's range on its axis. -/
theorem mem_blk (t : Fin cfg4.N) (i : S100000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v71).slice (win4_7.rect t)).set ↔ _
  rw [View.set_slice_whole, Rect.mem_set_unit]
  exact Iff.rfl

/-- Row r of the array is in the block of point r / 2000. -/
theorem cover (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  let t : Fin cfg4.N := ⟨(i 0).val / 2000, by rw [show cfg4.N = 50 from N_4]; omega⟩
  obtain ⟨e00, e01, e20, e21, e70, e71, e1, e30, e31, e40, e41, e5, e6⟩ := idx_facts t
  have e70' : win4_7.index t (0 : Fin 2) = (i 0).val / 2000 := e70
  refine ⟨t, flush4_7 t, ?_⟩
  rw [mem_blk]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 128 ≤ (i 1).val ∧ (i 1).val < win4_7.index t (1 : Fin 2) * 128 + 128; omega

/-- After the region its output array is the row-wise bias, rectifier and recurrent cell of its input arrays, all as
    the region found them. -/
theorem final (c : Dev nD) : (dat4 V c).arrAt 7 cfg4.N
    = fuse (V c main_v70) (V c main_arg12) (V c main_arg4) (V c main_v34) (V c main_v35) (V c main_arg21) (V c main_arg22) :=
  (dat4 V c).arrAt_eq_of_cover 7
    (fuse (V c main_v70) (V c main_arg12) (V c main_arg4) (V c main_v34) (V c main_v35) (V c main_arg21) (V c main_arg22))
    (fun t _ => flushed_eq V c t) cover

end Cert.KernelIdeal.Fuse4

end
-- ==== Proof.KLink5.lean ====
/-
  The link head (the sixth pallas_call): each grid point takes its block of 2000 rows of the two gathered end-row arrays,
  the class-summed weight row and the class-summed bias; entry r of the result column depends on row r of the two row
  inputs only, and the 100 blocks tile the 200000 links.
-/
import proofs.«118245_j7395933684286_1_alg».proof.Proof.Gen.KernelIdeal.Frame
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Link5

open Cert.KernelIdeal Cert.KernelIdeal.Gen Idealize.ShloMosaic Idealize.ShloMosaic.TcCoe Idealize.SL.Sem
open Idealize.ShloMosaic.ValueIdx Cert.Gnn
open Idealize.ShloMosaic.Pipeline (Dat)

variable (V : (c : Dev nD) → (b : Ref sig .tc) → Buf (Elt Ideal) ((c : Thread nD τ).loc b))

/-- The zero offsets of a whole block, on two axes and on one. -/
theorem hz : (![0, 0] : Fin 2 → Nat) = fun _ => 0 := funext fun a => by fin_cases a <;> rfl
theorem hz1 : (![0] : Fin 1 → Nat) = fun _ => 0 := funext fun a => by fin_cases a; rfl

/-- Summing a 2000 × 128 block over its lane axis: the source index over row p with lane k inserted is (p, k). -/
theorem lift_eq (h : S2000x128.Reduces [1] S2000) (p : Fin 2000) (k : Fin 128) :
    h.lift (ix1 p) k = ix2 p k := funext fun a => Fin.ext (by
      match a with
      | ⟨0, _⟩ => rfl
      | ⟨1, _⟩ => rfl)

/-- A vector of 2000 entries viewed as a column: entry (p, 0) is entry p (the same row-major position, p · 1 + 0). -/
theorem col_apply {α : Type} (v : S2000.Idx → α) (h : S2000.ShapeCasts S2000x1) (p : Fin 2000) :
    shapeCast S2000x1 v h (ix2 p 0) = v (ix1 p) :=
  shapeCast_apply v h (ix2 p 0) (ix1 p) (by
    rw [Shape.rowMajor_val_one, Shape.rowMajor_val_two]
    show p.val = p.val * 1 + 0
    omega)

/-- A vector of 128 entries viewed as one row: entry (0, k) is entry k (the same row-major position, 0 · 128 + k). -/
theorem rowvec_apply {α : Type} (v : S128.Idx → α) (h : S128.ShapeCasts S1x128) (k : Fin 128) :
    shapeCast S1x128 v h (ix2 0 k) = v (ix1 k) :=
  shapeCast_apply v h (ix2 0 k) (ix1 k) (by
    rw [Shape.rowMajor_val_one, Shape.rowMajor_val_two]
    show k.val = 0 * 128 + k.val
    omega)

/-- One row repeated down 2000 rows: entry (p, k) is entry (0, k) of the row. -/
theorem bcast_row_apply {α : Type} (v : S1x128.Idx → α) (h : S1x128.Broadcasts S2000x128) (p : Fin 2000) (k : Fin 128) :
    broadcastTo S2000x128 v h (ix2 p k) = v (ix2 0 k) :=
  broadcastTo_apply v h (ix2 p k) (ix2 0 k) (fun a => by
    match a with
    | ⟨0, _⟩ => rfl
    | ⟨1, _⟩ => rfl)

/-- The one entry of a 1 × 1 array, taken at position (0, 0). -/
theorem extract_apply {α : Type} (x : S1x1.Idx → α) (h : ∀ a, (![0, 0] : Fin 2 → Nat) a < S1x1.size a) :
    extractAt ![0, 0] x h = x (ix2 0 0) :=
  congrArg x (funext fun a => Fin.ext (by
    match a with
    | ⟨0, _⟩ => rfl
    | ⟨1, _⟩ => rfl))

/-- The body's one store holds, at row p of its column, the link logit of row p of the two row blocks: the sum over
    the 128 lanes of the two rows' product against the weight row, plus the bias entry. Entry p depends on row p of
    the two row blocks only. -/
theorem pay_apply (x0 x1 : Vec Ideal S2000x128 .f32) (x2 : Vec Ideal S128 .f32) (x3 : Vec Ideal S1x1 .f32) (p : Fin 2000) :
    k5_pay1 x0 x1 x2 x3 (ix2 p 0) = lpK (rowOf x0 p) (rowOf x1 p) (vec x2) (x3 (ix2 0 0)) := by
  unfold k5_pay1
  rw [shapeCast_self, shapeCast_self, shapeCast_self]
  rw [addf_apply, col_apply, broadcast_apply, extract_apply]
  refine (congrArg (· + x3 (ix2 0 0)) (Ideal.multiReduction_add_single _ _ _ _ _ (ix1 p))).trans ?_
  unfold lpK
  refine congrArg (· + x3 (ix2 0 0)) ?_
  show (∑ k : Fin 128, _) = _
  refine Finset.sum_congr rfl fun k _ => ?_
  rw [lift_eq, mulf_apply, mulf_apply, bcast_row_apply, rowvec_apply]

/-- The decided relations between the printed index maps over the 100 grid points: the two row inputs' blocks and
    the output's block sit at block row t, column block 0; the weight row's and the bias's blocks are the whole arrays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem t_lt (t : Fin cfg5.N) : t.val < 100 := by have h := t.isLt; have e : cfg5.N = 100 := N_5; omega

/-- Row p of the source-end block at point t is row 2000·t + p of the array. -/
theorem emb_src (t : Fin cfg5.N) (p : Fin 2000) (k : Fin 128) :
    ((cfg5.win 0).blk t).view.emb (ix2 p k)
      = (ix2 (⟨t.val * 2000 + p.val, by have := t_lt t; have := p.isLt; omega⟩ : Fin 200000) k : S200000x128.Idx) := by
  obtain ⟨e0, e1, e2, e3, e4, e5, e6, e7, e8⟩ := idx_facts t
  funext a; apply Fin.ext
  match a with
  | ⟨0, _⟩ => show win5_0.index t (0 : Fin 2) * 2000 + 1 * p.val = t.val * 2000 + p.val; omega
  | ⟨1, _⟩ => show win5_0.index t (1 : Fin 2) * 128 + 1 * k.val = k.val; omega

/-- Row p of the target-end block at point t is row 2000·t + p of the array. -/
theorem emb_dst (t : Fin cfg5.N) (p : Fin 2000) (k : Fin 128) :
    ((cfg5.win 1).blk t).view.emb (ix2 p k)
      = (ix2 (⟨t.val * 2000 + p.val, by have := t_lt t; have := p.isLt; omega⟩ : Fin 200000) k : S200000x128.Idx) := by
  obtain ⟨e0, e1, e2, e3, e4, e5, e6, e7, e8⟩ := idx_facts t
  funext a; apply Fin.ext
  match a with
  | ⟨0, _⟩ => show win5_1.index t (0 : Fin 2) * 2000 + 1 * p.val = t.val * 2000 + p.val; omega
  | ⟨1, _⟩ => show win5_1.index t (1 : Fin 2) * 128 + 1 * k.val = k.val; omega

/-- The weight row's block is the whole row at every point. -/
theorem emb_w (t : Fin cfg5.N) (k : Fin 128) :
    ((cfg5.win 2).blk t).view.emb (ix1 k) = (ix1 k : S128.Idx) := by
  obtain ⟨e0, e1, e2, e3, e4, e5, e6, e7, e8⟩ := idx_facts t
  funext a; apply Fin.ext
  match a with
  | ⟨0, _⟩ => show win5_2.index t (0 : Fin 1) * 128 + 1 * k.val = k.val; omega

/-- The bias's block is the whole 1 × 1 array at every point. -/
theorem emb_b (t : Fin cfg5.N) :
    ((cfg5.win 3).blk t).view.emb (ix2 0 0) = (ix2 0 0 : S1x1.Idx) := by
  obtain ⟨e0, e1, e2, e3, e4, e5, e6, e7, e8⟩ := idx_facts t
  funext a; apply Fin.ext
  match a with
  | ⟨0, _⟩ => show win5_3.index t (0 : Fin 2) * 1 + 1 * 0 = 0; omega
  | ⟨1, _⟩ => show win5_3.index t (1 : Fin 2) * 1 + 1 * 0 = 0; omega

/-- Row p of the output column's block at point t is row 2000·t + p of the column. -/
theorem emb_out (t : Fin cfg5.N) (p : Fin 2000) :
    ((cfg5.win 4).blk t).view.emb (ix2 p 0)
      = (ix2 (⟨t.val * 2000 + p.val, by have := t_lt t; have := p.isLt; omega⟩ : Fin 200000) 0 : S200000x1.Idx) := by
  obtain ⟨e0, e1, e2, e3, e4, e5, e6, e7, e8⟩ := idx_facts t
  funext a; apply Fin.ext
  match a with
  | ⟨0, _⟩ => show win5_4.index t (0 : Fin 2) * 2000 + 1 * p.val = t.val * 2000 + p.val; omega
  | ⟨1, _⟩ => show win5_4.index t (1 : Fin 2) * 1 + 1 * 0 = 0; omega

/-- What point t writes back is block t of the link head of the arrays as the region finds them: entry p of the
    block is the logit of rows 2000·t + p of the two row arrays against the whole weight row and the bias. -/
theorem flushed_eq (c : Dev nD) (t : Fin cfg5.N) :
    (dat5 V c).flushed 4 t = ((cfg5.win 4).blk t).view.read (Elt Ideal)
      (linkK (V c main_v82) (V c main_v89) (V c main_v38) (V c main_v40)) := by
  show (cfg5.win 4).cut (grid5.coords t) ((dat5 V c).after 4 t) = _
  rw [after5_4]
  unfold out5_4
  rw [View.canon_unit_zero hz]
  simp only [View.ld_unit_zero (S := S2000x128) hz, View.ld_unit_zero (S := S128) hz1, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  show k5_pay1 (iblk5 V c 0 t) (iblk5 V c 1 t) (iblk5 V c 2 t) (iblk5 V c 3 t) (ix2 p 0) = _
  refine (pay_apply (iblk5 V c 0 t) (iblk5 V c 1 t) (iblk5 V c 2 t) (iblk5 V c 3 t) p).trans ?_
  show lpK (fun k => V c main_v82 (((cfg5.win 0).blk t).view.emb (ix2 p k)))
      (fun k => V c main_v89 (((cfg5.win 1).blk t).view.emb (ix2 p k)))
      (fun k => V c main_v38 (((cfg5.win 2).blk t).view.emb (ix1 k)))
      (V c main_v40 (((cfg5.win 3).blk t).view.emb (ix2 0 0)))
    = linkK (V c main_v82) (V c main_v89) (V c main_v38) (V c main_v40) (((cfg5.win 4).blk t).view.emb (ix2 p 0))
  rw [emb_out t p, emb_b t]
  have h0 : (fun k => V c main_v82 (((cfg5.win 0).blk t).view.emb (ix2 p k)))
      = rowOf (V c main_v82) ⟨t.val * 2000 + p.val, by have := t_lt t; have := p.isLt; omega⟩ :=
    funext fun k => congrArg (V c main_v82) (emb_src t p k)
  have h1 : (fun k => V c main_v89 (((cfg5.win 1).blk t).view.emb (ix2 p k)))
      = rowOf (V c main_v89) ⟨t.val * 2000 + p.val, by have := t_lt t; have := p.isLt; omega⟩ :=
    funext fun k => congrArg (V c main_v89) (emb_dst t p k)
  have h2 : (fun k => V c main_v38 (((cfg5.win 2).blk t).view.emb (ix1 k))) = vec (V c main_v38) :=
    funext fun k => congrArg (V c main_v38) (emb_w t k)
  rw [h0, h1, h2]
  rfl

/-- An index of the column is in point t's block iff each coordinate is in the block's range on its axis. -/
theorem mem_blk (t : Fin cfg5.N) (i : S200000x1.Idx) :
    i ∈ ((cfg5.win 4).blk t).view.set ↔ ∀ a : Fin 2, win5_4.index t a * S2000x1.size a ≤ (i a).val ∧ (i a).val < win5_4.index t a * S2000x1.size a + S2000x1.size a := by
  show i ∈ ((View.whole main_v90).slice (win5_4.rect t)).set ↔ _
  rw [View.set_slice_whole, Rect.mem_set_unit]
  exact Iff.rfl

/-- Row r of the column is in the block of point r / 2000; the column axis has extent 1. -/
theorem cover (i : S200000x1.Idx) : ∃ t : Fin cfg5.N, (cfg5.win 4).flush t = true ∧ i ∈ ((cfg5.win 4).blk t).view.set := by
  have hi0 : (i 0).val < 200000 := (i 0).isLt
  have hi1 : (i 1).val < 1 := (i 1).isLt
  let t : Fin cfg5.N := ⟨(i 0).val / 2000, by rw [show cfg5.N = 100 from N_5]; omega⟩
  obtain ⟨e0, e1, e2, e3, e4, e5, e6, e7, e8⟩ := idx_facts t
  have e7' : win5_4.index t (0 : Fin 2) = (i 0).val / 2000 := e7
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 1 ≤ (i 1).val ∧ (i 1).val < win5_4.index t (1 : Fin 2) * 1 + 1; omega

/-- After the region its output column is the kernel's link head of its input arrays, all as the region found them. -/
theorem final (c : Dev nD) : (dat5 V c).arrAt 4 cfg5.N
    = linkK (V c main_v82) (V c main_v89) (V c main_v38) (V c main_v40) := by
  exact (dat5 V c).arrAt_eq_of_cover 4 (linkK (V c main_v82) (V c main_v89) (V c main_v38) (V c main_v40))
    (fun t _ => flushed_eq V c t) cover

end Cert.KernelIdeal.Link5

end
-- ==== Proof.RefOpsA.lean ====
/-
  The reference's @main as a list of its 315 host operations, cut where its mathematics cuts it — the edge list's rows,
  the preprocessing layers, each recurrent cell, each convolution's linear map, normalisation and neighbourhood sum, the
  link head — and where the printed program's windows cut it; a call of an outlined select stands as the select it is.
  Each printed window is the straight line of its pieces, and @main the line of all of them.
-/
import proofs.«118245_j7395933684286_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 1 … 4 of 315. The two rows of the edge list, each sliced out and flattened. -/
abbrev seg0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]

set_option maxRecDepth 8192 in
set_option maxHeartbeats 4000000 in
/-- Operations 5 … 28 of 315. The two preprocessing layers. -/
abbrev seg1 : List (HloOp τ sig (Elt F)) :=
  [ unary main_arg5 main_v4 ((transpose S128x256 [1, 0] · transposes_S256x128_S128x256_1_0) : (⟨S256x128, .f32⟩ : BufTy).Contents (Elt F) → (⟨S128x256, .f32⟩ : BufTy).Contents (Elt F)),
    binary main_arg0 main_v4 main_v5 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg6 main_v6 (broadcastInDim S1x256 ![1] bcast_S256_S1x256_1 : (⟨S256, .f32⟩ : BufTy).Contents (Elt F) → (⟨S1x256, .f32⟩ : BufTy).Contents (Elt F)),
    unary main_v6 main_v7 (broadcastInDim S100000x256 ![0, 1] bcast_S1x256_S100000x256_0_1 : (⟨S1x256, .f32⟩ : BufTy).Contents (Elt F) → (⟨S100000x256, .f32⟩ : BufTy).Contents (Elt F)),
    binary main_v5 main_v7 main_v8 (addf : (⟨S100000x256, .f32⟩ : BufTy).Contents (Elt F) → (⟨S100000x256, .f32⟩ : BufTy).Contents (Elt F) → (⟨S100000x256, .f32⟩ : BufTy).Contents (Elt F)),
    nullary main_cst (constant S_ .f32 0x00000000#32),
    unary main_cst main_v9 (broadcastInDim S100000x256 ![] bcast_S_S100000x256 : (⟨S_, .f32⟩ : BufTy).Contents (Elt F) → (⟨S100000x256, .f32⟩ : BufTy).Contents (Elt F)),
    binary main_v8 main_v9 main_v10 (cmpf .oge : (⟨S100000x256, .f32⟩ : BufTy).Contents (Elt F) → (⟨S100000x256, .f32⟩ : BufTy).Contents (Elt F) → (⟨S100000x256, .i1⟩ : BufTy).Contents (Elt F)),
    nullary main_cst_0 (constant S_ .f32 0x3C23D70A#32),
    unary main_cst_0 main_v11 (broadcastInDim S100000x256 ![] bcast_S_S100000x256 : (⟨S_, .f32⟩ : BufTy).Contents (Elt F) → (⟨S100000x256, .f32⟩ : BufTy).Contents (Elt F)),
    binary main_v11 main_v8 main_v12 (mulf : (⟨S100000x256, .f32⟩ : BufTy).Contents (Elt F) → (⟨S100000x256, .f32⟩ : BufTy).Contents (Elt F) → (⟨S100000x256, .f32⟩ : BufTy).Contents (Elt F)),
    TRef.ternary (TRef.of (T := ⟨S100000x256, .i1⟩) main_v10) (TRef.of (T := ⟨S100000x256, .f32⟩) main_v8) (TRef.of (T := ⟨S100000x256, .f32⟩) main_v12) (TRef.of (T := ⟨S100000x256, .f32⟩) main_v13) select,
    unary main_arg7 main_v14 ((transpose S256x128 [1, 0] · transposes_S128x256_S256x128_1_0) : (⟨S128x256, .f32⟩ : BufTy).Contents (Elt F) → (⟨S256x128, .f32⟩ : BufTy).Contents (Elt F)),
    binary main_v13 main_v14 main_v15 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg8 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v19 (broadcastInDim S100000x128 ![] bcast_S_S100000x128 : (⟨S_, .f32⟩ : BufTy).Contents (Elt F) → (⟨S100000x128, .f32⟩ : BufTy).Contents (Elt F)),
    binary main_v18 main_v19 main_v20 (cmpf .oge : (⟨S100000x128, .f32⟩ : BufTy).Contents (Elt F) → (⟨S100000x128, .f32⟩ : BufTy).Contents (Elt F) → (⟨S100000x128, .i1⟩ : BufTy).Contents (Elt F)),
    nullary main_cst_2 (constant S_ .f32 0x3C23D70A#32),
    unary main_cst_2 main_v21 (broadcastInDim S100000x128 ![] bcast_S_S100000x128 : (⟨S_, .f32⟩ : BufTy).Contents (Elt F) → (⟨S100000x128, .f32⟩ : BufTy).Contents (Elt F)),
    binary main_v21 main_v18 main_v22 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v20) (TRef.of (T := ⟨S100000x128, .f32⟩) main_v18) (TRef.of (T := ⟨S100000x128, .f32⟩) main_v22) (TRef.of (T := ⟨S100000x128, .f32⟩) main_v23) select ]

set_option maxRecDepth 8192 in
set_option maxHeartbeats 4000000 in
/-- Operations 29 … 60 of 315. The 0-hop recurrent cell: both gate tensors, their thirds, the reset gate and the start of the update gate. -/
abbrev seg2 : List (HloOp τ sig (Elt F)) :=
  [ unary main_arg15 main_v24 ((transpose S128x384 [1, 0] · transposes_S384x128_S128x384_1_0) : (⟨S384x128, .f32⟩ : BufTy).Contents (Elt F) → (⟨S128x384, .f32⟩ : BufTy).Contents (Elt F)),
    binary main_v23 main_v24 main_v25 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg17 main_v26 (broadcastInDim S1x384 ![1] bcast_S384_S1x384_1 : (⟨S384, .f32⟩ : BufTy).Contents (Elt F) → (⟨S1x384, .f32⟩ : BufTy).Contents (Elt F)),
    unary main_v26 main_v27 (broadcastInDim S100000x384 ![0, 1] bcast_S1x384_S100000x384_0_1 : (⟨S1x384, .f32⟩ : BufTy).Contents (Elt F) → (⟨S100000x384, .f32⟩ : BufTy).Contents (Elt F)),
    binary main_v25 main_v27 main_v28 (addf : (⟨S100000x384, .f32⟩ : BufTy).Contents (Elt F) → (⟨S100000x384, .f32⟩ : BufTy).Contents (Elt F) → (⟨S100000x384, .f32⟩ : BufTy).Contents (Elt F)),
    unary main_arg16 main_v29 ((transpose S128x384 [1, 0] · transposes_S384x128_S128x384_1_0) : (⟨S384x128, .f32⟩ : BufTy).Contents (Elt F) → (⟨S128x384, .f32⟩ : BufTy).Contents (Elt F)),
    binary main_arg3 main_v29 main_v30 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg18 main_v31 (broadcastInDim S1x384 ![1] bcast_S384_S1x384_1 : (⟨S384, .f32⟩ : BufTy).Contents (Elt F) → (⟨S1x384, .f32⟩ : BufTy).Contents (Elt F)),
    unary main_v31 main_v32 (broadcastInDim S100000x384 ![0, 1] bcast_S1x384_S100000x384_0_1 : (⟨S1x384, .f32⟩ : BufTy).Contents (Elt F) → (⟨S100000x384, .f32⟩ : BufTy).Contents (Elt F)),
    binary main_v30 main_v32 main_v33 (addf : (⟨S100000x384, .f32⟩ : BufTy).Contents (Elt F) → (⟨S100000x384, .f32⟩ : BufTy).Contents (Elt F) → (⟨S100000x384, .f32⟩ : BufTy).Contents (Elt F)),
    unary main_v28 main_v34 ((extractStridedSlice S100000x128 ![0, 0] · slices_S100000x384_S100000x128_0_0) : (⟨S100000x384, .f32⟩ : BufTy).Contents (Elt F) → (⟨S100000x128, .f32⟩ : BufTy).Contents (Elt F)),
    unary main_v28 main_v35 ((extractStridedSlice S100000x128 ![0, 128] · slices_S100000x384_S100000x128_0_128) : (⟨S100000x384, .f32⟩ : BufTy).Contents (Elt F) → (⟨S100000x128, .f32⟩ : BufTy).Contents (Elt F)),
    unary main_v28 main_v36 ((extractStridedSlice S100000x128 ![0, 256] · slices_S100000x384_S100000x128_0_256) : (⟨S100000x384, .f32⟩ : BufTy).Contents (Elt F) → (⟨S100000x128, .f32⟩ : BufTy).Contents (Elt F)),
    unary main_v33 main_v37 ((extractStridedSlice S100000x128 ![0, 0] · slices_S100000x384_S100000x128_0_0) : (⟨S100000x384, .f32⟩ : BufTy).Contents (Elt F) → (⟨S100000x128, .f32⟩ : BufTy).Contents (Elt F)),
    unary main_v33 main_v38 ((extractStridedSlice S100000x128 ![0, 128] · slices_S100000x384_S100000x128_0_128) : (⟨S100000x384, .f32⟩ : BufTy).Contents (Elt F) → (⟨S100000x128, .f32⟩ : BufTy).Contents (Elt F)),
    unary main_v33 main_v39 ((extractStridedSlice S100000x128 ![0, 256] · slices_S100000x384_S100000x128_0_256) : (⟨S100000x384, .f32⟩ : BufTy).Contents (Elt F) → (⟨S100000x128, .f32⟩ : BufTy).Contents (Elt F)),
    binary main_v34 main_v37 main_v40 (addf : (⟨S100000x128, .f32⟩ : BufTy).Contents (Elt F) → (⟨S100000x128, .f32⟩ : BufTy).Contents (Elt F) → (⟨S100000x128, .f32⟩ : BufTy).Contents (Elt F)),
    unary main_v40 main_v41 (Host.negf : (⟨S100000x128, .f32⟩ : BufTy).Contents (Elt F) → (⟨S100000x128, .f32⟩ : BufTy).Contents (Elt F)),
    unary main_v41 main_v42 (Host.exp : (⟨S100000x128, .f32⟩ : BufTy).Contents (Elt F) → (⟨S100000x128, .f32⟩ : BufTy).Contents (Elt F)),
    nullary main_cst_3 (constant S_ .f32 0x3F800000#32),
    unary main_cst_3 main_v43 (broadcastInDim S100000x128 ![] bcast_S_S100000x128 : (⟨S_, .f32⟩ : BufTy).Contents (Elt F) → (⟨S100000x128, .f32⟩ : BufTy).Contents (Elt F)),
    binary main_v43 main_v42 main_v44 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v45 (broadcastInDim S100000x128 ![] bcast_S_S100000x128 : (⟨S_, .f32⟩ : BufTy).Contents (Elt F) → (⟨S100000x128, .f32⟩ : BufTy).Contents (Elt F)),
    binary main_v45 main_v44 main_v46 (Host.divf : (⟨S100000x128, .f32⟩ : BufTy).Contents (Elt F) → (⟨S100000x128, .f32⟩ : BufTy).Contents (Elt F) → (⟨S100000x128, .f32⟩ : BufTy).Contents (Elt F)),
    binary main_v35 main_v38 main_v47 (addf : (⟨S100000x128, .f32⟩ : BufTy).Contents (Elt F) → (⟨S100000x128, .f32⟩ : BufTy).Contents (Elt F) → (⟨S100000x128, .f32⟩ : BufTy).Contents (Elt F)),
    unary main_v47 main_v48 (Host.negf : (⟨S100000x128, .f32⟩ : BufTy).Contents (Elt F) → (⟨S100000x128, .f32⟩ : BufTy).Contents (Elt F)),
    unary main_v48 main_v49 (Host.exp : (⟨S100000x128, .f32⟩ : BufTy).Contents (Elt F) → (⟨S100000x128, .f32⟩ : BufTy).Contents (Elt F)),
    nullary main_cst_5 (constant S_ .f32 0x3F800000#32),
    unary main_cst_5 main_v50 (broadcastInDim S100000x128 ![] bcast_S_S100000x128 : (⟨S_, .f32⟩ : BufTy).Contents (Elt F) → (⟨S100000x128, .f32⟩ : BufTy).Contents (Elt F)),
    binary main_v50 main_v49 main_v51 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3F800000#32) ]

set_option maxRecDepth 8192 in
set_option maxHeartbeats 4000000 in
/-- Operations 61 … 71 of 315. The 0-hop recurrent cell's end: the update gate, the candidate, the convex combination. -/
abbrev seg3 : List (HloOp τ sig (Elt F)) :=
  [ unary main_cst_6 main_v52 (broadcastInDim S100000x128 ![] bcast_S_S100000x128 : (⟨S_, .f32⟩ : BufTy).Contents (Elt F) → (⟨S100000x128, .f32⟩ : BufTy).Contents (Elt F)),
    binary main_v52 main_v51 main_v53 (Host.divf : (⟨S100000x128, .f32⟩ : BufTy).Contents (Elt F) → (⟨S100000x128, .f32⟩ : BufTy).Contents (Elt F) → (⟨S100000x128, .f32⟩ : BufTy).Contents (Elt F)),
    binary main_v46 main_v39 main_v54 (mulf : (⟨S100000x128, .f32⟩ : BufTy).Contents (Elt F) → (⟨S100000x128, .f32⟩ : BufTy).Contents (Elt F) → (⟨S100000x128, .f32⟩ : BufTy).Contents (Elt F)),
    binary main_v36 main_v54 main_v55 (addf : (⟨S100000x128, .f32⟩ : BufTy).Contents (Elt F) → (⟨S100000x128, .f32⟩ : BufTy).Contents (Elt F) → (⟨S100000x128, .f32⟩ : BufTy).Contents (Elt F)),
    unary main_v55 main_v56 (Host.tanh : (⟨S100000x128, .f32⟩ : BufTy).Contents (Elt F) → (⟨S100000x128, .f32⟩ : BufTy).Contents (Elt F)),
    nullary main_cst_7 (constant S_ .f32 0x3F800000#32),
    unary main_cst_7 main_v57 (broadcastInDim S100000x128 ![] bcast_S_S100000x128 : (⟨S_, .f32⟩ : BufTy).Contents (Elt F) → (⟨S100000x128, .f32⟩ : BufTy).Contents (Elt F)),
    binary main_v57 main_v53 main_v58 (subf : (⟨S100000x128, .f32⟩ : BufTy).Contents (Elt F) → (⟨S100000x128, .f32⟩ : BufTy).Contents (Elt F) → (⟨S100000x128, .f32⟩ : BufTy).Contents (Elt F)),
    binary main_v58 main_v56 main_v59 (mulf : (⟨S100000x128, .f32⟩ : BufTy).Contents (Elt F) → (⟨S100000x128, .f32⟩ : BufTy).Contents (Elt F) → (⟨S100000x128, .f32⟩ : BufTy).Contents (Elt F)),
    binary main_v53 main_arg3 main_v60 (mulf : (⟨S100000x128, .f32⟩ : BufTy).Contents (Elt F) → (⟨S100000x128, .f32⟩ : BufTy).Contents (Elt F) → (⟨S100000x128, .f32⟩ : BufTy).Contents (Elt F)),
    binary main_v59 main_v60 main_v61 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Operations 72 … 76 of 315. The first convolution's linear map, the node indices, and both edge ends with the self-loops appended. -/
abbrev seg4 : List (HloOp τ sig (Elt F)) :=
  [ unary main_arg9 main_v62 ((transpose S128x128 [1, 0] · transposes_S128x128_S128x128_1_0) : (⟨S128x128, .f32⟩ : BufTy).Contents (Elt F) → (⟨S128x128, .f32⟩ : BufTy).Contents (Elt F)),
    binary main_v61 main_v62 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v64 (iotaInDim S100000 32 0),
    binary main_v1 main_v64 main_v65 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    binary main_v3 main_v64 main_v66 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ]

set_option maxRecDepth 8192 in
set_option maxHeartbeats 4000000 in
/-- Operations 77 … 122 of 315. The first convolution's degrees, their inverse square roots, the edge normalisation and the gathered source rows. -/
abbrev seg5 : List (HloOp τ sig (Elt F)) :=
  [ nullary main_cst_8 (constant S_ .f32 0x3F800000#32),
    unary main_cst_8 main_v67 (broadcastInDim S700000 ![] bcast_S_S700000 : (⟨S_, .f32⟩ : BufTy).Contents (Elt F) → (⟨S700000, .f32⟩ : BufTy).Contents (Elt F)),
    nullary main_cst_9 (constant S_ .f32 0x00000000#32),
    unary main_cst_9 main_v68 (broadcastInDim S100000 ![] bcast_S_S100000 : (⟨S_, .f32⟩ : BufTy).Contents (Elt F) → (⟨S100000, .f32⟩ : BufTy).Contents (Elt F)),
    unary main_v66 main_v69 (broadcastInDim S700000x1 ![0] bcast_S700000_S700000x1_0 : (⟨S700000, .i32⟩ : BufTy).Contents (Elt F) → (⟨S700000x1, .i32⟩ : BufTy).Contents (Elt F)),
    ternary main_v68 main_v69 main_v67 main_v70 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_10 (constant S_ .f32 0x00000000#32),
    unary main_cst_10 main_v71 (broadcastInDim S100000 ![] bcast_S_S100000 : (⟨S_, .f32⟩ : BufTy).Contents (Elt F) → (⟨S100000, .f32⟩ : BufTy).Contents (Elt F)),
    binary main_v70 main_v71 main_v72 (cmpf .ogt : (⟨S100000, .f32⟩ : BufTy).Contents (Elt F) → (⟨S100000, .f32⟩ : BufTy).Contents (Elt F) → (⟨S100000, .i1⟩ : BufTy).Contents (Elt F)),
    unary main_v70 main_v73 (Host.rsqrt : (⟨S100000, .f32⟩ : BufTy).Contents (Elt F) → (⟨S100000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v72) (TRef.of (T := ⟨S100000, .f32⟩) main_v73) (TRef.of (T := ⟨S100000, .f32⟩) main_call2_v1) (TRef.of (T := ⟨S100000, .f32⟩) main_v74) select,
    nullary main_c (constantI S_ 32 0#32),
    unary main_c main_v75 (broadcastInDim S700000 ![] bcast_S_S700000 : (⟨S_, .i32⟩ : BufTy).Contents (Elt F) → (⟨S700000, .i32⟩ : BufTy).Contents (Elt F)),
    binary main_v65 main_v75 main_v76 (cmpi .slt : (⟨S700000, .i32⟩ : BufTy).Contents (Elt F) → (⟨S700000, .i32⟩ : BufTy).Contents (Elt F) → (⟨S700000, .i1⟩ : BufTy).Contents (Elt F)),
    nullary main_c_12 (constantI S_ 32 100000#32),
    unary main_c_12 main_v77 (broadcastInDim S700000 ![] bcast_S_S700000 : (⟨S_, .i32⟩ : BufTy).Contents (Elt F) → (⟨S700000, .i32⟩ : BufTy).Contents (Elt F)),
    binary main_v65 main_v77 main_v78 (addi : (⟨S700000, .i32⟩ : BufTy).Contents (Elt F) → (⟨S700000, .i32⟩ : BufTy).Contents (Elt F) → (⟨S700000, .i32⟩ : BufTy).Contents (Elt F)),
    ternary main_v76 main_v78 main_v65 main_v79 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v79 main_v80 (broadcastInDim S700000x1 ![0] bcast_S700000_S700000x1_0 : (⟨S700000, .i32⟩ : BufTy).Contents (Elt F) → (⟨S700000x1, .i32⟩ : BufTy).Contents (Elt F)),
    binary main_v74 main_v80 main_v81 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_13 (constantI S_ 32 0#32),
    unary main_c_13 main_v82 (broadcastInDim S700000 ![] bcast_S_S700000 : (⟨S_, .i32⟩ : BufTy).Contents (Elt F) → (⟨S700000, .i32⟩ : BufTy).Contents (Elt F)),
    binary main_v66 main_v82 main_v83 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v84 (broadcastInDim S700000 ![] bcast_S_S700000 : (⟨S_, .i32⟩ : BufTy).Contents (Elt F) → (⟨S700000, .i32⟩ : BufTy).Contents (Elt F)),
    binary main_v66 main_v84 main_v85 (addi : (⟨S700000, .i32⟩ : BufTy).Contents (Elt F) → (⟨S700000, .i32⟩ : BufTy).Contents (Elt F) → (⟨S700000, .i32⟩ : BufTy).Contents (Elt F)),
    ternary main_v83 main_v85 main_v66 main_v86 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v86 main_v87 (broadcastInDim S700000x1 ![0] bcast_S700000_S700000x1_0 : (⟨S700000, .i32⟩ : BufTy).Contents (Elt F) → (⟨S700000x1, .i32⟩ : BufTy).Contents (Elt F)),
    binary main_v74 main_v87 main_v88 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v81 main_v88 main_v89 (mulf : (⟨S700000, .f32⟩ : BufTy).Contents (Elt F) → (⟨S700000, .f32⟩ : BufTy).Contents (Elt F) → (⟨S700000, .f32⟩ : BufTy).Contents (Elt F)),
    nullary main_c_15 (constantI S_ 32 0#32),
    unary main_c_15 main_v90 (broadcastInDim S700000 ![] bcast_S_S700000 : (⟨S_, .i32⟩ : BufTy).Contents (Elt F) → (⟨S700000, .i32⟩ : BufTy).Contents (Elt F)),
    binary main_v65 main_v90 main_v91 (cmpi .slt : (⟨S700000, .i32⟩ : BufTy).Contents (Elt F) → (⟨S700000, .i32⟩ : BufTy).Contents (Elt F) → (⟨S700000, .i1⟩ : BufTy).Contents (Elt F)),
    nullary main_c_16 (constantI S_ 32 100000#32),
    unary main_c_16 main_v92 (broadcastInDim S700000 ![] bcast_S_S700000 : (⟨S_, .i32⟩ : BufTy).Contents (Elt F) → (⟨S700000, .i32⟩ : BufTy).Contents (Elt F)),
    binary main_v65 main_v92 main_v93 (addi : (⟨S700000, .i32⟩ : BufTy).Contents (Elt F) → (⟨S700000, .i32⟩ : BufTy).Contents (Elt F) → (⟨S700000, .i32⟩ : BufTy).Contents (Elt F)),
    ternary main_v91 main_v93 main_v65 main_v94 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v94 main_v95 (broadcastInDim S700000x1 ![0] bcast_S700000_S700000x1_0 : (⟨S700000, .i32⟩ : BufTy).Contents (Elt F) → (⟨S700000x1, .i32⟩ : BufTy).Contents (Elt F)),
    binary main_v63 main_v95 main_v96 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v89 main_v97 (broadcastInDim S700000x1 ![0] bcast_S700000_S700000x1_0 : (⟨S700000, .f32⟩ : BufTy).Contents (Elt F) → (⟨S700000x1, .f32⟩ : BufTy).Contents (Elt F)),
    unary main_v97 main_v98 (broadcastInDim S700000x128 ![0, 1] bcast_S700000x1_S700000x128_0_1 : (⟨S700000x1, .f32⟩ : BufTy).Contents (Elt F) → (⟨S700000x128, .f32⟩ : BufTy).Contents (Elt F)),
    binary main_v96 main_v98 main_v99 (mulf : (⟨S700000x128, .f32⟩ : BufTy).Contents (Elt F) → (⟨S700000x128, .f32⟩ : BufTy).Contents (Elt F) → (⟨S700000x128, .f32⟩ : BufTy).Contents (Elt F)),
    nullary main_cst_17 (constant S_ .f32 0x00000000#32) ]

set_option maxRecDepth 8192 in
set_option maxHeartbeats 4000000 in
/-- Operations 123 … 125 of 315. The first convolution's scaled rows summed into their targets. -/
abbrev seg6 : List (HloOp τ sig (Elt F)) :=
  [ unary main_cst_17 main_v100 (broadcastInDim S100000x128 ![] bcast_S_S100000x128 : (⟨S_, .f32⟩ : BufTy).Contents (Elt F) → (⟨S100000x128, .f32⟩ : BufTy).Contents (Elt F)),
    unary main_v66 main_v101 (broadcastInDim S700000x1 ![0] bcast_S700000_S700000x1_0 : (⟨S700000, .i32⟩ : BufTy).Contents (Elt F) → (⟨S700000x1, .i32⟩ : BufTy).Contents (Elt F)),
    ternary main_v100 main_v101 main_v99 main_v102 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

set_option maxRecDepth 8192 in
set_option maxHeartbeats 4000000 in
/-- Operations 126 … 178 of 315. The first convolution's bias and rectifier, then its recurrent cell. -/
abbrev seg7 : List (HloOp τ sig (Elt F)) :=
  [ unary main_arg10 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v102 main_v104 main_v105 (addf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    unary main_cst_18 main_v106 (broadcastInDim S100000x128 ![] bcast_S_S100000x128 : (⟨S_, .f32⟩ : BufTy).Contents (Elt F) → (⟨S100000x128, .f32⟩ : BufTy).Contents (Elt F)),
    binary main_v105 main_v106 main_v107 (cmpf .oge : (⟨S100000x128, .f32⟩ : BufTy).Contents (Elt F) → (⟨S100000x128, .f32⟩ : BufTy).Contents (Elt F) → (⟨S100000x128, .i1⟩ : BufTy).Contents (Elt F)),
    nullary main_cst_19 (constant S_ .f32 0x3C23D70A#32),
    unary main_cst_19 main_v108 (broadcastInDim S100000x128 ![] bcast_S_S100000x128 : (⟨S_, .f32⟩ : BufTy).Contents (Elt F) → (⟨S100000x128, .f32⟩ : BufTy).Contents (Elt F)),
    binary main_v108 main_v105 main_v109 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v107) (TRef.of (T := ⟨S100000x128, .f32⟩) main_v105) (TRef.of (T := ⟨S100000x128, .f32⟩) main_v109) (TRef.of (T := ⟨S100000x128, .f32⟩) main_v110) select,
    unary main_arg15 main_v111 ((transpose S128x384 [1, 0] · transposes_S384x128_S128x384_1_0) : (⟨S384x128, .f32⟩ : BufTy).Contents (Elt F) → (⟨S128x384, .f32⟩ : BufTy).Contents (Elt F)),
    binary main_v110 main_v111 main_v112 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg17 main_v113 (broadcastInDim S1x384 ![1] bcast_S384_S1x384_1 : (⟨S384, .f32⟩ : BufTy).Contents (Elt F) → (⟨S1x384, .f32⟩ : BufTy).Contents (Elt F)),
    unary main_v113 main_v114 (broadcastInDim S100000x384 ![0, 1] bcast_S1x384_S100000x384_0_1 : (⟨S1x384, .f32⟩ : BufTy).Contents (Elt F) → (⟨S100000x384, .f32⟩ : BufTy).Contents (Elt F)),
    binary main_v112 main_v114 main_v115 (addf : (⟨S100000x384, .f32⟩ : BufTy).Contents (Elt F) → (⟨S100000x384, .f32⟩ : BufTy).Contents (Elt F) → (⟨S100000x384, .f32⟩ : BufTy).Contents (Elt F)),
    unary main_arg16 main_v116 ((transpose S128x384 [1, 0] · transposes_S384x128_S128x384_1_0) : (⟨S384x128, .f32⟩ : BufTy).Contents (Elt F) → (⟨S128x384, .f32⟩ : BufTy).Contents (Elt F)),
    binary main_arg3 main_v116 main_v117 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg18 main_v118 (broadcastInDim S1x384 ![1] bcast_S384_S1x384_1 : (⟨S384, .f32⟩ : BufTy).Contents (Elt F) → (⟨S1x384, .f32⟩ : BufTy).Contents (Elt F)),
    unary main_v118 main_v119 (broadcastInDim S100000x384 ![0, 1] bcast_S1x384_S100000x384_0_1 : (⟨S1x384, .f32⟩ : BufTy).Contents (Elt F) → (⟨S100000x384, .f32⟩ : BufTy).Contents (Elt F)),
    binary main_v117 main_v119 main_v120 (addf : (⟨S100000x384, .f32⟩ : BufTy).Contents (Elt F) → (⟨S100000x384, .f32⟩ : BufTy).Contents (Elt F) → (⟨S100000x384, .f32⟩ : BufTy).Contents (Elt F)),
    unary main_v115 main_v121 ((extractStridedSlice S100000x128 ![0, 0] · slices_S100000x384_S100000x128_0_0) : (⟨S100000x384, .f32⟩ : BufTy).Contents (Elt F) → (⟨S100000x128, .f32⟩ : BufTy).Contents (Elt F)),
    unary main_v115 main_v122 ((extractStridedSlice S100000x128 ![0, 128] · slices_S100000x384_S100000x128_0_128) : (⟨S100000x384, .f32⟩ : BufTy).Contents (Elt F) → (⟨S100000x128, .f32⟩ : BufTy).Contents (Elt F)),
    unary main_v115 main_v123 ((extractStridedSlice S100000x128 ![0, 256] · slices_S100000x384_S100000x128_0_256) : (⟨S100000x384, .f32⟩ : BufTy).Contents (Elt F) → (⟨S100000x128, .f32⟩ : BufTy).Contents (Elt F)),
    unary main_v120 main_v124 ((extractStridedSlice S100000x128 ![0, 0] · slices_S100000x384_S100000x128_0_0) : (⟨S100000x384, .f32⟩ : BufTy).Contents (Elt F) → (⟨S100000x128, .f32⟩ : BufTy).Contents (Elt F)),
    unary main_v120 main_v125 ((extractStridedSlice S100000x128 ![0, 128] · slices_S100000x384_S100000x128_0_128) : (⟨S100000x384, .f32⟩ : BufTy).Contents (Elt F) → (⟨S100000x128, .f32⟩ : BufTy).Contents (Elt F)),
    unary main_v120 main_v126 ((extractStridedSlice S100000x128 ![0, 256] · slices_S100000x384_S100000x128_0_256) : (⟨S100000x384, .f32⟩ : BufTy).Contents (Elt F) → (⟨S100000x128, .f32⟩ : BufTy).Contents (Elt F)),
    binary main_v121 main_v124 main_v127 (addf : (⟨S100000x128, .f32⟩ : BufTy).Contents (Elt F) → (⟨S100000x128, .f32⟩ : BufTy).Contents (Elt F) → (⟨S100000x128, .f32⟩ : BufTy).Contents (Elt F)),
    unary main_v127 main_v128 (Host.negf : (⟨S100000x128, .f32⟩ : BufTy).Contents (Elt F) → (⟨S100000x128, .f32⟩ : BufTy).Contents (Elt F)),
    unary main_v128 main_v129 (Host.exp : (⟨S100000x128, .f32⟩ : BufTy).Contents (Elt F) → (⟨S100000x128, .f32⟩ : BufTy).Contents (Elt F)),
    nullary main_cst_20 (constant S_ .f32 0x3F800000#32),
    unary main_cst_20 main_v130 (broadcastInDim S100000x128 ![] bcast_S_S100000x128 : (⟨S_, .f32⟩ : BufTy).Contents (Elt F) → (⟨S100000x128, .f32⟩ : BufTy).Contents (Elt F)),
    binary main_v130 main_v129 main_v131 (addf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3F800000#32),
    unary main_cst_21 main_v132 (broadcastInDim S100000x128 ![] bcast_S_S100000x128 : (⟨S_, .f32⟩ : BufTy).Contents (Elt F) → (⟨S100000x128, .f32⟩ : BufTy).Contents (Elt F)),
    binary main_v132 main_v131 main_v133 (Host.divf : (⟨S100000x128, .f32⟩ : BufTy).Contents (Elt F) → (⟨S100000x128, .f32⟩ : BufTy).Contents (Elt F) → (⟨S100000x128, .f32⟩ : BufTy).Contents (Elt F)),
    binary main_v122 main_v125 main_v134 (addf : (⟨S100000x128, .f32⟩ : BufTy).Contents (Elt F) → (⟨S100000x128, .f32⟩ : BufTy).Contents (Elt F) → (⟨S100000x128, .f32⟩ : BufTy).Contents (Elt F)),
    unary main_v134 main_v135 (Host.negf : (⟨S100000x128, .f32⟩ : BufTy).Contents (Elt F) → (⟨S100000x128, .f32⟩ : BufTy).Contents (Elt F)),
    unary main_v135 main_v136 (Host.exp : (⟨S100000x128, .f32⟩ : BufTy).Contents (Elt F) → (⟨S100000x128, .f32⟩ : BufTy).Contents (Elt F)),
    nullary main_cst_22 (constant S_ .f32 0x3F800000#32),
    unary main_cst_22 main_v137 (broadcastInDim S100000x128 ![] bcast_S_S100000x128 : (⟨S_, .f32⟩ : BufTy).Contents (Elt F) → (⟨S100000x128, .f32⟩ : BufTy).Contents (Elt F)),
    binary main_v137 main_v136 main_v138 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3F800000#32),
    unary main_cst_23 main_v139 (broadcastInDim S100000x128 ![] bcast_S_S100000x128 : (⟨S_, .f32⟩ : BufTy).Contents (Elt F) → (⟨S100000x128, .f32⟩ : BufTy).Contents (Elt F)),
    binary main_v139 main_v138 main_v140 (Host.divf : (⟨S100000x128, .f32⟩ : BufTy).Contents (Elt F) → (⟨S100000x128, .f32⟩ : BufTy).Contents (Elt F) → (⟨S100000x128, .f32⟩ : BufTy).Contents (Elt F)),
    binary main_v133 main_v126 main_v141 (mulf : (⟨S100000x128, .f32⟩ : BufTy).Contents (Elt F) → (⟨S100000x128, .f32⟩ : BufTy).Contents (Elt F) → (⟨S100000x128, .f32⟩ : BufTy).Contents (Elt F)),
    binary main_v123 main_v141 main_v142 (addf : (⟨S100000x128, .f32⟩ : BufTy).Contents (Elt F) → (⟨S100000x128, .f32⟩ : BufTy).Contents (Elt F) → (⟨S100000x128, .f32⟩ : BufTy).Contents (Elt F)),
    unary main_v142 main_v143 (Host.tanh : (⟨S100000x128, .f32⟩ : BufTy).Contents (Elt F) → (⟨S100000x128, .f32⟩ : BufTy).Contents (Elt F)),
    nullary main_cst_24 (constant S_ .f32 0x3F800000#32),
    unary main_cst_24 main_v144 (broadcastInDim S100000x128 ![] bcast_S_S100000x128 : (⟨S_, .f32⟩ : BufTy).Contents (Elt F) → (⟨S100000x128, .f32⟩ : BufTy).Contents (Elt F)),
    binary main_v144 main_v140 main_v145 (subf : (⟨S100000x128, .f32⟩ : BufTy).Contents (Elt F) → (⟨S100000x128, .f32⟩ : BufTy).Contents (Elt F) → (⟨S100000x128, .f32⟩ : BufTy).Contents (Elt F)),
    binary main_v145 main_v143 main_v146 (mulf : (⟨S100000x128, .f32⟩ : BufTy).Contents (Elt F) → (⟨S100000x128, .f32⟩ : BufTy).Contents (Elt F) → (⟨S100000x128, .f32⟩ : BufTy).Contents (Elt F)),
    binary main_v140 main_arg3 main_v147 (mulf : (⟨S100000x128, .f32⟩ : BufTy).Contents (Elt F) → (⟨S100000x128, .f32⟩ : BufTy).Contents (Elt F) → (⟨S100000x128, .f32⟩ : BufTy).Contents (Elt F)),
    binary main_v146 main_v147 main_v148 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Operations 179 … 182 of 315. The second convolution's linear map, the node indices, and the sources with the self-loops appended. -/
abbrev seg8 : List (HloOp τ sig (Elt F)) :=
  [ unary main_arg11 main_v149 ((transpose S128x128 [1, 0] · transposes_S128x128_S128x128_1_0) : (⟨S128x128, .f32⟩ : BufTy).Contents (Elt F) → (⟨S128x128, .f32⟩ : BufTy).Contents (Elt F)),
    binary main_v148 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v151 (iotaInDim S100000 32 0),
    binary main_v1 main_v151 main_v152 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ]

set_option maxRecDepth 8192 in
set_option maxHeartbeats 4000000 in
/-- Operations 183 … 183 of 315. The second convolution's targets with the self-loops appended. -/
abbrev seg9 : List (HloOp τ sig (Elt F)) :=
  [ binary main_v3 main_v151 main_v153 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ]

set_option maxRecDepth 8192 in
set_option maxHeartbeats 4000000 in
/-- Operations 184 … 232 of 315. The second convolution's degrees, normalisation, gathered rows and neighbourhood sum. -/
abbrev seg10 : List (HloOp τ sig (Elt F)) :=
  [ nullary main_cst_25 (constant S_ .f32 0x3F800000#32),
    unary main_cst_25 main_v154 (broadcastInDim S700000 ![] bcast_S_S700000 : (⟨S_, .f32⟩ : BufTy).Contents (Elt F) → (⟨S700000, .f32⟩ : BufTy).Contents (Elt F)),
    nullary main_cst_26 (constant S_ .f32 0x00000000#32),
    unary main_cst_26 main_v155 (broadcastInDim S100000 ![] bcast_S_S100000 : (⟨S_, .f32⟩ : BufTy).Contents (Elt F) → (⟨S100000, .f32⟩ : BufTy).Contents (Elt F)),
    unary main_v153 main_v156 (broadcastInDim S700000x1 ![0] bcast_S700000_S700000x1_0 : (⟨S700000, .i32⟩ : BufTy).Contents (Elt F) → (⟨S700000x1, .i32⟩ : BufTy).Contents (Elt F)),
    ternary main_v155 main_v156 main_v154 main_v157 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_27 (constant S_ .f32 0x00000000#32),
    unary main_cst_27 main_v158 (broadcastInDim S100000 ![] bcast_S_S100000 : (⟨S_, .f32⟩ : BufTy).Contents (Elt F) → (⟨S100000, .f32⟩ : BufTy).Contents (Elt F)),
    binary main_v157 main_v158 main_v159 (cmpf .ogt : (⟨S100000, .f32⟩ : BufTy).Contents (Elt F) → (⟨S100000, .f32⟩ : BufTy).Contents (Elt F) → (⟨S100000, .i1⟩ : BufTy).Contents (Elt F)),
    unary main_v157 main_v160 (Host.rsqrt : (⟨S100000, .f32⟩ : BufTy).Contents (Elt F) → (⟨S100000, .f32⟩ : BufTy).Contents (Elt F)),
    nullary main_cst_28 (constant S_ .f32 0x00000000#32),
    TRef.unary (TRef.of (T := ⟨S_, .f32⟩) main_cst_28) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v159) (TRef.of (T := ⟨S100000, .f32⟩) main_v160) (TRef.of (T := ⟨S100000, .f32⟩) main_call4_v1) (TRef.of (T := ⟨S100000, .f32⟩) main_v161) select,
    nullary main_c_29 (constantI S_ 32 0#32),
    unary main_c_29 main_v162 (broadcastInDim S700000 ![] bcast_S_S700000 : (⟨S_, .i32⟩ : BufTy).Contents (Elt F) → (⟨S700000, .i32⟩ : BufTy).Contents (Elt F)),
    binary main_v152 main_v162 main_v163 (cmpi .slt : (⟨S700000, .i32⟩ : BufTy).Contents (Elt F) → (⟨S700000, .i32⟩ : BufTy).Contents (Elt F) → (⟨S700000, .i1⟩ : BufTy).Contents (Elt F)),
    nullary main_c_30 (constantI S_ 32 100000#32),
    unary main_c_30 main_v164 (broadcastInDim S700000 ![] bcast_S_S700000 : (⟨S_, .i32⟩ : BufTy).Contents (Elt F) → (⟨S700000, .i32⟩ : BufTy).Contents (Elt F)),
    binary main_v152 main_v164 main_v165 (addi : (⟨S700000, .i32⟩ : BufTy).Contents (Elt F) → (⟨S700000, .i32⟩ : BufTy).Contents (Elt F) → (⟨S700000, .i32⟩ : BufTy).Contents (Elt F)),
    ternary main_v163 main_v165 main_v152 main_v166 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v166 main_v167 (broadcastInDim S700000x1 ![0] bcast_S700000_S700000x1_0 : (⟨S700000, .i32⟩ : BufTy).Contents (Elt F) → (⟨S700000x1, .i32⟩ : BufTy).Contents (Elt F)),
    binary main_v161 main_v167 main_v168 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_31 (constantI S_ 32 0#32),
    unary main_c_31 main_v169 (broadcastInDim S700000 ![] bcast_S_S700000 : (⟨S_, .i32⟩ : BufTy).Contents (Elt F) → (⟨S700000, .i32⟩ : BufTy).Contents (Elt F)),
    binary main_v153 main_v169 main_v170 (cmpi .slt : (⟨S700000, .i32⟩ : BufTy).Contents (Elt F) → (⟨S700000, .i32⟩ : BufTy).Contents (Elt F) → (⟨S700000, .i1⟩ : BufTy).Contents (Elt F)),
    nullary main_c_32 (constantI S_ 32 100000#32),
    unary main_c_32 main_v171 (broadcastInDim S700000 ![] bcast_S_S700000 : (⟨S_, .i32⟩ : BufTy).Contents (Elt F) → (⟨S700000, .i32⟩ : BufTy).Contents (Elt F)),
    binary main_v153 main_v171 main_v172 (addi : (⟨S700000, .i32⟩ : BufTy).Contents (Elt F) → (⟨S700000, .i32⟩ : BufTy).Contents (Elt F) → (⟨S700000, .i32⟩ : BufTy).Contents (Elt F)),
    ternary main_v170 main_v172 main_v153 main_v173 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v173 main_v174 (broadcastInDim S700000x1 ![0] bcast_S700000_S700000x1_0 : (⟨S700000, .i32⟩ : BufTy).Contents (Elt F) → (⟨S700000x1, .i32⟩ : BufTy).Contents (Elt F)),
    binary main_v161 main_v174 main_v175 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v168 main_v175 main_v176 (mulf : (⟨S700000, .f32⟩ : BufTy).Contents (Elt F) → (⟨S700000, .f32⟩ : BufTy).Contents (Elt F) → (⟨S700000, .f32⟩ : BufTy).Contents (Elt F)),
    nullary main_c_33 (constantI S_ 32 0#32),
    unary main_c_33 main_v177 (broadcastInDim S700000 ![] bcast_S_S700000 : (⟨S_, .i32⟩ : BufTy).Contents (Elt F) → (⟨S700000, .i32⟩ : BufTy).Contents (Elt F)),
    binary main_v152 main_v177 main_v178 (cmpi .slt : (⟨S700000, .i32⟩ : BufTy).Contents (Elt F) → (⟨S700000, .i32⟩ : BufTy).Contents (Elt F) → (⟨S700000, .i1⟩ : BufTy).Contents (Elt F)),
    nullary main_c_34 (constantI S_ 32 100000#32),
    unary main_c_34 main_v179 (broadcastInDim S700000 ![] bcast_S_S700000 : (⟨S_, .i32⟩ : BufTy).Contents (Elt F) → (⟨S700000, .i32⟩ : BufTy).Contents (Elt F)),
    binary main_v152 main_v179 main_v180 (addi : (⟨S700000, .i32⟩ : BufTy).Contents (Elt F) → (⟨S700000, .i32⟩ : BufTy).Contents (Elt F) → (⟨S700000, .i32⟩ : BufTy).Contents (Elt F)),
    ternary main_v178 main_v180 main_v152 main_v181 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v181 main_v182 (broadcastInDim S700000x1 ![0] bcast_S700000_S700000x1_0 : (⟨S700000, .i32⟩ : BufTy).Contents (Elt F) → (⟨S700000x1, .i32⟩ : BufTy).Contents (Elt F)),
    binary main_v150 main_v182 main_v183 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v176 main_v184 (broadcastInDim S700000x1 ![0] bcast_S700000_S700000x1_0 : (⟨S700000, .f32⟩ : BufTy).Contents (Elt F) → (⟨S700000x1, .f32⟩ : BufTy).Contents (Elt F)),
    unary main_v184 main_v185 (broadcastInDim S700000x128 ![0, 1] bcast_S700000x1_S700000x128_0_1 : (⟨S700000x1, .f32⟩ : BufTy).Contents (Elt F) → (⟨S700000x128, .f32⟩ : BufTy).Contents (Elt F)),
    binary main_v183 main_v185 main_v186 (mulf : (⟨S700000x128, .f32⟩ : BufTy).Contents (Elt F) → (⟨S700000x128, .f32⟩ : BufTy).Contents (Elt F) → (⟨S700000x128, .f32⟩ : BufTy).Contents (Elt F)),
    nullary main_cst_35 (constant S_ .f32 0x00000000#32),
    unary main_cst_35 main_v187 (broadcastInDim S100000x128 ![] bcast_S_S100000x128 : (⟨S_, .f32⟩ : BufTy).Contents (Elt F) → (⟨S100000x128, .f32⟩ : BufTy).Contents (Elt F)),
    unary main_v153 main_v188 (broadcastInDim S700000x1 ![0] bcast_S700000_S700000x1_0 : (⟨S700000, .i32⟩ : BufTy).Contents (Elt F) → (⟨S700000x1, .i32⟩ : BufTy).Contents (Elt F)),
    ternary main_v187 main_v188 main_v186 main_v189 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

set_option maxRecDepth 8192 in
set_option maxHeartbeats 4000000 in
/-- Operations 233 … 244 of 315. The second convolution's bias and rectifier and its cell's input gates. -/
abbrev seg11 : List (HloOp τ sig (Elt F)) :=
  [ unary main_arg12 main_v190 (broadcastInDim S1x128 ![1] bcast_S128_S1x128_1 : (⟨S128, .f32⟩ : BufTy).Contents (Elt F) → (⟨S1x128, .f32⟩ : BufTy).Contents (Elt F)),
    unary main_v190 main_v191 (broadcastInDim S100000x128 ![0, 1] bcast_S1x128_S100000x128_0_1 : (⟨S1x128, .f32⟩ : BufTy).Contents (Elt F) → (⟨S100000x128, .f32⟩ : BufTy).Contents (Elt F)),
    binary main_v189 main_v191 main_v192 (addf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x00000000#32),
    unary main_cst_36 main_v193 (broadcastInDim S100000x128 ![] bcast_S_S100000x128 : (⟨S_, .f32⟩ : BufTy).Contents (Elt F) → (⟨S100000x128, .f32⟩ : BufTy).Contents (Elt F)),
    binary main_v192 main_v193 main_v194 (cmpf .oge : (⟨S100000x128, .f32⟩ : BufTy).Contents (Elt F) → (⟨S100000x128, .f32⟩ : BufTy).Contents (Elt F) → (⟨S100000x128, .i1⟩ : BufTy).Contents (Elt F)),
    nullary main_cst_37 (constant S_ .f32 0x3C23D70A#32),
    unary main_cst_37 main_v195 (broadcastInDim S100000x128 ![] bcast_S_S100000x128 : (⟨S_, .f32⟩ : BufTy).Contents (Elt F) → (⟨S100000x128, .f32⟩ : BufTy).Contents (Elt F)),
    binary main_v195 main_v192 main_v196 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v194) (TRef.of (T := ⟨S100000x128, .f32⟩) main_v192) (TRef.of (T := ⟨S100000x128, .f32⟩) main_v196) (TRef.of (T := ⟨S100000x128, .f32⟩) main_v197) select,
    unary main_arg19 main_v198 ((transpose S128x384 [1, 0] · transposes_S384x128_S128x384_1_0) : (⟨S384x128, .f32⟩ : BufTy).Contents (Elt F) → (⟨S128x384, .f32⟩ : BufTy).Contents (Elt F)),
    binary main_v197 main_v198 main_v199 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)) ]

set_option maxRecDepth 8192 in
set_option maxHeartbeats 4000000 in
/-- Operations 245 … 285 of 315. The second convolution's recurrent cell from the hidden gates on. -/
abbrev seg12 : List (HloOp τ sig (Elt F)) :=
  [ unary main_arg21 main_v200 (broadcastInDim S1x384 ![1] bcast_S384_S1x384_1 : (⟨S384, .f32⟩ : BufTy).Contents (Elt F) → (⟨S1x384, .f32⟩ : BufTy).Contents (Elt F)),
    unary main_v200 main_v201 (broadcastInDim S100000x384 ![0, 1] bcast_S1x384_S100000x384_0_1 : (⟨S1x384, .f32⟩ : BufTy).Contents (Elt F) → (⟨S100000x384, .f32⟩ : BufTy).Contents (Elt F)),
    binary main_v199 main_v201 main_v202 (addf : (⟨S100000x384, .f32⟩ : BufTy).Contents (Elt F) → (⟨S100000x384, .f32⟩ : BufTy).Contents (Elt F) → (⟨S100000x384, .f32⟩ : BufTy).Contents (Elt F)),
    unary main_arg20 main_v203 ((transpose S128x384 [1, 0] · transposes_S384x128_S128x384_1_0) : (⟨S384x128, .f32⟩ : BufTy).Contents (Elt F) → (⟨S128x384, .f32⟩ : BufTy).Contents (Elt F)),
    binary main_arg4 main_v203 main_v204 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg22 main_v205 (broadcastInDim S1x384 ![1] bcast_S384_S1x384_1 : (⟨S384, .f32⟩ : BufTy).Contents (Elt F) → (⟨S1x384, .f32⟩ : BufTy).Contents (Elt F)),
    unary main_v205 main_v206 (broadcastInDim S100000x384 ![0, 1] bcast_S1x384_S100000x384_0_1 : (⟨S1x384, .f32⟩ : BufTy).Contents (Elt F) → (⟨S100000x384, .f32⟩ : BufTy).Contents (Elt F)),
    binary main_v204 main_v206 main_v207 (addf : (⟨S100000x384, .f32⟩ : BufTy).Contents (Elt F) → (⟨S100000x384, .f32⟩ : BufTy).Contents (Elt F) → (⟨S100000x384, .f32⟩ : BufTy).Contents (Elt F)),
    unary main_v202 main_v208 ((extractStridedSlice S100000x128 ![0, 0] · slices_S100000x384_S100000x128_0_0) : (⟨S100000x384, .f32⟩ : BufTy).Contents (Elt F) → (⟨S100000x128, .f32⟩ : BufTy).Contents (Elt F)),
    unary main_v202 main_v209 ((extractStridedSlice S100000x128 ![0, 128] · slices_S100000x384_S100000x128_0_128) : (⟨S100000x384, .f32⟩ : BufTy).Contents (Elt F) → (⟨S100000x128, .f32⟩ : BufTy).Contents (Elt F)),
    unary main_v202 main_v210 ((extractStridedSlice S100000x128 ![0, 256] · slices_S100000x384_S100000x128_0_256) : (⟨S100000x384, .f32⟩ : BufTy).Contents (Elt F) → (⟨S100000x128, .f32⟩ : BufTy).Contents (Elt F)),
    unary main_v207 main_v211 ((extractStridedSlice S100000x128 ![0, 0] · slices_S100000x384_S100000x128_0_0) : (⟨S100000x384, .f32⟩ : BufTy).Contents (Elt F) → (⟨S100000x128, .f32⟩ : BufTy).Contents (Elt F)),
    unary main_v207 main_v212 ((extractStridedSlice S100000x128 ![0, 128] · slices_S100000x384_S100000x128_0_128) : (⟨S100000x384, .f32⟩ : BufTy).Contents (Elt F) → (⟨S100000x128, .f32⟩ : BufTy).Contents (Elt F)),
    unary main_v207 main_v213 ((extractStridedSlice S100000x128 ![0, 256] · slices_S100000x384_S100000x128_0_256) : (⟨S100000x384, .f32⟩ : BufTy).Contents (Elt F) → (⟨S100000x128, .f32⟩ : BufTy).Contents (Elt F)),
    binary main_v208 main_v211 main_v214 (addf : (⟨S100000x128, .f32⟩ : BufTy).Contents (Elt F) → (⟨S100000x128, .f32⟩ : BufTy).Contents (Elt F) → (⟨S100000x128, .f32⟩ : BufTy).Contents (Elt F)),
    unary main_v214 main_v215 (Host.negf : (⟨S100000x128, .f32⟩ : BufTy).Contents (Elt F) → (⟨S100000x128, .f32⟩ : BufTy).Contents (Elt F)),
    unary main_v215 main_v216 (Host.exp : (⟨S100000x128, .f32⟩ : BufTy).Contents (Elt F) → (⟨S100000x128, .f32⟩ : BufTy).Contents (Elt F)),
    nullary main_cst_38 (constant S_ .f32 0x3F800000#32),
    unary main_cst_38 main_v217 (broadcastInDim S100000x128 ![] bcast_S_S100000x128 : (⟨S_, .f32⟩ : BufTy).Contents (Elt F) → (⟨S100000x128, .f32⟩ : BufTy).Contents (Elt F)),
    binary main_v217 main_v216 main_v218 (addf : (⟨S100000x128, .f32⟩ : BufTy).Contents (Elt F) → (⟨S100000x128, .f32⟩ : BufTy).Contents (Elt F) → (⟨S100000x128, .f32⟩ : BufTy).Contents (Elt F)),
    nullary main_cst_39 (constant S_ .f32 0x3F800000#32),
    unary main_cst_39 main_v219 (broadcastInDim S100000x128 ![] bcast_S_S100000x128 : (⟨S_, .f32⟩ : BufTy).Contents (Elt F) → (⟨S100000x128, .f32⟩ : BufTy).Contents (Elt F)),
    binary main_v219 main_v218 main_v220 (Host.divf : (⟨S100000x128, .f32⟩ : BufTy).Contents (Elt F) → (⟨S100000x128, .f32⟩ : BufTy).Contents (Elt F) → (⟨S100000x128, .f32⟩ : BufTy).Contents (Elt F)),
    binary main_v209 main_v212 main_v221 (addf : (⟨S100000x128, .f32⟩ : BufTy).Contents (Elt F) → (⟨S100000x128, .f32⟩ : BufTy).Contents (Elt F) → (⟨S100000x128, .f32⟩ : BufTy).Contents (Elt F)),
    unary main_v221 main_v222 (Host.negf : (⟨S100000x128, .f32⟩ : BufTy).Contents (Elt F) → (⟨S100000x128, .f32⟩ : BufTy).Contents (Elt F)),
    unary main_v222 main_v223 (Host.exp : (⟨S100000x128, .f32⟩ : BufTy).Contents (Elt F) → (⟨S100000x128, .f32⟩ : BufTy).Contents (Elt F)),
    nullary main_cst_40 (constant S_ .f32 0x3F800000#32),
    unary main_cst_40 main_v224 (broadcastInDim S100000x128 ![] bcast_S_S100000x128 : (⟨S_, .f32⟩ : BufTy).Contents (Elt F) → (⟨S100000x128, .f32⟩ : BufTy).Contents (Elt F)),
    binary main_v224 main_v223 main_v225 (addf : (⟨S100000x128, .f32⟩ : BufTy).Contents (Elt F) → (⟨S100000x128, .f32⟩ : BufTy).Contents (Elt F) → (⟨S100000x128, .f32⟩ : BufTy).Contents (Elt F)),
    nullary main_cst_41 (constant S_ .f32 0x3F800000#32),
    unary main_cst_41 main_v226 (broadcastInDim S100000x128 ![] bcast_S_S100000x128 : (⟨S_, .f32⟩ : BufTy).Contents (Elt F) → (⟨S100000x128, .f32⟩ : BufTy).Contents (Elt F)),
    binary main_v226 main_v225 main_v227 (Host.divf : (⟨S100000x128, .f32⟩ : BufTy).Contents (Elt F) → (⟨S100000x128, .f32⟩ : BufTy).Contents (Elt F) → (⟨S100000x128, .f32⟩ : BufTy).Contents (Elt F)),
    binary main_v220 main_v213 main_v228 (mulf : (⟨S100000x128, .f32⟩ : BufTy).Contents (Elt F) → (⟨S100000x128, .f32⟩ : BufTy).Contents (Elt F) → (⟨S100000x128, .f32⟩ : BufTy).Contents (Elt F)),
    binary main_v210 main_v228 main_v229 (addf : (⟨S100000x128, .f32⟩ : BufTy).Contents (Elt F) → (⟨S100000x128, .f32⟩ : BufTy).Contents (Elt F) → (⟨S100000x128, .f32⟩ : BufTy).Contents (Elt F)),
    unary main_v229 main_v230 (Host.tanh : (⟨S100000x128, .f32⟩ : BufTy).Contents (Elt F) → (⟨S100000x128, .f32⟩ : BufTy).Contents (Elt F)),
    nullary main_cst_42 (constant S_ .f32 0x3F800000#32),
    unary main_cst_42 main_v231 (broadcastInDim S100000x128 ![] bcast_S_S100000x128 : (⟨S_, .f32⟩ : BufTy).Contents (Elt F) → (⟨S100000x128, .f32⟩ : BufTy).Contents (Elt F)),
    binary main_v231 main_v227 main_v232 (subf : (⟨S100000x128, .f32⟩ : BufTy).Contents (Elt F) → (⟨S100000x128, .f32⟩ : BufTy).Contents (Elt F) → (⟨S100000x128, .f32⟩ : BufTy).Contents (Elt F)),
    binary main_v232 main_v230 main_v233 (mulf : (⟨S100000x128, .f32⟩ : BufTy).Contents (Elt F) → (⟨S100000x128, .f32⟩ : BufTy).Contents (Elt F) → (⟨S100000x128, .f32⟩ : BufTy).Contents (Elt F)),
    binary main_v227 main_arg4 main_v234 (mulf : (⟨S100000x128, .f32⟩ : BufTy).Contents (Elt F) → (⟨S100000x128, .f32⟩ : BufTy).Contents (Elt F) → (⟨S100000x128, .f32⟩ : BufTy).Contents (Elt F)),
    binary main_v233 main_v234 main_v235 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Operations 286 … 304 of 315. The link list's two rows, wrapped, and the first end's rows gathered. -/
abbrev seg13 : List (HloOp τ sig (Elt F)) :=
  [ unary main_arg2 main_v236 ((extractStridedSlice S1x200000 ![0, 0] · slices_S2x200000_S1x200000_0_0) : (⟨S2x200000, .i32⟩ : BufTy).Contents (Elt F) → (⟨S1x200000, .i32⟩ : BufTy).Contents (Elt F)),
    reshape main_v236 main_v237 rfl shapeCasts_S1x200000_S200000,
    nullary main_c_43 (constantI S_ 32 0#32),
    unary main_c_43 main_v238 (broadcastInDim S200000 ![] bcast_S_S200000 : (⟨S_, .i32⟩ : BufTy).Contents (Elt F) → (⟨S200000, .i32⟩ : BufTy).Contents (Elt F)),
    binary main_v237 main_v238 main_v239 (cmpi .slt : (⟨S200000, .i32⟩ : BufTy).Contents (Elt F) → (⟨S200000, .i32⟩ : BufTy).Contents (Elt F) → (⟨S200000, .i1⟩ : BufTy).Contents (Elt F)),
    nullary main_c_44 (constantI S_ 32 100000#32),
    unary main_c_44 main_v240 (broadcastInDim S200000 ![] bcast_S_S200000 : (⟨S_, .i32⟩ : BufTy).Contents (Elt F) → (⟨S200000, .i32⟩ : BufTy).Contents (Elt F)),
    binary main_v237 main_v240 main_v241 (addi : (⟨S200000, .i32⟩ : BufTy).Contents (Elt F) → (⟨S200000, .i32⟩ : BufTy).Contents (Elt F) → (⟨S200000, .i32⟩ : BufTy).Contents (Elt F)),
    ternary main_v239 main_v241 main_v237 main_v242 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v242 main_v243 (broadcastInDim S200000x1 ![0] bcast_S200000_S200000x1_0 : (⟨S200000, .i32⟩ : BufTy).Contents (Elt F) → (⟨S200000x1, .i32⟩ : BufTy).Contents (Elt F)),
    binary main_v235 main_v243 main_v244 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    unary main_arg2 main_v245 ((extractStridedSlice S1x200000 ![1, 0] · slices_S2x200000_S1x200000_1_0) : (⟨S2x200000, .i32⟩ : BufTy).Contents (Elt F) → (⟨S1x200000, .i32⟩ : BufTy).Contents (Elt F)),
    reshape main_v245 main_v246 rfl shapeCasts_S1x200000_S200000,
    nullary main_c_45 (constantI S_ 32 0#32),
    unary main_c_45 main_v247 (broadcastInDim S200000 ![] bcast_S_S200000 : (⟨S_, .i32⟩ : BufTy).Contents (Elt F) → (⟨S200000, .i32⟩ : BufTy).Contents (Elt F)),
    binary main_v246 main_v247 main_v248 (cmpi .slt : (⟨S200000, .i32⟩ : BufTy).Contents (Elt F) → (⟨S200000, .i32⟩ : BufTy).Contents (Elt F) → (⟨S200000, .i1⟩ : BufTy).Contents (Elt F)),
    nullary main_c_46 (constantI S_ 32 100000#32),
    unary main_c_46 main_v249 (broadcastInDim S200000 ![] bcast_S_S200000 : (⟨S_, .i32⟩ : BufTy).Contents (Elt F) → (⟨S200000, .i32⟩ : BufTy).Contents (Elt F)),
    binary main_v246 main_v249 main_v250 (addi : (⟨S200000, .i32⟩ : BufTy).Contents (Elt F) → (⟨S200000, .i32⟩ : BufTy).Contents (Elt F) → (⟨S200000, .i32⟩ : BufTy).Contents (Elt F)) ]

set_option maxRecDepth 8192 in
set_option maxHeartbeats 4000000 in
/-- Operations 305 … 315 of 315. The second end's rows, the product, the two-class affine map and the sum over classes. -/
abbrev seg14 : List (HloOp τ sig (Elt F)) :=
  [ ternary main_v248 main_v250 main_v246 main_v251 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v251 main_v252 (broadcastInDim S200000x1 ![0] bcast_S200000_S200000x1_0 : (⟨S200000, .i32⟩ : BufTy).Contents (Elt F) → (⟨S200000x1, .i32⟩ : BufTy).Contents (Elt F)),
    binary main_v235 main_v252 main_v253 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    binary main_v244 main_v253 main_v254 (mulf : (⟨S200000x128, .f32⟩ : BufTy).Contents (Elt F) → (⟨S200000x128, .f32⟩ : BufTy).Contents (Elt F) → (⟨S200000x128, .f32⟩ : BufTy).Contents (Elt F)),
    unary main_arg13 main_v255 ((transpose S128x2 [1, 0] · transposes_S2x128_S128x2_1_0) : (⟨S2x128, .f32⟩ : BufTy).Contents (Elt F) → (⟨S128x2, .f32⟩ : BufTy).Contents (Elt F)),
    binary main_v254 main_v255 main_v256 ((fun l r => Host.dotGeneral dot_S200000x128_S128x2_S200000x2_1_0_0_1_n_n none l r) : (⟨S200000x128, .f32⟩ : BufTy).Contents (Elt F) → (⟨S128x2, .f32⟩ : BufTy).Contents (Elt F) → (⟨S200000x2, .f32⟩ : BufTy).Contents (Elt F)),
    unary main_arg14 main_v257 (broadcastInDim S1x2 ![1] bcast_S2_S1x2_1 : (⟨S2, .f32⟩ : BufTy).Contents (Elt F) → (⟨S1x2, .f32⟩ : BufTy).Contents (Elt F)),
    unary main_v257 main_v258 (broadcastInDim S200000x2 ![0, 1] bcast_S1x2_S200000x2_0_1 : (⟨S1x2, .f32⟩ : BufTy).Contents (Elt F) → (⟨S200000x2, .f32⟩ : BufTy).Contents (Elt F)),
    binary main_v256 main_v258 main_v259 (addf : (⟨S200000x2, .f32⟩ : BufTy).Contents (Elt F) → (⟨S200000x2, .f32⟩ : BufTy).Contents (Elt F) → (⟨S200000x2, .f32⟩ : BufTy).Contents (Elt F)),
    nullary main_cst_47 (constant S_ .f32 0x00000000#32),
    binary main_v259 main_cst_47 main_v260 ((fun x v => Host.reduceAdd x v reducesTo_S200000x2_S200000_d1 h_S_) : (⟨S200000x2, .f32⟩ : BufTy).Contents (Elt F) → (⟨S_, .f32⟩ : BufTy).Contents (Elt F) → (⟨S200000, .f32⟩ : BufTy).Contents (Elt F)) ]

/-- The operations of @main's window 0. -/
def win0 : List (HloOp τ sig (Elt F)) := seg0 ++ (seg1 ++ (seg2))

/-- The operations of @main's window 1. -/
def win1 : List (HloOp τ sig (Elt F)) := seg3 ++ (seg4 ++ (seg5))

/-- The operations of @main's window 2. -/
def win2 : List (HloOp τ sig (Elt F)) := seg6 ++ (seg7 ++ (seg8))

/-- The operations of @main's window 3. -/
def win3 : List (HloOp τ sig (Elt F)) := seg9 ++ (seg10 ++ (seg11))

/-- The operations of @main's window 4. -/
def win4 : List (HloOp τ sig (Elt F)) := seg12 ++ (seg13)

/-- The operations of @main's window 5. -/
def win5 : List (HloOp τ sig (Elt F)) := seg14

set_option maxRecDepth 8192 in
set_option maxHeartbeats 4000000 in
/-- Window 0 of @main is the straight line of its operations: the outlined selects unfold at their calls. -/
theorem main_part0_eq (c : Dev nD) : main_part0 (F := F) c = seq win0 := rfl

set_option maxRecDepth 8192 in
set_option maxHeartbeats 4000000 in
/-- Window 1 of @main is the straight line of its operations: the outlined selects unfold at their calls. -/
theorem main_part1_eq (c : Dev nD) : main_part1 (F := F) c = seq win1 := rfl

set_option maxRecDepth 8192 in
set_option maxHeartbeats 4000000 in
/-- Window 2 of @main is the straight line of its operations: the outlined selects unfold at their calls. -/
theorem main_part2_eq (c : Dev nD) : main_part2 (F := F) c = seq win2 := rfl

set_option maxRecDepth 8192 in
set_option maxHeartbeats 4000000 in
/-- Window 3 of @main is the straight line of its operations: the outlined selects unfold at their calls. -/
theorem main_part3_eq (c : Dev nD) : main_part3 (F := F) c = seq win3 := rfl

set_option maxRecDepth 8192 in
set_option maxHeartbeats 4000000 in
/-- Window 4 of @main is the straight line of its operations: the outlined selects unfold at their calls. -/
theorem main_part4_eq (c : Dev nD) : main_part4 (F := F) c = seq win4 := rfl

set_option maxRecDepth 8192 in
set_option maxHeartbeats 4000000 in
/-- Window 5 of @main is the straight line of its operations: the outlined selects unfold at their calls. -/
theorem main_part5_eq (c : Dev nD) : main_part5 (F := F) c = seq win5 := rfl

/-- @main's 315 operations, in order, window by window. -/
def ops : List (HloOp τ sig (Elt F)) := win0 ++ (win1 ++ (win2 ++ (win3 ++ (win4 ++ (win5)))))

set_option maxRecDepth 8192 in
/-- @main is the straight line of its operations: window after window, each the line of its own. -/
theorem main_eq (c : Dev nD) : main (F := F) c = seq ops := by
  simp only [ops, seq_append, ← main_part0_eq c, ← main_part1_eq c, ← main_part2_eq c, ← main_part3_eq c, ← main_part4_eq c, ← main_part5_eq c]
  rfl

end Cert.ReferenceIdeal.HandRun

end
-- ==== Proof.RefOpsB.lean ====
/-
  What each piece of @main's operation list writes and touches: a buffer outside a piece's results keeps its contents
  through the piece, every buffer touched is a TensorCore buffer, every operation determines its result. The same for
  the whole list, whose fold over any contents is the pieces' folds one after the other.
-/
import proofs.«118245_j7395933684286_1_alg».proof.Proof.RefOpsA

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- A one-buffer set lies in the set of a list's buffers when its buffer is in the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers piece 0 writes, in order. -/
abbrev seg0_W : List (Ref sig .tc) := [main_v0, main_v1, main_v2, main_v3]

set_option maxRecDepth 8192 in
/-- Each operation of piece 0 writes one of those. -/
theorem seg0_writes : (seg0 : List (HloOp τ sig (Elt F))).Forall fun op => op.writes ⊆ (seg0_W.map (Proc.devRef (τ := τ) .tc)).toFinset :=
  ⟨sub_of_mem (y := main_v0) (by decide), sub_of_mem (y := main_v1) (by decide), sub_of_mem (y := main_v2) (by decide), sub_of_mem (y := main_v3) (by decide)⟩

/-- A buffer piece 0 does not write keeps its contents through it. -/
theorem seg0_keep (V : Valuation τ sig (Elt F)) (r : Ref sig .tc) (h : r ∉ seg0_W) :
    after seg0 V (Proc.devRef .tc r) = V (Proc.devRef .tc r) :=
  after_of_writes_sub seg0 V seg0_writes h

set_option maxRecDepth 8192 in
/-- Piece 0 touches TensorCore buffers only. -/
theorem seg0_sub : (seg0 : List (HloOp τ sig (Elt F))).Forall fun op => op.bufs ⊆ tcRefs τ sig :=
  ⟨unary_bufs_sub .., reshape_bufs_sub .., unary_bufs_sub .., reshape_bufs_sub ..⟩

set_option maxRecDepth 8192 in
/-- Every operation of piece 0 determines its result. -/
theorem seg0_fresh : ∀ op ∈ (seg0 : List (HloOp τ sig (Elt F))), op.fresh = ∅ := by
  intro _ h; (repeat (cases h with | head => rfl | tail _ h => ?_)); exact nomatch h

/-- The buffers piece 1 writes, in order. -/
abbrev seg1_W : List (Ref sig .tc) := [main_v4, main_v5, main_v6, main_v7, main_v8, main_cst, main_v9, main_v10, main_cst_0, main_v11, main_v12, main_v13, main_v14, main_v15, main_v16, main_v17, main_v18, main_cst_1, main_v19, main_v20, main_cst_2, main_v21, main_v22, main_v23]

set_option maxRecDepth 8192 in
/-- Each operation of piece 1 writes one of those. -/
theorem seg1_writes : (seg1 : List (HloOp τ sig (Elt F))).Forall fun op => op.writes ⊆ (seg1_W.map (Proc.devRef (τ := τ) .tc)).toFinset :=
  ⟨sub_of_mem (y := main_v4) (by decide), sub_of_mem (y := main_v5) (by decide), sub_of_mem (y := main_v6) (by decide), sub_of_mem (y := main_v7) (by decide), sub_of_mem (y := main_v8) (by decide), sub_of_mem (y := main_cst) (by decide), sub_of_mem (y := main_v9) (by decide), sub_of_mem (y := main_v10) (by decide), sub_of_mem (y := main_cst_0) (by decide), sub_of_mem (y := main_v11) (by decide), sub_of_mem (y := main_v12) (by decide), sub_of_mem (y := main_v13) (by decide), sub_of_mem (y := main_v14) (by decide), sub_of_mem (y := main_v15) (by decide), sub_of_mem (y := main_v16) (by decide), sub_of_mem (y := main_v17) (by decide), sub_of_mem (y := main_v18) (by decide), sub_of_mem (y := main_cst_1) (by decide), sub_of_mem (y := main_v19) (by decide), sub_of_mem (y := main_v20) (by decide), sub_of_mem (y := main_cst_2) (by decide), sub_of_mem (y := main_v21) (by decide), sub_of_mem (y := main_v22) (by decide), sub_of_mem (y := main_v23) (by decide)⟩

/-- A buffer piece 1 does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h

set_option maxRecDepth 8192 in
/-- Piece 1 touches TensorCore buffers only. -/
theorem seg1_sub : (seg1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
/-- Every operation of piece 1 determines its result. -/
theorem seg1_fresh : ∀ op ∈ (seg1 : List (HloOp τ sig (Elt F))), op.fresh = ∅ := by
  intro _ h; (repeat (cases h with | head => rfl | tail _ h => ?_)); exact nomatch h

/-- The buffers piece 2 writes, in order. -/
abbrev seg2_W : List (Ref sig .tc) := [main_v24, main_v25, main_v26, main_v27, main_v28, main_v29, main_v30, main_v31, main_v32, main_v33, main_v34, main_v35, main_v36, main_v37, main_v38, main_v39, main_v40, main_v41, main_v42, main_cst_3, main_v43, main_v44, main_cst_4, main_v45, main_v46, main_v47, main_v48, main_v49, main_cst_5, main_v50, main_v51, main_cst_6]

set_option maxRecDepth 8192 in
/-- Each operation of piece 2 writes one of those. -/
theorem seg2_writes : (seg2 : List (HloOp τ sig (Elt F))).Forall fun op => op.writes ⊆ (seg2_W.map (Proc.devRef (τ := τ) .tc)).toFinset :=
  ⟨sub_of_mem (y := main_v24) (by decide), sub_of_mem (y := main_v25) (by decide), sub_of_mem (y := main_v26) (by decide), sub_of_mem (y := main_v27) (by decide), sub_of_mem (y := main_v28) (by decide), sub_of_mem (y := main_v29) (by decide), sub_of_mem (y := main_v30) (by decide), sub_of_mem (y := main_v31) (by decide), sub_of_mem (y := main_v32) (by decide), sub_of_mem (y := main_v33) (by decide), sub_of_mem (y := main_v34) (by decide), sub_of_mem (y := main_v35) (by decide), sub_of_mem (y := main_v36) (by decide), sub_of_mem (y := main_v37) (by decide), sub_of_mem (y := main_v38) (by decide), sub_of_mem (y := main_v39) (by decide), sub_of_mem (y := main_v40) (by decide), sub_of_mem (y := main_v41) (by decide), sub_of_mem (y := main_v42) (by decide), sub_of_mem (y := main_cst_3) (by decide), sub_of_mem (y := main_v43) (by decide), sub_of_mem (y := main_v44) (by decide), sub_of_mem (y := main_cst_4) (by decide), sub_of_mem (y := main_v45) (by decide), sub_of_mem (y := main_v46) (by decide), sub_of_mem (y := main_v47) (by decide), sub_of_mem (y := main_v48) (by decide), sub_of_mem (y := main_v49) (by decide), sub_of_mem (y := main_cst_5) (by decide), sub_of_mem (y := main_v50) (by decide), sub_of_mem (y := main_v51) (by decide), sub_of_mem (y := main_cst_6) (by decide)⟩

/-- A buffer piece 2 does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h

set_option maxRecDepth 8192 in
/-- Piece 2 touches TensorCore buffers only. -/
theorem seg2_sub : (seg2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub ..⟩

set_option maxRecDepth 8192 in
/-- Every operation of piece 2 determines its result. -/
theorem seg2_fresh : ∀ op ∈ (seg2 : List (HloOp τ sig (Elt F))), op.fresh = ∅ := by
  intro _ h; (repeat (cases h with | head => rfl | tail _ h => ?_)); exact nomatch h

/-- The buffers piece 3 writes, in order. -/
abbrev seg3_W : List (Ref sig .tc) := [main_v52, main_v53, main_v54, main_v55, main_v56, main_cst_7, main_v57, main_v58, main_v59, main_v60, main_v61]

set_option maxRecDepth 8192 in
/-- Each operation of piece 3 writes one of those. -/
theorem seg3_writes : (seg3 : List (HloOp τ sig (Elt F))).Forall fun op => op.writes ⊆ (seg3_W.map (Proc.devRef (τ := τ) .tc)).toFinset :=
  ⟨sub_of_mem (y := main_v52) (by decide), sub_of_mem (y := main_v53) (by decide), sub_of_mem (y := main_v54) (by decide), sub_of_mem (y := main_v55) (by decide), sub_of_mem (y := main_v56) (by decide), sub_of_mem (y := main_cst_7) (by decide), sub_of_mem (y := main_v57) (by decide), sub_of_mem (y := main_v58) (by decide), sub_of_mem (y := main_v59) (by decide), sub_of_mem (y := main_v60) (by decide), sub_of_mem (y := main_v61) (by decide)⟩

/-- A buffer piece 3 does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h

set_option maxRecDepth 8192 in
/-- Piece 3 touches TensorCore buffers only. -/
theorem seg3_sub : (seg3 : List (HloOp τ sig (Elt F))).Forall fun op => op.bufs ⊆ tcRefs τ sig :=
  ⟨unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

set_option maxRecDepth 8192 in
/-- Every operation of piece 3 determines its result. -/
theorem seg3_fresh : ∀ op ∈ (seg3 : List (HloOp τ sig (Elt F))), op.fresh = ∅ := by
  intro _ h; (repeat (cases h with | head => rfl | tail _ h => ?_)); exact nomatch h

/-- The buffers piece 4 writes, in order. -/
abbrev seg4_W : List (Ref sig .tc) := [main_v62, main_v63, main_v64, main_v65, main_v66]

set_option maxRecDepth 8192 in
/-- Each operation of piece 4 writes one of those. -/
theorem seg4_writes : (seg4 : List (HloOp τ sig (Elt F))).Forall fun op => op.writes ⊆ (seg4_W.map (Proc.devRef (τ := τ) .tc)).toFinset :=
  ⟨sub_of_mem (y := main_v62) (by decide), sub_of_mem (y := main_v63) (by decide), sub_of_mem (y := main_v64) (by decide), sub_of_mem (y := main_v65) (by decide), sub_of_mem (y := main_v66) (by decide)⟩

/-- A buffer piece 4 does not write keeps its contents through it. -/
theorem seg4_keep (V : Valuation τ sig (Elt F)) (r : Ref sig .tc) (h : r ∉ seg4_W) :
    after seg4 V (Proc.devRef .tc r) = V (Proc.devRef .tc r) :=
  after_of_writes_sub seg4 V seg4_writes h

set_option maxRecDepth 8192 in
/-- Piece 4 touches TensorCore buffers only. -/
theorem seg4_sub : (seg4 : List (HloOp τ sig (Elt F))).Forall fun op => op.bufs ⊆ tcRefs τ sig :=
  ⟨unary_bufs_sub .., binary_bufs_sub .., nullary_bufs_sub .., binary_bufs_sub .., binary_bufs_sub ..⟩

set_option maxRecDepth 8192 in
/-- Every operation of piece 4 determines its result. -/
theorem seg4_fresh : ∀ op ∈ (seg4 : List (HloOp τ sig (Elt F))), op.fresh = ∅ := by
  intro _ h; (repeat (cases h with | head => rfl | tail _ h => ?_)); exact nomatch h

/-- The buffers piece 5 writes, in order. -/
abbrev seg5_W : List (Ref sig .tc) := [main_cst_8, main_v67, main_cst_9, main_v68, main_v69, main_v70, main_cst_10, main_v71, main_v72, main_v73, main_cst_11, main_call2_v0, main_call2_v1, main_v74, main_c, main_v75, main_v76, main_c_12, main_v77, main_v78, main_v79, main_v80, main_v81, main_c_13, main_v82, main_v83, main_c_14, main_v84, main_v85, main_v86, main_v87, main_v88, main_v89, main_c_15, main_v90, main_v91, main_c_16, main_v92, main_v93, main_v94, main_v95, main_v96, main_v97, main_v98, main_v99, main_cst_17]

set_option maxRecDepth 8192 in
/-- Each operation of piece 5 writes one of those. -/
theorem seg5_writes : (seg5 : List (HloOp τ sig (Elt F))).Forall fun op => op.writes ⊆ (seg5_W.map (Proc.devRef (τ := τ) .tc)).toFinset :=
  ⟨sub_of_mem (y := main_cst_8) (by decide), sub_of_mem (y := main_v67) (by decide), sub_of_mem (y := main_cst_9) (by decide), sub_of_mem (y := main_v68) (by decide), sub_of_mem (y := main_v69) (by decide), sub_of_mem (y := main_v70) (by decide), sub_of_mem (y := main_cst_10) (by decide), sub_of_mem (y := main_v71) (by decide), sub_of_mem (y := main_v72) (by decide), sub_of_mem (y := main_v73) (by decide), sub_of_mem (y := main_cst_11) (by decide), sub_of_mem (y := main_call2_v0) (by decide), sub_of_mem (y := main_call2_v1) (by decide), sub_of_mem (y := main_v74) (by decide), sub_of_mem (y := main_c) (by decide), sub_of_mem (y := main_v75) (by decide), sub_of_mem (y := main_v76) (by decide), sub_of_mem (y := main_c_12) (by decide), sub_of_mem (y := main_v77) (by decide), sub_of_mem (y := main_v78) (by decide), sub_of_mem (y := main_v79) (by decide), sub_of_mem (y := main_v80) (by decide), sub_of_mem (y := main_v81) (by decide), sub_of_mem (y := main_c_13) (by decide), sub_of_mem (y := main_v82) (by decide), sub_of_mem (y := main_v83) (by decide), sub_of_mem (y := main_c_14) (by decide), sub_of_mem (y := main_v84) (by decide), sub_of_mem (y := main_v85) (by decide), sub_of_mem (y := main_v86) (by decide), sub_of_mem (y := main_v87) (by decide), sub_of_mem (y := main_v88) (by decide), sub_of_mem (y := main_v89) (by decide), sub_of_mem (y := main_c_15) (by decide), sub_of_mem (y := main_v90) (by decide), sub_of_mem (y := main_v91) (by decide), sub_of_mem (y := main_c_16) (by decide), sub_of_mem (y := main_v92) (by decide), sub_of_mem (y := main_v93) (by decide), sub_of_mem (y := main_v94) (by decide), sub_of_mem (y := main_v95) (by decide), sub_of_mem (y := main_v96) (by decide), sub_of_mem (y := main_v97) (by decide), sub_of_mem (y := main_v98) (by decide), sub_of_mem (y := main_v99) (by decide), sub_of_mem (y := main_cst_17) (by decide)⟩

/-- A buffer piece 5 does not write keeps its contents through it. -/
theorem seg5_keep (V : Valuation τ sig (Elt F)) (r : Ref sig .tc) (h : r ∉ seg5_W) :
    after seg5 V (Proc.devRef .tc r) = V (Proc.devRef .tc r) :=
  after_of_writes_sub seg5 V seg5_writes h

set_option maxRecDepth 8192 in
/-- Piece 5 touches TensorCore buffers only. -/
theorem seg5_sub : (seg5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

set_option maxRecDepth 8192 in
/-- Every operation of piece 5 determines its result. -/
theorem seg5_fresh : ∀ op ∈ (seg5 : List (HloOp τ sig (Elt F))), op.fresh = ∅ := by
  intro _ h; (repeat (cases h with | head => rfl | tail _ h => ?_)); exact nomatch h

/-- The buffers piece 6 writes, in order. -/
abbrev seg6_W : List (Ref sig .tc) := [main_v100, main_v101, main_v102]

set_option maxRecDepth 8192 in
/-- Each operation of piece 6 writes one of those. -/
theorem seg6_writes : (seg6 : List (HloOp τ sig (Elt F))).Forall fun op => op.writes ⊆ (seg6_W.map (Proc.devRef (τ := τ) .tc)).toFinset :=
  ⟨sub_of_mem (y := main_v100) (by decide), sub_of_mem (y := main_v101) (by decide), sub_of_mem (y := main_v102) (by decide)⟩

/-- A buffer piece 6 does not write keeps its contents through it. -/
theorem seg6_keep (V : Valuation τ sig (Elt F)) (r : Ref sig .tc) (h : r ∉ seg6_W) :
    after seg6 V (Proc.devRef .tc r) = V (Proc.devRef .tc r) :=
  after_of_writes_sub seg6 V seg6_writes h

set_option maxRecDepth 8192 in
/-- Piece 6 touches TensorCore buffers only. -/
theorem seg6_sub : (seg6 : List (HloOp τ sig (Elt F))).Forall fun op => op.bufs ⊆ tcRefs τ sig :=
  ⟨unary_bufs_sub .., unary_bufs_sub .., ternary_bufs_sub ..⟩

set_option maxRecDepth 8192 in
/-- Every operation of piece 6 determines its result. -/
theorem seg6_fresh : ∀ op ∈ (seg6 : List (HloOp τ sig (Elt F))), op.fresh = ∅ := by
  intro _ h; (repeat (cases h with | head => rfl | tail _ h => ?_)); exact nomatch h

/-- The buffers piece 7 writes, in order. -/
abbrev seg7_W : List (Ref sig .tc) := [main_v103, main_v104, main_v105, main_cst_18, main_v106, main_v107, main_cst_19, main_v108, main_v109, main_v110, main_v111, main_v112, main_v113, main_v114, main_v115, main_v116, main_v117, main_v118, main_v119, main_v120, main_v121, main_v122, main_v123, main_v124, main_v125, main_v126, main_v127, main_v128, main_v129, main_cst_20, main_v130, main_v131, main_cst_21, main_v132, main_v133, main_v134, main_v135, main_v136, main_cst_22, main_v137, main_v138, main_cst_23, main_v139, main_v140, main_v141, main_v142, main_v143, main_cst_24, main_v144, main_v145, main_v146, main_v147, main_v148]

set_option maxRecDepth 8192 in
/-- Each operation of piece 7 writes one of those. -/
theorem seg7_writes : (seg7 : List (HloOp τ sig (Elt F))).Forall fun op => op.writes ⊆ (seg7_W.map (Proc.devRef (τ := τ) .tc)).toFinset :=
  ⟨sub_of_mem (y := main_v103) (by decide), sub_of_mem (y := main_v104) (by decide), sub_of_mem (y := main_v105) (by decide), sub_of_mem (y := main_cst_18) (by decide), sub_of_mem (y := main_v106) (by decide), sub_of_mem (y := main_v107) (by decide), sub_of_mem (y := main_cst_19) (by decide), sub_of_mem (y := main_v108) (by decide), sub_of_mem (y := main_v109) (by decide), sub_of_mem (y := main_v110) (by decide), sub_of_mem (y := main_v111) (by decide), sub_of_mem (y := main_v112) (by decide), sub_of_mem (y := main_v113) (by decide), sub_of_mem (y := main_v114) (by decide), sub_of_mem (y := main_v115) (by decide), sub_of_mem (y := main_v116) (by decide), sub_of_mem (y := main_v117) (by decide), sub_of_mem (y := main_v118) (by decide), sub_of_mem (y := main_v119) (by decide), sub_of_mem (y := main_v120) (by decide), sub_of_mem (y := main_v121) (by decide), sub_of_mem (y := main_v122) (by decide), sub_of_mem (y := main_v123) (by decide), sub_of_mem (y := main_v124) (by decide), sub_of_mem (y := main_v125) (by decide), sub_of_mem (y := main_v126) (by decide), sub_of_mem (y := main_v127) (by decide), sub_of_mem (y := main_v128) (by decide), sub_of_mem (y := main_v129) (by decide), sub_of_mem (y := main_cst_20) (by decide), sub_of_mem (y := main_v130) (by decide), sub_of_mem (y := main_v131) (by decide), sub_of_mem (y := main_cst_21) (by decide), sub_of_mem (y := main_v132) (by decide), sub_of_mem (y := main_v133) (by decide), sub_of_mem (y := main_v134) (by decide), sub_of_mem (y := main_v135) (by decide), sub_of_mem (y := main_v136) (by decide), sub_of_mem (y := main_cst_22) (by decide), sub_of_mem (y := main_v137) (by decide), sub_of_mem (y := main_v138) (by decide), sub_of_mem (y := main_cst_23) (by decide), sub_of_mem (y := main_v139) (by decide), sub_of_mem (y := main_v140) (by decide), sub_of_mem (y := main_v141) (by decide), sub_of_mem (y := main_v142) (by decide), sub_of_mem (y := main_v143) (by decide), sub_of_mem (y := main_cst_24) (by decide), sub_of_mem (y := main_v144) (by decide), sub_of_mem (y := main_v145) (by decide), sub_of_mem (y := main_v146) (by decide), sub_of_mem (y := main_v147) (by decide), sub_of_mem (y := main_v148) (by decide)⟩

/-- A buffer piece 7 does not write keeps its contents through it. -/
theorem seg7_keep (V : Valuation τ sig (Elt F)) (r : Ref sig .tc) (h : r ∉ seg7_W) :
    after seg7 V (Proc.devRef .tc r) = V (Proc.devRef .tc r) :=
  after_of_writes_sub seg7 V seg7_writes h

set_option maxRecDepth 8192 in
/-- Piece 7 touches TensorCore buffers only. -/
theorem seg7_sub : (seg7 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

set_option maxRecDepth 8192 in
/-- Every operation of piece 7 determines its result. -/
theorem seg7_fresh : ∀ op ∈ (seg7 : List (HloOp τ sig (Elt F))), op.fresh = ∅ := by
  intro _ h; (repeat (cases h with | head => rfl | tail _ h => ?_)); exact nomatch h

/-- The buffers piece 8 writes, in order. -/
abbrev seg8_W : List (Ref sig .tc) := [main_v149, main_v150, main_v151, main_v152]

set_option maxRecDepth 8192 in
/-- Each operation of piece 8 writes one of those. -/
theorem seg8_writes : (seg8 : List (HloOp τ sig (Elt F))).Forall fun op => op.writes ⊆ (seg8_W.map (Proc.devRef (τ := τ) .tc)).toFinset :=
  ⟨sub_of_mem (y := main_v149) (by decide), sub_of_mem (y := main_v150) (by decide), sub_of_mem (y := main_v151) (by decide), sub_of_mem (y := main_v152) (by decide)⟩

/-- A buffer piece 8 does not write keeps its contents through it. -/
theorem seg8_keep (V : Valuation τ sig (Elt F)) (r : Ref sig .tc) (h : r ∉ seg8_W) :
    after seg8 V (Proc.devRef .tc r) = V (Proc.devRef .tc r) :=
  after_of_writes_sub seg8 V seg8_writes h

set_option maxRecDepth 8192 in
/-- Piece 8 touches TensorCore buffers only. -/
theorem seg8_sub : (seg8 : List (HloOp τ sig (Elt F))).Forall fun op => op.bufs ⊆ tcRefs τ sig :=
  ⟨unary_bufs_sub .., binary_bufs_sub .., nullary_bufs_sub .., binary_bufs_sub ..⟩

set_option maxRecDepth 8192 in
/-- Every operation of piece 8 determines its result. -/
theorem seg8_fresh : ∀ op ∈ (seg8 : List (HloOp τ sig (Elt F))), op.fresh = ∅ := by
  intro _ h; (repeat (cases h with | head => rfl | tail _ h => ?_)); exact nomatch h

/-- The buffers piece 9 writes, in order. -/
abbrev seg9_W : List (Ref sig .tc) := [main_v153]

set_option maxRecDepth 8192 in
/-- Each operation of piece 9 writes one of those. -/
theorem seg9_writes : (seg9 : List (HloOp τ sig (Elt F))).Forall fun op => op.writes ⊆ (seg9_W.map (Proc.devRef (τ := τ) .tc)).toFinset :=
  sub_of_mem (y := main_v153) (by decide)

/-- A buffer piece 9 does not write keeps its contents through it. -/
theorem seg9_keep (V : Valuation τ sig (Elt F)) (r : Ref sig .tc) (h : r ∉ seg9_W) :
    after seg9 V (Proc.devRef .tc r) = V (Proc.devRef .tc r) :=
  after_of_writes_sub seg9 V seg9_writes h

set_option maxRecDepth 8192 in
/-- Piece 9 touches TensorCore buffers only. -/
theorem seg9_sub : (seg9 : List (HloOp τ sig (Elt F))).Forall fun op => op.bufs ⊆ tcRefs τ sig :=
  binary_bufs_sub ..

set_option maxRecDepth 8192 in
/-- Every operation of piece 9 determines its result. -/
theorem seg9_fresh : ∀ op ∈ (seg9 : List (HloOp τ sig (Elt F))), op.fresh = ∅ := by
  intro _ h; (repeat (cases h with | head => rfl | tail _ h => ?_)); exact nomatch h

/-- The buffers piece 10 writes, in order. -/
abbrev seg10_W : List (Ref sig .tc) := [main_cst_25, main_v154, main_cst_26, main_v155, main_v156, main_v157, main_cst_27, main_v158, main_v159, main_v160, main_cst_28, main_call4_v0, main_call4_v1, main_v161, main_c_29, main_v162, main_v163, main_c_30, main_v164, main_v165, main_v166, main_v167, main_v168, main_c_31, main_v169, main_v170, main_c_32, main_v171, main_v172, main_v173, main_v174, main_v175, main_v176, main_c_33, main_v177, main_v178, main_c_34, main_v179, main_v180, main_v181, main_v182, main_v183, main_v184, main_v185, main_v186, main_cst_35, main_v187, main_v188, main_v189]

set_option maxRecDepth 8192 in
/-- Each operation of piece 10 writes one of those. -/
theorem seg10_writes : (seg10 : List (HloOp τ sig (Elt F))).Forall fun op => op.writes ⊆ (seg10_W.map (Proc.devRef (τ := τ) .tc)).toFinset :=
  ⟨sub_of_mem (y := main_cst_25) (by decide), sub_of_mem (y := main_v154) (by decide), sub_of_mem (y := main_cst_26) (by decide), sub_of_mem (y := main_v155) (by decide), sub_of_mem (y := main_v156) (by decide), sub_of_mem (y := main_v157) (by decide), sub_of_mem (y := main_cst_27) (by decide), sub_of_mem (y := main_v158) (by decide), sub_of_mem (y := main_v159) (by decide), sub_of_mem (y := main_v160) (by decide), sub_of_mem (y := main_cst_28) (by decide), sub_of_mem (y := main_call4_v0) (by decide), sub_of_mem (y := main_call4_v1) (by decide), sub_of_mem (y := main_v161) (by decide), sub_of_mem (y := main_c_29) (by decide), sub_of_mem (y := main_v162) (by decide), sub_of_mem (y := main_v163) (by decide), sub_of_mem (y := main_c_30) (by decide), sub_of_mem (y := main_v164) (by decide), sub_of_mem (y := main_v165) (by decide), sub_of_mem (y := main_v166) (by decide), sub_of_mem (y := main_v167) (by decide), sub_of_mem (y := main_v168) (by decide), sub_of_mem (y := main_c_31) (by decide), sub_of_mem (y := main_v169) (by decide), sub_of_mem (y := main_v170) (by decide), sub_of_mem (y := main_c_32) (by decide), sub_of_mem (y := main_v171) (by decide), sub_of_mem (y := main_v172) (by decide), sub_of_mem (y := main_v173) (by decide), sub_of_mem (y := main_v174) (by decide), sub_of_mem (y := main_v175) (by decide), sub_of_mem (y := main_v176) (by decide), sub_of_mem (y := main_c_33) (by decide), sub_of_mem (y := main_v177) (by decide), sub_of_mem (y := main_v178) (by decide), sub_of_mem (y := main_c_34) (by decide), sub_of_mem (y := main_v179) (by decide), sub_of_mem (y := main_v180) (by decide), sub_of_mem (y := main_v181) (by decide), sub_of_mem (y := main_v182) (by decide), sub_of_mem (y := main_v183) (by decide), sub_of_mem (y := main_v184) (by decide), sub_of_mem (y := main_v185) (by decide), sub_of_mem (y := main_v186) (by decide), sub_of_mem (y := main_cst_35) (by decide), sub_of_mem (y := main_v187) (by decide), sub_of_mem (y := main_v188) (by decide), sub_of_mem (y := main_v189) (by decide)⟩

/-- A buffer piece 10 does not write keeps its contents through it. -/
theorem seg10_keep (V : Valuation τ sig (Elt F)) (r : Ref sig .tc) (h : r ∉ seg10_W) :
    after seg10 V (Proc.devRef .tc r) = V (Proc.devRef .tc r) :=
  after_of_writes_sub seg10 V seg10_writes h

set_option maxRecDepth 8192 in
/-- Piece 10 touches TensorCore buffers only. -/
theorem seg10_sub : (seg10 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxRecDepth 8192 in
/-- Every operation of piece 10 determines its result. -/
theorem seg10_fresh : ∀ op ∈ (seg10 : List (HloOp τ sig (Elt F))), op.fresh = ∅ := by
  intro _ h; (repeat (cases h with | head => rfl | tail _ h => ?_)); exact nomatch h

/-- The buffers piece 11 writes, in order. -/
abbrev seg11_W : List (Ref sig .tc) := [main_v190, main_v191, main_v192, main_cst_36, main_v193, main_v194, main_cst_37, main_v195, main_v196, main_v197, main_v198, main_v199]

set_option maxRecDepth 8192 in
/-- Each operation of piece 11 writes one of those. -/
theorem seg11_writes : (seg11 : List (HloOp τ sig (Elt F))).Forall fun op => op.writes ⊆ (seg11_W.map (Proc.devRef (τ := τ) .tc)).toFinset :=
  ⟨sub_of_mem (y := main_v190) (by decide), sub_of_mem (y := main_v191) (by decide), sub_of_mem (y := main_v192) (by decide), sub_of_mem (y := main_cst_36) (by decide), sub_of_mem (y := main_v193) (by decide), sub_of_mem (y := main_v194) (by decide), sub_of_mem (y := main_cst_37) (by decide), sub_of_mem (y := main_v195) (by decide), sub_of_mem (y := main_v196) (by decide), sub_of_mem (y := main_v197) (by decide), sub_of_mem (y := main_v198) (by decide), sub_of_mem (y := main_v199) (by decide)⟩

/-- A buffer piece 11 does not write keeps its contents through it. -/
theorem seg11_keep (V : Valuation τ sig (Elt F)) (r : Ref sig .tc) (h : r ∉ seg11_W) :
    after seg11 V (Proc.devRef .tc r) = V (Proc.devRef .tc r) :=
  after_of_writes_sub seg11 V seg11_writes h

set_option maxRecDepth 8192 in
/-- Piece 11 touches TensorCore buffers only. -/
theorem seg11_sub : (seg11 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
/-- Every operation of piece 11 determines its result. -/
theorem seg11_fresh : ∀ op ∈ (seg11 : List (HloOp τ sig (Elt F))), op.fresh = ∅ := by
  intro _ h; (repeat (cases h with | head => rfl | tail _ h => ?_)); exact nomatch h

/-- The buffers piece 12 writes, in order. -/
abbrev seg12_W : List (Ref sig .tc) := [main_v200, main_v201, main_v202, main_v203, main_v204, main_v205, main_v206, main_v207, main_v208, main_v209, main_v210, main_v211, main_v212, main_v213, main_v214, main_v215, main_v216, main_cst_38, main_v217, main_v218, main_cst_39, main_v219, main_v220, main_v221, main_v222, main_v223, main_cst_40, main_v224, main_v225, main_cst_41, main_v226, main_v227, main_v228, main_v229, main_v230, main_cst_42, main_v231, main_v232, main_v233, main_v234, main_v235]

set_option maxRecDepth 8192 in
/-- Each operation of piece 12 writes one of those. -/
theorem seg12_writes : (seg12 : List (HloOp τ sig (Elt F))).Forall fun op => op.writes ⊆ (seg12_W.map (Proc.devRef (τ := τ) .tc)).toFinset :=
  ⟨sub_of_mem (y := main_v200) (by decide), sub_of_mem (y := main_v201) (by decide), sub_of_mem (y := main_v202) (by decide), sub_of_mem (y := main_v203) (by decide), sub_of_mem (y := main_v204) (by decide), sub_of_mem (y := main_v205) (by decide), sub_of_mem (y := main_v206) (by decide), sub_of_mem (y := main_v207) (by decide), sub_of_mem (y := main_v208) (by decide), sub_of_mem (y := main_v209) (by decide), sub_of_mem (y := main_v210) (by decide), sub_of_mem (y := main_v211) (by decide), sub_of_mem (y := main_v212) (by decide), sub_of_mem (y := main_v213) (by decide), sub_of_mem (y := main_v214) (by decide), sub_of_mem (y := main_v215) (by decide), sub_of_mem (y := main_v216) (by decide), sub_of_mem (y := main_cst_38) (by decide), sub_of_mem (y := main_v217) (by decide), sub_of_mem (y := main_v218) (by decide), sub_of_mem (y := main_cst_39) (by decide), sub_of_mem (y := main_v219) (by decide), sub_of_mem (y := main_v220) (by decide), sub_of_mem (y := main_v221) (by decide), sub_of_mem (y := main_v222) (by decide), sub_of_mem (y := main_v223) (by decide), sub_of_mem (y := main_cst_40) (by decide), sub_of_mem (y := main_v224) (by decide), sub_of_mem (y := main_v225) (by decide), sub_of_mem (y := main_cst_41) (by decide), sub_of_mem (y := main_v226) (by decide), sub_of_mem (y := main_v227) (by decide), sub_of_mem (y := main_v228) (by decide), sub_of_mem (y := main_v229) (by decide), sub_of_mem (y := main_v230) (by decide), sub_of_mem (y := main_cst_42) (by decide), sub_of_mem (y := main_v231) (by decide), sub_of_mem (y := main_v232) (by decide), sub_of_mem (y := main_v233) (by decide), sub_of_mem (y := main_v234) (by decide), sub_of_mem (y := main_v235) (by decide)⟩

/-- A buffer piece 12 does not write keeps its contents through it. -/
theorem seg12_keep (V : Valuation τ sig (Elt F)) (r : Ref sig .tc) (h : r ∉ seg12_W) :
    after seg12 V (Proc.devRef .tc r) = V (Proc.devRef .tc r) :=
  after_of_writes_sub seg12 V seg12_writes h

set_option maxRecDepth 8192 in
/-- Piece 12 touches TensorCore buffers only. -/
theorem seg12_sub : (seg12 : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

set_option maxRecDepth 8192 in
/-- Every operation of piece 12 determines its result. -/
theorem seg12_fresh : ∀ op ∈ (seg12 : List (HloOp τ sig (Elt F))), op.fresh = ∅ := by
  intro _ h; (repeat (cases h with | head => rfl | tail _ h => ?_)); exact nomatch h

/-- The buffers piece 13 writes, in order. -/
abbrev seg13_W : List (Ref sig .tc) := [main_v236, main_v237, main_c_43, main_v238, main_v239, main_c_44, main_v240, main_v241, main_v242, main_v243, main_v244, main_v245, main_v246, main_c_45, main_v247, main_v248, main_c_46, main_v249, main_v250]

set_option maxRecDepth 8192 in
/-- Each operation of piece 13 writes one of those. -/
theorem seg13_writes : (seg13 : List (HloOp τ sig (Elt F))).Forall fun op => op.writes ⊆ (seg13_W.map (Proc.devRef (τ := τ) .tc)).toFinset :=
  ⟨sub_of_mem (y := main_v236) (by decide), sub_of_mem (y := main_v237) (by decide), sub_of_mem (y := main_c_43) (by decide), sub_of_mem (y := main_v238) (by decide), sub_of_mem (y := main_v239) (by decide), sub_of_mem (y := main_c_44) (by decide), sub_of_mem (y := main_v240) (by decide), sub_of_mem (y := main_v241) (by decide), sub_of_mem (y := main_v242) (by decide), sub_of_mem (y := main_v243) (by decide), sub_of_mem (y := main_v244) (by decide), sub_of_mem (y := main_v245) (by decide), sub_of_mem (y := main_v246) (by decide), sub_of_mem (y := main_c_45) (by decide), sub_of_mem (y := main_v247) (by decide), sub_of_mem (y := main_v248) (by decide), sub_of_mem (y := main_c_46) (by decide), sub_of_mem (y := main_v249) (by decide), sub_of_mem (y := main_v250) (by decide)⟩

/-- A buffer piece 13 does not write keeps its contents through it. -/
theorem seg13_keep (V : Valuation τ sig (Elt F)) (r : Ref sig .tc) (h : r ∉ seg13_W) :
    after seg13 V (Proc.devRef .tc r) = V (Proc.devRef .tc r) :=
  after_of_writes_sub seg13 V seg13_writes h

set_option maxRecDepth 8192 in
/-- Piece 13 touches TensorCore buffers only. -/
theorem seg13_sub : (seg13 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub ..⟩

set_option maxRecDepth 8192 in
/-- Every operation of piece 13 determines its result. -/
theorem seg13_fresh : ∀ op ∈ (seg13 : List (HloOp τ sig (Elt F))), op.fresh = ∅ := by
  intro _ h; (repeat (cases h with | head => rfl | tail _ h => ?_)); exact nomatch h

/-- The buffers piece 14 writes, in order. -/
abbrev seg14_W : List (Ref sig .tc) := [main_v251, main_v252, main_v253, main_v254, main_v255, main_v256, main_v257, main_v258, main_v259, main_cst_47, main_v260]

set_option maxRecDepth 8192 in
/-- Each operation of piece 14 writes one of those. -/
theorem seg14_writes : (seg14 : List (HloOp τ sig (Elt F))).Forall fun op => op.writes ⊆ (seg14_W.map (Proc.devRef (τ := τ) .tc)).toFinset :=
  ⟨sub_of_mem (y := main_v251) (by decide), sub_of_mem (y := main_v252) (by decide), sub_of_mem (y := main_v253) (by decide), sub_of_mem (y := main_v254) (by decide), sub_of_mem (y := main_v255) (by decide), sub_of_mem (y := main_v256) (by decide), sub_of_mem (y := main_v257) (by decide), sub_of_mem (y := main_v258) (by decide), sub_of_mem (y := main_v259) (by decide), sub_of_mem (y := main_cst_47) (by decide), sub_of_mem (y := main_v260) (by decide)⟩

/-- A buffer piece 14 does not write keeps its contents through it. -/
theorem seg14_keep (V : Valuation τ sig (Elt F)) (r : Ref sig .tc) (h : r ∉ seg14_W) :
    after seg14 V (Proc.devRef .tc r) = V (Proc.devRef .tc r) :=
  after_of_writes_sub seg14 V seg14_writes h

set_option maxRecDepth 8192 in
/-- Piece 14 touches TensorCore buffers only. -/
theorem seg14_sub : (seg14 : List (HloOp τ sig (Elt F))).Forall fun op => op.bufs ⊆ tcRefs τ sig :=
  ⟨ternary_bufs_sub .., unary_bufs_sub .., binary_bufs_sub .., binary_bufs_sub .., unary_bufs_sub .., binary_bufs_sub .., unary_bufs_sub .., unary_bufs_sub .., binary_bufs_sub .., nullary_bufs_sub .., binary_bufs_sub ..⟩

set_option maxRecDepth 8192 in
/-- Every operation of piece 14 determines its result. -/
theorem seg14_fresh : ∀ op ∈ (seg14 : List (HloOp τ sig (Elt F))), op.fresh = ∅ := by
  intro _ h; (repeat (cases h with | head => rfl | tail _ h => ?_)); exact nomatch h

theorem scopedRefs_eq : (Finset.univ.filter fun b : Ref sig .tc => b.isScoped) = ∅ := by decide
theorem scopedSems_eq : (Finset.univ.filter fun sm : SemLoc sig => sm.isScoped .tc) = ∅ := by decide

/-- An operation of the whole list is an operation of one of the pieces. -/
theorem mem_ops {op : HloOp τ sig (Elt F)} (h : op ∈ (ops : List (HloOp τ sig (Elt F)))) :
    op ∈ (seg0 : List (HloOp τ sig (Elt F))) ∨ op ∈ (seg1 : List (HloOp τ sig (Elt F))) ∨ op ∈ (seg2 : List (HloOp τ sig (Elt F))) ∨ op ∈ (seg3 : List (HloOp τ sig (Elt F))) ∨ op ∈ (seg4 : List (HloOp τ sig (Elt F))) ∨ op ∈ (seg5 : List (HloOp τ sig (Elt F))) ∨ op ∈ (seg6 : List (HloOp τ sig (Elt F))) ∨ op ∈ (seg7 : List (HloOp τ sig (Elt F))) ∨ op ∈ (seg8 : List (HloOp τ sig (Elt F))) ∨ op ∈ (seg9 : List (HloOp τ sig (Elt F))) ∨ op ∈ (seg10 : List (HloOp τ sig (Elt F))) ∨ op ∈ (seg11 : List (HloOp τ sig (Elt F))) ∨ op ∈ (seg12 : List (HloOp τ sig (Elt F))) ∨ op ∈ (seg13 : List (HloOp τ sig (Elt F))) ∨ op ∈ (seg14 : List (HloOp τ sig (Elt F))) := by
  simpa only [ops, win0, win1, win2, win3, win4, win5, List.mem_append, or_assoc] using h

/-- The whole list touches TensorCore buffers only. -/
theorem ops_sub : (ops : List (HloOp τ sig (Elt F))).Forall fun op => op.bufs ⊆ tcRefs τ sig :=
  List.forall_iff_forall_mem.mpr fun op h => by
    rcases mem_ops h with h | h | h | h | h | h | h | h | h | h | h | h | h | h | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h]

/-- Every operation of the whole list determines its result. -/
theorem ops_fresh : ∀ op ∈ (ops : List (HloOp τ sig (Elt F))), op.fresh = ∅ := fun op h => by
  rcases mem_ops h with h | h | h | h | h | h | h | h | h | h | h | h | h | h | h
  exacts [seg0_fresh op h, seg1_fresh op h, seg2_fresh op h, seg3_fresh op h, seg4_fresh op h, seg5_fresh op h, seg6_fresh op h, seg7_fresh op h, seg8_fresh op h, seg9_fresh op h, seg10_fresh op h, seg11_fresh op h, seg12_fresh op h, seg13_fresh op h, seg14_fresh op h]

/-- The fold of two lines in a row is the second's fold of the first's. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- The whole list's fold over any contents: the pieces' folds one after the other. -/
theorem after_ops (V : Valuation τ sig (Elt F)) :
    after ops V = after seg14 (after seg13 (after seg12 (after seg11 (after seg10 (after seg9 (after seg8 (after seg7 (after seg6 (after seg5 (after seg4 (after seg3 (after seg2 (after seg1 (after seg0 (V))))))))))))))) := by
  simp only [ops, win0, win1, win2, win3, win4, win5, after_app]

end Cert.ReferenceIdeal.HandRun

end
-- ==== Proof.RefRunV.lean ====
/-
  The value each stretch of @main's operations leaves in its result buffer, as the stage's function of what the
  stretch reads — for ANY contents before it: the edge list's rows, the preprocessing layers, a recurrent cell, a
  convolution's linear map, its edge ends, its neighbourhood sum, the link head. Each is the fold of the stretch's
  operations read at the result buffer, which is the stage's function by unfolding.
-/
import proofs.«118245_j7395933684286_1_alg».proof.Proof.RefFns
import proofs.«118245_j7395933684286_1_alg».proof.Proof.RefOpsA

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The neighbourhood sum from the mapped rows and the two edge ends (sources `s`, targets `d`, self-loops appended):
    every edge's source row scaled by the edge's normalisation, added into its target's row. -/
def aggOf (xw : FVec F S100000x128 .f32) (s d : IVec S700000 32) : FVec F S100000x128 .f32 :=
  Host.scatterAdd scatter_S100000x128_S700000x1_S700000x128_1_0_0_1
    (broadcastInDim S100000x128 ![] bcast_S_S100000x128 Stage.c0)
    (broadcastInDim S700000x1 ![0] bcast_S700000_S700000x1_0 d)
    (mulf (Host.gather gather_S100000x128_S700000x1_S700000x128_1_0_n_n_0_1_1128 xw (Stage.wrap7 s))
      (broadcastInDim S700000x128 ![0, 1] bcast_S700000x1_S700000x128_0_1
        (broadcastInDim S700000x1 ![0] bcast_S700000_S700000x1_0 (Stage.norm (F := F) s d))))

/-- The stage's neighbourhood sum is that sum at the edge list's two rows with the self-loops appended. -/
theorem agg_eq (xw : FVec F S100000x128 .f32) (e : IVec S2x600000 32) :
    Stage.agg xw e = aggOf xw (Stage.ends0 e) (Stage.ends1 e) := rfl

/-- An edge row with the self-loops appended, from the flattened row. -/
def endsOf (row : IVec S600000 32) : IVec S700000 32 :=
  concatenate S700000 0 [⟨S600000, row⟩, ⟨S100000, iotaInDim S100000 32 0⟩] concatenates_S600000_S100000_S700000_d0

/-- The sources (row 0) with the self-loops appended are `endsOf` of the flattened row. -/
theorem ends0_eq (e : IVec S2x600000 32) :
    Stage.ends0 e = endsOf (shapeCast S600000 (extractStridedSlice S1x600000 ![0, 0] e slices_S2x600000_S1x600000_0_0) shapeCasts_S1x600000_S600000) := rfl
/-- The targets (row 1) likewise. -/
theorem ends1_eq (e : IVec S2x600000 32) :
    Stage.ends1 e = endsOf (shapeCast S600000 (extractStridedSlice S1x600000 ![1, 0] e slices_S2x600000_S1x600000_1_0) shapeCasts_S1x600000_S600000) := rfl

set_option maxRecDepth 8192 in
set_option maxHeartbeats 4000000 in
/-- The sources' row of the edge list, flattened. -/
theorem rows_v1 (V : Valuation τ sig (Elt F)) :
    after seg0 V (Proc.devRef .tc main_v1)
      = shapeCast S600000 (extractStridedSlice S1x600000 ![0, 0] (V (Proc.devRef .tc main_arg1)) slices_S2x600000_S1x600000_0_0) shapeCasts_S1x600000_S600000 := by
  simp only [seg0]
  after_results_simp
  rfl

set_option maxRecDepth 8192 in
set_option maxHeartbeats 4000000 in
/-- The targets' row of the edge list, flattened. -/
theorem rows_v3 (V : Valuation τ sig (Elt F)) :
    after seg0 V (Proc.devRef .tc main_v3)
      = shapeCast S600000 (extractStridedSlice S1x600000 ![1, 0] (V (Proc.devRef .tc main_arg1)) slices_S2x600000_S1x600000_1_0) shapeCasts_S1x600000_S600000 := by
  simp only [seg0]
  after_results_simp
  rfl

set_option maxRecDepth 8192 in
set_option maxHeartbeats 4000000 in
/-- The two preprocessing layers of the features. -/
theorem pre_v23 (V : Valuation τ sig (Elt F)) :
    after seg1 V (Proc.devRef .tc main_v23)
      = Stage.pre (V (Proc.devRef .tc main_arg0)) (V (Proc.devRef .tc main_arg5)) (V (Proc.devRef .tc main_arg6)) (V (Proc.devRef .tc main_arg7)) (V (Proc.devRef .tc main_arg8)) := by
  simp only [seg1]
  after_results_simp
  rfl

set_option maxRecDepth 8192 in
set_option maxHeartbeats 4000000 in
/-- The 0-hop recurrent cell of the preprocessed rows. -/
theorem cell0_v61 (V : Valuation τ sig (Elt F)) :
    after seg3 (after seg2 (V)) (Proc.devRef .tc main_v61)
      = Stage.gru (V (Proc.devRef .tc main_v23)) (V (Proc.devRef .tc main_arg3)) (V (Proc.devRef .tc main_arg15)) (V (Proc.devRef .tc main_arg16)) (V (Proc.devRef .tc main_arg17)) (V (Proc.devRef .tc main_arg18)) := by
  simp only [seg2, seg3]
  after_results_simp
  rfl

set_option maxRecDepth 8192 in
set_option maxHeartbeats 4000000 in
/-- The first convolution's linear map. -/
theorem lin1_v63 (V : Valuation τ sig (Elt F)) :
    after seg4 V (Proc.devRef .tc main_v63)
      = Stage.lin (V (Proc.devRef .tc main_v61)) (V (Proc.devRef .tc main_arg9)) := by
  simp only [seg4]
  after_results_simp
  rfl

set_option maxRecDepth 8192 in
set_option maxHeartbeats 4000000 in
/-- The sources with the self-loops appended. -/
theorem ends1_v65 (V : Valuation τ sig (Elt F)) :
    after seg4 V (Proc.devRef .tc main_v65)
      = endsOf (V (Proc.devRef .tc main_v1)) := by
  simp only [seg4]
  after_results_simp
  rfl

set_option maxRecDepth 8192 in
set_option maxHeartbeats 4000000 in
/-- The targets with the self-loops appended. -/
theorem ends1_v66 (V : Valuation τ sig (Elt F)) :
    after seg4 V (Proc.devRef .tc main_v66)
      = endsOf (V (Proc.devRef .tc main_v3)) := by
  simp only [seg4]
  after_results_simp
  rfl

set_option maxRecDepth 8192 in
set_option maxHeartbeats 4000000 in
/-- The first convolution's neighbourhood sum. -/
theorem agg1_v102 (V : Valuation τ sig (Elt F)) :
    after seg6 (after seg5 (V)) (Proc.devRef .tc main_v102)
      = aggOf (V (Proc.devRef .tc main_v63)) (V (Proc.devRef .tc main_v65)) (V (Proc.devRef .tc main_v66)) := by
  simp only [seg5, seg6]
  after_results_simp
  rfl

set_option maxRecDepth 8192 in
set_option maxHeartbeats 4000000 in
/-- The first convolution's bias, rectifier and recurrent cell. -/
theorem cell1_v148 (V : Valuation τ sig (Elt F)) :
    after seg7 V (Proc.devRef .tc main_v148)
      = Stage.gru (Stage.biasLeaky (V (Proc.devRef .tc main_v102)) (V (Proc.devRef .tc main_arg10))) (V (Proc.devRef .tc main_arg3)) (V (Proc.devRef .tc main_arg15)) (V (Proc.devRef .tc main_arg16)) (V (Proc.devRef .tc main_arg17)) (V (Proc.devRef .tc main_arg18)) := by
  simp only [seg7]
  after_results_simp
  rfl

set_option maxRecDepth 8192 in
set_option maxHeartbeats 4000000 in
/-- The second convolution's linear map. -/
theorem lin2_v150 (V : Valuation τ sig (Elt F)) :
    after seg9 (after seg8 (V)) (Proc.devRef .tc main_v150)
      = Stage.lin (V (Proc.devRef .tc main_v148)) (V (Proc.devRef .tc main_arg11)) := by
  simp only [seg8, seg9]
  after_results_simp
  rfl

set_option maxRecDepth 8192 in
set_option maxHeartbeats 4000000 in
/-- The sources with the self-loops appended, again. -/
theorem ends2_v152 (V : Valuation τ sig (Elt F)) :
    after seg9 (after seg8 (V)) (Proc.devRef .tc main_v152)
      = endsOf (V (Proc.devRef .tc main_v1)) := by
  simp only [seg8, seg9]
  after_results_simp
  rfl

set_option maxRecDepth 8192 in
set_option maxHeartbeats 4000000 in
/-- The targets with the self-loops appended, again. -/
theorem ends2_v153 (V : Valuation τ sig (Elt F)) :
    after seg9 (after seg8 (V)) (Proc.devRef .tc main_v153)
      = endsOf (V (Proc.devRef .tc main_v3)) := by
  simp only [seg8, seg9]
  after_results_simp
  rfl

set_option maxRecDepth 8192 in
set_option maxHeartbeats 4000000 in
/-- The second convolution's neighbourhood sum. -/
theorem agg2_v189 (V : Valuation τ sig (Elt F)) :
    after seg10 V (Proc.devRef .tc main_v189)
      = aggOf (V (Proc.devRef .tc main_v150)) (V (Proc.devRef .tc main_v152)) (V (Proc.devRef .tc main_v153)) := by
  simp only [seg10]
  after_results_simp
  rfl

set_option maxRecDepth 8192 in
set_option maxHeartbeats 4000000 in
/-- The second convolution's bias, rectifier and recurrent cell. -/
theorem cell2_v235 (V : Valuation τ sig (Elt F)) :
    after seg12 (after seg11 (V)) (Proc.devRef .tc main_v235)
      = Stage.gru (Stage.biasLeaky (V (Proc.devRef .tc main_v189)) (V (Proc.devRef .tc main_arg12))) (V (Proc.devRef .tc main_arg4)) (V (Proc.devRef .tc main_arg19)) (V (Proc.devRef .tc main_arg20)) (V (Proc.devRef .tc main_arg21)) (V (Proc.devRef .tc main_arg22)) := by
  simp only [seg11, seg12]
  after_results_simp
  rfl

set_option maxRecDepth 8192 in
set_option maxHeartbeats 4000000 in
/-- The link head on the last embedding. -/
theorem head_v260 (V : Valuation τ sig (Elt F)) :
    after seg14 (after seg13 (V)) (Proc.devRef .tc main_v260)
      = Stage.head (Stage.endRows0 (V (Proc.devRef .tc main_v235)) (V (Proc.devRef .tc main_arg2))) (Stage.endRows1 (V (Proc.devRef .tc main_v235)) (V (Proc.devRef .tc main_arg2))) (V (Proc.devRef .tc main_arg13)) (V (Proc.devRef .tc main_arg14)) := by
  simp only [seg13, seg14]
  after_results_simp
  rfl

end Cert.ReferenceIdeal.HandRun

end
-- ==== Proof.RefRunS.lean ====
/-
  @main's fold read stage by stage. The contents after each stretch of operations are a state; a buffer a stretch does
  not write passes through it, and no stretch writes an argument. From the launch contents: the edge list's rows, the
  preprocessed rows, the 0-hop embedding; then per convolution the mapped rows, the edge ends, the neighbourhood sum and
  the cell — each state's facts from the state before, the stage functions never opened past their own stretch.
-/
import proofs.«118245_j7395933684286_1_alg».proof.Proof.RefOpsB
import proofs.«118245_j7395933684286_1_alg».proof.Proof.RefRunV

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents after the edge list's rows. -/
def st0 (V : Valuation τ sig (Elt F)) : Valuation τ sig (Elt F) := after seg0 V

/-- The contents after the preprocessing layers. -/
def st1 (V : Valuation τ sig (Elt F)) : Valuation τ sig (Elt F) := after seg1 (st0 V)

/-- The contents after the 0-hop recurrent cell. -/
def st2 (V : Valuation τ sig (Elt F)) : Valuation τ sig (Elt F) := after seg3 (after seg2 (st1 V))

/-- The contents after the first convolution's linear map and edge ends. -/
def st3 (V : Valuation τ sig (Elt F)) : Valuation τ sig (Elt F) := after seg4 (st2 V)

/-- The contents after the first convolution's neighbourhood sum. -/
def st4 (V : Valuation τ sig (Elt F)) : Valuation τ sig (Elt F) := after seg6 (after seg5 (st3 V))

/-- The contents after the first convolution's cell. -/
def st5 (V : Valuation τ sig (Elt F)) : Valuation τ sig (Elt F) := after seg7 (st4 V)

/-- The contents after the second convolution's linear map and edge ends. -/
def st6 (V : Valuation τ sig (Elt F)) : Valuation τ sig (Elt F) := after seg9 (after seg8 (st5 V))

/-- The contents after the second convolution's neighbourhood sum. -/
def st7 (V : Valuation τ sig (Elt F)) : Valuation τ sig (Elt F) := after seg10 (st6 V)

/-- The contents after the second convolution's cell. -/
def st8 (V : Valuation τ sig (Elt F)) : Valuation τ sig (Elt F) := after seg12 (after seg11 (st7 V))

/-- The contents after the link head. -/
def st9 (V : Valuation τ sig (Elt F)) : Valuation τ sig (Elt F) := after seg14 (after seg13 (st8 V))

/-- The whole list's fold is the last state. -/
theorem after_ops_st (V : Valuation τ sig (Elt F)) : after ops V = st9 V := after_ops V

/-- A buffer its pieces do not write keeps its contents through this step. -/
theorem st0_keep (V : Valuation τ sig (Elt F)) (r : Ref sig .tc) (h0 : r ∉ seg0_W) :
    st0 V (Proc.devRef .tc r) = V (Proc.devRef .tc r) := by
  unfold st0; rw [seg0_keep _ _ h0]

/-- A buffer its pieces do not write keeps its contents through this step. -/
theorem st1_keep (V : Valuation τ sig (Elt F)) (r : Ref sig .tc) (h1 : r ∉ seg1_W) :
    st1 V (Proc.devRef .tc r) = st0 V (Proc.devRef .tc r) := by
  unfold st1; rw [seg1_keep _ _ h1]

/-- A buffer its pieces do not write keeps its contents through this step. -/
theorem st2_keep (V : Valuation τ sig (Elt F)) (r : Ref sig .tc) (h2 : r ∉ seg2_W) (h3 : r ∉ seg3_W) :
    st2 V (Proc.devRef .tc r) = st1 V (Proc.devRef .tc r) := by
  unfold st2; rw [seg3_keep _ _ h3, seg2_keep _ _ h2]

/-- A buffer its pieces do not write keeps its contents through this step. -/
theorem st3_keep (V : Valuation τ sig (Elt F)) (r : Ref sig .tc) (h4 : r ∉ seg4_W) :
    st3 V (Proc.devRef .tc r) = st2 V (Proc.devRef .tc r) := by
  unfold st3; rw [seg4_keep _ _ h4]

/-- A buffer its pieces do not write keeps its contents through this step. -/
theorem st4_keep (V : Valuation τ sig (Elt F)) (r : Ref sig .tc) (h5 : r ∉ seg5_W) (h6 : r ∉ seg6_W) :
    st4 V (Proc.devRef .tc r) = st3 V (Proc.devRef .tc r) := by
  unfold st4; rw [seg6_keep _ _ h6, seg5_keep _ _ h5]

/-- A buffer its pieces do not write keeps its contents through this step. -/
theorem st5_keep (V : Valuation τ sig (Elt F)) (r : Ref sig .tc) (h7 : r ∉ seg7_W) :
    st5 V (Proc.devRef .tc r) = st4 V (Proc.devRef .tc r) := by
  unfold st5; rw [seg7_keep _ _ h7]

/-- A buffer its pieces do not write keeps its contents through this step. -/
theorem st6_keep (V : Valuation τ sig (Elt F)) (r : Ref sig .tc) (h8 : r ∉ seg8_W) (h9 : r ∉ seg9_W) :
    st6 V (Proc.devRef .tc r) = st5 V (Proc.devRef .tc r) := by
  unfold st6; rw [seg9_keep _ _ h9, seg8_keep _ _ h8]

/-- A buffer its pieces do not write keeps its contents through this step. -/
theorem st7_keep (V : Valuation τ sig (Elt F)) (r : Ref sig .tc) (h10 : r ∉ seg10_W) :
    st7 V (Proc.devRef .tc r) = st6 V (Proc.devRef .tc r) := by
  unfold st7; rw [seg10_keep _ _ h10]

/-- A buffer its pieces do not write keeps its contents through this step. -/
theorem st8_keep (V : Valuation τ sig (Elt F)) (r : Ref sig .tc) (h11 : r ∉ seg11_W) (h12 : r ∉ seg12_W) :
    st8 V (Proc.devRef .tc r) = st7 V (Proc.devRef .tc r) := by
  unfold st8; rw [seg12_keep _ _ h12, seg11_keep _ _ h11]

/-- A buffer its pieces do not write keeps its contents through this step. -/
theorem st9_keep (V : Valuation τ sig (Elt F)) (r : Ref sig .tc) (h13 : r ∉ seg13_W) (h14 : r ∉ seg14_W) :
    st9 V (Proc.devRef .tc r) = st8 V (Proc.devRef .tc r) := by
  unfold st9; rw [seg14_keep _ _ h14, seg13_keep _ _ h13]

/-- Every buffer some operation of @main writes. -/
abbrev allW : List (Ref sig .tc) := seg0_W ++ (seg1_W ++ (seg2_W ++ (seg3_W ++ (seg4_W ++ (seg5_W ++ (seg6_W ++ (seg7_W ++ (seg8_W ++ (seg9_W ++ (seg10_W ++ (seg11_W ++ (seg12_W ++ (seg13_W ++ (seg14_W))))))))))))))

/-- A buffer no operation writes is outside every piece's results. -/
theorem notMem_all {r : Ref sig .tc} (h : r ∉ allW) :
    r ∉ seg0_W ∧ r ∉ seg1_W ∧ r ∉ seg2_W ∧ r ∉ seg3_W ∧ r ∉ seg4_W ∧ r ∉ seg5_W ∧ r ∉ seg6_W ∧ r ∉ seg7_W ∧ r ∉ seg8_W ∧ r ∉ seg9_W ∧ r ∉ seg10_W ∧ r ∉ seg11_W ∧ r ∉ seg12_W ∧ r ∉ seg13_W ∧ r ∉ seg14_W := by
  simpa only [allW, List.mem_append, not_or] using h

theorem st0_arg (V : Valuation τ sig (Elt F)) (r : Ref sig .tc) (h : r ∉ allW) :
    st0 V (Proc.devRef .tc r) = V (Proc.devRef .tc r) := by
  obtain ⟨h0, h1, h2, h3, h4, h5, h6, h7, h8, h9, h10, h11, h12, h13, h14⟩ := notMem_all h
  rw [st0_keep V r h0]

theorem st1_arg (V : Valuation τ sig (Elt F)) (r : Ref sig .tc) (h : r ∉ allW) :
    st1 V (Proc.devRef .tc r) = V (Proc.devRef .tc r) := by
  obtain ⟨h0, h1, h2, h3, h4, h5, h6, h7, h8, h9, h10, h11, h12, h13, h14⟩ := notMem_all h
  rw [st1_keep V r h1, st0_arg V r h]

theorem st2_arg (V : Valuation τ sig (Elt F)) (r : Ref sig .tc) (h : r ∉ allW) :
    st2 V (Proc.devRef .tc r) = V (Proc.devRef .tc r) := by
  obtain ⟨h0, h1, h2, h3, h4, h5, h6, h7, h8, h9, h10, h11, h12, h13, h14⟩ := notMem_all h
  rw [st2_keep V r h2 h3, st1_arg V r h]

theorem st3_arg (V : Valuation τ sig (Elt F)) (r : Ref sig .tc) (h : r ∉ allW) :
    st3 V (Proc.devRef .tc r) = V (Proc.devRef .tc r) := by
  obtain ⟨h0, h1, h2, h3, h4, h5, h6, h7, h8, h9, h10, h11, h12, h13, h14⟩ := notMem_all h
  rw [st3_keep V r h4, st2_arg V r h]

theorem st4_arg (V : Valuation τ sig (Elt F)) (r : Ref sig .tc) (h : r ∉ allW) :
    st4 V (Proc.devRef .tc r) = V (Proc.devRef .tc r) := by
  obtain ⟨h0, h1, h2, h3, h4, h5, h6, h7, h8, h9, h10, h11, h12, h13, h14⟩ := notMem_all h
  rw [st4_keep V r h5 h6, st3_arg V r h]

theorem st5_arg (V : Valuation τ sig (Elt F)) (r : Ref sig .tc) (h : r ∉ allW) :
    st5 V (Proc.devRef .tc r) = V (Proc.devRef .tc r) := by
  obtain ⟨h0, h1, h2, h3, h4, h5, h6, h7, h8, h9, h10, h11, h12, h13, h14⟩ := notMem_all h
  rw [st5_keep V r h7, st4_arg V r h]

theorem st6_arg (V : Valuation τ sig (Elt F)) (r : Ref sig .tc) (h : r ∉ allW) :
    st6 V (Proc.devRef .tc r) = V (Proc.devRef .tc r) := by
  obtain ⟨h0, h1, h2, h3, h4, h5, h6, h7, h8, h9, h10, h11, h12, h13, h14⟩ := notMem_all h
  rw [st6_keep V r h8 h9, st5_arg V r h]

theorem st7_arg (V : Valuation τ sig (Elt F)) (r : Ref sig .tc) (h : r ∉ allW) :
    st7 V (Proc.devRef .tc r) = V (Proc.devRef .tc r) := by
  obtain ⟨h0, h1, h2, h3, h4, h5, h6, h7, h8, h9, h10, h11, h12, h13, h14⟩ := notMem_all h
  rw [st7_keep V r h10, st6_arg V r h]

theorem st8_arg (V : Valuation τ sig (Elt F)) (r : Ref sig .tc) (h : r ∉ allW) :
    st8 V (Proc.devRef .tc r) = V (Proc.devRef .tc r) := by
  obtain ⟨h0, h1, h2, h3, h4, h5, h6, h7, h8, h9, h10, h11, h12, h13, h14⟩ := notMem_all h
  rw [st8_keep V r h11 h12, st7_arg V r h]

theorem st9_arg (V : Valuation τ sig (Elt F)) (r : Ref sig .tc) (h : r ∉ allW) :
    st9 V (Proc.devRef .tc r) = V (Proc.devRef .tc r) := by
  obtain ⟨h0, h1, h2, h3, h4, h5, h6, h7, h8, h9, h10, h11, h12, h13, h14⟩ := notMem_all h
  rw [st9_keep V r h13 h14, st8_arg V r h]

/-! No operation writes an argument. -/
theorem arg0_free : main_arg0 ∉ allW := by decide
theorem arg1_free : main_arg1 ∉ allW := by decide
theorem arg2_free : main_arg2 ∉ allW := by decide
theorem arg3_free : main_arg3 ∉ allW := by decide
theorem arg4_free : main_arg4 ∉ allW := by decide
theorem arg5_free : main_arg5 ∉ allW := by decide
theorem arg6_free : main_arg6 ∉ allW := by decide
theorem arg7_free : main_arg7 ∉ allW := by decide
theorem arg8_free : main_arg8 ∉ allW := by decide
theorem arg9_free : main_arg9 ∉ allW := by decide
theorem arg10_free : main_arg10 ∉ allW := by decide
theorem arg11_free : main_arg11 ∉ allW := by decide
theorem arg12_free : main_arg12 ∉ allW := by decide
theorem arg13_free : main_arg13 ∉ allW := by decide
theorem arg14_free : main_arg14 ∉ allW := by decide
theorem arg15_free : main_arg15 ∉ allW := by decide
theorem arg16_free : main_arg16 ∉ allW := by decide
theorem arg17_free : main_arg17 ∉ allW := by decide
theorem arg18_free : main_arg18 ∉ allW := by decide
theorem arg19_free : main_arg19 ∉ allW := by decide
theorem arg20_free : main_arg20 ∉ allW := by decide
theorem arg21_free : main_arg21 ∉ allW := by decide
theorem arg22_free : main_arg22 ∉ allW := by decide

variable (m : (ℓ : Loc nD τ sig) → Buf (Elt F) ℓ) (c : Dev nD)

/-- After the first step the two flattened rows of the edge list. -/
theorem f0_v1 : st0 (launchContents m c) (Proc.devRef .tc main_v1) = (shapeCast S600000 (extractStridedSlice S1x600000 ![0, 0] (m ((c.tc : Thread nD τ).loc main_arg1)) slices_S2x600000_S1x600000_0_0) shapeCasts_S1x600000_S600000) := by
  unfold st0; rw [rows_v1]

theorem f0_v3 : st0 (launchContents m c) (Proc.devRef .tc main_v3) = (shapeCast S600000 (extractStridedSlice S1x600000 ![1, 0] (m ((c.tc : Thread nD τ).loc main_arg1)) slices_S2x600000_S1x600000_1_0) shapeCasts_S1x600000_S600000) := by
  unfold st0; rw [rows_v3]

/-- The preprocessed rows. -/
theorem f1_v23 : st1 (launchContents m c) (Proc.devRef .tc main_v23) = Stage.pre (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) := by
  unfold st1; rw [pre_v23, st0_arg _ _ arg0_free, st0_arg _ _ arg5_free, st0_arg _ _ arg6_free, st0_arg _ _ arg7_free, st0_arg _ _ arg8_free]

theorem f1_v1 : st1 (launchContents m c) (Proc.devRef .tc main_v1) = (shapeCast S600000 (extractStridedSlice S1x600000 ![0, 0] (m ((c.tc : Thread nD τ).loc main_arg1)) slices_S2x600000_S1x600000_0_0) shapeCasts_S1x600000_S600000) := by
  rw [st1_keep _ main_v1 (by decide), f0_v1]

theorem f1_v3 : st1 (launchContents m c) (Proc.devRef .tc main_v3) = (shapeCast S600000 (extractStridedSlice S1x600000 ![1, 0] (m ((c.tc : Thread nD τ).loc main_arg1)) slices_S2x600000_S1x600000_1_0) shapeCasts_S1x600000_S600000) := by
  rw [st1_keep _ main_v3 (by decide), f0_v3]

/-- The 0-hop embedding. -/
theorem f2_v61 : st2 (launchContents m c) (Proc.devRef .tc main_v61) = Stage.emb0 m c := by
  unfold st2; rw [cell0_v61, f1_v23, st1_arg _ _ arg3_free, st1_arg _ _ arg15_free, st1_arg _ _ arg16_free, st1_arg _ _ arg17_free, st1_arg _ _ arg18_free]; rfl

theorem f2_v1 : st2 (launchContents m c) (Proc.devRef .tc main_v1) = (shapeCast S600000 (extractStridedSlice S1x600000 ![0, 0] (m ((c.tc : Thread nD τ).loc main_arg1)) slices_S2x600000_S1x600000_0_0) shapeCasts_S1x600000_S600000) := by
  rw [st2_keep _ main_v1 (by decide) (by decide), f1_v1]

theorem f2_v3 : st2 (launchContents m c) (Proc.devRef .tc main_v3) = (shapeCast S600000 (extractStridedSlice S1x600000 ![1, 0] (m ((c.tc : Thread nD τ).loc main_arg1)) slices_S2x600000_S1x600000_1_0) shapeCasts_S1x600000_S600000) := by
  rw [st2_keep _ main_v3 (by decide) (by decide), f1_v3]

/-- The first convolution's mapped rows and edge ends. -/
theorem f3_v63 : st3 (launchContents m c) (Proc.devRef .tc main_v63) = (Stage.lin (Stage.emb0 m c) (m ((c.tc : Thread nD τ).loc main_arg9))) := by
  unfold st3; rw [lin1_v63, f2_v61, st2_arg _ _ arg9_free]

theorem f3_v65 : st3 (launchContents m c) (Proc.devRef .tc main_v65) = Stage.ends0 (m ((c.tc : Thread nD τ).loc main_arg1)) := by
  unfold st3; rw [ends1_v65, f2_v1, ends0_eq]

theorem f3_v66 : st3 (launchContents m c) (Proc.devRef .tc main_v66) = Stage.ends1 (m ((c.tc : Thread nD τ).loc main_arg1)) := by
  unfold st3; rw [ends1_v66, f2_v3, ends1_eq]

theorem f3_v61 : st3 (launchContents m c) (Proc.devRef .tc main_v61) = Stage.emb0 m c := by
  rw [st3_keep _ main_v61 (by decide), f2_v61]

theorem f3_v1 : st3 (launchContents m c) (Proc.devRef .tc main_v1) = (shapeCast S600000 (extractStridedSlice S1x600000 ![0, 0] (m ((c.tc : Thread nD τ).loc main_arg1)) slices_S2x600000_S1x600000_0_0) shapeCasts_S1x600000_S600000) := by
  rw [st3_keep _ main_v1 (by decide), f2_v1]

theorem f3_v3 : st3 (launchContents m c) (Proc.devRef .tc main_v3) = (shapeCast S600000 (extractStridedSlice S1x600000 ![1, 0] (m ((c.tc : Thread nD τ).loc main_arg1)) slices_S2x600000_S1x600000_1_0) shapeCasts_S1x600000_S600000) := by
  rw [st3_keep _ main_v3 (by decide), f2_v3]

/-- The first convolution's neighbourhood sum. -/
theorem f4_v102 : st4 (launchContents m c) (Proc.devRef .tc main_v102) = Stage.agg (Stage.lin (Stage.emb0 m c) (m ((c.tc : Thread nD τ).loc main_arg9))) (m ((c.tc : Thread nD τ).loc main_arg1)) := by
  unfold st4; rw [agg1_v102, f3_v63, f3_v65, f3_v66, agg_eq]

theorem f4_v61 : st4 (launchContents m c) (Proc.devRef .tc main_v61) = Stage.emb0 m c := by
  rw [st4_keep _ main_v61 (by decide) (by decide), f3_v61]

theorem f4_v1 : st4 (launchContents m c) (Proc.devRef .tc main_v1) = (shapeCast S600000 (extractStridedSlice S1x600000 ![0, 0] (m ((c.tc : Thread nD τ).loc main_arg1)) slices_S2x600000_S1x600000_0_0) shapeCasts_S1x600000_S600000) := by
  rw [st4_keep _ main_v1 (by decide) (by decide), f3_v1]

theorem f4_v3 : st4 (launchContents m c) (Proc.devRef .tc main_v3) = (shapeCast S600000 (extractStridedSlice S1x600000 ![1, 0] (m ((c.tc : Thread nD τ).loc main_arg1)) slices_S2x600000_S1x600000_1_0) shapeCasts_S1x600000_S600000) := by
  rw [st4_keep _ main_v3 (by decide) (by decide), f3_v3]

/-- The embedding after the first convolution. -/
theorem f5_v148 : st5 (launchContents m c) (Proc.devRef .tc main_v148) = Stage.emb1 m c := by
  unfold st5; rw [cell1_v148, f4_v102, st4_arg _ _ arg10_free, st4_arg _ _ arg3_free, st4_arg _ _ arg15_free, st4_arg _ _ arg16_free, st4_arg _ _ arg17_free, st4_arg _ _ arg18_free]; rfl

theorem f5_v61 : st5 (launchContents m c) (Proc.devRef .tc main_v61) = Stage.emb0 m c := by
  rw [st5_keep _ main_v61 (by decide), f4_v61]

theorem f5_v1 : st5 (launchContents m c) (Proc.devRef .tc main_v1) = (shapeCast S600000 (extractStridedSlice S1x600000 ![0, 0] (m ((c.tc : Thread nD τ).loc main_arg1)) slices_S2x600000_S1x600000_0_0) shapeCasts_S1x600000_S600000) := by
  rw [st5_keep _ main_v1 (by decide), f4_v1]

theorem f5_v3 : st5 (launchContents m c) (Proc.devRef .tc main_v3) = (shapeCast S600000 (extractStridedSlice S1x600000 ![1, 0] (m ((c.tc : Thread nD τ).loc main_arg1)) slices_S2x600000_S1x600000_1_0) shapeCasts_S1x600000_S600000) := by
  rw [st5_keep _ main_v3 (by decide), f4_v3]

/-- The second convolution's mapped rows and edge ends. -/
theorem f6_v150 : st6 (launchContents m c) (Proc.devRef .tc main_v150) = (Stage.lin (Stage.emb1 m c) (m ((c.tc : Thread nD τ).loc main_arg11))) := by
  unfold st6; rw [lin2_v150, f5_v148, st5_arg _ _ arg11_free]

theorem f6_v152 : st6 (launchContents m c) (Proc.devRef .tc main_v152) = Stage.ends0 (m ((c.tc : Thread nD τ).loc main_arg1)) := by
  unfold st6; rw [ends2_v152, f5_v1, ends0_eq]

theorem f6_v153 : st6 (launchContents m c) (Proc.devRef .tc main_v153) = Stage.ends1 (m ((c.tc : Thread nD τ).loc main_arg1)) := by
  unfold st6; rw [ends2_v153, f5_v3, ends1_eq]

theorem f6_v148 : st6 (launchContents m c) (Proc.devRef .tc main_v148) = Stage.emb1 m c := by
  rw [st6_keep _ main_v148 (by decide) (by decide), f5_v148]

theorem f6_v61 : st6 (launchContents m c) (Proc.devRef .tc main_v61) = Stage.emb0 m c := by
  rw [st6_keep _ main_v61 (by decide) (by decide), f5_v61]

/-- The second convolution's neighbourhood sum. -/
theorem f7_v189 : st7 (launchContents m c) (Proc.devRef .tc main_v189) = Stage.agg (Stage.lin (Stage.emb1 m c) (m ((c.tc : Thread nD τ).loc main_arg11))) (m ((c.tc : Thread nD τ).loc main_arg1)) := by
  unfold st7; rw [agg2_v189, f6_v150, f6_v152, f6_v153, agg_eq]

theorem f7_v148 : st7 (launchContents m c) (Proc.devRef .tc main_v148) = Stage.emb1 m c := by
  rw [st7_keep _ main_v148 (by decide), f6_v148]

theorem f7_v61 : st7 (launchContents m c) (Proc.devRef .tc main_v61) = Stage.emb0 m c := by
  rw [st7_keep _ main_v61 (by decide), f6_v61]

/-- The embedding after the second convolution. -/
theorem f8_v235 : st8 (launchContents m c) (Proc.devRef .tc main_v235) = Stage.emb2 m c := by
  unfold st8; rw [cell2_v235, f7_v189, st7_arg _ _ arg12_free, st7_arg _ _ arg4_free, st7_arg _ _ arg19_free, st7_arg _ _ arg20_free, st7_arg _ _ arg21_free, st7_arg _ _ arg22_free]; rfl

theorem f8_v148 : st8 (launchContents m c) (Proc.devRef .tc main_v148) = Stage.emb1 m c := by
  rw [st8_keep _ main_v148 (by decide) (by decide), f7_v148]

theorem f8_v61 : st8 (launchContents m c) (Proc.devRef .tc main_v61) = Stage.emb0 m c := by
  rw [st8_keep _ main_v61 (by decide) (by decide), f7_v61]

/-- The link logits. -/
theorem f9_v260 : st9 (launchContents m c) (Proc.devRef .tc main_v260) = Stage.logits m c := by
  unfold st9; rw [head_v260, f8_v235, st8_arg _ _ arg2_free, st8_arg _ _ arg13_free, st8_arg _ _ arg14_free]; rfl

theorem f9_v235 : st9 (launchContents m c) (Proc.devRef .tc main_v235) = Stage.emb2 m c := by
  rw [st9_keep _ main_v235 (by decide) (by decide), f8_v235]

theorem f9_v148 : st9 (launchContents m c) (Proc.devRef .tc main_v148) = Stage.emb1 m c := by
  rw [st9_keep _ main_v148 (by decide) (by decide), f8_v148]

theorem f9_v61 : st9 (launchContents m c) (Proc.devRef .tc main_v61) = Stage.emb0 m c := by
  rw [st9_keep _ main_v61 (by decide) (by decide), f8_v61]

end Cert.ReferenceIdeal.HandRun

end
-- ==== Proof.RefRun.lean ====
/-
  The reference's run: @main is a straight line of host operations, so every weakly fair execution runs them in order
  and ends with each buffer at the fold of the operations over the launch memory. Read stage by stage — the 0-hop
  embedding, the two convolution layers, the link head — each result is its stage's function of the stage before and
  of the arguments, and no operation writes an argument.
-/
import proofs.«118245_j7395933684286_1_alg».proof.Proof.RefFns
import Idealize.ShloMosaic.Lib.StableHlo.Run
import proofs.«118245_j7395933684286_1_alg».proof.Proof.RefRunS

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    reference's @main terminates with its four results at their stages of the launch memory and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v260) = Stage.logits m c
      ∧ r.2.mem ((c.tc : Thread nD τ).loc main_v61) = Stage.emb0 m c
      ∧ r.2.mem ((c.tc : Thread nD τ).loc main_v148) = Stage.emb1 m c
      ∧ r.2.mem ((c.tc : Thread nD τ).loc main_v235) = Stage.emb2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v260).trans ((congrFun (after_ops_st (launchContents m c)) _).trans (f9_v260 m c)),
      (h c main_v61).trans ((congrFun (after_ops_st (launchContents m c)) _).trans (f9_v61 m c)),
      (h c main_v148).trans ((congrFun (after_ops_st (launchContents m c)) _).trans (f9_v148 m c)),
      (h c main_v235).trans ((congrFun (after_ops_st (launchContents m c)) _).trans (f9_v235 m c)),
      (h c main_arg0).trans ((congrFun (after_ops_st (launchContents m c)) _).trans (st9_arg _ _ arg0_free)),
      (h c main_arg1).trans ((congrFun (after_ops_st (launchContents m c)) _).trans (st9_arg _ _ arg1_free)),
      (h c main_arg2).trans ((congrFun (after_ops_st (launchContents m c)) _).trans (st9_arg _ _ arg2_free)),
      (h c main_arg3).trans ((congrFun (after_ops_st (launchContents m c)) _).trans (st9_arg _ _ arg3_free)),
      (h c main_arg4).trans ((congrFun (after_ops_st (launchContents m c)) _).trans (st9_arg _ _ arg4_free)),
      (h c main_arg5).trans ((congrFun (after_ops_st (launchContents m c)) _).trans (st9_arg _ _ arg5_free)),
      (h c main_arg6).trans ((congrFun (after_ops_st (launchContents m c)) _).trans (st9_arg _ _ arg6_free)),
      (h c main_arg7).trans ((congrFun (after_ops_st (launchContents m c)) _).trans (st9_arg _ _ arg7_free)),
      (h c main_arg8).trans ((congrFun (after_ops_st (launchContents m c)) _).trans (st9_arg _ _ arg8_free)),
      (h c main_arg9).trans ((congrFun (after_ops_st (launchContents m c)) _).trans (st9_arg _ _ arg9_free)),
      (h c main_arg10).trans ((congrFun (after_ops_st (launchContents m c)) _).trans (st9_arg _ _ arg10_free)),
      (h c main_arg11).trans ((congrFun (after_ops_st (launchContents m c)) _).trans (st9_arg _ _ arg11_free)),
      (h c main_arg12).trans ((congrFun (after_ops_st (launchContents m c)) _).trans (st9_arg _ _ arg12_free)),
      (h c main_arg13).trans ((congrFun (after_ops_st (launchContents m c)) _).trans (st9_arg _ _ arg13_free)),
      (h c main_arg14).trans ((congrFun (after_ops_st (launchContents m c)) _).trans (st9_arg _ _ arg14_free)),
      (h c main_arg15).trans ((congrFun (after_ops_st (launchContents m c)) _).trans (st9_arg _ _ arg15_free)),
      (h c main_arg16).trans ((congrFun (after_ops_st (launchContents m c)) _).trans (st9_arg _ _ arg16_free)),
      (h c main_arg17).trans ((congrFun (after_ops_st (launchContents m c)) _).trans (st9_arg _ _ arg17_free)),
      (h c main_arg18).trans ((congrFun (after_ops_st (launchContents m c)) _).trans (st9_arg _ _ arg18_free)),
      (h c main_arg19).trans ((congrFun (after_ops_st (launchContents m c)) _).trans (st9_arg _ _ arg19_free)),
      (h c main_arg20).trans ((congrFun (after_ops_st (launchContents m c)) _).trans (st9_arg _ _ arg20_free)),
      (h c main_arg21).trans ((congrFun (after_ops_st (launchContents m c)) _).trans (st9_arg _ _ arg21_free)),
      (h c main_arg22).trans ((congrFun (after_ops_st (launchContents m c)) _).trans (st9_arg _ _ arg22_free))⟩)
    (run_seq scopedRefs_eq scopedSems_eq defs main (fun _ => ops) main_eq (fun _ => ops_sub) m ρ (fun _ => ops_fresh))

end Cert.ReferenceIdeal.HandRun

end
-- ==== Proof.RefVal.lean ====
/-
  What the reference's stages compute at the extended reals, row by row: the same row functions the kernel's regions
  compute. A host `dot_general` of a row block with a transposed weight is the row's linear map; the outlined
  logistic expansion 1 / (1 + exp (−v)) is the logistic function; a [n] → [1, n] → [N, n] broadcast of a bias reads
  the bias at the column.
-/
import proofs.«118245_j7395933684286_1_alg».proof.Proof.RefFns
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.StageVal

open Cert.ReferenceIdeal Cert.ReferenceIdeal.Gen Idealize.ShloMosaic Idealize.ShloMosaic.ValueIdx Cert.Gnn

/-! ## Layout operations at an index -/

/-- A transposed matrix read at (k, j) is the matrix at (j, k). -/
theorem transpose_eq_tr {a b : Nat} (w : (⟨2, ![a, b]⟩ : Shape).Idx → EReal)
    (h : (⟨2, ![a, b]⟩ : Shape).Transposes [1, 0] (⟨2, ![b, a]⟩ : Shape)) :
    transpose (⟨2, ![b, a]⟩ : Shape) [1, 0] w h = tr w := by
  funext i
  obtain ⟨k, j, rfl⟩ : ∃ (k : Fin b) (j : Fin a), i = ix2 k j := ⟨i 0, i 1, eq_ix2 i⟩
  exact transpose_apply [1, 0] w h (ix2 k j) (ix2 j k) (fun c => match c with
    | ⟨0, _⟩ => rfl
    | ⟨1, _⟩ => rfl)

/-- A rank-zero constant broadcast to [100000, 128] is the constant's value at every index. -/
theorem bconst128_apply (w : BitVec FTy.f32.bits) (i : S100000x128.Idx) :
    broadcastInDim S100000x128 ![] bcast_S_S100000x128 (constant (F := Ideal) S_ .f32 w) i = Ideal.ofBits .f32 w :=
  broadcastInDim_apply _ bcast_S_S100000x128 _ i (fun a => a.elim0) (fun a => a.elim0)

/-- A rank-zero constant broadcast to [100000, 256] is the constant's value at every index. -/
theorem bconst256_apply (w : BitVec FTy.f32.bits) (i : S100000x256.Idx) :
    broadcastInDim S100000x256 ![] bcast_S_S100000x256 (constant (F := Ideal) S_ .f32 w) i = Ideal.ofBits .f32 w :=
  broadcastInDim_apply _ bcast_S_S100000x256 _ i (fun a => a.elim0) (fun a => a.elim0)

/-- A bias [128] → [1, 128] → [100000, 128] at (r, j) is the bias at j. -/
theorem bias128_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = vec b j := by
  refine (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A bias [256] → [1, 256] → [100000, 256] at (r, j) is the bias at j. -/
theorem bias256_apply (b : FVec Ideal S256 .f32) (r : Fin 100000) (j : Fin 256) :
    broadcastInDim S100000x256 ![0, 1] bcast_S1x256_S100000x256_0_1 (broadcastInDim S1x256 ![1] bcast_S256_S1x256_1 b) (ix2 r j)
      = vec b j := by
  refine (broadcastInDim_apply _ bcast_S1x256_S100000x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])).trans ?_
  exact broadcastInDim_apply _ bcast_S256_S1x256_1 b (ix2 (0 : Fin 1) j) (ix1 j) (fun a => match a with
    | ⟨0, _⟩ => by show j.val = if (256 : Nat) = 1 then 0 else j.val; rw [if_neg (by decide)])

/-- A bias [384] → [1, 384] → [100000, 384] at (r, j) is the bias at j. -/
theorem bias384_apply (b : FVec Ideal S384 .f32) (r : Fin 100000) (j : Fin 384) :
    broadcastInDim S100000x384 ![0, 1] bcast_S1x384_S100000x384_0_1 (broadcastInDim S1x384 ![1] bcast_S384_S1x384_1 b) (ix2 r j)
      = vec b j := by
  refine (broadcastInDim_apply _ bcast_S1x384_S100000x384_0_1 _ (ix2 r j) (ix2 (0 : Fin 1) j) (fun a => match a with
    | ⟨0, _⟩ => by show 0 = if (1 : Nat) = 1 then 0 else r.val; rw [if_pos rfl]
    | ⟨1, _⟩ => by show j.val = if (384 : Nat) = 1 then 0 else j.val; rw [if_neg (by decide)])).trans ?_
  exact broadcastInDim_apply _ bcast_S384_S1x384_1 b (ix2 (0 : Fin 1) j) (ix1 j) (fun a => match a with
    | ⟨0, _⟩ => by show j.val = if (384 : Nat) = 1 then 0 else j.val; rw [if_neg (by decide)])

/-- The first third of a [100000, 384] tensor at (r, q) is the tensor at column q. -/
theorem third0_apply (g : FVec Ideal S100000x384 .f32) (r : Fin 100000) (q : Fin 128) :
    Stage.third0 g (ix2 r q) = g (ix2 r ⟨q.val, by have := q.isLt; omega⟩) :=
  extractStridedSlice_apply ![0, 0] g slices_S100000x384_S100000x128_0_0 (ix2 r q) (ix2 r ⟨q.val, by have := q.isLt; omega⟩) (fun a => match a with
    | ⟨0, _⟩ => by show r.val = 0 + r.val; omega
    | ⟨1, _⟩ => by show q.val = 0 + q.val; omega)

/-- The second third at (r, q) is the tensor at column 128 + q. -/
theorem third1_apply (g : FVec Ideal S100000x384 .f32) (r : Fin 100000) (q : Fin 128) :
    Stage.third1 g (ix2 r q) = g (ix2 r ⟨128 + q.val, by have := q.isLt; omega⟩) :=
  extractStridedSlice_apply ![0, 128] g slices_S100000x384_S100000x128_0_128 (ix2 r q) (ix2 r ⟨128 + q.val, by have := q.isLt; omega⟩) (fun a => match a with
    | ⟨0, _⟩ => by show r.val = 0 + r.val; omega
    | ⟨1, _⟩ => by show 128 + q.val = 128 + q.val; omega)

/-- The last third at (r, q) is the tensor at column 256 + q. -/
theorem third2_apply (g : FVec Ideal S100000x384 .f32) (r : Fin 100000) (q : Fin 128) :
    Stage.third2 g (ix2 r q) = g (ix2 r ⟨256 + q.val, by have := q.isLt; omega⟩) :=
  extractStridedSlice_apply ![0, 256] g slices_S100000x384_S100000x128_0_256 (ix2 r q) (ix2 r ⟨256 + q.val, by have := q.isLt; omega⟩) (fun a => match a with
    | ⟨0, _⟩ => by show r.val = 0 + r.val; omega
    | ⟨1, _⟩ => by show 256 + q.val = 256 + q.val; omega)

/-! ## A host product at an index

  For a [n, k] × [k, m] product whose dimension numbers contract the left operand's axis 1 with the right operand's
  axis 0, the element at (r, j) is the sum over the contracted coordinate of the left operand's row r against the
  right operand's column j. The four coordinate facts of the operand indices are taken as hypotheses, so that each
  record of the program supplies its own. -/

theorem dot_apply_of_axes {n k m : Nat}
    (D : DotDims (⟨2, ![n, k]⟩ : Shape) (⟨2, ![k, m]⟩ : Shape) (⟨2, ![n, m]⟩ : Shape))
    (hr : D.contr.rank = 1) (hs : D.contr.size ⟨0, by omega⟩ = k)
    (h0 : ∀ (i : (⟨2, ![n, m]⟩ : Shape).Idx) (q : D.contr.Idx), (D.lhsIdx i q 0).val = (i 0).val)
    (h1 : ∀ (i : (⟨2, ![n, m]⟩ : Shape).Idx) (q : D.contr.Idx), (D.lhsIdx i q 1).val = (q ⟨0, by omega⟩).val)
    (h2 : ∀ (i : (⟨2, ![n, m]⟩ : Shape).Idx) (q : D.contr.Idx), (D.rhsIdx i q 0).val = (q ⟨0, by omega⟩).val)
    (h3 : ∀ (i : (⟨2, ![n, m]⟩ : Shape).Idx) (q : D.contr.Idx), (D.rhsIdx i q 1).val = (i 1).val)
    (l : FVec Ideal (⟨2, ![n, k]⟩ : Shape) .f32) (rr : FVec Ideal (⟨2, ![k, m]⟩ : Shape) .f32) (r : Fin n) (j : Fin m) :
    Host.dotGeneral D none l rr (ix2 r j) = linRow (rowOf l r) (mat rr) j := by
  simp only [Host.dotGeneral]
  rw [Ideal.dotGeneral_apply, ← Equiv.sum_comp (contrEquiv1 D k hr hs).symm]
  refine Finset.sum_congr rfl fun c _ => ?_
  have hc := contrEquiv1_symm_val D k hr hs c
  have el : D.lhsIdx (ix2 r j) ((contrEquiv1 D k hr hs).symm c) = ix2 r c := funext fun a => Fin.ext (by
    match a with
    | ⟨0, _⟩ => exact h0 _ _
    | ⟨1, _⟩ => exact (h1 _ _).trans hc)
  have er : D.rhsIdx (ix2 r j) ((contrEquiv1 D k hr hs).symm c) = ix2 c j := funext fun a => Fin.ext (by
    match a with
    | ⟨0, _⟩ => exact (h2 _ _).trans hc
    | ⟨1, _⟩ => exact h3 _ _)
  rw [el, er]

/-! ### The first preprocessing layer's product: [100000, 128] × [128, 256] -/

theorem lhs1_0 (i : S100000x256.Idx) (q : dot_S100000x128_S128x256_S100000x256_1_0_0_1_n_n.contr.Idx) :
    (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
theorem lhs1_1 (i : S100000x256.Idx) (q : dot_S100000x128_S128x256_S100000x256_1_0_0_1_n_n.contr.Idx) :
    (dot_S100000x128_S128x256_S100000x256_1_0_0_1_n_n.lhsIdx i q 1).val = (q ⟨0, by decide⟩).val :=
  dot_S100000x128_S128x256_S100000x256_1_0_0_1_n_n.lhsIdx_val_of_single rfl i q
theorem rhs1_0 (i : S100000x256.Idx) (q : dot_S100000x128_S128x256_S100000x256_1_0_0_1_n_n.contr.Idx) :
    (dot_S100000x128_S128x256_S100000x256_1_0_0_1_n_n.rhsIdx i q 0).val = (q ⟨0, by decide⟩).val :=
  dot_S100000x128_S128x256_S100000x256_1_0_0_1_n_n.rhsIdx_val_of_single rfl i q
theorem rhs1_1 (i : S100000x256.Idx) (q : dot_S100000x128_S128x256_S100000x256_1_0_0_1_n_n.contr.Idx) :
    (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl

theorem dot1_apply (l : FVec Ideal S100000x128 .f32) (rr : FVec Ideal S128x256 .f32) (r : Fin 100000) (j : Fin 256) :
    Host.dotGeneral dot_S100000x128_S128x256_S100000x256_1_0_0_1_n_n none l rr (ix2 r j) = linRow (rowOf l r) (mat rr) j :=
  dot_apply_of_axes dot_S100000x128_S128x256_S100000x256_1_0_0_1_n_n rfl rfl lhs1_0 lhs1_1 rhs1_0 rhs1_1 l rr r j

/-! ### The second preprocessing layer's product: [100000, 256] × [256, 128] -/

theorem lhs2_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs2_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs2_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs2_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

theorem dot2_apply (l : FVec Ideal S100000x256 .f32) (rr : FVec Ideal S256x128 .f32) (r : Fin 100000) (j : Fin 128) :
    Host.dotGeneral dot_S100000x256_S256x128_S100000x128_1_0_0_1_n_n none l rr (ix2 r j) = linRow (rowOf l r) (mat rr) j :=
  dot_apply_of_axes dot_S100000x256_S256x128_S100000x128_1_0_0_1_n_n rfl rfl lhs2_0 lhs2_1 rhs2_0 rhs2_1 l rr r j

/-! ### The gates' product: [100000, 128] × [128, 384] -/

theorem lhs3_0 (i : S100000x384.Idx) (q : dot_S100000x128_S128x384_S100000x384_1_0_0_1_n_n.contr.Idx) :
    (dot_S100000x128_S128x384_S100000x384_1_0_0_1_n_n.lhsIdx i q 0).val = (i 0).val := by
  unfold DotDims.lhsIdx
  rw [dif_neg (show ¬(0 : Fin S100000x128.rank) ∈ dot_S100000x128_S128x384_S100000x384_1_0_0_1_n_n.lhsBatch by decide), dif_pos (show (0 : Fin S100000x128.rank) ∈ dot_S100000x128_S128x384_S100000x384_1_0_0_1_n_n.lhsNonContracting by decide)]
  rfl
theorem lhs3_1 (i : S100000x384.Idx) (q : dot_S100000x128_S128x384_S100000x384_1_0_0_1_n_n.contr.Idx) :
    (dot_S100000x128_S128x384_S100000x384_1_0_0_1_n_n.lhsIdx i q 1).val = (q ⟨0, by decide⟩).val :=
  dot_S100000x128_S128x384_S100000x384_1_0_0_1_n_n.lhsIdx_val_of_single rfl i q
theorem rhs3_0 (i : S100000x384.Idx) (q : dot_S100000x128_S128x384_S100000x384_1_0_0_1_n_n.contr.Idx) :
    (dot_S100000x128_S128x384_S100000x384_1_0_0_1_n_n.rhsIdx i q 0).val = (q ⟨0, by decide⟩).val :=
  dot_S100000x128_S128x384_S100000x384_1_0_0_1_n_n.rhsIdx_val_of_single rfl i q
theorem rhs3_1 (i : S100000x384.Idx) (q : dot_S100000x128_S128x384_S100000x384_1_0_0_1_n_n.contr.Idx) :
    (dot_S100000x128_S128x384_S100000x384_1_0_0_1_n_n.rhsIdx i q 1).val = (i 1).val := by
  unfold DotDims.rhsIdx
  rw [dif_neg (show ¬(1 : Fin S128x384.rank) ∈ dot_S100000x128_S128x384_S100000x384_1_0_0_1_n_n.rhsBatch by decide), dif_pos (show (1 : Fin S128x384.rank) ∈ dot_S100000x128_S128x384_S100000x384_1_0_0_1_n_n.rhsNonContracting by decide)]
  rfl

theorem dot3_apply (l : FVec Ideal S100000x128 .f32) (rr : FVec Ideal S128x384 .f32) (r : Fin 100000) (j : Fin 384) :
    Host.dotGeneral dot_S100000x128_S128x384_S100000x384_1_0_0_1_n_n none l rr (ix2 r j) = linRow (rowOf l r) (mat rr) j :=
  dot_apply_of_axes dot_S100000x128_S128x384_S100000x384_1_0_0_1_n_n rfl rfl lhs3_0 lhs3_1 rhs3_0 rhs3_1 l rr r j

/-! ### The convolution's product: [100000, 128] × [128, 128] -/

theorem lhs4_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs4_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs4_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs4_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dot4_apply (l : FVec Ideal S100000x128 .f32) (rr : FVec Ideal S128x128 .f32) (r : Fin 100000) (j : Fin 128) :
    Host.dotGeneral dot_S100000x128_S128x128_S100000x128_1_0_0_1_n_n none l rr (ix2 r j) = linRow (rowOf l r) (mat rr) j :=
  dot_apply_of_axes dot_S100000x128_S128x128_S100000x128_1_0_0_1_n_n rfl rfl lhs4_0 lhs4_1 rhs4_0 rhs4_1 l rr r j

/-! ## The pointwise stages at an index -/

/-- The f32 word of one is the real number one. -/
theorem one_eq : Ideal.ofBits .f32 0x3F800000#32 = 1 := by
  simp [Ideal.ofBits, Ideal.ieee, -EReal.coe_mul]; norm_num

/-- The host's hyperbolic tangent at an index. -/
theorem htanh_apply {s : Shape} (x : FVec Ideal s .f32) (i : s.Idx) : Host.tanh x i = Ideal.tanh (x i) := rfl

/-- The leaky rectifier on [100000, 128] at an index is the scalar rectifier of the element. -/
theorem leaky128_apply (v : FVec Ideal S100000x128 .f32) (i : S100000x128.Idx) :
    Stage.leaky128 v i = leaky (v i) := by
  unfold Stage.leaky128 leaky
  rw [select_apply, cmpf_apply, mulf_apply, bconst128_apply, bconst128_apply]
  rfl

/-- The leaky rectifier on [100000, 256] at an index is the scalar rectifier of the element. -/
theorem leaky256_apply (v : FVec Ideal S100000x256 .f32) (i : S100000x256.Idx) :
    Stage.leaky256 v i = leaky (v i) := by
  unfold Stage.leaky256 leaky
  rw [select_apply, cmpf_apply, mulf_apply, bconst256_apply, bconst256_apply]
  rfl

/-- The outlined expansion 1 / (1 + exp (−v)) at an index is the logistic function of the element. -/
theorem sigm_apply (v : FVec Ideal S100000x128 .f32) (i : S100000x128.Idx) :
    Stage.sigm v i = Ideal.logistic (v i) := by
  unfold Stage.sigm
  show Ideal.div (broadcastInDim S100000x128 ![] bcast_S_S100000x128 (constant (F := Ideal) S_ .f32 0x3F800000#32) i)
      (broadcastInDim S100000x128 ![] bcast_S_S100000x128 (constant (F := Ideal) S_ .f32 0x3F800000#32) i + Ideal.exp (-(v i))) = _
  rw [bconst128_apply, one_eq]
  rfl

/-- The gate pre-activations at (r, j): row r through the affine map with the weight transposed. -/
theorem gates_apply (h : FVec Ideal S100000x128 .f32) (w : FVec Ideal S384x128 .f32) (b : FVec Ideal S384 .f32)
    (r : Fin 100000) (j : Fin 384) :
    Stage.gates h w b (ix2 r j) = affRow (rowOf h r) (mat (tr w)) (vec b) j := by
  unfold Stage.gates
  rw [addf_apply, transpose_eq_tr w transposes_S384x128_S128x384_1_0, dot3_apply, bias384_apply]
  rfl

/-- The recurrent cell at (r, q) from the two gate tensors' columns q, 128 + q, 256 + q of row r. -/
theorem cell_apply (gi gh : FVec Ideal S100000x384 .f32) (prev : FVec Ideal S100000x128 .f32) (r : Fin 100000) (q : Fin 128) :
    Stage.cell gi gh prev (ix2 r q)
      = gruCell (gi (ix2 r ⟨q.val, by have := q.isLt; omega⟩)) (gi (ix2 r ⟨128 + q.val, by have := q.isLt; omega⟩))
          (gi (ix2 r ⟨256 + q.val, by have := q.isLt; omega⟩))
          (gh (ix2 r ⟨q.val, by have := q.isLt; omega⟩)) (gh (ix2 r ⟨128 + q.val, by have := q.isLt; omega⟩))
          (gh (ix2 r ⟨256 + q.val, by have := q.isLt; omega⟩)) (prev (ix2 r q)) := by
  unfold Stage.cell gruCell
  simp only [addf_apply, mulf_apply, subf_apply, htanh_apply, sigm_apply, third0_apply, third1_apply, third2_apply]
  rw [show broadcastInDim S100000x128 ![] bcast_S_S100000x128 (Stage.c1 (F := Ideal)) (ix2 r q) = Ideal.ofBits .f32 0x3F800000#32 from
    bconst128_apply _ _]

/-- The recurrent cell on every row at (r, q) is the row cell of rows r, with the weights transposed. -/
theorem gru_apply (h prev : FVec Ideal S100000x128 .f32) (wih whh : FVec Ideal S384x128 .f32) (bih bhh : FVec Ideal S384 .f32)
    (r : Fin 100000) (q : Fin 128) :
    Stage.gru h prev wih whh bih bhh (ix2 r q)
      = gruRow (rowOf h r) (rowOf prev r) (mat (tr wih)) (mat (tr whh)) (vec bih) (vec bhh) q := by
  unfold Stage.gru
  rw [cell_apply]
  simp only [gates_apply]
  rfl

/-- Bias and rectifier at (r, j). -/
theorem biasLeaky_apply (a : FVec Ideal S100000x128 .f32) (b : FVec Ideal S128 .f32) (r : Fin 100000) (j : Fin 128) :
    Stage.biasLeaky a b (ix2 r j) = biasLeakyRow (rowOf a r) (vec b) j := by
  unfold Stage.biasLeaky
  rw [leaky128_apply, addf_apply, bias128_apply]
  rfl

/-- The first preprocessing layer at (r, a). -/
theorem layer1_apply (x : FVec Ideal S100000x128 .f32) (w1 : FVec Ideal S256x128 .f32) (b1 : FVec Ideal S256 .f32)
    (r : Fin 100000) (a : Fin 256) :
    Stage.leaky256 (addf
        (Host.dotGeneral dot_S100000x128_S128x256_S100000x256_1_0_0_1_n_n none x
          (transpose S128x256 [1, 0] w1 transposes_S256x128_S128x256_1_0))
        (broadcastInDim S100000x256 ![0, 1] bcast_S1x256_S100000x256_0_1 (broadcastInDim S1x256 ![1] bcast_S256_S1x256_1 b1))) (ix2 r a)
      = leaky (affRow (rowOf x r) (mat (tr w1)) (vec b1) a) := by
  rw [leaky256_apply, addf_apply, transpose_eq_tr w1 transposes_S256x128_S128x256_1_0, dot1_apply, bias256_apply]
  rfl

/-- Both preprocessing layers at (r, j). -/
theorem pre_apply (x : FVec Ideal S100000x128 .f32) (w1 : FVec Ideal S256x128 .f32) (b1 : FVec Ideal S256 .f32)
    (w2 : FVec Ideal S128x256 .f32) (b2 : FVec Ideal S128 .f32) (r : Fin 100000) (j : Fin 128) :
    Stage.pre x w1 b1 w2 b2 (ix2 r j) = preRow (rowOf x r) (mat (tr w1)) (vec b1) (mat (tr w2)) (vec b2) j := by
  unfold Stage.pre
  rw [leaky128_apply, addf_apply, transpose_eq_tr w2 transposes_S128x256_S256x128_1_0, dot2_apply, bias128_apply]
  have hin : rowOf (Stage.leaky256 (addf
        (Host.dotGeneral dot_S100000x128_S128x256_S100000x256_1_0_0_1_n_n none x
          (transpose S128x256 [1, 0] w1 transposes_S256x128_S128x256_1_0))
        (broadcastInDim S100000x256 ![0, 1] bcast_S1x256_S100000x256_0_1 (broadcastInDim S1x256 ![1] bcast_S256_S1x256_1 b1)))) r
      = fun a => leaky (affRow (rowOf x r) (mat (tr w1)) (vec b1) a) :=
    funext fun a => layer1_apply x w1 b1 r a
  rw [hin]
  rfl

/-- Preprocessing and the recurrent cell on the host are the row-wise `embed0` with the weights transposed. -/
theorem emb0_eq (x prev : FVec Ideal S100000x128 .f32) (w1 : FVec Ideal S256x128 .f32) (b1 : FVec Ideal S256 .f32)
    (w2 : FVec Ideal S128x256 .f32) (b2 : FVec Ideal S128 .f32) (wih whh : FVec Ideal S384x128 .f32) (bih bhh : FVec Ideal S384 .f32) :
    Stage.gru (F := Ideal) (Stage.pre x w1 b1 w2 b2) prev wih whh bih bhh
      = embed0 x prev (tr w1) b1 (tr w2) b2 (tr wih) (tr whh) bih bhh := by
  funext i
  obtain ⟨r, q, rfl⟩ : ∃ (r : Fin 100000) (q : Fin 128), i = ix2 r q := ⟨i 0, i 1, eq_ix2 i⟩
  have hrow : rowOf (Stage.pre x w1 b1 w2 b2) r = preRow (rowOf x r) (mat (tr w1)) (vec b1) (mat (tr w2)) (vec b2) :=
    funext fun j => pre_apply x w1 b1 w2 b2 r j
  refine (gru_apply (Stage.pre x w1 b1 w2 b2) prev wih whh bih bhh r q).trans ?_
  rw [hrow]
  rfl

/-- A convolution's host `dot_general` is the row-wise linear map with the weight transposed. -/
theorem lin_eq (h : FVec Ideal S100000x128 .f32) (w : FVec Ideal S128x128 .f32) :
    Stage.lin (F := Ideal) h w = linear h (tr w) := by
  funext i
  obtain ⟨r, q, rfl⟩ : ∃ (r : Fin 100000) (q : Fin 128), i = ix2 r q := ⟨i 0, i 1, eq_ix2 i⟩
  unfold Stage.lin
  rw [transpose_eq_tr w transposes_S128x128_S128x128_1_0]
  exact dot4_apply h (tr w) r q

/-- Bias, rectifier and recurrent cell on the host are the row-wise `fuse` with the weights transposed. -/
theorem fuse_eq (a : FVec Ideal S100000x128 .f32) (b : FVec Ideal S128 .f32) (prev : FVec Ideal S100000x128 .f32)
    (wih whh : FVec Ideal S384x128 .f32) (bih bhh : FVec Ideal S384 .f32) :
    Stage.gru (F := Ideal) (Stage.biasLeaky a b) prev wih whh bih bhh
      = fuse a b prev (tr wih) (tr whh) bih bhh := by
  funext i
  obtain ⟨r, q, rfl⟩ : ∃ (r : Fin 100000) (q : Fin 128), i = ix2 r q := ⟨i 0, i 1, eq_ix2 i⟩
  have hrow : rowOf (Stage.biasLeaky a b) r = biasLeakyRow (rowOf a r) (vec b) :=
    funext fun j => biasLeaky_apply a b r j
  refine (gru_apply (Stage.biasLeaky a b) prev wih whh bih bhh r q).trans ?_
  rw [hrow]
  rfl

end Cert.ReferenceIdeal.StageVal

end
-- ==== Proof.Bridge.lean ====
/-
  The reference's stages written with the weights as the kernel's host side transposes them: a stage of the reference is
  the row-wise function with each weight transposed, and the host's transpose of a matrix is that transposition.
-/
import proofs.«118245_j7395933684286_1_alg».proof.Proof.RefVal
import proofs.«118245_j7395933684286_1_alg».proof.Proof.Gen.KernelIdeal

set_option maxRecDepth 16384

noncomputable section

namespace Cert.Bridge

open Idealize.ShloMosaic Idealize.ShloMosaic.ValueIdx Cert.Gnn Cert.ReferenceIdeal.StageVal
open Cert.KernelIdeal Cert.KernelIdeal.Gen

/-- Preprocessing and the first recurrent cell. -/
theorem emb0 (x prev : FVec Ideal S100000x128 .f32) (w1 : FVec Ideal S256x128 .f32) (b1 : FVec Ideal S256 .f32)
    (w2 : FVec Ideal S128x256 .f32) (b2 : FVec Ideal S128 .f32) (wih whh : FVec Ideal S384x128 .f32) (bih bhh : FVec Ideal S384 .f32) :
    Cert.ReferenceIdeal.Stage.gru (F := Ideal) (Cert.ReferenceIdeal.Stage.pre x w1 b1 w2 b2) prev wih whh bih bhh
      = embed0 (n := 100000) x prev (transpose S128x256 [1, 0] w1 transposes_S256x128_S128x256_1_0) b1
          (transpose S256x128 [1, 0] w2 transposes_S128x256_S256x128_1_0) b2
          (transpose S128x384 [1, 0] wih transposes_S384x128_S128x384_1_0)
          (transpose S128x384 [1, 0] whh transposes_S384x128_S128x384_1_0) bih bhh := by
  rw [emb0_eq, transpose_eq_tr w1, transpose_eq_tr w2, transpose_eq_tr wih, transpose_eq_tr whh]

/-- A convolution layer with its recurrent cell. -/
theorem conv (h prev : FVec Ideal S100000x128 .f32) (e : IVec S2x600000 32) (w : FVec Ideal S128x128 .f32) (b : FVec Ideal S128 .f32)
    (wih whh : FVec Ideal S384x128 .f32) (bih bhh : FVec Ideal S384 .f32) :
    Cert.ReferenceIdeal.Stage.conv (F := Ideal) h prev e w b wih whh bih bhh
      = fuse (n := 100000) (Cert.ReferenceIdeal.Stage.agg (F := Ideal) (linear (n := 100000) h (transpose S128x128 [1, 0] w transposes_S128x128_S128x128_1_0)) e) b prev
          (transpose S128x384 [1, 0] wih transposes_S384x128_S128x384_1_0)
          (transpose S128x384 [1, 0] whh transposes_S384x128_S128x384_1_0) bih bhh := by
  unfold Cert.ReferenceIdeal.Stage.conv
  rw [fuse_eq, lin_eq, transpose_eq_tr w, transpose_eq_tr wih, transpose_eq_tr whh]

end Cert.Bridge

end
-- ==== Proof.LinkAlg.lean ====
/-
  The link head's algebra. The reference sums the two class logits, each a bilinear form of the end rows plus a bias;
  the kernel takes the bilinear form against the class-summed weight row and adds the class-summed bias. The two agree
  by distributivity of the product over the class sum, which on the extended reals needs the factors to be real: the
  end rows are (a recurrent cell's outputs are real whenever its previous rows are: the logistic function and the
  hyperbolic tangent take real values at every extended real) and the weights are by the precondition.
-/
import proofs.«118245_j7395933684286_1_alg».proof.Proof.RefFns
import proofs.«118245_j7395933684286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn

open Idealize.ShloMosaic Idealize.ShloMosaic.ValueIdx

/-- The f32 word 0x3F800000 is the real number one. -/
theorem one_f32 : Ideal.ofBits .f32 0x3F800000#32 = ((1 : ℝ) : EReal) := by
  simp [Ideal.ofBits, Ideal.ieee, -EReal.coe_mul]; norm_num

/-- The logistic function is real at every extended real: 0 at −∞, 1 at +∞, 1 / (1 + exp (−r)) at a real r. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The hyperbolic tangent is real at every extended real: −1 at −∞, 1 at +∞. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The two link heads agree on real end rows and real weights: the class sum moves inside the bilinear form. -/
theorem lp_law (hs hd : Fin 128 → EReal) (w : Fin 128 → Fin 2 → EReal) (b : Fin 2 → EReal)
    (hhs : ∀ k, ∃ r : ℝ, hs k = (r : EReal)) (hhd : ∀ k, ∃ r : ℝ, hd k = (r : EReal))
    (hw : ∀ k o, ∃ r : ℝ, w k o = (r : EReal)) :
    lpR hs hd w b
      = lpK hs hd (fun k => Ideal.ofBits .f32 0x00000000#32 + ∑ o : Fin 2, w k o)
          (Ideal.ofBits .f32 0x00000000#32 + ∑ o : Fin 2, b o) := by
  unfold lpR lpK
  simp only [Ideal.ofBits_zero_f32, zero_add, Fin.sum_univ_two]
  -- at each feature the product of two real rows distributes over the sum of the two real class weights
  have key : ∀ k, hs k * hd k * (w k 0 + w k 1) = hs k * hd k * w k 0 + hs k * hd k * w k 1 := by
    intro k
    obtain ⟨s, e1⟩ := hhs k
    obtain ⟨d, e2⟩ := hhd k
    obtain ⟨a, e3⟩ := hw k 0
    obtain ⟨c, e4⟩ := hw k 1
    rw [e1, e2, e3, e4, ← EReal.coe_mul, ← EReal.coe_add, ← EReal.coe_mul, ← EReal.coe_mul, ← EReal.coe_mul,
      ← EReal.coe_add, mul_add]
  -- the feature sum splits by class; the biases (any extended reals) only change places in a sum of four
  rw [Finset.sum_congr rfl (fun k _ => key k), Finset.sum_add_distrib]
  exact add_add_add_comm _ _ _ _

/-- A recurrent cell's output is real whenever the previous value is. -/
theorem gruCell_real (ir iz inn hr hz hn prev : EReal) (hp : ∃ r : ℝ, prev = (r : EReal)) :
    ∃ r : ℝ, gruCell ir iz inn hr hz hn prev = (r : EReal) := by
  obtain ⟨p, rfl⟩ := hp
  obtain ⟨z, ez⟩ := logistic_real (iz + hz)
  obtain ⟨t, et⟩ := tanh_real (inn + Ideal.logistic (ir + hr) * hn)
  -- (1 − z) · t + z · p with the update gate z, the candidate t and the previous value p all real
  refine ⟨(1 - z) * t + z * p, ?_⟩
  unfold gruCell
  rw [ez, et, one_f32, ← EReal.coe_sub, ← EReal.coe_mul, ← EReal.coe_mul, ← EReal.coe_add]

/-- So a recurrent cell's output row is real whenever the previous row is. -/
theorem gruRow_real (h prev : Fin 128 → EReal) (wih whh : Fin 128 → Fin 384 → EReal) (bih bhh : Fin 384 → EReal)
    (hp : ∀ k, ∃ r : ℝ, prev k = (r : EReal)) (j : Fin 128) :
    ∃ r : ℝ, gruRow h prev wih whh bih bhh j = (r : EReal) :=
  gruCell_real _ _ _ _ _ _ _ (hp j)

end Cert.Gnn

namespace Cert.ReferenceIdeal.StageVal

open Cert.ReferenceIdeal Cert.ReferenceIdeal.Gen Idealize.ShloMosaic Idealize.ShloMosaic.ValueIdx Cert.Gnn

/-- The head's product: a [200000, 128] array against a [128, 2] one, contracting the 128 features. -/
abbrev DH := dot_S200000x128_S128x2_S200000x2_1_0_0_1_n_n

/-- The left operand is read at the result's link and the contracted feature; the right operand at the contracted
    feature and the result's class. -/
theorem lhs_0 (i : S200000x2.Idx) (q : DH.contr.Idx) : (DH.lhsIdx i q 0).val = (i 0).val := by
  unfold DotDims.lhsIdx
  rw [dif_neg (show ¬(0 : Fin S200000x128.rank) ∈ DH.lhsBatch by decide), dif_pos (show (0 : Fin S200000x128.rank) ∈ DH.lhsNonContracting by decide)]
  rfl
theorem lhs_1 (i : S200000x2.Idx) (q : DH.contr.Idx) : (DH.lhsIdx i q 1).val = (q ⟨0, by decide⟩).val :=
  DH.lhsIdx_val_of_single rfl i q
theorem rhs_0 (i : S200000x2.Idx) (q : DH.contr.Idx) : (DH.rhsIdx i q 0).val = (q ⟨0, by decide⟩).val :=
  DH.rhsIdx_val_of_single rfl i q
theorem rhs_1 (i : S200000x2.Idx) (q : DH.contr.Idx) : (DH.rhsIdx i q 1).val = (i 1).val := by
  unfold DotDims.rhsIdx
  rw [dif_neg (show ¬(1 : Fin S128x2.rank) ∈ DH.rhsBatch by decide), dif_pos (show (1 : Fin S128x2.rank) ∈ DH.rhsNonContracting by decide)]
  rfl

/-- The two-class product at link e and class o: the sum over the 128 features of row e against column o. -/
theorem dot_apply (x : FVec Ideal S200000x128 .f32) (y : FVec Ideal S128x2 .f32) (e : Fin 200000) (o : Fin 2) :
    Host.dotGeneral DH none x y (ix2 e o) = ∑ k : Fin 128, x (ix2 e k) * y (ix2 k o) := by
  simp only [Host.dotGeneral]
  rw [Ideal.dotGeneral_apply, ← Equiv.sum_comp (contrEquiv1 DH 128 rfl rfl).symm]
  refine Finset.sum_congr rfl fun k _ => ?_
  have hk := contrEquiv1_symm_val DH 128 rfl rfl k
  have el : DH.lhsIdx (ix2 e o) ((contrEquiv1 DH 128 rfl rfl).symm k) = ix2 e k := funext fun a => Fin.ext (by
    match a with
    | ⟨0, _⟩ => exact lhs_0 _ _
    | ⟨1, _⟩ => exact (lhs_1 _ _).trans hk)
  have er : DH.rhsIdx (ix2 e o) ((contrEquiv1 DH 128 rfl rfl).symm k) = ix2 k o := funext fun a => Fin.ext (by
    match a with
    | ⟨0, _⟩ => exact (rhs_0 _ _).trans hk
    | ⟨1, _⟩ => exact rhs_1 _ _)
  rw [el, er]

/-- The transposed weight at (k, o) is the weight at (o, k). -/
theorem tr_apply (w : FVec Ideal S2x128 .f32) (k : Fin 128) (o : Fin 2) :
    transpose S128x2 [1, 0] w transposes_S2x128_S128x2_1_0 (ix2 k o) = tr w (ix2 k o) :=
  (transpose_apply [1, 0] w transposes_S2x128_S128x2_1_0 (ix2 k o) (ix2 o k) (fun b => match b with
    | ⟨0, _⟩ => rfl
    | ⟨1, _⟩ => rfl)).trans rfl

/-- The bias broadcast over the links at (e, o) is the bias at o. -/
theorem bias_apply (b : FVec Ideal S2 .f32) (e : Fin 200000) (o : Fin 2) :
    broadcastInDim S200000x2 ![0, 1] bcast_S1x2_S200000x2_0_1 (broadcastInDim S1x2 ![1] bcast_S2_S1x2_1 b) (ix2 e o) = b (ix1 o) := by
  refine (broadcastInDim_apply _ bcast_S1x2_S200000x2_0_1 _ (ix2 e o) (ix2 (0 : Fin 1) o) (fun a => match a with
    | ⟨0, _⟩ => by show 0 = if (1 : Nat) = 1 then 0 else e.val; rw [if_pos rfl]
    | ⟨1, _⟩ => by show o.val = if (2 : Nat) = 1 then 0 else o.val; rw [if_neg (by decide)])).trans ?_
  exact broadcastInDim_apply _ bcast_S2_S1x2_1 b (ix2 (0 : Fin 1) o) (ix1 o) (fun a => match a with
    | ⟨0, _⟩ => by show o.val = if (2 : Nat) = 1 then 0 else o.val; rw [if_neg (by decide)])

/-- Summing a [200000, 2] array over its second axis leaves a [200000] array. -/
theorem red_h : S200000x2.Reduces [1] S200000 := by decide

/-- The reference's link head at a link: both class logits of the end rows, summed from zero. -/
theorem head_apply (hs hd : FVec Ideal S200000x128 .f32) (w : FVec Ideal S2x128 .f32) (b : FVec Ideal S2 .f32) (e : Fin 200000) :
    Stage.head (F := Ideal) hs hd w b (ix1 e) = lpR (rowOf hs e) (rowOf hd e) (mat (tr w)) (vec b) := by
  -- the class sum from zero: the initial value plus the sum over the two classes of the array at (e, o)
  unfold Stage.head
  simp only [Host.reduceAdd, Ideal.hostReduceAdd_def]
  rw [Ideal.hostReduceAdd_single reducesTo_S200000x2_S200000_d1 red_h]
  unfold lpR
  refine congrArg₂ (· + ·) rfl (Finset.sum_congr rfl fun (o : Fin 2) _ => ?_)
  have hi : red_h.lift (ix1 e) o = ix2 e o :=
    funext fun a => Fin.ext (by match a with | ⟨0, _⟩ => rfl | ⟨1, _⟩ => rfl)
  -- at (e, o): the feature sum of the ends' product against the transposed weight, plus the bias at o
  rw [hi, addf_apply, dot_apply, bias_apply]
  refine congrArg₂ (· + ·) (Finset.sum_congr rfl fun k _ => ?_) rfl
  rw [tr_apply]
  rfl

end Cert.ReferenceIdeal.StageVal

end
-- ==== Proof.LinkFinal.lean ====
/-
  The link logits: the reference's head on the gathered end rows against the kernel's, which takes the bilinear form
  against the weight summed over the two classes on the host and adds the bias summed over the two classes, then flattens
  the column. The end rows are entries of the embedding (a gather reads an entry of its operand at every index), so
  they are real when the embedding is, and the two heads then agree by the link head's algebra.
-/
import proofs.«118245_j7395933684286_1_alg».proof.Proof.LinkAlg
import proofs.«118245_j7395933684286_1_alg».proof.Proof.Gen.KernelIdeal
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.LinkFinal

open Idealize.ShloMosaic Idealize.ShloMosaic.ValueIdx Cert.Gnn
open Cert.KernelIdeal Cert.KernelIdeal.Gen

/-- Summing a [2, 128] array over its class axis leaves a [128] array. -/
theorem red_w : S2x128.Reduces [0] S128 := by decide

/-- The class-summed weight at feature k: zero plus the two classes' weights at k. -/
theorem wsum_apply (w : FVec Ideal S2x128 .f32) (k : Fin 128) :
    Host.reduceAdd w (constant S_ .f32 0x00000000#32) reducesTo_S2x128_S128_d0 h_S_ (ix1 k)
      = Ideal.ofBits .f32 0x00000000#32 + ∑ o : Fin 2, w (ix2 o k) := by
  simp only [Host.reduceAdd, Ideal.hostReduceAdd_def]
  rw [Ideal.hostReduceAdd_single reducesTo_S2x128_S128_d0 red_w]
  refine congrArg₂ (· + ·) rfl (Finset.sum_congr rfl fun (o : Fin 2) _ => ?_)
  -- the index of the [2, 128] array with class o put back in front of feature k
  have hi : red_w.lift (ix1 k) o = ix2 o k :=
    funext fun a => Fin.ext (by match a with | ⟨0, _⟩ => rfl | ⟨1, _⟩ => rfl)
  rw [hi]

/-- The class-summed bias at its one index: zero plus the two classes' biases. Every index of the [2] array reduces to
    the one index of the rank-zero result, so the sum runs over all of them, re-indexed by the class. -/
theorem bsum_apply (b : FVec Ideal S2 .f32) :
    Host.reduceAdd b (constant S_ .f32 0x00000000#32) reducesTo_S2_S_d0 h_S_ ix0
      = Ideal.ofBits .f32 0x00000000#32 + ∑ o : Fin 2, b (ix1 o) := by
  simp only [Host.reduceAdd, Ideal.hostReduceAdd_def]
  unfold Ideal.hostReduceAdd
  refine congrArg₂ (· + ·) rfl ?_
  rw [Finset.filter_true_of_mem fun i _ => (eq_ix0 _).trans (eq_ix0 _).symm]
  exact (Equiv.sum_comp (idxEquiv1 (n := 2)).symm b).symm

/-- A [200000, 1] column flattened reads, at link e, the column at (e, 0). -/
theorem col_apply (X : S200000x1.Idx → EReal) (e : Fin 200000) :
    shapeCast S200000 X shapeCasts_S200000x1_S200000 (ix1 e) = X (ix2 e 0) :=
  shapeCast_apply X shapeCasts_S200000x1_S200000 (ix1 e) (ix2 e 0) (by
    rw [Shape.rowMajor_val_two, Shape.rowMajor_val_one]
    show e.val * 1 + 0 = e.val
    omega)

/-- A rank-zero value cast to [1, 1] reads the value at its one index. -/
theorem unit_apply (y : S_.Idx → EReal) : shapeCast S1x1 y shapeCasts_S_S1x1 (ix2 0 0) = y ix0 := by
  unfold shapeCast
  exact congrArg y (eq_ix0 _)

/-- On an embedding and a head weight whose entries are all real, the reference's link head on the gathered end rows is
    the kernel's flattened column: its bilinear form against the class-summed weight plus the class-summed bias. -/
theorem logits_eq (E : FVec Ideal S100000x128 .f32) (el : IVec S2x200000 32) (w : FVec Ideal S2x128 .f32) (b : FVec Ideal S2 .f32)
    (hE : ∀ i, ∃ r : ℝ, E i = (r : EReal)) (hw : ∀ i, ∃ r : ℝ, w i = (r : EReal)) :
    Cert.ReferenceIdeal.Stage.head (F := Ideal) (Cert.ReferenceIdeal.Stage.endRows0 E el) (Cert.ReferenceIdeal.Stage.endRows1 E el) w b
      = shapeCast S200000
          (linkK (n := 200000) (Cert.ReferenceIdeal.Stage.endRows0 (F := Ideal) E el) (Cert.ReferenceIdeal.Stage.endRows1 (F := Ideal) E el)
            (Host.reduceAdd w (constant S_ .f32 0x00000000#32) reducesTo_S2x128_S128_d0 h_S_)
            (shapeCast S1x1 (Host.reduceAdd b (constant S_ .f32 0x00000000#32) reducesTo_S2_S_d0 h_S_) shapeCasts_S_S1x1))
          shapeCasts_S200000x1_S200000 := by
  funext i
  obtain ⟨e, rfl⟩ : ∃ e : Fin 200000, i = ix1 e := ⟨i 0, eq_ix1 i⟩
  -- the reference's head at link e, then the class sum moved inside the bilinear form (the end rows are entries of the
  -- embedding and the transposed weight's entries are entries of the weight, all real)
  rw [Cert.ReferenceIdeal.StageVal.head_apply]
  refine (lp_law (rowOf (Cert.ReferenceIdeal.Stage.endRows0 (F := Ideal) E el) e) (rowOf (Cert.ReferenceIdeal.Stage.endRows1 (F := Ideal) E el) e)
    (mat (tr w)) (vec b) (fun k => hE _) (fun k => hE _) (fun k o => hw _)).trans ?_
  -- the kernel's flattened column at link e is its head at (e, 0), with the bias read at its one index
  refine Eq.trans ?_ (col_apply _ e).symm
  show lpK _ _ _ _ = lpK (rowOf (Cert.ReferenceIdeal.Stage.endRows0 (F := Ideal) E el) e) (rowOf (Cert.ReferenceIdeal.Stage.endRows1 (F := Ideal) E el) e)
    (vec (Host.reduceAdd w (constant S_ .f32 0x00000000#32) reducesTo_S2x128_S128_d0 h_S_))
    (shapeCast S1x1 (Host.reduceAdd b (constant S_ .f32 0x00000000#32) reducesTo_S2_S_d0 h_S_) shapeCasts_S_S1x1 (ix2 0 0))
  rw [unit_apply, bsum_apply]
  -- the same bias; the weight rows agree feature by feature
  refine congrArg (fun F => lpK _ _ F _) (funext fun k => ?_)
  exact (wsum_apply w k).symm

end Cert.LinkFinal

end
-- ==== Proof.PreFinite.lean ====
/-
  What the precondition says of the two arguments the link head's algebra needs real: every entry of the second
  previous embedding and of the head's weight is a real number (finite: neither infinity).
-/
import proofs.«118245_j7395933684286_1_alg».proof.Defs
import proofs.«118245_j7395933684286_1_alg».proof.Proof.Gen.KernelIdeal
import proofs.«118245_j7395933684286_1_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.PreFinite

open Idealize.ShloMosaic Idealize.ShloMosaic.TcCoe Idealize.SL.Sem Cert.KernelIdeal

/-- A tensor of rank zero has exactly one index. -/
instance : Subsingleton (Cert.Pre_finite_inputs.S_).Idx := ⟨fun a b => funext fun d => d.elim0⟩

/-- The single-precision word of +∞ denotes the top extended real. -/
theorem ofBits_inf : Ideal.ofBits .f32 0x7F800000#32 = (⊤ : EReal) := by simp [Ideal.ofBits, Ideal.ieee]

/-- An extended real whose absolute value max x (−x) lies strictly below +∞ is a real number: at either infinity
    the absolute value is +∞ itself, and the strict comparison fails. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the predicate, for an array x of any shape: if the conjunction over all entries of |x| < +∞ is 1,
    every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1) (i : s.Idx) :
    ∃ r : ℝ, x i = (r : EReal) :=
  real_of_abs_lt_top (x i) (Host.reduce_andi_all _ _ hr hu ValueIdx.ix0 e i)

/-- A conjunction of two one-bit words that is 1 has its left word 1 … -/
theorem andL {c d : BitVec 1} (h : IntOp.andi c d = 1#1) : c = 1#1 := (IntOp.andi_eq_one.1 h).1
/-- … and its right word 1. -/
theorem andR {c d : BitVec 1} (h : IntOp.andi c d = 1#1) : d = 1#1 := (IntOp.andi_eq_one.1 h).2

/-- Under the precondition every entry of the second previous embedding (argument 4) is real. -/
theorem arg4_real (m : (ℓ : Loc nD τ sig) → Buf (Elt Ideal) ℓ)
    (h : Cert.Pre_KernelIdeal (hPre_finite_inputs := Cert.Pre_finite_inputs.Gen.facts) m) (c : Dev nD) (i : S100000x128.Idx) :
    ∃ r : ℝ, (m ((c.tc : Thread nD τ).loc main_arg4) : S100000x128.Idx → EReal) i = (r : EReal) := by
  have h0 := congrFun (h c) ValueIdx.ix0
  replace h0 : _ = 1#1 := h0
  -- the predicate is a left-nested conjunction, one conjunct per float argument in order; the conjunct of
  -- argument 4 is the third, the right word of the conjunction reached after dropping the eighteen later ones
  have h13 := andL (andL (andL (andL (andL (andL (andL (andL (andL (andL (andL (andL (andL (andL (andL (andL (andL (andL h0)))))))))))))))))
  exact all_real _ _ _ _ (andR h13) i

/-- Under the precondition every entry of the link head's weight (argument 13) is real. -/
theorem arg13_real (m : (ℓ : Loc nD τ sig) → Buf (Elt Ideal) ℓ)
    (h : Cert.Pre_KernelIdeal (hPre_finite_inputs := Cert.Pre_finite_inputs.Gen.facts) m) (c : Dev nD) (i : S2x128.Idx) :
    ∃ r : ℝ, (m ((c.tc : Thread nD τ).loc main_arg13) : S2x128.Idx → EReal) i = (r : EReal) := by
  have h0 := congrFun (h c) ValueIdx.ix0
  replace h0 : _ = 1#1 := h0
  -- the conjunct of argument 13 is the twelfth: the right word of the conjunction reached after dropping the nine later ones
  have h58 := andL (andL (andL (andL (andL (andL (andL (andL (andL h0))))))))
  exact all_real _ _ _ _ (andR h58) i

end Cert.PreFinite

end
-- ==== Proof.lean ====
/-
  The certificate. Both programs compute a two-layer graph network on the extended reals: every node's features go
  through two rectified affine layers and a gated recurrent cell against the node's previous embedding; each
  convolution is a linear map of every row, the normalised neighbourhood sum, a bias, the rectifier and the recurrent
  cell again; a link's logit is the two-class head of the product of its ends' rows, the classes summed.
  The kernel takes the row-wise stages in six pallas_calls, each over blocks of 2000 rows that tile the arrays, so each
  region's output array is the stage's row function of its input arrays; the neighbourhood sums and the gathers of the
  link ends are the same host operations in both programs. The reference expands the logistic function as
  1 / (1 + exp (−v)), which on the extended reals is the logistic function itself, and multiplies by the transposed
  weights the kernel's host side transposes once. The one law that is not a re-reading is the link head's: the kernel
  sums the head's weight and bias over the two classes first, and the product distributes over that sum because every
  factor is real — the embedding after the second recurrent cell is (the logistic function and the hyperbolic tangent
  take real values everywhere and the previous embedding is finite by the precondition), and so is the weight.
  The frames of the two kernel programs are the generated frame certificates; the reference's is its run with the
  results dropped; the idealization rewrote nothing, so there is nothing to preserve.
-/
import proofs.«118245_j7395933684286_1_alg».proof.Defs
import proofs.«118245_j7395933684286_1_alg».proof.Proof.Gen.Kernel
import proofs.«118245_j7395933684286_1_alg».proof.Proof.Gen.Kernel.Frame
import proofs.«118245_j7395933684286_1_alg».proof.Proof.Gen.KernelIdeal
import proofs.«118245_j7395933684286_1_alg».proof.Proof.Gen.KernelIdeal.Frame
import proofs.«118245_j7395933684286_1_alg».proof.Proof.Gen.ReferenceIdeal
import proofs.«118245_j7395933684286_1_alg».proof.Proof.Gen.Pre_finite_inputs
import proofs.«118245_j7395933684286_1_alg».proof.Proof.RunValues
import proofs.«118245_j7395933684286_1_alg».proof.Proof.KChain
import proofs.«118245_j7395933684286_1_alg».proof.Proof.KEmb0
import proofs.«118245_j7395933684286_1_alg».proof.Proof.KLin1
import proofs.«118245_j7395933684286_1_alg».proof.Proof.KFuse2
import proofs.«118245_j7395933684286_1_alg».proof.Proof.KLin3
import proofs.«118245_j7395933684286_1_alg».proof.Proof.KFuse4
import proofs.«118245_j7395933684286_1_alg».proof.Proof.KLink5
import proofs.«118245_j7395933684286_1_alg».proof.Proof.RefRun
import proofs.«118245_j7395933684286_1_alg».proof.Proof.Bridge
import proofs.«118245_j7395933684286_1_alg».proof.Proof.LinkFinal
import proofs.«118245_j7395933684286_1_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Gnn

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.HandRun.run (F := Ideal) m ρ)

/-- Every entry of the embedding after the second recurrent cell is real: the cell's output is real whenever the
    previous embedding's row is, and that is finite by the precondition. -/
theorem emb2_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (i : Cert.KernelIdeal.S100000x128.Idx) :
    ∃ r : ℝ, Cert.KernelIdeal.Chain.kEmb2 m c i = (r : EReal) :=
  gruRow_real _ _ _ _ _ _ (fun k => Cert.PreFinite.arg4_real m hpre c _) _

/-- At the extended reals the two programs, run from memories agreeing on the arguments, end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Chain.kLogits m c, fun c => Cert.KernelIdeal.Chain.kEmb0 m c, fun c => Cert.KernelIdeal.Chain.kEmb1 m c, fun c => Cert.KernelIdeal.Chain.kEmb2 m c, ?_, ?_⟩
  · -- the kernel: every buffer ends at the fold through @main's segments, read at the four results and the arguments
    refine (θ_run Cert.KernelIdeal.defs _ _).mono (fun r h c => ?_) (Cert.KernelIdeal.Gen.run_values m ρ)
    exact ⟨(h c Cert.KernelIdeal.main_v91 (by decide)).trans (Cert.KernelIdeal.Chain.res_logits m ρ c Cert.KernelIdeal.Emb0.final Cert.KernelIdeal.Lin1.final Cert.KernelIdeal.Fuse2.final Cert.KernelIdeal.Lin3.final Cert.KernelIdeal.Fuse4.final Cert.KernelIdeal.Link5.final),
      (h c Cert.KernelIdeal.main_v41 (by decide)).trans (Cert.KernelIdeal.Chain.res_emb0 m ρ c Cert.KernelIdeal.Emb0.final Cert.KernelIdeal.Lin1.final Cert.KernelIdeal.Fuse2.final Cert.KernelIdeal.Lin3.final Cert.KernelIdeal.Fuse4.final Cert.KernelIdeal.Link5.final),
      (h c Cert.KernelIdeal.main_v56 (by decide)).trans (Cert.KernelIdeal.Chain.res_emb1 m ρ c Cert.KernelIdeal.Emb0.final Cert.KernelIdeal.Lin1.final Cert.KernelIdeal.Fuse2.final Cert.KernelIdeal.Lin3.final Cert.KernelIdeal.Fuse4.final Cert.KernelIdeal.Link5.final),
      (h c Cert.KernelIdeal.main_v71 (by decide)).trans (Cert.KernelIdeal.Chain.res_emb2 m ρ c Cert.KernelIdeal.Emb0.final Cert.KernelIdeal.Lin1.final Cert.KernelIdeal.Fuse2.final Cert.KernelIdeal.Lin3.final Cert.KernelIdeal.Fuse4.final Cert.KernelIdeal.Link5.final),
      (h c Cert.KernelIdeal.main_arg0 (by decide)).trans (Cert.KernelIdeal.Gen.W13_main_arg0 m ρ c),
      (h c Cert.KernelIdeal.main_arg1 (by decide)).trans (Cert.KernelIdeal.Gen.W13_main_arg1 m ρ c),
      (h c Cert.KernelIdeal.main_arg2 (by decide)).trans (Cert.KernelIdeal.Gen.W13_main_arg2 m ρ c),
      (h c Cert.KernelIdeal.main_arg3 (by decide)).trans (Cert.KernelIdeal.Gen.W13_main_arg3 m ρ c),
      (h c Cert.KernelIdeal.main_arg4 (by decide)).trans (Cert.KernelIdeal.Gen.W13_main_arg4 m ρ c),
      (h c Cert.KernelIdeal.main_arg5 (by decide)).trans (Cert.KernelIdeal.Gen.W13_main_arg5 m ρ c),
      (h c Cert.KernelIdeal.main_arg6 (by decide)).trans (Cert.KernelIdeal.Gen.W13_main_arg6 m ρ c),
      (h c Cert.KernelIdeal.main_arg7 (by decide)).trans (Cert.KernelIdeal.Gen.W13_main_arg7 m ρ c),
      (h c Cert.KernelIdeal.main_arg8 (by decide)).trans (Cert.KernelIdeal.Gen.W13_main_arg8 m ρ c),
      (h c Cert.KernelIdeal.main_arg9 (by decide)).trans (Cert.KernelIdeal.Gen.W13_main_arg9 m ρ c),
      (h c Cert.KernelIdeal.main_arg10 (by decide)).trans (Cert.KernelIdeal.Gen.W13_main_arg10 m ρ c),
      (h c Cert.KernelIdeal.main_arg11 (by decide)).trans (Cert.KernelIdeal.Gen.W13_main_arg11 m ρ c),
      (h c Cert.KernelIdeal.main_arg12 (by decide)).trans (Cert.KernelIdeal.Gen.W13_main_arg12 m ρ c),
      (h c Cert.KernelIdeal.main_arg13 (by decide)).trans (Cert.KernelIdeal.Gen.W13_main_arg13 m ρ c),
      (h c Cert.KernelIdeal.main_arg14 (by decide)).trans (Cert.KernelIdeal.Gen.W13_main_arg14 m ρ c),
      (h c Cert.KernelIdeal.main_arg15 (by decide)).trans (Cert.KernelIdeal.Gen.W13_main_arg15 m ρ c),
      (h c Cert.KernelIdeal.main_arg16 (by decide)).trans (Cert.KernelIdeal.Gen.W13_main_arg16 m ρ c),
      (h c Cert.KernelIdeal.main_arg17 (by decide)).trans (Cert.KernelIdeal.Gen.W13_main_arg17 m ρ c),
      (h c Cert.KernelIdeal.main_arg18 (by decide)).trans (Cert.KernelIdeal.Gen.W13_main_arg18 m ρ c),
      (h c Cert.KernelIdeal.main_arg19 (by decide)).trans (Cert.KernelIdeal.Gen.W13_main_arg19 m ρ c),
      (h c Cert.KernelIdeal.main_arg20 (by decide)).trans (Cert.KernelIdeal.Gen.W13_main_arg20 m ρ c),
      (h c Cert.KernelIdeal.main_arg21 (by decide)).trans (Cert.KernelIdeal.Gen.W13_main_arg21 m ρ c),
      (h c Cert.KernelIdeal.main_arg22 (by decide)).trans (Cert.KernelIdeal.Gen.W13_main_arg22 m ρ c)⟩
  · -- the reference: its four stages of its own launch memory, which agrees with the kernel's on the arguments
    refine (θ_run Cert.ReferenceIdeal.defs _ _).mono (fun r h c => ?_) (Cert.ReferenceIdeal.HandRun.run (F := Ideal) m' ρ')
    obtain ⟨a0, a1, a2, a3, a4, a5, a6, a7, a8, a9, a10, a11, a12, a13, a14, a15, a16, a17, a18, a19, a20, a21, a22⟩ := hagree c
    have e0 : Cert.ReferenceIdeal.Stage.emb0 (F := Ideal) m' c = Cert.KernelIdeal.Chain.kEmb0 m c := by
      unfold Cert.ReferenceIdeal.Stage.emb0
      rw [a0, a3, a5, a6, a7, a8, a15, a16, a17, a18]
      exact Cert.Bridge.emb0 _ _ _ _ _ _ _ _ _ _
    have e1 : Cert.ReferenceIdeal.Stage.emb1 (F := Ideal) m' c = Cert.KernelIdeal.Chain.kEmb1 m c := by
      unfold Cert.ReferenceIdeal.Stage.emb1
      rw [e0, a1, a3, a9, a10, a15, a16, a17, a18]
      exact Cert.Bridge.conv _ _ _ _ _ _ _ _ _
    have e2 : Cert.ReferenceIdeal.Stage.emb2 (F := Ideal) m' c = Cert.KernelIdeal.Chain.kEmb2 m c := by
      unfold Cert.ReferenceIdeal.Stage.emb2
      rw [e1, a1, a4, a11, a12, a19, a20, a21, a22]
      exact Cert.Bridge.conv _ _ _ _ _ _ _ _ _
    have e3 : Cert.ReferenceIdeal.Stage.logits (F := Ideal) m' c = Cert.KernelIdeal.Chain.kLogits m c := by
      unfold Cert.ReferenceIdeal.Stage.logits
      rw [e2, a2, a13, a14]
      exact Cert.LinkFinal.logits_eq _ _ _ _ (emb2_real m hpre c) (Cert.PreFinite.arg13_real m hpre c)
    obtain ⟨h0, h1, h2, h3, hargs⟩ := h c
    exact ⟨h0.trans e3, h1.trans e0, h2.trans e1, h3.trans e2, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
